-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S2048x1024 : Shape := ⟨2, ![2048, 1024]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x1024 .f32) (main_arg1 : FVec F S2048x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S512x4096 : Shape := ⟨2, ![512, 4096]⟩
abbrev S256x1024 : Shape := ⟨2, ![256, 1024]⟩
abbrev S4 : Shape := ⟨1, ![4]⟩
abbrev S_ : Shape := ⟨0, ![]⟩
abbrev S1024x256 : Shape := ⟨2, ![1024, 256]⟩
abbrev S1 : Shape := ⟨1, ![1]⟩
abbrev S1024x512 : Shape := ⟨2, ![1024, 512]⟩
abbrev S512x1024 : Shape := ⟨2, ![512, 1024]⟩

abbrev nBuf : Space → Nat
  | .hbm => 3
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let c0 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32 : BitVec 32 := 512#32
  let v24 : BitVec 32 := Scalar.muli v9 c512_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v25 : BitVec 32 := Scalar.muli v5 c256_i32
  let v26 : BitVec 32 := Scalar.addi v24 v25
  let v27 : Index := Scalar.indexCast v26
  ![0, v27.toNat]
def k0_dev3 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v39 : BitVec 32 := Scalar.muli v9 c8_i32_20
  let v40 : BitVec 32 := Scalar.addi c0_i32_21 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v41 : BitVec 32 := Scalar.muli v5 c4_i32_22
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.muli v8 c1_i32_23
  let v44 : BitVec 32 := Scalar.addi v42 v43
  v44.toNat
def k0_dev4 (d0 : Dev nD) : Nat :=
  let c0_i32_32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_31 : BitVec 32 := 8#32
  let v61 : BitVec 32 := Scalar.muli v9 c8_i32_31
  let v62 : BitVec 32 := Scalar.addi c0_i32_32 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v63 : BitVec 32 := Scalar.muli v5 c4_i32_33
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v65 : BitVec 32 := Scalar.muli v8 c1_i32_34
  let v66 : BitVec 32 := Scalar.addi v64 v65
  v66.toNat
def k0_dev5 (d0 : Dev nD) : Nat :=
  let c0_i32_43 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_42 : BitVec 32 := 8#32
  let v83 : BitVec 32 := Scalar.muli v9 c8_i32_42
  let v84 : BitVec 32 := Scalar.addi c0_i32_43 v83
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v85 : BitVec 32 := Scalar.muli v5 c4_i32_44
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v87 : BitVec 32 := Scalar.muli v8 c1_i32_45
  let v88 : BitVec 32 := Scalar.addi v86 v87
  v88.toNat
def k0_dev6 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v105 : BitVec 32 := Scalar.muli v9 c8_i32_52
  let v106 : BitVec 32 := Scalar.addi c0_i32_53 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v107 : BitVec 32 := Scalar.muli v5 c4_i32_54
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v109 : BitVec 32 := Scalar.muli v8 c1_i32_55
  let v110 : BitVec 32 := Scalar.addi v108 v109
  v110.toNat
def k0_dev7 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v123 : BitVec 32 := Scalar.muli v2 c8_i32_64
  let v124 : BitVec 32 := Scalar.addi c0_i32_65 v123
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_66 : BitVec 32 := 4#32
  let v125 : BitVec 32 := Scalar.muli v10 c4_i32_66
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v127 : BitVec 32 := Scalar.muli v8 c1_i32_67
  let v128 : BitVec 32 := Scalar.addi v126 v127
  v128.toNat
def k0_off2 (d0 : Dev nD) : Fin 2 → Nat :=
  let c0_69 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_68 : BitVec 32 := 512#32
  let v133 : BitVec 32 := Scalar.muli v2 c512_i32_68
  let v134 : Index := Scalar.indexCast v133
  ![0, v134.toNat]
def k0_dev8 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v155 : BitVec 32 := Scalar.muli v2 c8_i32_87
  let v156 : BitVec 32 := Scalar.addi c0_i32_88 v155
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_89 : BitVec 32 := 4#32
  let v157 : BitVec 32 := Scalar.muli v10 c4_i32_89
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v159 : BitVec 32 := Scalar.muli v8 c1_i32_90
  let v160 : BitVec 32 := Scalar.addi v158 v159
  v160.toNat
def k0_dev9 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v187 : BitVec 32 := Scalar.muli v2 c8_i32_110
  let v188 : BitVec 32 := Scalar.addi c0_i32_111 v187
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_112 : BitVec 32 := 4#32
  let v189 : BitVec 32 := Scalar.muli v10 c4_i32_112
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v191 : BitVec 32 := Scalar.muli v8 c1_i32_113
  let v192 : BitVec 32 := Scalar.addi v190 v191
  v192.toNat
def k0_dev10 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v219 : BitVec 32 := Scalar.muli v2 c8_i32_133
  let v220 : BitVec 32 := Scalar.addi c0_i32_134 v219
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_135 : BitVec 32 := 4#32
  let v221 : BitVec 32 := Scalar.muli v10 c4_i32_135
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v223 : BitVec 32 := Scalar.muli v8 c1_i32_136
  let v224 : BitVec 32 := Scalar.addi v222 v223
  v224.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S1024x256 : 0 < S1024x256.numel
  shapeCasts_S1024x256_S1024x256 : S1024x256.ShapeCasts S1024x256
  bitsLt_bf16_f32 : FTy.bits .bf16 < FTy.bits .f32
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  hamt_2 : (2#32 : BitVec 32).msb = false
  inb_S4_S1_0 : ∀ a, (![0] : Fin 1 → Nat) a + S1.size a ≤ S4.size a
  squeezes_S1_S_ : S1.Squeezes S_
  inb_S1024x4096_S1024x1024_0_1024 : ∀ a, (![0, 1024] : Fin 2 → Nat) a + S1024x1024.size a ≤ S1024x4096.size a
  inb_S4_S1_1 : ∀ a, (![1] : Fin 1 → Nat) a + S1.size a ≤ S4.size a
  inb_S1024x4096_S1024x1024_0_2048 : ∀ a, (![0, 2048] : Fin 2 → Nat) a + S1024x1024.size a ≤ S1024x4096.size a
  inb_S4_S1_2 : ∀ a, (![2] : Fin 1 → Nat) a + S1.size a ≤ S4.size a
  inb_S1024x4096_S1024x1024_0_3072 : ∀ a, (![0, 3072] : Fin 2 → Nat) a + S1024x1024.size a ≤ S1024x4096.size a
  inb_S4_S1_3 : ∀ a, (![3] : Fin 1 → Nat) a + S1.size a ≤ S4.size a
  h_S1024x512 : 0 < S1024x512.numel
  shapeCasts_S1024x512_S1024x512 : S1024x512.ShapeCasts S1024x512
  inb_S512x4096_S512x1024_0_0 : ∀ a, (![0, 0] : Fin 2 → Nat) a + S512x1024.size a ≤ S512x4096.size a
  h_S512x1024 : 0 < S512x1024.numel
  inb_S512x4096_S256x1024_0_0 : ∀ a, (![0, 0] : Fin 2 → Nat) a + S256x1024.size a ≤ S512x4096.size a
  inb_S512x4096_S256x1024_256_0 : ∀ a, (![256, 0] : Fin 2 → Nat) a + S256x1024.size a ≤ S512x4096.size a
  inb_S512x4096_S512x1024_0_1024 : ∀ a, (![0, 1024] : Fin 2 → Nat) a + S512x1024.size a ≤ S512x4096.size a
  inb_S512x4096_S256x1024_0_1024 : ∀ a, (![0, 1024] : Fin 2 → Nat) a + S256x1024.size a ≤ S512x4096.size a
  inb_S512x4096_S256x1024_256_1024 : ∀ a, (![256, 1024] : Fin 2 → Nat) a + S256x1024.size a ≤ S512x4096.size a
  inb_S512x4096_S512x1024_0_2048 : ∀ a, (![0, 2048] : Fin 2 → Nat) a + S512x1024.size a ≤ S512x4096.size a
  inb_S512x4096_S256x1024_0_2048 : ∀ a, (![0, 2048] : Fin 2 → Nat) a + S256x1024.size a ≤ S512x4096.size a
  inb_S512x4096_S256x1024_256_2048 : ∀ a, (![256, 2048] : Fin 2 → Nat) a + S256x1024.size a ≤ S512x4096.size a
  inb_S512x4096_S512x1024_0_3072 : ∀ a, (![0, 3072] : Fin 2 → Nat) a + S512x1024.size a ≤ S512x4096.size a
  inb_S512x4096_S256x1024_0_3072 : ∀ a, (![0, 3072] : Fin 2 → Nat) a + S256x1024.size a ≤ S512x4096.size a
  inb_S512x4096_S256x1024_256_3072 : ∀ a, (![256, 3072] : Fin 2 → Nat) a + S256x1024.size a ≤ S512x4096.size a
  dot_S1024x256_S1024x1024_S256x1024_0_0_1_1_n_n_wf : DotDims.WF S1024x256 S1024x1024 S256x1024 [0] [0] [1] [1] [] []
  dot_S1024x512_S1024x1024_S512x1024_0_0_1_1_n_n_wf : DotDims.WF S1024x512 S1024x1024 S512x1024 [0] [0] [1] [1] [] []
  hcc0_scratch12 : 3 + S4.numel ≤ 19
  hcc0_scratch13 : 7 + S4.numel ≤ 19
  hcc0_scratch14 : 11 + S4.numel ≤ 19
  hcc0_scratch15 : 15 + S4.numel ≤ 19
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1024x256.size a ≤ S1024x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off2_inb : ∀ d0 : Dev nD, ∀ a, (k0_off2 d0) a + S1024x512.size a ≤ S1024x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  hstage0_0 : ∀ j, (stage0_0 j).IsWhole
  hstage0_1 : ∀ j, (stage0_1 j).IsWhole
  hstage0_2 : ∀ j, (stage0_2 j).IsWhole

variable [Facts₀]

abbrev cc0_scratch12 : DmaSems sig S4 := SemArray.consecutive 3 S4 hcc0_scratch12
abbrev cc0_scratch13 : DmaSems sig S4 := SemArray.consecutive 7 S4 hcc0_scratch13
abbrev cc0_scratch14 : DmaSems sig S4 := SemArray.consecutive 11 S4 hcc0_scratch14
abbrev cc0_scratch15 : DmaSems sig S4 := SemArray.consecutive 15 S4 hcc0_scratch15
def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf
def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S2048x1024_S1024x2048_1_0 : S2048x1024.Transposes [1, 0] S1024x2048
  dot_S1024x2048_S2048x4096_S1024x4096_1_0_0_1_n_n_wf : DotDims.WF S1024x2048 S2048x4096 S1024x4096 [1] [0] [0] [1] [] []

variable [Facts₀]

def dot_S1024x2048_S2048x4096_S1024x4096_1_0_0_1_n_n : DotDims S1024x2048 S2048x4096 S1024x4096 where
  lhsContracting := [1]
  rhsContracting := [0]
  lhsNonContracting := [0]
  rhsNonContracting := [1]
  lhsBatch := []
  rhsBatch := []
  wf := dot_S1024x2048_S2048x4096_S1024x4096_1_0_0_1_n_n_wf

class Facts : Prop extends Facts₀ where

variable [Facts]
-- ==== Proof.KI.Defs0.lean ====
/-
  The protocol of the two-hop exchange, device by device.

  The sixteen devices form a 2 × 2 × 4 mesh; device `c` has coordinates (cx, cy, cz) with `c = 8·cx + 4·cy + cz`. Its
  x-peer `xp c` flips cx, its y-peer `yp c` flips cy; both are involutions. Each device multiplies a quarter of the
  columns of its block of `x` (the quarter its x-peer's half and its own cy name) with each of the four column chunks of
  its block of `dy`, sends product `k` to its x-peer (landing in the peer's buffer `xq k`), and forwards what it received
  in `xq k` to its y-peer (landing in `yq k`). So `xq k` of `c` ends holding product `k` of `xp c`, and `yq k` of `c`
  product `k` of `xp (yp c)`.

  Semaphores, per device: the barrier semaphore (two signals of one unit at entry, from the x-peer and from the y-peer,
  waited for together), and for each chunk `k` a send and a receive DMA semaphore of the first hop and a send and a
  receive DMA semaphore of the second. Every cell has one round. What a signal or a landing hands the waiter:
  the x-peer's barrier signal hands over the x-peer's four `xq` buffers (so that the first hop may write them), the
  y-peer's the y-peer's four `yq` buffers; a first-hop landing hands `xq k` holding the x-peer's product; a second-hop
  landing `yq k` holding the y-peer's `xq k`; a send cell returns the source (for the second hop: the half share of
  `xq k` the transfer held, the other half staying with the device, which reads `xq k` meanwhile).

  Levels: barrier cells at 1, first-hop receive cells at 2, second-hop receive cells at 3, all else 0: a device waits
  on its barrier owing only receive credits, on a first-hop receive cell owing only second-hop receive credits, and on
  everything else owing nothing.
-/
import proofs.«901047_g7700000000001048_dist_rsdw_v7x_xyz2x2x4_x_m1024_d1024_f4096_f32_1_alg».proof.Proof.Gen.KernelIdeal
import proofs.«901047_g7700000000001048_dist_rsdw_v7x_xyz2x2x4_x_m1024_d1024_f4096_f32_1_alg».proof.Proof.Gen.KernelIdeal.Skeleton
import proofs.«901047_g7700000000001048_dist_rsdw_v7x_xyz2x2x4_x_m1024_d1024_f4096_f32_1_alg».proof.Proof.Gen.KernelIdeal.Launch
import proofs.«901047_g7700000000001048_dist_rsdw_v7x_xyz2x2x4_x_m1024_d1024_f4096_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The peers -/

/-- The x-peer: the device whose first mesh coordinate is the other one. -/
def xp (c : Dev nD) : Dev nD := ⟨k0_dev1 c, k0_dev1_lt c⟩
/-- The y-peer: the device whose second mesh coordinate is the other one. -/
def yp (c : Dev nD) : Dev nD := ⟨k0_dev2 c, k0_dev2_lt c⟩

theorem xp_xp (c : Dev nD) : xp (xp c) = c := by revert c; decide +kernel
theorem yp_yp (c : Dev nD) : yp (yp c) = c := by revert c; decide +kernel
theorem xp_yp (c : Dev nD) : xp (yp c) = yp (xp c) := by revert c; decide +kernel
theorem xp_ne_yp (c : Dev nD) : xp c ≠ yp c := by revert c; decide +kernel
theorem xp_ne (c : Dev nD) : xp c ≠ c := by revert c; decide +kernel
theorem yp_ne (c : Dev nD) : yp c ≠ c := by revert c; decide +kernel

theorem dev1_eq (c : Dev nD) : (⟨k0_dev1 c, k0_dev1_lt c⟩ : Dev nD) = xp c := rfl
theorem dev2_eq (c : Dev nD) : (⟨k0_dev2 c, k0_dev2_lt c⟩ : Dev nD) = yp c := rfl
theorem dev3_eq (c : Dev nD) : (⟨k0_dev3 c, k0_dev3_lt c⟩ : Dev nD) = xp c := Fin.ext ((k0_dev3_eq c).trans (k0_dev1_eq c).symm)
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = yp c := Fin.ext ((k0_dev7_eq c).trans (k0_dev2_eq c).symm)
theorem dev8_eq (c : Dev nD) : (⟨k0_dev8 c, k0_dev8_lt c⟩ : Dev nD) = yp c := Fin.ext ((k0_dev8_eq c).trans (k0_dev2_eq c).symm)
theorem dev9_eq (c : Dev nD) : (⟨k0_dev9 c, k0_dev9_lt c⟩ : Dev nD) = yp c := Fin.ext ((k0_dev9_eq c).trans (k0_dev2_eq c).symm)
theorem dev10_eq (c : Dev nD) : (⟨k0_dev10 c, k0_dev10_lt c⟩ : Dev nD) = yp c := Fin.ext ((k0_dev10_eq c).trans (k0_dev2_eq c).symm)

def xpE : Dev nD ≃ Dev nD := ⟨xp, xp, xp_xp, xp_xp⟩
def ypE : Dev nD ≃ Dev nD := ⟨yp, yp, yp_yp, yp_yp⟩

/-- The second mesh coordinate of a device (0 or 1): which quarter of its half a device adds the direct landing to. -/
def cy (c : Dev nD) : ℕ := (c.val / 4) % 2
theorem cy_lt (c : Dev nD) : cy c = 0 ∨ cy c = 1 := by unfold cy; omega

/-! ## The memrefs and the semaphores -/

abbrev xM : Memref sig .tc .vmem S1024x1024 .f32 := Memref.whole cc0_stg0_0
abbrev dyM : Memref sig .tc .vmem S1024x4096 .f32 := Memref.whole cc0_stg1_0
abbrev oM : Memref sig .tc .vmem S512x4096 .f32 := Memref.whole cc0_stg2_0

/-- The products to send (`sx`), the first hop's landing buffers (`xq`), the second hop's (`yq`): four each. -/
abbrev sxM : Fin 4 → Memref sig .tc .vmem S256x1024 .bf16
  | 0 => Memref.whole cc0_scratch0 | 1 => Memref.whole cc0_scratch1 | 2 => Memref.whole cc0_scratch2 | 3 => Memref.whole cc0_scratch3
abbrev xqM : Fin 4 → Memref sig .tc .vmem S256x1024 .bf16
  | 0 => Memref.whole cc0_scratch4 | 1 => Memref.whole cc0_scratch5 | 2 => Memref.whole cc0_scratch6 | 3 => Memref.whole cc0_scratch7
abbrev yqM : Fin 4 → Memref sig .tc .vmem S256x1024 .bf16
  | 0 => Memref.whole cc0_scratch8 | 1 => Memref.whole cc0_scratch9 | 2 => Memref.whole cc0_scratch10 | 3 => Memref.whole cc0_scratch11

/-- The runtime's barrier semaphore of collective id 0 (not scoped to the launch). -/
abbrev barS : Sem sig := (SemArray.scalar (sig.barrier 0 rfl) : Sems sig S_).sem
/-- The DMA semaphores: first hop send 3..6 and receive 7..10, second hop send 11..14 and receive 15..18. -/
abbrev xsS : Fin 4 → DmaSem sig | 0 => 3 | 1 => 4 | 2 => 5 | 3 => 6
abbrev xrS : Fin 4 → DmaSem sig | 0 => 7 | 1 => 8 | 2 => 9 | 3 => 10
abbrev ysS : Fin 4 → DmaSem sig | 0 => 11 | 1 => 12 | 2 => 13 | 3 => 14
abbrev yrS : Fin 4 → DmaSem sig | 0 => 15 | 1 => 16 | 2 => 17 | 3 => 18

/-- The kernel reaches them by slicing its four semaphore arrays. -/
theorem slice_xs0 : ((cc0_scratch12.slice (Rect.unit (s := S4) ![0] S1.size inb_S4_S1_0)).squeeze S_ squeezes_S1_S_).sem = (3 : DmaSem sig) := rfl
theorem slice_xs1 : ((cc0_scratch12.slice (Rect.unit (s := S4) ![1] S1.size inb_S4_S1_1)).squeeze S_ squeezes_S1_S_).sem = (4 : DmaSem sig) := rfl
theorem slice_xs2 : ((cc0_scratch12.slice (Rect.unit (s := S4) ![2] S1.size inb_S4_S1_2)).squeeze S_ squeezes_S1_S_).sem = (5 : DmaSem sig) := rfl
theorem slice_xs3 : ((cc0_scratch12.slice (Rect.unit (s := S4) ![3] S1.size inb_S4_S1_3)).squeeze S_ squeezes_S1_S_).sem = (6 : DmaSem sig) := rfl
theorem slice_xr0 : ((cc0_scratch13.slice (Rect.unit (s := S4) ![0] S1.size inb_S4_S1_0)).squeeze S_ squeezes_S1_S_).sem = (7 : DmaSem sig) := rfl
theorem slice_xr1 : ((cc0_scratch13.slice (Rect.unit (s := S4) ![1] S1.size inb_S4_S1_1)).squeeze S_ squeezes_S1_S_).sem = (8 : DmaSem sig) := rfl
theorem slice_xr2 : ((cc0_scratch13.slice (Rect.unit (s := S4) ![2] S1.size inb_S4_S1_2)).squeeze S_ squeezes_S1_S_).sem = (9 : DmaSem sig) := rfl
theorem slice_xr3 : ((cc0_scratch13.slice (Rect.unit (s := S4) ![3] S1.size inb_S4_S1_3)).squeeze S_ squeezes_S1_S_).sem = (10 : DmaSem sig) := rfl
theorem slice_ys0 : ((cc0_scratch14.slice (Rect.unit (s := S4) ![0] S1.size inb_S4_S1_0)).squeeze S_ squeezes_S1_S_).sem = (11 : DmaSem sig) := rfl
theorem slice_ys1 : ((cc0_scratch14.slice (Rect.unit (s := S4) ![1] S1.size inb_S4_S1_1)).squeeze S_ squeezes_S1_S_).sem = (12 : DmaSem sig) := rfl
theorem slice_ys2 : ((cc0_scratch14.slice (Rect.unit (s := S4) ![2] S1.size inb_S4_S1_2)).squeeze S_ squeezes_S1_S_).sem = (13 : DmaSem sig) := rfl
theorem slice_ys3 : ((cc0_scratch14.slice (Rect.unit (s := S4) ![3] S1.size inb_S4_S1_3)).squeeze S_ squeezes_S1_S_).sem = (14 : DmaSem sig) := rfl
theorem slice_yr0 : ((cc0_scratch15.slice (Rect.unit (s := S4) ![0] S1.size inb_S4_S1_0)).squeeze S_ squeezes_S1_S_).sem = (15 : DmaSem sig) := rfl
theorem slice_yr1 : ((cc0_scratch15.slice (Rect.unit (s := S4) ![1] S1.size inb_S4_S1_1)).squeeze S_ squeezes_S1_S_).sem = (16 : DmaSem sig) := rfl
theorem slice_yr2 : ((cc0_scratch15.slice (Rect.unit (s := S4) ![2] S1.size inb_S4_S1_2)).squeeze S_ squeezes_S1_S_).sem = (17 : DmaSem sig) := rfl
theorem slice_yr3 : ((cc0_scratch15.slice (Rect.unit (s := S4) ![3] S1.size inb_S4_S1_3)).squeeze S_ squeezes_S1_S_).sem = (18 : DmaSem sig) := rfl

abbrev barCell (c : Dev nD) : GSem nD τ sig := ((c : Thread nD τ), .reg barS)
abbrev xsCell (c : Dev nD) (k : Fin 4) : GSem nD τ sig := ((c : Thread nD τ), .dma (xsS k))
abbrev xrCell (c : Dev nD) (k : Fin 4) : GSem nD τ sig := ((c : Thread nD τ), .dma (xrS k))
abbrev ysCell (c : Dev nD) (k : Fin 4) : GSem nD τ sig := ((c : Thread nD τ), .dma (ysS k))
abbrev yrCell (c : Dev nD) (k : Fin 4) : GSem nD τ sig := ((c : Thread nD τ), .dma (yrS k))

/-- The kernel's OWN (scoped) semaphores, as the launch theorem indexes them: DMA semaphores 3..18. -/
abbrev osem : Fin 16 → SemLoc sig := fun j => .dma ⟨3 + j.val, by have := j.isLt; show 3 + j.val < 19; omega⟩
/-- All seventeen of the exchange's, as this proof indexes them: the barrier, then DMA semaphores 3..18. -/
abbrev csem : Fin 17 → SemLoc sig := fun j => if h : j.val = 0 then .reg barS else .dma ⟨2 + j.val, by have := j.isLt; show 2 + j.val < 19; omega⟩
abbrev kcell (ck : Dev nD × Fin 17) : GSem nD τ sig := ((ck.1 : Thread nD τ), csem ck.2)

/-- The credit of one 256 × 1024 bf16 buffer's transfer (the same for all twelve). -/
abbrev N : ℕ := (Memref.whole cc0_scratch0 : Memref sig .tc .vmem S256x1024 .bf16).view.dmaCredit
theorem N_pos : 0 < N := View.dmaCredit_pos _ (by decide)

/-! ## Contents -/

/-- A device's staged block of `x` and of `dy` (the blocks are whole: the call has no grid). -/
def xstg (c : Dev nD) : (cc0_stg0_0 : Ref sig .tc).ty.Contents (Elt F) :=
  (win0_0.blk (0 : Fin 1)).view.read (Elt F) ((st0 m ρ).mem ((c : Thread nD τ).loc main_arg0))
def dystg (c : Dev nD) : (cc0_stg1_0 : Ref sig .tc).ty.Contents (Elt F) :=
  (win0_1.blk (0 : Fin 1)).view.read (Elt F) ((st0 m ρ).mem ((c : Thread nD τ).loc main_arg1))

/-- The quarter of the columns of `x` a device multiplies for its x-peer, and the half it multiplies for itself. -/
def xQuarter (c : Dev nD) : Vec F S1024x256 .f32 :=
  xM.view.readAt (Elt F) (Rect.unit (s := S1024x1024) (k0_off1 c) S1024x256.size (k0_off1_inb c)).toLoadRect (xstg m ρ c)
def xHalf (c : Dev nD) : Vec F S1024x512 .f32 :=
  xM.view.readAt (Elt F) (Rect.unit (s := S1024x1024) (k0_off2 c) S1024x512.size (k0_off2_inb c)).toLoadRect (xstg m ρ c)
/-- The four column chunks of `dy`. -/
def dyChunk (c : Dev nD) : Fin 4 → Vec F S1024x1024 .f32
  | 0 => dyM.view.readAt (Elt F) (Rect.unit (s := S1024x4096) ![0, 0] S1024x1024.size inb_S1024x4096_S1024x1024_0_0).toLoadRect (dystg m ρ c)
  | 1 => dyM.view.readAt (Elt F) (Rect.unit (s := S1024x4096) ![0, 1024] S1024x1024.size inb_S1024x4096_S1024x1024_0_1024).toLoadRect (dystg m ρ c)
  | 2 => dyM.view.readAt (Elt F) (Rect.unit (s := S1024x4096) ![0, 2048] S1024x1024.size inb_S1024x4096_S1024x1024_0_2048).toLoadRect (dystg m ρ c)
  | 3 => dyM.view.readAt (Elt F) (Rect.unit (s := S1024x4096) ![0, 3072] S1024x1024.size inb_S1024x4096_S1024x1024_0_3072).toLoadRect (dystg m ρ c)

/-- Product `k` a device sends: its quarter of `x` against chunk `k` of `dy`, as the body computes it. -/
def sx (c : Dev nD) : Fin 4 → Vec F S256x1024 .bf16
  | 0 => k0_pay3 (k0_pay1 (xQuarter m ρ c)) (k0_pay2 (dyChunk m ρ c 0))
  | 1 => k0_pay4 (xQuarter m ρ c) (dyChunk m ρ c 1)
  | 2 => k0_pay5 (xQuarter m ρ c) (dyChunk m ρ c 2)
  | 3 => k0_pay6 (xQuarter m ρ c) (dyChunk m ρ c 3)

end Cert.KernelIdeal.Hand

end
-- ==== Proof.KI.Sched.lean ====
/-
  What each device's result block holds, the exchange's schedule, what each device owes at launch, the levels, and
  the pipeline's proof data.

  The result block of device `c` is 512 × 4096, in four column chunks of 1024. In chunk `k` it holds the device's own
  product (its half of the columns of `x` against chunk `k` of `dy`) with the x-peer's contribution added: the quarter
  of rows `cy c` names gets what landed directly from the x-peer (`xq k`), the other quarter what the y-peer forwarded
  (`yq k`).
-/
import proofs.«901047_g7700000000001048_dist_rsdw_v7x_xyz2x2x4_x_m1024_d1024_f4096_f32_1_alg».proof.Proof.KI.Defs0
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result block -/

/-- The device's own product for chunk `k`: its half of `x`'s columns against chunk `k` of `dy`. -/
def own (c : Dev nD) : Fin 4 → Vec F S512x1024 .f32
  | 0 => k0_pay9 (k0_pay7 (xHalf m ρ c)) (k0_pay8 (dyChunk m ρ c 0)) (constant S512x1024 .f32 0x00000000#32)
  | 1 => k0_pay14 (k0_pay12 (xHalf m ρ c)) (k0_pay13 (dyChunk m ρ c 1)) (constant S512x1024 .f32 0x00000000#32)
  | 2 => k0_pay19 (k0_pay17 (xHalf m ρ c)) (k0_pay18 (dyChunk m ρ c 2)) (constant S512x1024 .f32 0x00000000#32)
  | 3 => k0_pay24 (k0_pay22 (xHalf m ρ c)) (k0_pay23 (dyChunk m ρ c 3)) (constant S512x1024 .f32 0x00000000#32)

/-- The top and the bottom 256 rows of a 512 × 1024 piece. -/
def topOf (v : Vec F S512x1024 .f32) : Vec F S256x1024 .f32 :=
  fun i => v (ValueIdx.ix2 (⟨(i 0).val, by have h : (i 0).val < 256 := (i 0).isLt; omega⟩ : Fin 512) (⟨(i 1).val, (i 1).isLt⟩ : Fin 1024))
def botOf (v : Vec F S512x1024 .f32) : Vec F S256x1024 .f32 :=
  fun i => v (ValueIdx.ix2 (⟨(i 0).val + 256, by have h : (i 0).val < 256 := (i 0).isLt; omega⟩ : Fin 512) (⟨(i 1).val, (i 1).isLt⟩ : Fin 1024))

/-- What lands in `xq k` of device `c` (the x-peer's product) and in `yq k` (the y-peer's `xq k`). -/
def xqv (c : Dev nD) (k : Fin 4) : Vec F S256x1024 .bf16 := sx m ρ (xp c) k
def yqv (c : Dev nD) (k : Fin 4) : Vec F S256x1024 .bf16 := sx m ρ (xp (yp c)) k

/-- The top quarter of chunk `k` after both additions: the direct landing if `cy c = 0`, the forwarded one otherwise. -/
def topVal (c : Dev nD) : Fin 4 → Vec F S256x1024 .f32
  | 0 => if cy c = 0 then k0_pay10 (topOf (own m ρ c 0)) (xqv m ρ c 0) else k0_pay28 (topOf (own m ρ c 0)) (yqv m ρ c 0)
  | 1 => if cy c = 0 then k0_pay15 (topOf (own m ρ c 1)) (xqv m ρ c 1) else k0_pay30 (topOf (own m ρ c 1)) (yqv m ρ c 1)
  | 2 => if cy c = 0 then k0_pay20 (topOf (own m ρ c 2)) (xqv m ρ c 2) else k0_pay32 (topOf (own m ρ c 2)) (yqv m ρ c 2)
  | 3 => if cy c = 0 then k0_pay25 (topOf (own m ρ c 3)) (xqv m ρ c 3) else k0_pay34 (topOf (own m ρ c 3)) (yqv m ρ c 3)
/-- The bottom quarter: the forwarded landing if `cy c = 0`, the direct one otherwise. -/
def botVal (c : Dev nD) : Fin 4 → Vec F S256x1024 .f32
  | 0 => if cy c = 0 then k0_pay27 (botOf (own m ρ c 0)) (yqv m ρ c 0) else k0_pay11 (botOf (own m ρ c 0)) (xqv m ρ c 0)
  | 1 => if cy c = 0 then k0_pay29 (botOf (own m ρ c 1)) (yqv m ρ c 1) else k0_pay16 (botOf (own m ρ c 1)) (xqv m ρ c 1)
  | 2 => if cy c = 0 then k0_pay31 (botOf (own m ρ c 2)) (yqv m ρ c 2) else k0_pay21 (botOf (own m ρ c 2)) (xqv m ρ c 2)
  | 3 => if cy c = 0 then k0_pay33 (botOf (own m ρ c 3)) (yqv m ρ c 3) else k0_pay26 (botOf (own m ρ c 3)) (xqv m ρ c 3)

/-- The device's result block, entry by entry: column `j` lies in chunk `j / 1024` at `j % 1024`; row `r` in the top quarter if `r < 256`. -/
def outAt (c : Dev nD) : (cc0_stg2_0 : Ref sig .tc).ty.Contents (Elt F) :=
  fun i =>
    let k : Fin 4 := ⟨(i 1).val / 1024, by have h : (i 1).val < 4096 := (i 1).isLt; omega⟩
    let j : Fin 1024 := ⟨(i 1).val % 1024, Nat.mod_lt _ (by decide)⟩
    if h : (i 0).val < 256 then topVal m ρ c k (ValueIdx.ix2 (⟨(i 0).val, h⟩ : Fin 256) j)
    else botVal m ρ c k (ValueIdx.ix2 (⟨(i 0).val - 256, by have h' : (i 0).val < 512 := (i 0).isLt; omega⟩ : Fin 256) j)

/-! ## Points-to assertions of the twelve scratch buffers and the three staging buffers -/

/-- A whole buffer of a device, spelt through the memref's view (the spelling the transfer rules use). -/
abbrev pts {s : Shape} {e : EltTy} (M : Memref sig .tc .vmem s e) (c : Dev nD) (q : PosShare TreeShare) (f : Buf (Elt F) (M.view.loc (c : Thread nD τ))) : sProp 𝕄 :=
  M.view.loc (c : Thread nD τ) ↦[M.view.set]{q} f

/-- The half of `xq k` the second hop's transfer holds while the device reads the other half. -/
abbrev hL : PosShare TreeShare := fullShare.left
abbrev hR : PosShare TreeShare := fullShare.right

/-! ## The schedule: one round; the barrier cell two duties of one unit, every DMA cell one duty of the buffer's credit -/

/-- What the x-peer's barrier signal (duty `false`) hands device `c`: the x-peer's four first-hop landing buffers. -/
def barPayX (c : Dev nD) : sProp 𝕄 :=
  iprop((∃ f, pts (Memref.whole cc0_scratch4 : Memref sig .tc .vmem S256x1024 .bf16) (xp c) fullShare f) ∗ (∃ f, pts (Memref.whole cc0_scratch5 : Memref sig .tc .vmem S256x1024 .bf16) (xp c) fullShare f) ∗ (∃ f, pts (Memref.whole cc0_scratch6 : Memref sig .tc .vmem S256x1024 .bf16) (xp c) fullShare f) ∗ (∃ f, pts (Memref.whole cc0_scratch7 : Memref sig .tc .vmem S256x1024 .bf16) (xp c) fullShare f))
/-- What the y-peer's (duty `true`) hands it: the y-peer's four second-hop landing buffers. -/
def barPayY (c : Dev nD) : sProp 𝕄 :=
  iprop((∃ f, pts (Memref.whole cc0_scratch8 : Memref sig .tc .vmem S256x1024 .bf16) (yp c) fullShare f) ∗ (∃ f, pts (Memref.whole cc0_scratch9 : Memref sig .tc .vmem S256x1024 .bf16) (yp c) fullShare f) ∗ (∃ f, pts (Memref.whole cc0_scratch10 : Memref sig .tc .vmem S256x1024 .bf16) (yp c) fullShare f) ∗ (∃ f, pts (Memref.whole cc0_scratch11 : Memref sig .tc .vmem S256x1024 .bf16) (yp c) fullShare f))

/-- What a DMA cell's one duty hands its owner `c`, by the semaphore's number. -/
def dmaPay (c : Dev nD) : DmaSem sig → sProp 𝕄
  | ⟨3, _⟩ => pts (Memref.whole cc0_scratch0 : Memref sig .tc .vmem S256x1024 .bf16) c fullShare (sx m ρ c 0)
  | ⟨4, _⟩ => pts (Memref.whole cc0_scratch1 : Memref sig .tc .vmem S256x1024 .bf16) c fullShare (sx m ρ c 1)
  | ⟨5, _⟩ => pts (Memref.whole cc0_scratch2 : Memref sig .tc .vmem S256x1024 .bf16) c fullShare (sx m ρ c 2)
  | ⟨6, _⟩ => pts (Memref.whole cc0_scratch3 : Memref sig .tc .vmem S256x1024 .bf16) c fullShare (sx m ρ c 3)
  | ⟨7, _⟩ => pts (Memref.whole cc0_scratch4 : Memref sig .tc .vmem S256x1024 .bf16) c fullShare (xqv m ρ c 0)
  | ⟨8, _⟩ => pts (Memref.whole cc0_scratch5 : Memref sig .tc .vmem S256x1024 .bf16) c fullShare (xqv m ρ c 1)
  | ⟨9, _⟩ => pts (Memref.whole cc0_scratch6 : Memref sig .tc .vmem S256x1024 .bf16) c fullShare (xqv m ρ c 2)
  | ⟨10, _⟩ => pts (Memref.whole cc0_scratch7 : Memref sig .tc .vmem S256x1024 .bf16) c fullShare (xqv m ρ c 3)
  | ⟨11, _⟩ => pts (Memref.whole cc0_scratch4 : Memref sig .tc .vmem S256x1024 .bf16) c hL (xqv m ρ c 0)
  | ⟨12, _⟩ => pts (Memref.whole cc0_scratch5 : Memref sig .tc .vmem S256x1024 .bf16) c hL (xqv m ρ c 1)
  | ⟨13, _⟩ => pts (Memref.whole cc0_scratch6 : Memref sig .tc .vmem S256x1024 .bf16) c hL (xqv m ρ c 2)
  | ⟨14, _⟩ => pts (Memref.whole cc0_scratch7 : Memref sig .tc .vmem S256x1024 .bf16) c hL (xqv m ρ c 3)
  | ⟨15, _⟩ => pts (Memref.whole cc0_scratch8 : Memref sig .tc .vmem S256x1024 .bf16) c fullShare (yqv m ρ c 0)
  | ⟨16, _⟩ => pts (Memref.whole cc0_scratch9 : Memref sig .tc .vmem S256x1024 .bf16) c fullShare (yqv m ρ c 1)
  | ⟨17, _⟩ => pts (Memref.whole cc0_scratch10 : Memref sig .tc .vmem S256x1024 .bf16) c fullShare (yqv m ρ c 2)
  | ⟨18, _⟩ => pts (Memref.whole cc0_scratch11 : Memref sig .tc .vmem S256x1024 .bf16) c fullShare (yqv m ρ c 3)
  | _ => iprop(emp)

def sched : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma _ => N
  payload g _ d := match g.2 with
    | .reg _ => if d then barPayY g.1.1 else barPayX g.1.1
    | .dma q => dmaPay m ρ g.1.1 q
  amount_pos g _ _ _ := by
    cases g.2 with
    | reg _ => exact Nat.one_pos
    | dma _ => exact N_pos

/-! ## What each device owes at launch, in the order it pays; the levels -/

abbrev tBx (c : Dev nD) : CellTallies nD τ sig Unit := tallyAt (barCell (xp c)) () 1
abbrev tBy (c : Dev nD) : CellTallies nD τ sig Unit := tallyAt (barCell (yp c)) () 1
abbrev tX (c : Dev nD) (k : Fin 4) : CellTallies nD τ sig Unit := tallyAt (xrCell (xp c) k) () N
abbrev tY (c : Dev nD) (k : Fin 4) : CellTallies nD τ sig Unit := tallyAt (yrCell (yp c) k) () N

/-- Summed so that each payment peels the last summand: the two signals, the four first-hop transfers, the four second-hop ones. -/
def OY3 (c : Dev nD) : CellTallies nD τ sig Unit := tY c 3
def OY2 (c : Dev nD) : CellTallies nD τ sig Unit := OY3 c + tY c 2
def OY1 (c : Dev nD) : CellTallies nD τ sig Unit := OY2 c + tY c 1
def OY0 (c : Dev nD) : CellTallies nD τ sig Unit := OY1 c + tY c 0
def OX3 (c : Dev nD) : CellTallies nD τ sig Unit := OY0 c + tX c 3
def OX2 (c : Dev nD) : CellTallies nD τ sig Unit := OX3 c + tX c 2
def OX1 (c : Dev nD) : CellTallies nD τ sig Unit := OX2 c + tX c 1
def OX0 (c : Dev nD) : CellTallies nD τ sig Unit := OX1 c + tX c 0
def O₁ (c : Dev nD) : CellTallies nD τ sig Unit := OX0 c + tBy c
def O₀ (c : Dev nD) : CellTallies nD τ sig Unit := O₁ c + tBx c

def L (g : GSem nD τ sig) : Finset Unit := if g.1.2 = .tc then {()} else ∅
/-- Barrier cells at 1, first-hop receive cells at 2, second-hop receive cells at 3, everything else (staging, send) at 0. -/
def lv (g : GSem nD τ sig) (_ : Unit) : ℕ := match g.2 with
  | .reg _ => 1
  | .dma q => if 7 ≤ q.val ∧ q.val ≤ 10 then 2 else if 15 ≤ q.val then 3 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own seventeen,
    both peers' barrier cells, the x-peer's first-hop receive cells, the y-peer's second-hop receive cells. -/
def invs (K : Dev nD × Fin 17 → ℕ) (c : Dev nD) : sProp 𝕄 :=
  iprop(cellInv ER (sched m ρ) (K (c, 0)) (barCell c)
    ∗ (cellInv ER (sched m ρ) (K (c, 1)) (xsCell c 0) ∗ cellInv ER (sched m ρ) (K (c, 2)) (xsCell c 1) ∗ cellInv ER (sched m ρ) (K (c, 3)) (xsCell c 2) ∗ cellInv ER (sched m ρ) (K (c, 4)) (xsCell c 3))
    ∗ (cellInv ER (sched m ρ) (K (c, 5)) (xrCell c 0) ∗ cellInv ER (sched m ρ) (K (c, 6)) (xrCell c 1) ∗ cellInv ER (sched m ρ) (K (c, 7)) (xrCell c 2) ∗ cellInv ER (sched m ρ) (K (c, 8)) (xrCell c 3))
    ∗ (cellInv ER (sched m ρ) (K (c, 9)) (ysCell c 0) ∗ cellInv ER (sched m ρ) (K (c, 10)) (ysCell c 1) ∗ cellInv ER (sched m ρ) (K (c, 11)) (ysCell c 2) ∗ cellInv ER (sched m ρ) (K (c, 12)) (ysCell c 3))
    ∗ (cellInv ER (sched m ρ) (K (c, 13)) (yrCell c 0) ∗ cellInv ER (sched m ρ) (K (c, 14)) (yrCell c 1) ∗ cellInv ER (sched m ρ) (K (c, 15)) (yrCell c 2) ∗ cellInv ER (sched m ρ) (K (c, 16)) (yrCell c 3))
    ∗ cellInv ER (sched m ρ) (K (xp c, 0)) (barCell (xp c)) ∗ cellInv ER (sched m ρ) (K (yp c, 0)) (barCell (yp c))
    ∗ (cellInv ER (sched m ρ) (K (xp c, 5)) (xrCell (xp c) 0) ∗ cellInv ER (sched m ρ) (K (xp c, 6)) (xrCell (xp c) 1) ∗ cellInv ER (sched m ρ) (K (xp c, 7)) (xrCell (xp c) 2) ∗ cellInv ER (sched m ρ) (K (xp c, 8)) (xrCell (xp c) 3))
    ∗ (cellInv ER (sched m ρ) (K (yp c, 13)) (yrCell (yp c) 0) ∗ cellInv ER (sched m ρ) (K (yp c, 14)) (yrCell (yp c) 1) ∗ cellInv ER (sched m ρ) (K (yp c, 15)) (yrCell (yp c) 2) ∗ cellInv ER (sched m ρ) (K (yp c, 16)) (yrCell (yp c) 3)))

instance invs_persistent (K : Dev nD × Fin 17 → ℕ) (c : Dev nD) : BI.Persistent (invs m ρ K c) := by unfold invs; infer_instance

/-- The positions at round 0 of the device's own seventeen cells. -/
def poss (c : Dev nD) : sProp 𝕄 :=
  iprop(atPos ER (barCell c) 0 ∅ 0
    ∗ (atPos ER (xsCell c 0) 0 ∅ 0 ∗ atPos ER (xsCell c 1) 0 ∅ 0 ∗ atPos ER (xsCell c 2) 0 ∅ 0 ∗ atPos ER (xsCell c 3) 0 ∅ 0)
    ∗ (atPos ER (xrCell c 0) 0 ∅ 0 ∗ atPos ER (xrCell c 1) 0 ∅ 0 ∗ atPos ER (xrCell c 2) 0 ∅ 0 ∗ atPos ER (xrCell c 3) 0 ∅ 0)
    ∗ (atPos ER (ysCell c 0) 0 ∅ 0 ∗ atPos ER (ysCell c 1) 0 ∅ 0 ∗ atPos ER (ysCell c 2) 0 ∅ 0 ∗ atPos ER (ysCell c 3) 0 ∅ 0)
    ∗ (atPos ER (yrCell c 0) 0 ∅ 0 ∗ atPos ER (yrCell c 1) 0 ∅ 0 ∗ atPos ER (yrCell c 2) 0 ∅ 0 ∗ atPos ER (yrCell c 3) 0 ∅ 0))

/-- Round 0 reached, of every cell the device pays: both peers' barrier cells, its own send cells, the peers' receive cells. -/
def reacheds (c : Dev nD) : sProp 𝕄 :=
  iprop(reached ER (barCell (xp c)) 0 ∗ reached ER (barCell (yp c)) 0
    ∗ (reached ER (xsCell c 0) 0 ∗ reached ER (xsCell c 1) 0 ∗ reached ER (xsCell c 2) 0 ∗ reached ER (xsCell c 3) 0)
    ∗ (reached ER (ysCell c 0) 0 ∗ reached ER (ysCell c 1) 0 ∗ reached ER (ysCell c 2) 0 ∗ reached ER (ysCell c 3) 0)
    ∗ (reached ER (xrCell (xp c) 0) 0 ∗ reached ER (xrCell (xp c) 1) 0 ∗ reached ER (xrCell (xp c) 2) 0 ∗ reached ER (xrCell (xp c) 3) 0)
    ∗ (reached ER (yrCell (yp c) 0) 0 ∗ reached ER (yrCell (yp c) 1) 0 ∗ reached ER (yrCell (yp c) 2) 0 ∗ reached ER (yrCell (yp c) 3) 0))

instance reacheds_persistent (c : Dev nD) : BI.Persistent (reacheds (F := F) c) := by unfold reacheds; infer_instance

/-- The tokens of the eighteen duties the device pays: the x-peer's barrier duty `false`, the y-peer's barrier duty `true`,
    its own eight send duties, the x-peer's four first-hop receive duties, the y-peer's four second-hop receive duties. -/
def payToks (c : Dev nD) : sProp 𝕄 :=
  iprop(dutyTok ER (barCell (xp c)) 0 false ∗ dutyTok ER (barCell (yp c)) 0 true
    ∗ (dutyTok ER (xsCell c 0) 0 false ∗ dutyTok ER (xsCell c 1) 0 false ∗ dutyTok ER (xsCell c 2) 0 false ∗ dutyTok ER (xsCell c 3) 0 false)
    ∗ (dutyTok ER (ysCell c 0) 0 false ∗ dutyTok ER (ysCell c 1) 0 false ∗ dutyTok ER (ysCell c 2) 0 false ∗ dutyTok ER (ysCell c 3) 0 false)
    ∗ (dutyTok ER (xrCell (xp c) 0) 0 false ∗ dutyTok ER (xrCell (xp c) 1) 0 false ∗ dutyTok ER (xrCell (xp c) 2) 0 false ∗ dutyTok ER (xrCell (xp c) 3) 0 false)
    ∗ (dutyTok ER (yrCell (yp c) 0) 0 false ∗ dutyTok ER (yrCell (yp c) 1) 0 false ∗ dutyTok ER (yrCell (yp c) 2) 0 false ∗ dutyTok ER (yrCell (yp c) 3) 0 false))

/-- The exchange's ghost state device `c` starts from. -/
def ghost (K : Dev nD × Fin 17 → ℕ) (c : Dev nD) : sProp 𝕄 :=
  iprop(invs m ρ K c ∗ poss c ∗ reacheds c ∗ payToks c)

/-- The credit dealt at launch: its barrier's two units and each of its eight receive cells' credit. -/
def creds (c : Dev nD) : sProp 𝕄 :=
  iprop(cred (tallyAt (barCell c) () 2)
    ∗ (cred (tallyAt (xrCell c 0) () N) ∗ cred (tallyAt (xrCell c 1) () N) ∗ cred (tallyAt (xrCell c 2) () N) ∗ cred (tallyAt (xrCell c 3) () N))
    ∗ (cred (tallyAt (yrCell c 0) () N) ∗ cred (tallyAt (yrCell c 1) () N) ∗ cred (tallyAt (yrCell c 2) () N) ∗ cred (tallyAt (yrCell c 3) () N)))

/-- What device `c`'s body starts from besides its buffers. -/
def start (c : Dev nD) : sProp 𝕄 :=
  iprop((∃ K, ghost m ρ K c) ∗ creds c ∗ levAts L lv)

/-- The twelve scratch buffers at some contents (as the region hands them over, and takes them back). -/
def scr (c : Dev nD) : sProp 𝕄 :=
  iprop((∃ f, pts (Memref.whole cc0_scratch0 : Memref sig .tc .vmem S256x1024 .bf16) c fullShare f) ∗ (∃ f, pts (Memref.whole cc0_scratch1 : Memref sig .tc .vmem S256x1024 .bf16) c fullShare f) ∗ (∃ f, pts (Memref.whole cc0_scratch2 : Memref sig .tc .vmem S256x1024 .bf16) c fullShare f) ∗ (∃ f, pts (Memref.whole cc0_scratch3 : Memref sig .tc .vmem S256x1024 .bf16) c fullShare f)
    ∗ (∃ f, pts (Memref.whole cc0_scratch4 : Memref sig .tc .vmem S256x1024 .bf16) c fullShare f) ∗ (∃ f, pts (Memref.whole cc0_scratch5 : Memref sig .tc .vmem S256x1024 .bf16) c fullShare f) ∗ (∃ f, pts (Memref.whole cc0_scratch6 : Memref sig .tc .vmem S256x1024 .bf16) c fullShare f) ∗ (∃ f, pts (Memref.whole cc0_scratch7 : Memref sig .tc .vmem S256x1024 .bf16) c fullShare f)
    ∗ (∃ f, pts (Memref.whole cc0_scratch8 : Memref sig .tc .vmem S256x1024 .bf16) c fullShare f) ∗ (∃ f, pts (Memref.whole cc0_scratch9 : Memref sig .tc .vmem S256x1024 .bf16) c fullShare f) ∗ (∃ f, pts (Memref.whole cc0_scratch10 : Memref sig .tc .vmem S256x1024 .bf16) c fullShare f) ∗ (∃ f, pts (Memref.whole cc0_scratch11 : Memref sig .tc .vmem S256x1024 .bf16) c fullShare f))

/-- The sixteen own DMA cells at zero, closed. -/
def semsZero (c : Dev nD) : sProp 𝕄 :=
  iprop((semVal (xsCell c 0) 0 ∗ semVal (xsCell c 1) 0 ∗ semVal (xsCell c 2) 0 ∗ semVal (xsCell c 3) 0)
    ∗ (semVal (xrCell c 0) 0 ∗ semVal (xrCell c 1) 0 ∗ semVal (xrCell c 2) 0 ∗ semVal (xrCell c 3) 0)
    ∗ (semVal (ysCell c 0) 0 ∗ semVal (ysCell c 1) 0 ∗ semVal (ysCell c 2) 0 ∗ semVal (ysCell c 3) 0)
    ∗ (semVal (yrCell c 0) 0 ∗ semVal (yrCell c 1) 0 ∗ semVal (yrCell c 2) 0 ∗ semVal (yrCell c 3) 0))

def Φ₀ (c : Dev nD) : sProp 𝕄 := iprop(start m ρ c ∗ scr c)
/-- After the point: the scratch buffers back (at some contents), the sixteen own cells at zero. -/
def Φ₁ (c : Dev nD) : sProp 𝕄 := iprop(scr (F := F) c ∗ semsZero c)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A staging buffer whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Hand

end
-- ==== Proof.KI.LaunchDefs.lean ====
/-
  What the launch allocates for the exchange: per device seventeen cells (its barrier cell and sixteen DMA cells) and
  eighteen duty tokens (the barrier's two, each DMA cell's one); what the launch element deals each device; and what
  the one global step makes of it: each device's ghost state, with the tokens dealt to the devices that pay the duties.
-/
import proofs.«901047_g7700000000001048_dist_rsdw_v7x_xyz2x2x4_x_m1024_d1024_f4096_f32_1_alg».proof.Proof.KI.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have key : ∀ k k' : Fin 17, csem k = csem k' → k = k' := by decide
  have : k = k' := key k k' h2
  subst this; rfl

/-- The exchange's cells: every device's seventeen. -/
def xCells : Finset (GSem nD τ sig) := Finset.univ.map ⟨kcell, kcell_injective⟩

/-- A device's own cells' duty tokens as minted: the barrier's `false` and `true`, then each DMA cell's `false`. -/
abbrev tokOf (cj : Dev nD × Fin 18) : GSem nD τ sig × ℕ × Bool :=
  if h0 : cj.2.val = 0 then (barCell cj.1, 0, false)
  else if h1 : cj.2.val = 1 then (barCell cj.1, 0, true)
  else (kcell (cj.1, ⟨cj.2.val - 1, by have := cj.2.isLt; omega⟩), 0, false)

theorem tokOf_injective : Function.Injective (tokOf : Dev nD × Fin 18 → GSem nD τ sig × ℕ × Bool) := by
  -- The device is read off the cell; the semaphore and the duty depend on the index alone, and tell the indices apart.
  have hdev : ∀ (c : Dev nD) (j : Fin 18), (tokOf (c, j)).1.1.1 = c := by
    intro c j; dsimp only [tokOf]; split <;> [rfl; (split <;> rfl)]
  have hsnd : ∀ (c : Dev nD) (j : Fin 18), ((tokOf (c, j)).1.2, (tokOf (c, j)).2.2)
      = (if h0 : j.val = 0 then ((.reg barS : SemLoc sig), false) else if h1 : j.val = 1 then ((.reg barS : SemLoc sig), true)
          else (csem ⟨j.val - 1, by have := j.isLt; omega⟩, false)) := by
    intro c j; dsimp only [tokOf]; split <;> [rfl; (split <;> rfl)]
  have key : ∀ j j' : Fin 18,
      (if h0 : j.val = 0 then ((.reg barS : SemLoc sig), false) else if h1 : j.val = 1 then ((.reg barS : SemLoc sig), true)
          else (csem ⟨j.val - 1, by have := j.isLt; omega⟩, false))
      = (if h0 : j'.val = 0 then ((.reg barS : SemLoc sig), false) else if h1 : j'.val = 1 then ((.reg barS : SemLoc sig), true)
          else (csem ⟨j'.val - 1, by have := j'.isLt; omega⟩, false)) → j = j' := by decide
  rintro ⟨c, j⟩ ⟨c', j'⟩ h
  have h1 : c = c' := (hdev c j).symm.trans ((congrArg (fun x : GSem nD τ sig × ℕ × Bool => x.1.1.1) h).trans (hdev c' j'))
  subst h1
  have h2 : j = j' := key j j' ((hsnd c j).symm.trans ((congrArg (fun x : GSem nD τ sig × ℕ × Bool => (x.1.2, x.2.2)) h).trans (hsnd c j')))
  subst h2; rfl

def xToks : Finset (GSem nD τ sig × ℕ × Bool) := Finset.univ.map ⟨tokOf, tokOf_injective⟩

/-- The launch element: the pipeline's cells and tokens beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  bigSep Finset.univ fun j : Fin 18 => dutyTok ER (tokOf (c, j)).1 (tokOf (c, j)).2.1 (tokOf (c, j)).2.2

/-- What the launch element deals device `c`. -/
def G (c : Dev nD) : sProp 𝕄 :=
  iprop((bigSep Finset.univ fun k : Fin 17 => roundState ER (sched m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

end Cert.KernelIdeal.Hand

end
-- ==== Proof.KI.Tables.lean ====
/-
  The schedule's tables read at each cell, and the waits the levels allow.

  Every cell has one round. A barrier cell has the two duties `false` (the x-peer's signal) and `true` (the y-peer's),
  one unit each, so its round expects 2; a DMA cell of the exchange has the one duty `false` of the buffer's credit.
  A device waits on a staging cell owing whatever it owes (staging cells lie below everything), on its barrier owing
  receive credits only, on first-hop receive cell `k` owing second-hop receive credits only.
-/
import proofs.«901047_g7700000000001048_dist_rsdw_v7x_xyz2x2x4_x_m1024_d1024_f4096_f32_1_alg».proof.Proof.KI.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem duties_bar : (sched (F := F) m ρ).duties (barCell c) 0 = Finset.univ := by
  dsimp only [sched]; exact if_pos ⟨rfl, rfl⟩
theorem duties_dma (q : DmaSem sig) (hq : 3 ≤ q.val) : (sched (F := F) m ρ).duties ((c : Thread nD τ), .dma q) 0 = {false} := by
  dsimp only [sched]; exact (if_pos ⟨rfl, rfl⟩).trans (if_pos hq)
theorem duties_later (g : GSem nD τ sig) : ∀ r, 1 ≤ r → (sched (F := F) m ρ).duties g r = ∅ := by
  intro r hr; dsimp only [sched]; exact if_neg fun h => by have := h.1; omega
theorem amount_bar (d : Bool) : (sched (F := F) m ρ).amount (barCell c) 0 d = 1 := by
  rfl
theorem amount_dma (q : DmaSem sig) (d : Bool) : (sched (F := F) m ρ).amount ((c : Thread nD τ), .dma q) 0 d = N := by
  rfl
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) (hq : 3 ≤ q.val) : (sched (F := F) m ρ).expect ((c : Thread nD τ), .dma q) 0 = N := by
  unfold Schedule.expect Schedule.amountOf
  rw [duties_dma m ρ c q hq, Finset.sum_singleton, amount_dma]
theorem payload_bar_false : (sched m ρ).payload (barCell c) 0 false = barPayX (F := F) c := by
  rfl
theorem payload_bar_true : (sched m ρ).payload (barCell c) 0 true = barPayY (F := F) c := by
  rfl
theorem payload_dma (q : DmaSem sig) (d : Bool) : (sched m ρ).payload ((c : Thread nD τ), .dma q) 0 d = dmaPay m ρ c q := by
  rfl

/-- The rest of the barrier cell's round, no duty taken: both peers' landing buffers. -/
theorem rest_bar : bigSep ((sched m ρ).duties (barCell c) 0 \ ∅) (fun d => (sched m ρ).payload (barCell c) 0 d) = iprop(barPayX (F := F) c ∗ barPayY c) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 3 ≤ q.val) :
    bigSep ((sched m ρ).duties ((c : Thread nD τ), .dma q) 0 \ ∅) (fun d => (sched m ρ).payload ((c : Thread nD τ), .dma q) 0 d) = dmaPay m ρ c q := by
  rw [Finset.sdiff_empty, duties_dma m ρ c q hq, bigSep_singleton, payload_dma]

end Tables

/-- Four storable assertions together are storable. -/
theorem storable_sep4 (A B C D : sProp 𝕄) [BI.Storable (upEmb : UEmb _ 𝕄) A] [BI.Storable (upEmb : UEmb _ 𝕄) B]
    [BI.Storable (upEmb : UEmb _ 𝕄) C] [BI.Storable (upEmb : UEmb _ 𝕄) D] :
    BI.Storable (upEmb : UEmb _ 𝕄) iprop(A ∗ B ∗ C ∗ D) := inferInstance

/-- A whole buffer of a device at some contents may be stored. -/
instance pts_ex_storable {s : Shape} {e : EltTy} (M : Memref sig .tc .vmem s e) (c : Dev nD) (q : PosShare TreeShare) :
    BI.Storable (upEmb : UEmb _ 𝕄) (iprop(∃ f, pts (F := F) M c q f)) := by infer_instance

instance barPayX_storable (c : Dev nD) : BI.Storable (upEmb : UEmb _ 𝕄) (barPayX (F := F) c) := by
  unfold barPayX
  haveI := pts_ex_storable (F := F) (Memref.whole cc0_scratch4 : Memref sig .tc .vmem S256x1024 .bf16) (xp c) fullShare
  haveI := pts_ex_storable (F := F) (Memref.whole cc0_scratch5 : Memref sig .tc .vmem S256x1024 .bf16) (xp c) fullShare
  haveI := pts_ex_storable (F := F) (Memref.whole cc0_scratch6 : Memref sig .tc .vmem S256x1024 .bf16) (xp c) fullShare
  haveI := pts_ex_storable (F := F) (Memref.whole cc0_scratch7 : Memref sig .tc .vmem S256x1024 .bf16) (xp c) fullShare
  exact storable_sep4 _ _ _ _
instance barPayY_storable (c : Dev nD) : BI.Storable (upEmb : UEmb _ 𝕄) (barPayY (F := F) c) := by
  unfold barPayY
  haveI := pts_ex_storable (F := F) (Memref.whole cc0_scratch8 : Memref sig .tc .vmem S256x1024 .bf16) (yp c) fullShare
  haveI := pts_ex_storable (F := F) (Memref.whole cc0_scratch9 : Memref sig .tc .vmem S256x1024 .bf16) (yp c) fullShare
  haveI := pts_ex_storable (F := F) (Memref.whole cc0_scratch10 : Memref sig .tc .vmem S256x1024 .bf16) (yp c) fullShare
  haveI := pts_ex_storable (F := F) (Memref.whole cc0_scratch11 : Memref sig .tc .vmem S256x1024 .bf16) (yp c) fullShare
  exact storable_sep4 _ _ _ _

instance sched_payload_storable (g : GSem nD τ sig) (r : ℕ) (d : Bool) :
    BI.Storable (upEmb : UEmb _ 𝕄) ((sched m ρ).payload g r d) := by
  obtain ⟨t, sm⟩ := g
  cases sm with
  | reg s =>
    show BI.Storable upEmb (if d then barPayY t.1 else barPayX t.1)
    split <;> infer_instance
  | dma q =>
    show BI.Storable upEmb (dmaPay m ρ t.1 q)
    unfold dmaPay
    split <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A cell of a TensorCore thread whose level lies strictly above `b`. -/
def Above (b : ℕ) (g : GSem nD τ sig) : Prop := g.1.2 = .tc ∧ b < lv g ()

theorem Above.mono {b b' : ℕ} {g : GSem nD τ sig} (h : b' ≤ b) (hg : Above b g) : Above b' g := ⟨hg.1, lt_of_le_of_lt h hg.2⟩

/-- The level of a DMA cell, read off the semaphore's number. -/
theorem lv_dma (t : Thread nD τ) (q : DmaSem sig) :
    lv (t, .dma q) () = if 7 ≤ q.val ∧ q.val ≤ 10 then 2 else if 15 ≤ q.val then 3 else 0 := rfl

/-- Barrier cells lie at level 1, first-hop receive cells at 2, second-hop receive cells at 3. -/
theorem above_bar (d : Dev nD) : Above 0 (barCell d) := ⟨rfl, Nat.one_pos⟩
theorem above_xr (d : Dev nD) : ∀ k : Fin 4, Above 1 (xrCell d k)
  | 0 => ⟨rfl, by rw [lv_dma]; decide⟩ | 1 => ⟨rfl, by rw [lv_dma]; decide⟩ | 2 => ⟨rfl, by rw [lv_dma]; decide⟩ | 3 => ⟨rfl, by rw [lv_dma]; decide⟩
theorem above_yr (d : Dev nD) : ∀ k : Fin 4, Above 2 (yrCell d k)
  | 0 => ⟨rfl, by rw [lv_dma]; decide⟩ | 1 => ⟨rfl, by rw [lv_dma]; decide⟩ | 2 => ⟨rfl, by rw [lv_dma]; decide⟩ | 3 => ⟨rfl, by rw [lv_dma]; decide⟩

/-- A sum of tallies is positive only where a summand is. -/
theorem above_add {b : ℕ} {A B : CellTallies nD τ sig Unit} (hA : ∀ g u, 0 < A g u → Above b g) (hB : ∀ g u, 0 < B g u → Above b g) :
    ∀ g u, 0 < (A + B) g u → Above b g := by
  intro g u h
  rw [Pi.add_apply, Finsupp.add_apply] at h
  rcases Nat.eq_zero_or_pos (A g u) with h0 | h0
  · exact hB g u (by omega)
  · exact hA g u h0

/-- A tally at one cell is positive only at that cell. -/
theorem above_tallyAt {b : ℕ} {g₀ : GSem nD τ sig} (k : ℕ) (h₀ : Above b g₀) : ∀ g u, 0 < tallyAt g₀ () k g u → Above b g := by
  intro g u h
  rw [tallyAt_apply] at h
  by_cases hg : g = g₀ ∧ u = ()
  · rw [hg.1]; exact h₀
  · rw [if_neg hg] at h; exact absurd h (Nat.lt_irrefl 0)

/-- What is owed from the second hop on lies above level 2; with the first hop's credits, above 1; with the signals, above 0. -/
theorem OY3_above (c : Dev nD) : ∀ g u, 0 < OY3 c g u → Above 2 g := above_tallyAt N (above_yr (yp c) 3)
theorem OY2_above (c : Dev nD) : ∀ g u, 0 < OY2 c g u → Above 2 g := above_add (OY3_above c) (above_tallyAt N (above_yr (yp c) 2))
theorem OY1_above (c : Dev nD) : ∀ g u, 0 < OY1 c g u → Above 2 g := above_add (OY2_above c) (above_tallyAt N (above_yr (yp c) 1))
theorem OY0_above (c : Dev nD) : ∀ g u, 0 < OY0 c g u → Above 2 g := above_add (OY1_above c) (above_tallyAt N (above_yr (yp c) 0))
theorem OX3_above (c : Dev nD) : ∀ g u, 0 < OX3 c g u → Above 1 g :=
  above_add (fun g u h => (OY0_above c g u h).mono (by decide)) (above_tallyAt N (above_xr (xp c) 3))
theorem OX2_above (c : Dev nD) : ∀ g u, 0 < OX2 c g u → Above 1 g := above_add (OX3_above c) (above_tallyAt N (above_xr (xp c) 2))
theorem OX1_above (c : Dev nD) : ∀ g u, 0 < OX1 c g u → Above 1 g := above_add (OX2_above c) (above_tallyAt N (above_xr (xp c) 1))
theorem OX0_above (c : Dev nD) : ∀ g u, 0 < OX0 c g u → Above 1 g := above_add (OX1_above c) (above_tallyAt N (above_xr (xp c) 0))
theorem O₁_above (c : Dev nD) : ∀ g u, 0 < O₁ c g u → Above 0 g :=
  above_add (fun g u h => (OX0_above c g u h).mono (by decide)) (above_tallyAt 1 (above_bar (yp c)))
theorem O₀_above (c : Dev nD) : ∀ g u, 0 < O₀ c g u → Above 0 g := above_add (O₁_above c) (above_tallyAt 1 (above_bar (xp c)))

omit [FloatOps F] in
/-- The cut: a device may wait on its cell `sm`, of level at most `b`, owing tallies that are positive only above `b`. -/
theorem mayWait_cut (c : Dev nD) (sm : SemLoc sig) (b : ℕ) (D : CellTallies nD τ sig Unit)
    (hb : lv ((c : Thread nD τ), sm) () ≤ b) (hD : ∀ g u, 0 < D g u → Above b g) :
    (levAts L lv : sProp 𝕄) ⊢ MayWait (c : Thread nD τ) sm () D :=
  MayOwe.of_cut (L := L) (lev := lv) b
    (fun p hp => by rw [Finset.mem_singleton.mp hp, L_tc]; exact Finset.mem_singleton_self _)
    (fun g u hg => by rw [L, if_pos (hD g u hg).1]; exact Finset.mem_singleton_self _)
    (fun p hp => by rw [Finset.mem_singleton.mp hp]; exact hb)
    (fun g u hg => (hD g u hg).2)

omit [FloatOps F] in
/-- A staging cell (DMA semaphores 0, 1, 2) may be waited on owing everything owed at launch, or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_cut c (.dma q) 0 (O₀ c) ?_ (O₀_above c)
    dsimp only [lv]
    rw [if_neg (fun h => by omega), if_neg (by omega)]
  · rw [MayWait_zero]; iintro -; iempintro

omit [FloatOps F] in
/-- At its barrier wait a device owes the eight receive credits: all above its barrier cell. -/
theorem mayWait_bar (c : Dev nD) :
    (levAts L lv : sProp 𝕄) ⊢ MayWait (c : Thread nD τ) (.reg barS) () (OX0 c) :=
  mayWait_cut c (.reg barS) 1 (OX0 c) (le_refl 1) (OX0_above c)

omit [FloatOps F] in
/-- At the wait on first-hop receive cell 0..3 it owes second-hop receive credits only. -/
theorem mayWait_xr0 (c : Dev nD) : (levAts L lv : sProp 𝕄) ⊢ MayWait (c : Thread nD τ) (.dma (xrS 0)) () (OY0 c) :=
  mayWait_cut c (.dma (xrS 0)) 2 (OY0 c) (by rw [lv_dma]; decide) (OY0_above c)
omit [FloatOps F] in
theorem mayWait_xr1 (c : Dev nD) : (levAts L lv : sProp 𝕄) ⊢ MayWait (c : Thread nD τ) (.dma (xrS 1)) () (OY1 c) :=
  mayWait_cut c (.dma (xrS 1)) 2 (OY1 c) (by rw [lv_dma]; decide) (OY1_above c)
omit [FloatOps F] in
theorem mayWait_xr2 (c : Dev nD) : (levAts L lv : sProp 𝕄) ⊢ MayWait (c : Thread nD τ) (.dma (xrS 2)) () (OY2 c) :=
  mayWait_cut c (.dma (xrS 2)) 2 (OY2 c) (by rw [lv_dma]; decide) (OY2_above c)
omit [FloatOps F] in
theorem mayWait_xr3 (c : Dev nD) : (levAts L lv : sProp 𝕄) ⊢ MayWait (c : Thread nD τ) (.dma (xrS 3)) () (OY3 c) :=
  mayWait_cut c (.dma (xrS 3)) 2 (OY3 c) (by rw [lv_dma]; decide) (OY3_above c)

end Cert.KernelIdeal.Hand

end
-- ==== Proof.KI.Alloc.lean ====
/-
  The allocation: from the launch element the per-device rounds state; then, in one step over all devices, the cells'
  invariants allocated from the semaphores at zero, and the duty tokens dealt around: a barrier's `false` token to the
  owner's x-peer and its `true` token to its y-peer (the devices that signal it), a first-hop receive token to the
  owner's x-peer and a second-hop receive token to its y-peer (the devices that transfer into it), the send tokens
  staying with their owner.
-/
import proofs.«901047_g7700000000001048_dist_rsdw_v7x_xyz2x2x4_x_m1024_d1024_f4096_f32_1_alg».proof.Proof.KI.LaunchDefs
import proofs.«901047_g7700000000001048_dist_rsdw_v7x_xyz2x2x4_x_m1024_d1024_f4096_f32_1_alg».proof.Proof.KI.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite products written out -/

theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- Separating conjunction associates, as an equation. -/
theorem sep_assoc_eq (P Q R : sProp 𝕄) : iprop((P ∗ Q) ∗ R) = iprop(P ∗ Q ∗ R) :=
  equiv_iff.mp ⟨sep_assoc, sep_assoc'⟩

/-! ## The launch element, device by device -/

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 17 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, as the cells' counters -/

/-- The sixteen own DMA semaphores are the cells 1 to 16. -/
theorem ownSems0_kcell (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
      ∗ semVal (kcell (c, 5)) 0 ∗ semVal (kcell (c, 6)) 0 ∗ semVal (kcell (c, 7)) 0 ∗ semVal (kcell (c, 8)) 0
      ∗ semVal (kcell (c, 9)) 0 ∗ semVal (kcell (c, 10)) 0 ∗ semVal (kcell (c, 11)) 0 ∗ semVal (kcell (c, 12)) 0
      ∗ semVal (kcell (c, 13)) 0 ∗ semVal (kcell (c, 14)) 0 ∗ semVal (kcell (c, 15)) 0 ∗ semVal (kcell (c, 16)) 0) := by
  rw [Pipeline.ownSems0_eq_of_list c osem [0, 1, 2, 3, 4, 5, 6, 7, 8, 9, 10, 11, 12, 13, 14, 15] (by decide) (by decide)]; rfl

/-- The barrier semaphore is the launch's one unscoped semaphore: cell 0. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_kcell, unscopedSems0_eq, bigSep_fin17]
  exact sep_comm

/-! ## Each device allocates its seventeen cells' invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The persistent records, and what stays with a device -/

/-- Every cell's invariant under its name, and round 0 reached at every cell: persistent, so each device takes what it needs. -/
def records (K : Dev nD × Fin 17 → ℕ) : sProp 𝕄 :=
  iprop((bigSep Finset.univ fun ck : Dev nD × Fin 17 => cellInv ER (sched m ρ) (K ck) (kcell ck))
    ∗ bigSep Finset.univ fun ck : Dev nD × Fin 17 => reached ER (kcell ck) 0)

instance records_persistent (K : Dev nD × Fin 17 → ℕ) : BI.Persistent (records m ρ K) := by unfold records; infer_instance

theorem inv_at (K : Dev nD × Fin 17 → ℕ) (ck : Dev nD × Fin 17) (g : GSem nD τ sig) (hg : kcell ck = g) :
    (bigSep Finset.univ fun ck : Dev nD × Fin 17 => (cellInv ER (sched m ρ) (K ck) (kcell ck) : sProp 𝕄)) ⊢ cellInv ER (sched m ρ) (K ck) g :=
  hg ▸ bigSep_elim (Finset.mem_univ ck)
theorem reached_at (ck : Dev nD × Fin 17) (g : GSem nD τ sig) (hg : kcell ck = g) :
    (bigSep Finset.univ fun ck : Dev nD × Fin 17 => (reached ER (kcell ck) 0 : sProp 𝕄)) ⊢ reached ER g 0 :=
  hg ▸ bigSep_elim (Finset.mem_univ ck)

/-- The invariants a device opens: its own seventeen, both peers' barrier cells, the receive cells it transfers into. -/
theorem records_invs (K : Dev nD × Fin 17 → ℕ) (c : Dev nD) : records m ρ K ⊢ invs m ρ K c := by
  unfold records invs
  iintro ⟨#HI, -⟩
  isplitr; · iapply (inv_at m ρ K (c, 0) (barCell c) rfl); iexact HI
  isplitr
  · isplitr; · iapply (inv_at m ρ K (c, 1) (xsCell c 0) rfl); iexact HI
    isplitr; · iapply (inv_at m ρ K (c, 2) (xsCell c 1) rfl); iexact HI
    isplitr; · iapply (inv_at m ρ K (c, 3) (xsCell c 2) rfl); iexact HI
    iapply (inv_at m ρ K (c, 4) (xsCell c 3) rfl); iexact HI
  isplitr
  · isplitr; · iapply (inv_at m ρ K (c, 5) (xrCell c 0) rfl); iexact HI
    isplitr; · iapply (inv_at m ρ K (c, 6) (xrCell c 1) rfl); iexact HI
    isplitr; · iapply (inv_at m ρ K (c, 7) (xrCell c 2) rfl); iexact HI
    iapply (inv_at m ρ K (c, 8) (xrCell c 3) rfl); iexact HI
  isplitr
  · isplitr; · iapply (inv_at m ρ K (c, 9) (ysCell c 0) rfl); iexact HI
    isplitr; · iapply (inv_at m ρ K (c, 10) (ysCell c 1) rfl); iexact HI
    isplitr; · iapply (inv_at m ρ K (c, 11) (ysCell c 2) rfl); iexact HI
    iapply (inv_at m ρ K (c, 12) (ysCell c 3) rfl); iexact HI
  isplitr
  · isplitr; · iapply (inv_at m ρ K (c, 13) (yrCell c 0) rfl); iexact HI
    isplitr; · iapply (inv_at m ρ K (c, 14) (yrCell c 1) rfl); iexact HI
    isplitr; · iapply (inv_at m ρ K (c, 15) (yrCell c 2) rfl); iexact HI
    iapply (inv_at m ρ K (c, 16) (yrCell c 3) rfl); iexact HI
  isplitr; · iapply (inv_at m ρ K (xp c, 0) (barCell (xp c)) rfl); iexact HI
  isplitr; · iapply (inv_at m ρ K (yp c, 0) (barCell (yp c)) rfl); iexact HI
  isplitr
  · isplitr; · iapply (inv_at m ρ K (xp c, 5) (xrCell (xp c) 0) rfl); iexact HI
    isplitr; · iapply (inv_at m ρ K (xp c, 6) (xrCell (xp c) 1) rfl); iexact HI
    isplitr; · iapply (inv_at m ρ K (xp c, 7) (xrCell (xp c) 2) rfl); iexact HI
    iapply (inv_at m ρ K (xp c, 8) (xrCell (xp c) 3) rfl); iexact HI
  · isplitr; · iapply (inv_at m ρ K (yp c, 13) (yrCell (yp c) 0) rfl); iexact HI
    isplitr; · iapply (inv_at m ρ K (yp c, 14) (yrCell (yp c) 1) rfl); iexact HI
    isplitr; · iapply (inv_at m ρ K (yp c, 15) (yrCell (yp c) 2) rfl); iexact HI
    iapply (inv_at m ρ K (yp c, 16) (yrCell (yp c) 3) rfl); iexact HI

/-- Round 0 reached at every cell a device pays. -/
theorem records_reacheds (K : Dev nD × Fin 17 → ℕ) (c : Dev nD) : records m ρ K ⊢ reacheds c := by
  unfold records reacheds
  iintro ⟨-, #HR⟩
  isplitr; · iapply (reached_at (F := F) (xp c, 0) (barCell (xp c)) rfl); iexact HR
  isplitr; · iapply (reached_at (F := F) (yp c, 0) (barCell (yp c)) rfl); iexact HR
  isplitr
  · isplitr; · iapply (reached_at (F := F) (c, 1) (xsCell c 0) rfl); iexact HR
    isplitr; · iapply (reached_at (F := F) (c, 2) (xsCell c 1) rfl); iexact HR
    isplitr; · iapply (reached_at (F := F) (c, 3) (xsCell c 2) rfl); iexact HR
    iapply (reached_at (F := F) (c, 4) (xsCell c 3) rfl); iexact HR
  isplitr
  · isplitr; · iapply (reached_at (F := F) (c, 9) (ysCell c 0) rfl); iexact HR
    isplitr; · iapply (reached_at (F := F) (c, 10) (ysCell c 1) rfl); iexact HR
    isplitr; · iapply (reached_at (F := F) (c, 11) (ysCell c 2) rfl); iexact HR
    iapply (reached_at (F := F) (c, 12) (ysCell c 3) rfl); iexact HR
  isplitr
  · isplitr; · iapply (reached_at (F := F) (xp c, 5) (xrCell (xp c) 0) rfl); iexact HR
    isplitr; · iapply (reached_at (F := F) (xp c, 6) (xrCell (xp c) 1) rfl); iexact HR
    isplitr; · iapply (reached_at (F := F) (xp c, 7) (xrCell (xp c) 2) rfl); iexact HR
    iapply (reached_at (F := F) (xp c, 8) (xrCell (xp c) 3) rfl); iexact HR
  · isplitr; · iapply (reached_at (F := F) (yp c, 13) (yrCell (yp c) 0) rfl); iexact HR
    isplitr; · iapply (reached_at (F := F) (yp c, 14) (yrCell (yp c) 1) rfl); iexact HR
    isplitr; · iapply (reached_at (F := F) (yp c, 15) (yrCell (yp c) 2) rfl); iexact HR
    iapply (reached_at (F := F) (yp c, 16) (yrCell (yp c) 3) rfl); iexact HR

/-- What stays with device `c`: its positions, and the tokens of the duties it pays. -/
def linear (c : Dev nD) : sProp 𝕄 := iprop(poss c ∗ payToks c)

theorem ghost_intro (K : Dev nD × Fin 17 → ℕ) (c : Dev nD) : iprop(records m ρ K ∗ linear c) ⊢ G' m ρ c := by
  unfold linear G' ghost
  iintro ⟨#HR, Hp, Ht⟩
  iexists K
  isplitr; · iapply (records_invs m ρ K c); iexact HR
  isplitl [Hp]; · iexact Hp
  isplitr; · iapply (records_reacheds m ρ K c); iexact HR
  iexact Ht

/-- The seventeen positions of a device, cell by cell. -/
theorem poss_eq (c : Dev nD) : (bigSep Finset.univ fun k : Fin 17 => (atPos ER (kcell (c, k)) 0 ∅ 0 : sProp 𝕄)) = poss c := by
  rw [bigSep_fin17]; unfold poss; simp only [sep_assoc_eq]; rfl

/-- The eighteen tokens minted for a device's own cells, one by one. -/
theorem toks_eq (c : Dev nD) : (toks c : sProp 𝕄)
    = iprop(dutyTok ER (barCell c) 0 false ∗ dutyTok ER (barCell c) 0 true
      ∗ dutyTok ER (xsCell c 0) 0 false ∗ dutyTok ER (xsCell c 1) 0 false ∗ dutyTok ER (xsCell c 2) 0 false ∗ dutyTok ER (xsCell c 3) 0 false
      ∗ dutyTok ER (xrCell c 0) 0 false ∗ dutyTok ER (xrCell c 1) 0 false ∗ dutyTok ER (xrCell c 2) 0 false ∗ dutyTok ER (xrCell c 3) 0 false
      ∗ dutyTok ER (ysCell c 0) 0 false ∗ dutyTok ER (ysCell c 1) 0 false ∗ dutyTok ER (ysCell c 2) 0 false ∗ dutyTok ER (ysCell c 3) 0 false
      ∗ dutyTok ER (yrCell c 0) 0 false ∗ dutyTok ER (yrCell c 1) 0 false ∗ dutyTok ER (yrCell c 2) 0 false ∗ dutyTok ER (yrCell c 3) 0 false) := by
  unfold toks; rw [bigSep_fin18]; rfl

/-- The tokens dealt around: a barrier's `false` token to the x-peer and its `true` token to the y-peer, a first-hop receive
    token to the x-peer, a second-hop receive token to the y-peer; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv xpE (fun c : Dev nD => (dutyTok ER (barCell c) 0 false : sProp 𝕄)),
    bigSep_univ_equiv ypE (fun c : Dev nD => (dutyTok ER (barCell c) 0 true : sProp 𝕄)),
    bigSep_univ_equiv xpE (fun c : Dev nD => (dutyTok ER (xrCell c 0) 0 false : sProp 𝕄)),
    bigSep_univ_equiv xpE (fun c : Dev nD => (dutyTok ER (xrCell c 1) 0 false : sProp 𝕄)),
    bigSep_univ_equiv xpE (fun c : Dev nD => (dutyTok ER (xrCell c 2) 0 false : sProp 𝕄)),
    bigSep_univ_equiv xpE (fun c : Dev nD => (dutyTok ER (xrCell c 3) 0 false : sProp 𝕄)),
    bigSep_univ_equiv ypE (fun c : Dev nD => (dutyTok ER (yrCell c 0) 0 false : sProp 𝕄)),
    bigSep_univ_equiv ypE (fun c : Dev nD => (dutyTok ER (yrCell c 1) 0 false : sProp 𝕄)),
    bigSep_univ_equiv ypE (fun c : Dev nD => (dutyTok ER (yrCell c 2) 0 false : sProp 𝕄)),
    bigSep_univ_equiv ypE (fun c : Dev nD => (dutyTok ER (yrCell c 3) 0 false : sProp 𝕄))]
  iintro ⟨HbF, HbT, Hxs0, Hxs1, Hxs2, Hxs3, Hxr0, Hxr1, Hxr2, Hxr3, Hys0, Hys1, Hys2, Hys3, Hyr0, Hyr1, Hyr2, Hyr3⟩
  isplitl [HbF]; · iexact HbF
  isplitl [HbT]; · iexact HbT
  isplitl [Hxs0 Hxs1 Hxs2 Hxs3]
  · isplitl [Hxs0]; · iexact Hxs0
    isplitl [Hxs1]; · iexact Hxs1
    isplitl [Hxs2]; · iexact Hxs2
    iexact Hxs3
  isplitl [Hys0 Hys1 Hys2 Hys3]
  · isplitl [Hys0]; · iexact Hys0
    isplitl [Hys1]; · iexact Hys1
    isplitl [Hys2]; · iexact Hys2
    iexact Hys3
  isplitl [Hxr0 Hxr1 Hxr2 Hxr3]
  · isplitl [Hxr0]; · iexact Hxr0
    isplitl [Hxr1]; · iexact Hxr1
    isplitl [Hxr2]; · iexact Hxr2
    iexact Hxr3
  · isplitl [Hyr0]; · iexact Hyr0
    isplitl [Hyr1]; · iexact Hyr1
    isplitl [Hyr2]; · iexact Hyr2
    iexact Hyr3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocations together: the names chosen, the records shared, the tokens dealt. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (sched m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rw [poss_eq])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The sixteen own DMA semaphores at zero, as the region hands them back at exit. -/
theorem ownSems0_eq (c : Dev nD) : (Pipeline.ownSems0 (Ix := Unit) (Name := ℕ) (U := UU) (Lvl := ℕ) (Val := Elt F) (τ := τ) osem c : sProp 𝕄) = semsZero c := by
  rw [Pipeline.ownSems0_eq_of_list c osem [0, 1, 2, 3, 4, 5, 6, 7, 8, 9, 10, 11, 12, 13, 14, 15] (by decide) (by decide)]
  unfold semsZero
  simp only [sep_assoc_eq]
  rfl

end Cert.KernelIdeal.Hand

end
-- ==== Proof.KI.OutDefs.lean ====
/-
  What a run of twelve stores leaves in the 512 × 4096 result buffer, whatever it held before.

  For each of the four column chunks (1024 columns each) the body stores the whole 512 × 1024 chunk `A k`, then adds a
  landing to one 256-row half of it (reading that half back, computing, storing it), and later, for each chunk, adds
  another landing to the other half the same way. A half read back after the whole-chunk store is that half of `A k`
  (no later store touches it before its own), so the buffer ends holding, in chunk `k`, `PX k (half of A k)` on the
  first half and `PY k (other half of A k)` on the other. The twelve stores cover every entry, so what the buffer held
  before does not matter.
-/
import proofs.«901047_g7700000000001048_dist_rsdw_v7x_xyz2x2x4_x_m1024_d1024_f4096_f32_1_alg».proof.Proof.KI.Sched
import Idealize.ShloMosaic.Lib.Writes
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangles -/

abbrev rF0 : Rect S512x4096 := Rect.unit (s := S512x4096) ![0, 0] S512x1024.size inb_S512x4096_S512x1024_0_0
abbrev rF1 : Rect S512x4096 := Rect.unit (s := S512x4096) ![0, 1024] S512x1024.size inb_S512x4096_S512x1024_0_1024
abbrev rF2 : Rect S512x4096 := Rect.unit (s := S512x4096) ![0, 2048] S512x1024.size inb_S512x4096_S512x1024_0_2048
abbrev rF3 : Rect S512x4096 := Rect.unit (s := S512x4096) ![0, 3072] S512x1024.size inb_S512x4096_S512x1024_0_3072
abbrev rT0 : Rect S512x4096 := Rect.unit (s := S512x4096) ![0, 0] S256x1024.size inb_S512x4096_S256x1024_0_0
abbrev rT1 : Rect S512x4096 := Rect.unit (s := S512x4096) ![0, 1024] S256x1024.size inb_S512x4096_S256x1024_0_1024
abbrev rT2 : Rect S512x4096 := Rect.unit (s := S512x4096) ![0, 2048] S256x1024.size inb_S512x4096_S256x1024_0_2048
abbrev rT3 : Rect S512x4096 := Rect.unit (s := S512x4096) ![0, 3072] S256x1024.size inb_S512x4096_S256x1024_0_3072
abbrev rB0 : Rect S512x4096 := Rect.unit (s := S512x4096) ![256, 0] S256x1024.size inb_S512x4096_S256x1024_256_0
abbrev rB1 : Rect S512x4096 := Rect.unit (s := S512x4096) ![256, 1024] S256x1024.size inb_S512x4096_S256x1024_256_1024
abbrev rB2 : Rect S512x4096 := Rect.unit (s := S512x4096) ![256, 2048] S256x1024.size inb_S512x4096_S256x1024_256_2048
abbrev rB3 : Rect S512x4096 := Rect.unit (s := S512x4096) ![256, 3072] S256x1024.size inb_S512x4096_S256x1024_256_3072

section Lists
variable (A0 A1 A2 A3 : Vec F S512x1024 .f32)
  (PX0 PX1 PX2 PX3 PY0 PY1 PY2 PY3 : Vec F S256x1024 .f32 → Vec F S256x1024 .f32)

/-! ## The lists, when the first landing goes to the TOP half (the later one to the bottom half) -/

def LT1 : List (View.Piece (Elt F) S512x4096 .f32) := [⟨rF0, A0⟩]
def LT2 : List (View.Piece (Elt F) S512x4096 .f32) := ⟨rT0, PX0 (oM.view.readCov (LT1 A0) rT0.toLoadRect)⟩ :: LT1 A0
def LT3 : List (View.Piece (Elt F) S512x4096 .f32) := ⟨rF1, A1⟩ :: LT2 A0 PX0
def LT4 : List (View.Piece (Elt F) S512x4096 .f32) := ⟨rT1, PX1 (oM.view.readCov (LT3 A0 A1 PX0) rT1.toLoadRect)⟩ :: LT3 A0 A1 PX0
def LT5 : List (View.Piece (Elt F) S512x4096 .f32) := ⟨rF2, A2⟩ :: LT4 A0 A1 PX0 PX1
def LT6 : List (View.Piece (Elt F) S512x4096 .f32) := ⟨rT2, PX2 (oM.view.readCov (LT5 A0 A1 A2 PX0 PX1) rT2.toLoadRect)⟩ :: LT5 A0 A1 A2 PX0 PX1
def LT7 : List (View.Piece (Elt F) S512x4096 .f32) := ⟨rF3, A3⟩ :: LT6 A0 A1 A2 PX0 PX1 PX2
def LT8 : List (View.Piece (Elt F) S512x4096 .f32) := ⟨rT3, PX3 (oM.view.readCov (LT7 A0 A1 A2 A3 PX0 PX1 PX2) rT3.toLoadRect)⟩ :: LT7 A0 A1 A2 A3 PX0 PX1 PX2
def LT9 : List (View.Piece (Elt F) S512x4096 .f32) := ⟨rB0, PY0 (oM.view.readCov (LT8 A0 A1 A2 A3 PX0 PX1 PX2 PX3) rB0.toLoadRect)⟩ :: LT8 A0 A1 A2 A3 PX0 PX1 PX2 PX3
def LT10 : List (View.Piece (Elt F) S512x4096 .f32) := ⟨rB1, PY1 (oM.view.readCov (LT9 A0 A1 A2 A3 PX0 PX1 PX2 PX3 PY0) rB1.toLoadRect)⟩ :: LT9 A0 A1 A2 A3 PX0 PX1 PX2 PX3 PY0
def LT11 : List (View.Piece (Elt F) S512x4096 .f32) := ⟨rB2, PY2 (oM.view.readCov (LT10 A0 A1 A2 A3 PX0 PX1 PX2 PX3 PY0 PY1) rB2.toLoadRect)⟩ :: LT10 A0 A1 A2 A3 PX0 PX1 PX2 PX3 PY0 PY1
def LT12 : List (View.Piece (Elt F) S512x4096 .f32) := ⟨rB3, PY3 (oM.view.readCov (LT11 A0 A1 A2 A3 PX0 PX1 PX2 PX3 PY0 PY1 PY2) rB3.toLoadRect)⟩ :: LT11 A0 A1 A2 A3 PX0 PX1 PX2 PX3 PY0 PY1 PY2

/-! ## The lists, when the first landing goes to the BOTTOM half (the later one to the top half) -/

def LB1 : List (View.Piece (Elt F) S512x4096 .f32) := [⟨rF0, A0⟩]
def LB2 : List (View.Piece (Elt F) S512x4096 .f32) := ⟨rB0, PX0 (oM.view.readCov (LB1 A0) rB0.toLoadRect)⟩ :: LB1 A0
def LB3 : List (View.Piece (Elt F) S512x4096 .f32) := ⟨rF1, A1⟩ :: LB2 A0 PX0
def LB4 : List (View.Piece (Elt F) S512x4096 .f32) := ⟨rB1, PX1 (oM.view.readCov (LB3 A0 A1 PX0) rB1.toLoadRect)⟩ :: LB3 A0 A1 PX0
def LB5 : List (View.Piece (Elt F) S512x4096 .f32) := ⟨rF2, A2⟩ :: LB4 A0 A1 PX0 PX1
def LB6 : List (View.Piece (Elt F) S512x4096 .f32) := ⟨rB2, PX2 (oM.view.readCov (LB5 A0 A1 A2 PX0 PX1) rB2.toLoadRect)⟩ :: LB5 A0 A1 A2 PX0 PX1
def LB7 : List (View.Piece (Elt F) S512x4096 .f32) := ⟨rF3, A3⟩ :: LB6 A0 A1 A2 PX0 PX1 PX2
def LB8 : List (View.Piece (Elt F) S512x4096 .f32) := ⟨rB3, PX3 (oM.view.readCov (LB7 A0 A1 A2 A3 PX0 PX1 PX2) rB3.toLoadRect)⟩ :: LB7 A0 A1 A2 A3 PX0 PX1 PX2
def LB9 : List (View.Piece (Elt F) S512x4096 .f32) := ⟨rT0, PY0 (oM.view.readCov (LB8 A0 A1 A2 A3 PX0 PX1 PX2 PX3) rT0.toLoadRect)⟩ :: LB8 A0 A1 A2 A3 PX0 PX1 PX2 PX3
def LB10 : List (View.Piece (Elt F) S512x4096 .f32) := ⟨rT1, PY1 (oM.view.readCov (LB9 A0 A1 A2 A3 PX0 PX1 PX2 PX3 PY0) rT1.toLoadRect)⟩ :: LB9 A0 A1 A2 A3 PX0 PX1 PX2 PX3 PY0
def LB11 : List (View.Piece (Elt F) S512x4096 .f32) := ⟨rT2, PY2 (oM.view.readCov (LB10 A0 A1 A2 A3 PX0 PX1 PX2 PX3 PY0 PY1) rT2.toLoadRect)⟩ :: LB10 A0 A1 A2 A3 PX0 PX1 PX2 PX3 PY0 PY1
def LB12 : List (View.Piece (Elt F) S512x4096 .f32) := ⟨rT3, PY3 (oM.view.readCov (LB11 A0 A1 A2 A3 PX0 PX1 PX2 PX3 PY0 PY1 PY2) rT3.toLoadRect)⟩ :: LB11 A0 A1 A2 A3 PX0 PX1 PX2 PX3 PY0 PY1 PY2

/-- Chunk `k`'s two halves after the run, entry by entry of the whole buffer. -/
def assemble (T B : Fin 4 → Vec F S256x1024 .f32) : (cc0_stg2_0 : Ref sig .tc).ty.Contents (Elt F) :=
  fun i =>
    let k : Fin 4 := ⟨(i 1).val / 1024, by have h : (i 1).val < 4096 := (i 1).isLt; omega⟩
    let j : Fin 1024 := ⟨(i 1).val % 1024, Nat.mod_lt _ (by decide)⟩
    if h : (i 0).val < 256 then T k (ValueIdx.ix2 (⟨(i 0).val, h⟩ : Fin 256) j)
    else B k (ValueIdx.ix2 (⟨(i 0).val - 256, by have h' : (i 0).val < 512 := (i 0).isLt; omega⟩ : Fin 256) j)

end Lists

end Cert.KernelIdeal.Hand

end
-- ==== Proof.KI.BodyPre.lean ====
/-
  What the stepping of one device's body starts from and ends with, and the small facts it reads: the schedule's tables
  at the literal cells (with the peers' entries resolved through the involutions), buffers restated through their
  memrefs, a whole-buffer store leaving the stored vector, and the two branch conditions decided from the device's
  second mesh coordinate.
-/
import proofs.«901047_g7700000000001048_dist_rsdw_v7x_xyz2x2x4_x_m1024_d1024_f4096_f32_1_alg».proof.Proof.KI.Sched
import proofs.«901047_g7700000000001048_dist_rsdw_v7x_xyz2x2x4_x_m1024_d1024_f4096_f32_1_alg».proof.Proof.KI.Tables
import proofs.«901047_g7700000000001048_dist_rsdw_v7x_xyz2x2x4_x_m1024_d1024_f4096_f32_1_alg».proof.Proof.KI.OutDefs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's pre- and postcondition -/

def bodyPre (K : Dev nD × Fin 17 → ℕ) (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (dystg m ρ c) ∗ stg c cc0_stg2_0 (outAt m ρ c))

/-! ## The schedule's tables at the literal cells, as the stepping reads them -/

theorem pay_xs0 (c : Dev nD) (d : Bool) : (sched m ρ).payload ((c : Thread nD τ), .dma (3 : DmaSem sig)) 0 d = ((Memref.whole cc0_scratch0 : Memref sig .tc .vmem S256x1024 .bf16).view.loc (c : Thread nD τ) ↦[(Memref.whole cc0_scratch0 : Memref sig .tc .vmem S256x1024 .bf16).view.set]{fullShare} (sx m ρ c 0) : sProp 𝕄) := rfl
theorem pay_xr0 (c : Dev nD) (d : Bool) : (sched m ρ).payload ((c : Thread nD τ), .dma (7 : DmaSem sig)) 0 d = ((Memref.whole cc0_scratch4 : Memref sig .tc .vmem S256x1024 .bf16).view.loc (c : Thread nD τ) ↦[(Memref.whole cc0_scratch4 : Memref sig .tc .vmem S256x1024 .bf16).view.set]{fullShare} (xqv m ρ c 0) : sProp 𝕄) := rfl
theorem pay_ys0 (c : Dev nD) (d : Bool) : (sched m ρ).payload ((c : Thread nD τ), .dma (11 : DmaSem sig)) 0 d = ((Memref.whole cc0_scratch4 : Memref sig .tc .vmem S256x1024 .bf16).view.loc (c : Thread nD τ) ↦[(Memref.whole cc0_scratch4 : Memref sig .tc .vmem S256x1024 .bf16).view.set]{fullShare.left} (xqv m ρ c 0) : sProp 𝕄) := rfl
theorem pay_yr0 (c : Dev nD) (d : Bool) : (sched m ρ).payload ((c : Thread nD τ), .dma (15 : DmaSem sig)) 0 d = ((Memref.whole cc0_scratch8 : Memref sig .tc .vmem S256x1024 .bf16).view.loc (c : Thread nD τ) ↦[(Memref.whole cc0_scratch8 : Memref sig .tc .vmem S256x1024 .bf16).view.set]{fullShare} (yqv m ρ c 0) : sProp 𝕄) := rfl
theorem pay_xs1 (c : Dev nD) (d : Bool) : (sched m ρ).payload ((c : Thread nD τ), .dma (4 : DmaSem sig)) 0 d = ((Memref.whole cc0_scratch1 : Memref sig .tc .vmem S256x1024 .bf16).view.loc (c : Thread nD τ) ↦[(Memref.whole cc0_scratch1 : Memref sig .tc .vmem S256x1024 .bf16).view.set]{fullShare} (sx m ρ c 1) : sProp 𝕄) := rfl
theorem pay_xr1 (c : Dev nD) (d : Bool) : (sched m ρ).payload ((c : Thread nD τ), .dma (8 : DmaSem sig)) 0 d = ((Memref.whole cc0_scratch5 : Memref sig .tc .vmem S256x1024 .bf16).view.loc (c : Thread nD τ) ↦[(Memref.whole cc0_scratch5 : Memref sig .tc .vmem S256x1024 .bf16).view.set]{fullShare} (xqv m ρ c 1) : sProp 𝕄) := rfl
theorem pay_ys1 (c : Dev nD) (d : Bool) : (sched m ρ).payload ((c : Thread nD τ), .dma (12 : DmaSem sig)) 0 d = ((Memref.whole cc0_scratch5 : Memref sig .tc .vmem S256x1024 .bf16).view.loc (c : Thread nD τ) ↦[(Memref.whole cc0_scratch5 : Memref sig .tc .vmem S256x1024 .bf16).view.set]{fullShare.left} (xqv m ρ c 1) : sProp 𝕄) := rfl
theorem pay_yr1 (c : Dev nD) (d : Bool) : (sched m ρ).payload ((c : Thread nD τ), .dma (16 : DmaSem sig)) 0 d = ((Memref.whole cc0_scratch9 : Memref sig .tc .vmem S256x1024 .bf16).view.loc (c : Thread nD τ) ↦[(Memref.whole cc0_scratch9 : Memref sig .tc .vmem S256x1024 .bf16).view.set]{fullShare} (yqv m ρ c 1) : sProp 𝕄) := rfl
theorem pay_xs2 (c : Dev nD) (d : Bool) : (sched m ρ).payload ((c : Thread nD τ), .dma (5 : DmaSem sig)) 0 d = ((Memref.whole cc0_scratch2 : Memref sig .tc .vmem S256x1024 .bf16).view.loc (c : Thread nD τ) ↦[(Memref.whole cc0_scratch2 : Memref sig .tc .vmem S256x1024 .bf16).view.set]{fullShare} (sx m ρ c 2) : sProp 𝕄) := rfl
theorem pay_xr2 (c : Dev nD) (d : Bool) : (sched m ρ).payload ((c : Thread nD τ), .dma (9 : DmaSem sig)) 0 d = ((Memref.whole cc0_scratch6 : Memref sig .tc .vmem S256x1024 .bf16).view.loc (c : Thread nD τ) ↦[(Memref.whole cc0_scratch6 : Memref sig .tc .vmem S256x1024 .bf16).view.set]{fullShare} (xqv m ρ c 2) : sProp 𝕄) := rfl
theorem pay_ys2 (c : Dev nD) (d : Bool) : (sched m ρ).payload ((c : Thread nD τ), .dma (13 : DmaSem sig)) 0 d = ((Memref.whole cc0_scratch6 : Memref sig .tc .vmem S256x1024 .bf16).view.loc (c : Thread nD τ) ↦[(Memref.whole cc0_scratch6 : Memref sig .tc .vmem S256x1024 .bf16).view.set]{fullShare.left} (xqv m ρ c 2) : sProp 𝕄) := rfl
theorem pay_yr2 (c : Dev nD) (d : Bool) : (sched m ρ).payload ((c : Thread nD τ), .dma (17 : DmaSem sig)) 0 d = ((Memref.whole cc0_scratch10 : Memref sig .tc .vmem S256x1024 .bf16).view.loc (c : Thread nD τ) ↦[(Memref.whole cc0_scratch10 : Memref sig .tc .vmem S256x1024 .bf16).view.set]{fullShare} (yqv m ρ c 2) : sProp 𝕄) := rfl
theorem pay_xs3 (c : Dev nD) (d : Bool) : (sched m ρ).payload ((c : Thread nD τ), .dma (6 : DmaSem sig)) 0 d = ((Memref.whole cc0_scratch3 : Memref sig .tc .vmem S256x1024 .bf16).view.loc (c : Thread nD τ) ↦[(Memref.whole cc0_scratch3 : Memref sig .tc .vmem S256x1024 .bf16).view.set]{fullShare} (sx m ρ c 3) : sProp 𝕄) := rfl
theorem pay_xr3 (c : Dev nD) (d : Bool) : (sched m ρ).payload ((c : Thread nD τ), .dma (10 : DmaSem sig)) 0 d = ((Memref.whole cc0_scratch7 : Memref sig .tc .vmem S256x1024 .bf16).view.loc (c : Thread nD τ) ↦[(Memref.whole cc0_scratch7 : Memref sig .tc .vmem S256x1024 .bf16).view.set]{fullShare} (xqv m ρ c 3) : sProp 𝕄) := rfl
theorem pay_ys3 (c : Dev nD) (d : Bool) : (sched m ρ).payload ((c : Thread nD τ), .dma (14 : DmaSem sig)) 0 d = ((Memref.whole cc0_scratch7 : Memref sig .tc .vmem S256x1024 .bf16).view.loc (c : Thread nD τ) ↦[(Memref.whole cc0_scratch7 : Memref sig .tc .vmem S256x1024 .bf16).view.set]{fullShare.left} (xqv m ρ c 3) : sProp 𝕄) := rfl
theorem pay_yr3 (c : Dev nD) (d : Bool) : (sched m ρ).payload ((c : Thread nD τ), .dma (18 : DmaSem sig)) 0 d = ((Memref.whole cc0_scratch11 : Memref sig .tc .vmem S256x1024 .bf16).view.loc (c : Thread nD τ) ↦[(Memref.whole cc0_scratch11 : Memref sig .tc .vmem S256x1024 .bf16).view.set]{fullShare} (yqv m ρ c 3) : sProp 𝕄) := rfl

theorem payX_peer (c : Dev nD) : (sched m ρ).payload (((xp c : Dev nD) : Thread nD τ), .reg barS) 0 false
    = (iprop((∃ f, ((Memref.whole cc0_scratch4 : Memref sig .tc .vmem S256x1024 .bf16).view.loc (c : Thread nD τ) ↦[(Memref.whole cc0_scratch4 : Memref sig .tc .vmem S256x1024 .bf16).view.set]{fullShare} f : sProp 𝕄)) ∗ (∃ f, ((Memref.whole cc0_scratch5 : Memref sig .tc .vmem S256x1024 .bf16).view.loc (c : Thread nD τ) ↦[(Memref.whole cc0_scratch5 : Memref sig .tc .vmem S256x1024 .bf16).view.set]{fullShare} f : sProp 𝕄)) ∗ (∃ f, ((Memref.whole cc0_scratch6 : Memref sig .tc .vmem S256x1024 .bf16).view.loc (c : Thread nD τ) ↦[(Memref.whole cc0_scratch6 : Memref sig .tc .vmem S256x1024 .bf16).view.set]{fullShare} f : sProp 𝕄)) ∗ (∃ f, ((Memref.whole cc0_scratch7 : Memref sig .tc .vmem S256x1024 .bf16).view.loc (c : Thread nD τ) ↦[(Memref.whole cc0_scratch7 : Memref sig .tc .vmem S256x1024 .bf16).view.set]{fullShare} f : sProp 𝕄))) : sProp 𝕄) := by
  show barPayX (F := F) (xp c) = _
  unfold barPayX; rw [xp_xp]
theorem payY_peer (c : Dev nD) : (sched m ρ).payload (((yp c : Dev nD) : Thread nD τ), .reg barS) 0 true
    = (iprop((∃ f, ((Memref.whole cc0_scratch8 : Memref sig .tc .vmem S256x1024 .bf16).view.loc (c : Thread nD τ) ↦[(Memref.whole cc0_scratch8 : Memref sig .tc .vmem S256x1024 .bf16).view.set]{fullShare} f : sProp 𝕄)) ∗ (∃ f, ((Memref.whole cc0_scratch9 : Memref sig .tc .vmem S256x1024 .bf16).view.loc (c : Thread nD τ) ↦[(Memref.whole cc0_scratch9 : Memref sig .tc .vmem S256x1024 .bf16).view.set]{fullShare} f : sProp 𝕄)) ∗ (∃ f, ((Memref.whole cc0_scratch10 : Memref sig .tc .vmem S256x1024 .bf16).view.loc (c : Thread nD τ) ↦[(Memref.whole cc0_scratch10 : Memref sig .tc .vmem S256x1024 .bf16).view.set]{fullShare} f : sProp 𝕄)) ∗ (∃ f, ((Memref.whole cc0_scratch11 : Memref sig .tc .vmem S256x1024 .bf16).view.loc (c : Thread nD τ) ↦[(Memref.whole cc0_scratch11 : Memref sig .tc .vmem S256x1024 .bf16).view.set]{fullShare} f : sProp 𝕄))) : sProp 𝕄) := by
  show barPayY (F := F) (yp c) = _
  unfold barPayY; rw [yp_yp]
theorem payX_own (c : Dev nD) : (sched m ρ).payload ((c : Thread nD τ), .reg barS) 0 false
    = (iprop((∃ f, ((Memref.whole cc0_scratch4 : Memref sig .tc .vmem S256x1024 .bf16).view.loc (xp c : Thread nD τ) ↦[(Memref.whole cc0_scratch4 : Memref sig .tc .vmem S256x1024 .bf16).view.set]{fullShare} f : sProp 𝕄)) ∗ (∃ f, ((Memref.whole cc0_scratch5 : Memref sig .tc .vmem S256x1024 .bf16).view.loc (xp c : Thread nD τ) ↦[(Memref.whole cc0_scratch5 : Memref sig .tc .vmem S256x1024 .bf16).view.set]{fullShare} f : sProp 𝕄)) ∗ (∃ f, ((Memref.whole cc0_scratch6 : Memref sig .tc .vmem S256x1024 .bf16).view.loc (xp c : Thread nD τ) ↦[(Memref.whole cc0_scratch6 : Memref sig .tc .vmem S256x1024 .bf16).view.set]{fullShare} f : sProp 𝕄)) ∗ (∃ f, ((Memref.whole cc0_scratch7 : Memref sig .tc .vmem S256x1024 .bf16).view.loc (xp c : Thread nD τ) ↦[(Memref.whole cc0_scratch7 : Memref sig .tc .vmem S256x1024 .bf16).view.set]{fullShare} f : sProp 𝕄))) : sProp 𝕄) := rfl
theorem payY_own (c : Dev nD) : (sched m ρ).payload ((c : Thread nD τ), .reg barS) 0 true
    = (iprop((∃ f, ((Memref.whole cc0_scratch8 : Memref sig .tc .vmem S256x1024 .bf16).view.loc (yp c : Thread nD τ) ↦[(Memref.whole cc0_scratch8 : Memref sig .tc .vmem S256x1024 .bf16).view.set]{fullShare} f : sProp 𝕄)) ∗ (∃ f, ((Memref.whole cc0_scratch9 : Memref sig .tc .vmem S256x1024 .bf16).view.loc (yp c : Thread nD τ) ↦[(Memref.whole cc0_scratch9 : Memref sig .tc .vmem S256x1024 .bf16).view.set]{fullShare} f : sProp 𝕄)) ∗ (∃ f, ((Memref.whole cc0_scratch10 : Memref sig .tc .vmem S256x1024 .bf16).view.loc (yp c : Thread nD τ) ↦[(Memref.whole cc0_scratch10 : Memref sig .tc .vmem S256x1024 .bf16).view.set]{fullShare} f : sProp 𝕄)) ∗ (∃ f, ((Memref.whole cc0_scratch11 : Memref sig .tc .vmem S256x1024 .bf16).view.loc (yp c : Thread nD τ) ↦[(Memref.whole cc0_scratch11 : Memref sig .tc .vmem S256x1024 .bf16).view.set]{fullShare} f : sProp 𝕄))) : sProp 𝕄) := rfl

theorem pay_xr0_peer (c : Dev nD) (d : Bool) : (sched m ρ).payload (((xp c : Dev nD) : Thread nD τ), .dma (7 : DmaSem sig)) 0 d = ((Memref.whole cc0_scratch4 : Memref sig .tc .vmem S256x1024 .bf16).view.loc (xp c : Thread nD τ) ↦[(Memref.whole cc0_scratch4 : Memref sig .tc .vmem S256x1024 .bf16).view.set]{fullShare} (sx m ρ c 0) : sProp 𝕄) := by
  show pts (Memref.whole cc0_scratch4 : Memref sig .tc .vmem S256x1024 .bf16) (xp c) fullShare (xqv m ρ (xp c) 0) = _
  unfold xqv pts; rw [xp_xp]
theorem pay_yr0_peer (c : Dev nD) (d : Bool) : (sched m ρ).payload (((yp c : Dev nD) : Thread nD τ), .dma (15 : DmaSem sig)) 0 d = ((Memref.whole cc0_scratch8 : Memref sig .tc .vmem S256x1024 .bf16).view.loc (yp c : Thread nD τ) ↦[(Memref.whole cc0_scratch8 : Memref sig .tc .vmem S256x1024 .bf16).view.set]{fullShare} (xqv m ρ c 0) : sProp 𝕄) := by
  show pts (Memref.whole cc0_scratch8 : Memref sig .tc .vmem S256x1024 .bf16) (yp c) fullShare (yqv m ρ (yp c) 0) = _
  unfold yqv xqv pts; rw [yp_yp]
theorem pay_xr1_peer (c : Dev nD) (d : Bool) : (sched m ρ).payload (((xp c : Dev nD) : Thread nD τ), .dma (8 : DmaSem sig)) 0 d = ((Memref.whole cc0_scratch5 : Memref sig .tc .vmem S256x1024 .bf16).view.loc (xp c : Thread nD τ) ↦[(Memref.whole cc0_scratch5 : Memref sig .tc .vmem S256x1024 .bf16).view.set]{fullShare} (sx m ρ c 1) : sProp 𝕄) := by
  show pts (Memref.whole cc0_scratch5 : Memref sig .tc .vmem S256x1024 .bf16) (xp c) fullShare (xqv m ρ (xp c) 1) = _
  unfold xqv pts; rw [xp_xp]
theorem pay_yr1_peer (c : Dev nD) (d : Bool) : (sched m ρ).payload (((yp c : Dev nD) : Thread nD τ), .dma (16 : DmaSem sig)) 0 d = ((Memref.whole cc0_scratch9 : Memref sig .tc .vmem S256x1024 .bf16).view.loc (yp c : Thread nD τ) ↦[(Memref.whole cc0_scratch9 : Memref sig .tc .vmem S256x1024 .bf16).view.set]{fullShare} (xqv m ρ c 1) : sProp 𝕄) := by
  show pts (Memref.whole cc0_scratch9 : Memref sig .tc .vmem S256x1024 .bf16) (yp c) fullShare (yqv m ρ (yp c) 1) = _
  unfold yqv xqv pts; rw [yp_yp]
theorem pay_xr2_peer (c : Dev nD) (d : Bool) : (sched m ρ).payload (((xp c : Dev nD) : Thread nD τ), .dma (9 : DmaSem sig)) 0 d = ((Memref.whole cc0_scratch6 : Memref sig .tc .vmem S256x1024 .bf16).view.loc (xp c : Thread nD τ) ↦[(Memref.whole cc0_scratch6 : Memref sig .tc .vmem S256x1024 .bf16).view.set]{fullShare} (sx m ρ c 2) : sProp 𝕄) := by
  show pts (Memref.whole cc0_scratch6 : Memref sig .tc .vmem S256x1024 .bf16) (xp c) fullShare (xqv m ρ (xp c) 2) = _
  unfold xqv pts; rw [xp_xp]
theorem pay_yr2_peer (c : Dev nD) (d : Bool) : (sched m ρ).payload (((yp c : Dev nD) : Thread nD τ), .dma (17 : DmaSem sig)) 0 d = ((Memref.whole cc0_scratch10 : Memref sig .tc .vmem S256x1024 .bf16).view.loc (yp c : Thread nD τ) ↦[(Memref.whole cc0_scratch10 : Memref sig .tc .vmem S256x1024 .bf16).view.set]{fullShare} (xqv m ρ c 2) : sProp 𝕄) := by
  show pts (Memref.whole cc0_scratch10 : Memref sig .tc .vmem S256x1024 .bf16) (yp c) fullShare (yqv m ρ (yp c) 2) = _
  unfold yqv xqv pts; rw [yp_yp]
theorem pay_xr3_peer (c : Dev nD) (d : Bool) : (sched m ρ).payload (((xp c : Dev nD) : Thread nD τ), .dma (10 : DmaSem sig)) 0 d = ((Memref.whole cc0_scratch7 : Memref sig .tc .vmem S256x1024 .bf16).view.loc (xp c : Thread nD τ) ↦[(Memref.whole cc0_scratch7 : Memref sig .tc .vmem S256x1024 .bf16).view.set]{fullShare} (sx m ρ c 3) : sProp 𝕄) := by
  show pts (Memref.whole cc0_scratch7 : Memref sig .tc .vmem S256x1024 .bf16) (xp c) fullShare (xqv m ρ (xp c) 3) = _
  unfold xqv pts; rw [xp_xp]
theorem pay_yr3_peer (c : Dev nD) (d : Bool) : (sched m ρ).payload (((yp c : Dev nD) : Thread nD τ), .dma (18 : DmaSem sig)) 0 d = ((Memref.whole cc0_scratch11 : Memref sig .tc .vmem S256x1024 .bf16).view.loc (yp c : Thread nD τ) ↦[(Memref.whole cc0_scratch11 : Memref sig .tc .vmem S256x1024 .bf16).view.set]{fullShare} (xqv m ρ c 3) : sProp 𝕄) := by
  show pts (Memref.whole cc0_scratch11 : Memref sig .tc .vmem S256x1024 .bf16) (yp c) fullShare (yqv m ρ (yp c) 3) = _
  unfold yqv xqv pts; rw [yp_yp]

theorem bar_pay_eq (c : Dev nD) :
    bigSep Finset.univ (fun d : Bool => (sched m ρ).payload (barCell c) 0 d) = iprop(barPayX (F := F) c ∗ barPayY c) := by
  rw [bigSep_univ_eq_bigSepL [false, true] (by decide) (by decide), bigSepL_cons_cons, bigSepL_singleton,
    payload_bar_false, payload_bar_true]
  rfl

/-! ## Buffers restated: staging buffers through their memrefs; a whole-buffer store leaves the stored vector -/

theorem hx_eq (c : Dev nD) (f : Buf (Elt F) ((c : Thread nD τ).loc cc0_stg0_0)) :
    (((c : Thread nD τ).loc cc0_stg0_0) ↦{fullShare} f : sProp 𝕄) = (xM.view.loc (c : Thread nD τ) ↦[xM.view.set]{fullShare} f : sProp 𝕄) := by
  rw [View.set_whole]
theorem hdy_eq (c : Dev nD) (f : Buf (Elt F) ((c : Thread nD τ).loc cc0_stg1_0)) :
    (((c : Thread nD τ).loc cc0_stg1_0) ↦{fullShare} f : sProp 𝕄) = (dyM.view.loc (c : Thread nD τ) ↦[dyM.view.set]{fullShare} f : sProp 𝕄) := by
  rw [View.set_whole]
theorem ho_eq (c : Dev nD) (f : Buf (Elt F) ((c : Thread nD τ).loc cc0_stg2_0)) :
    (((c : Thread nD τ).loc cc0_stg2_0) ↦{fullShare} f : sProp 𝕄) = (oM.view.loc (c : Thread nD τ) ↦[oM.view.set]{fullShare} f : sProp 𝕄) := by
  rw [View.set_whole]

omit [FloatOps F] in
theorem hz2 : (![0, 0] : Fin 2 → Nat) = fun _ => 0 := funext fun a => by fin_cases a <;> rfl

/-- A store of a whole buffer leaves the stored vector: product 0 as the device sends it. -/
theorem sx0_restate (c : Dev nD) (fs : Buf (Elt F) ((Memref.whole cc0_scratch0 : Memref sig .tc .vmem S256x1024 .bf16).view.loc (c : Thread nD τ))) (v : Vec F S256x1024 .bf16) (hv : v = sx m ρ c 0) :
    ((Memref.whole cc0_scratch0 : Memref sig .tc .vmem S256x1024 .bf16).view.loc (c : Thread nD τ) ↦[(Memref.whole cc0_scratch0 : Memref sig .tc .vmem S256x1024 .bf16).view.set]{fullShare} ((Memref.whole cc0_scratch0 : Memref sig .tc .vmem S256x1024 .bf16).view.writes (Elt F) fs [⟨Rect.unit (s := S256x1024) ![0, 0] S256x1024.size inb_S256x1024_S256x1024_0_0, v⟩]) : sProp 𝕄)
      = ((Memref.whole cc0_scratch0 : Memref sig .tc .vmem S256x1024 .bf16).view.loc (c : Thread nD τ) ↦[(Memref.whole cc0_scratch0 : Memref sig .tc .vmem S256x1024 .bf16).view.set]{fullShare} (sx m ρ c 0) : sProp 𝕄) := by
  subst hv
  rw [View.writes_singleton]
  congr 1
  exact Memref.write_access_unit_zero_univ (Elt F) cc0_scratch0 hz2 _ fs _

/-- The same for product 1, at the loads as the body makes them. -/
theorem sx1_restate (c : Dev nD) (fs : Buf (Elt F) ((Memref.whole cc0_scratch1 : Memref sig .tc .vmem S256x1024 .bf16).view.loc (c : Thread nD τ))) :
    ((Memref.whole cc0_scratch1 : Memref sig .tc .vmem S256x1024 .bf16).view.loc (c : Thread nD τ) ↦[(Memref.whole cc0_scratch1 : Memref sig .tc .vmem S256x1024 .bf16).view.set]{fullShare} ((Memref.whole cc0_scratch1 : Memref sig .tc .vmem S256x1024 .bf16).view.writes (Elt F) fs [⟨Rect.unit (s := S256x1024) ![0, 0] S256x1024.size inb_S256x1024_S256x1024_0_0, k0_pay4 (xM.view.readAt (Elt F) (Rect.unit (s := S1024x1024) (k0_off1 c) S1024x256.size (k0_off1_inb c)).toLoadRect (xstg m ρ c)) (dyM.view.readAt (Elt F) (Rect.unit (s := S1024x4096) ![0, 1024] S1024x1024.size inb_S1024x4096_S1024x1024_0_1024).toLoadRect (dystg m ρ c))⟩]) : sProp 𝕄)
      = ((Memref.whole cc0_scratch1 : Memref sig .tc .vmem S256x1024 .bf16).view.loc (c : Thread nD τ) ↦[(Memref.whole cc0_scratch1 : Memref sig .tc .vmem S256x1024 .bf16).view.set]{fullShare} (sx m ρ c 1) : sProp 𝕄) := by
  show ((Memref.whole cc0_scratch1 : Memref sig .tc .vmem S256x1024 .bf16).view.loc (c : Thread nD τ) ↦[(Memref.whole cc0_scratch1 : Memref sig .tc .vmem S256x1024 .bf16).view.set]{fullShare} ((Memref.whole cc0_scratch1 : Memref sig .tc .vmem S256x1024 .bf16).view.writes (Elt F) fs [⟨Rect.unit (s := S256x1024) ![0, 0] S256x1024.size inb_S256x1024_S256x1024_0_0, sx m ρ c 1⟩]) : sProp 𝕄) = _
  rw [View.writes_singleton]
  congr 1
  exact Memref.write_access_unit_zero_univ (Elt F) cc0_scratch1 hz2 _ fs _

/-- The same for product 2, at the loads as the body makes them. -/
theorem sx2_restate (c : Dev nD) (fs : Buf (Elt F) ((Memref.whole cc0_scratch2 : Memref sig .tc .vmem S256x1024 .bf16).view.loc (c : Thread nD τ))) :
    ((Memref.whole cc0_scratch2 : Memref sig .tc .vmem S256x1024 .bf16).view.loc (c : Thread nD τ) ↦[(Memref.whole cc0_scratch2 : Memref sig .tc .vmem S256x1024 .bf16).view.set]{fullShare} ((Memref.whole cc0_scratch2 : Memref sig .tc .vmem S256x1024 .bf16).view.writes (Elt F) fs [⟨Rect.unit (s := S256x1024) ![0, 0] S256x1024.size inb_S256x1024_S256x1024_0_0, k0_pay5 (xM.view.readAt (Elt F) (Rect.unit (s := S1024x1024) (k0_off1 c) S1024x256.size (k0_off1_inb c)).toLoadRect (xstg m ρ c)) (dyM.view.readAt (Elt F) (Rect.unit (s := S1024x4096) ![0, 2048] S1024x1024.size inb_S1024x4096_S1024x1024_0_2048).toLoadRect (dystg m ρ c))⟩]) : sProp 𝕄)
      = ((Memref.whole cc0_scratch2 : Memref sig .tc .vmem S256x1024 .bf16).view.loc (c : Thread nD τ) ↦[(Memref.whole cc0_scratch2 : Memref sig .tc .vmem S256x1024 .bf16).view.set]{fullShare} (sx m ρ c 2) : sProp 𝕄) := by
  show ((Memref.whole cc0_scratch2 : Memref sig .tc .vmem S256x1024 .bf16).view.loc (c : Thread nD τ) ↦[(Memref.whole cc0_scratch2 : Memref sig .tc .vmem S256x1024 .bf16).view.set]{fullShare} ((Memref.whole cc0_scratch2 : Memref sig .tc .vmem S256x1024 .bf16).view.writes (Elt F) fs [⟨Rect.unit (s := S256x1024) ![0, 0] S256x1024.size inb_S256x1024_S256x1024_0_0, sx m ρ c 2⟩]) : sProp 𝕄) = _
  rw [View.writes_singleton]
  congr 1
  exact Memref.write_access_unit_zero_univ (Elt F) cc0_scratch2 hz2 _ fs _

/-- The same for product 3, at the loads as the body makes them. -/
theorem sx3_restate (c : Dev nD) (fs : Buf (Elt F) ((Memref.whole cc0_scratch3 : Memref sig .tc .vmem S256x1024 .bf16).view.loc (c : Thread nD τ))) :
    ((Memref.whole cc0_scratch3 : Memref sig .tc .vmem S256x1024 .bf16).view.loc (c : Thread nD τ) ↦[(Memref.whole cc0_scratch3 : Memref sig .tc .vmem S256x1024 .bf16).view.set]{fullShare} ((Memref.whole cc0_scratch3 : Memref sig .tc .vmem S256x1024 .bf16).view.writes (Elt F) fs [⟨Rect.unit (s := S256x1024) ![0, 0] S256x1024.size inb_S256x1024_S256x1024_0_0, k0_pay6 (xM.view.readAt (Elt F) (Rect.unit (s := S1024x1024) (k0_off1 c) S1024x256.size (k0_off1_inb c)).toLoadRect (xstg m ρ c)) (dyM.view.readAt (Elt F) (Rect.unit (s := S1024x4096) ![0, 3072] S1024x1024.size inb_S1024x4096_S1024x1024_0_3072).toLoadRect (dystg m ρ c))⟩]) : sProp 𝕄)
      = ((Memref.whole cc0_scratch3 : Memref sig .tc .vmem S256x1024 .bf16).view.loc (c : Thread nD τ) ↦[(Memref.whole cc0_scratch3 : Memref sig .tc .vmem S256x1024 .bf16).view.set]{fullShare} (sx m ρ c 3) : sProp 𝕄) := by
  show ((Memref.whole cc0_scratch3 : Memref sig .tc .vmem S256x1024 .bf16).view.loc (c : Thread nD τ) ↦[(Memref.whole cc0_scratch3 : Memref sig .tc .vmem S256x1024 .bf16).view.set]{fullShare} ((Memref.whole cc0_scratch3 : Memref sig .tc .vmem S256x1024 .bf16).view.writes (Elt F) fs [⟨Rect.unit (s := S256x1024) ![0, 0] S256x1024.size inb_S256x1024_S256x1024_0_0, sx m ρ c 3⟩]) : sProp 𝕄) = _
  rw [View.writes_singleton]
  congr 1
  exact Memref.write_access_unit_zero_univ (Elt F) cc0_scratch3 hz2 _ fs _

/-- The word the body computes for the device's second mesh coordinate. -/
def cyW (c : Dev nD) : BitVec 32 := Scalar.remsi (Scalar.divsi (Dev.word c) 4#32) 2#32

theorem cond_facts : ∀ c : Dev nD,
    (cy c = 0 → Scalar.cmpi .ne (Scalar.extui (Scalar.cmpi .eq (cyW c) 0#32)) 0#32 = 1#1
        ∧ ¬ Scalar.cmpi .ne (Scalar.extui (Scalar.cmpi .eq (cyW c) 1#32)) 0#32 = 1#1)
      ∧ (cy c = 1 → ¬ Scalar.cmpi .ne (Scalar.extui (Scalar.cmpi .eq (cyW c) 0#32)) 0#32 = 1#1
        ∧ Scalar.cmpi .ne (Scalar.extui (Scalar.cmpi .eq (cyW c) 1#32)) 0#32 = 1#1) := by decide +kernel

theorem c0_pos (c : Dev nD) (h : cy c = 0) (w : BitVec 32) (hw : w = cyW c) :
    Scalar.cmpi .ne (Scalar.extui (Scalar.cmpi .eq w 0#32)) 0#32 = 1#1 := by subst hw; exact ((cond_facts c).1 h).1
theorem c0_neg (c : Dev nD) (h : cy c = 0) (w : BitVec 32) (hw : w = cyW c) :
    ¬ Scalar.cmpi .ne (Scalar.extui (Scalar.cmpi .eq w 1#32)) 0#32 = 1#1 := by subst hw; exact ((cond_facts c).1 h).2
theorem c1_neg (c : Dev nD) (h : cy c = 1) (w : BitVec 32) (hw : w = cyW c) :
    ¬ Scalar.cmpi .ne (Scalar.extui (Scalar.cmpi .eq w 0#32)) 0#32 = 1#1 := by subst hw; exact ((cond_facts c).2 h).1
theorem c1_pos (c : Dev nD) (h : cy c = 1) (w : BitVec 32) (hw : w = cyW c) :
    Scalar.cmpi .ne (Scalar.extui (Scalar.cmpi .eq w 1#32)) 0#32 = 1#1 := by subst hw; exact ((cond_facts c).2 h).2

theorem outAt_eq_assemble (c : Dev nD) : outAt m ρ c = assemble (topVal m ρ c) (botVal m ρ c) := rfl

end Cert.KernelIdeal.Hand

end
-- ==== Proof.KI.Body0.lean ====
/-
  One device's body, stepped once at a symbolic device whose second mesh coordinate is 0: two barrier signals, the four
  products stored and sent on the first hop (after the barrier wait), then chunk by chunk the first-hop landing awaited
  and forwarded on the second hop, the device's own product stored and the landing added to its TOP quarter; then the
  second-hop landings awaited and added to the BOTTOM quarter; then the eight send cells awaited.
-/
import proofs.«901047_g7700000000001048_dist_rsdw_v7x_xyz2x2x4_x_m1024_d1024_f4096_f32_1_alg».proof.Proof.KI.BodyPre

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_canon] dev1_eq dev2_eq dev3_eq dev4_eq dev5_eq dev6_eq dev7_eq dev8_eq dev9_eq dev10_eq
  slice_xs0 slice_xs1 slice_xs2 slice_xs3 slice_xr0 slice_xr1 slice_xr2 slice_xr3 slice_ys0 slice_ys1 slice_ys2 slice_ys3 slice_yr0 slice_yr1 slice_yr2 slice_yr3
attribute [local sl_rounds] duties_bar duties_dma amount_bar amount_dma expect_bar expect_dma payX_own payY_own
  pay_xs0 pay_xs1 pay_xs2 pay_xs3 pay_xr0 pay_xr1 pay_xr2 pay_xr3 pay_ys0 pay_ys1 pay_ys2 pay_ys3 pay_yr0 pay_yr1 pay_yr2 pay_yr3
attribute [local sl_rounds high] payX_peer payY_peer pay_xr0_peer pay_yr0_peer pay_xr1_peer pay_yr1_peer pay_xr2_peer pay_yr2_peer pay_xr3_peer pay_yr3_peer
attribute [local irreducible] xp yp

set_option maxHeartbeats 4000000 in
/-- The body stepped once from `bodyPre` to `bodyPost`, for a device whose second mesh coordinate is 0. -/
theorem body_cy0
    (hWr : ∀ (A0 A1 A2 A3 : Vec F S512x1024 .f32) (PX0 PX1 PX2 PX3 PY0 PY1 PY2 PY3 : Vec F S256x1024 .f32 → Vec F S256x1024 .f32)
      (g : (cc0_stg2_0 : Ref sig .tc).ty.Contents (Elt F)),
      oM.view.writes (Elt F) g (LT12 A0 A1 A2 A3 PX0 PX1 PX2 PX3 PY0 PY1 PY2 PY3)
        = assemble (fun k => match k with | 0 => PX0 (topOf A0) | 1 => PX1 (topOf A1) | 2 => PX2 (topOf A2) | 3 => PX3 (topOf A3))
            (fun k => match k with | 0 => PY0 (botOf A0) | 1 => PY1 (botOf A1) | 2 => PY2 (botOf A2) | 3 => PY3 (botOf A3)))
    (K : Dev nD × Fin 17 → ℕ) (c : Dev nD) (hcy : cy c = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  unfold bodyPre ghost invs poss reacheds payToks creds scr pts
  iintro ⟨⟨⟨⟨⟨#HIb, ⟨#HIxs0, #HIxs1, #HIxs2, #HIxs3⟩, ⟨#HIxr0, #HIxr1, #HIxr2, #HIxr3⟩, ⟨#HIys0, #HIys1, #HIys2, #HIys3⟩, ⟨#HIyr0, #HIyr1, #HIyr2, #HIyr3⟩, #HIbX, #HIbY, ⟨#HIxrP0, #HIxrP1, #HIxrP2, #HIxrP3⟩, ⟨#HIyrP0, #HIyrP1, #HIyrP2, #HIyrP3⟩⟩,
      ⟨HaB, ⟨HaXs0, HaXs1, HaXs2, HaXs3⟩, ⟨HaXr0, HaXr1, HaXr2, HaXr3⟩, ⟨HaYs0, HaYs1, HaYs2, HaYs3⟩, ⟨HaYr0, HaYr1, HaYr2, HaYr3⟩⟩,
      ⟨#HrBX, #HrBY, ⟨#HrXs0, #HrXs1, #HrXs2, #HrXs3⟩, ⟨#HrYs0, #HrYs1, #HrYs2, #HrYs3⟩, ⟨#HrXrP0, #HrXrP1, #HrXrP2, #HrXrP3⟩, ⟨#HrYrP0, #HrYrP1, #HrYrP2, #HrYrP3⟩⟩,
      ⟨HtBX, HtBY, HtXs, HtYs, ⟨HtXrP0, HtXrP1, HtXrP2, HtXrP3⟩, ⟨HtYrP0, HtYrP1, HtYrP2, HtYrP3⟩⟩⟩,
     ⟨HcB, ⟨HcXr0, HcXr1, HcXr2, HcXr3⟩, ⟨HcYr0, HcYr1, HcYr2, HcYr3⟩⟩, #Hlev,
     ⟨⟨%fs0, Hsx0⟩, ⟨%fs1, Hsx1⟩, ⟨%fs2, Hsx2⟩, ⟨%fs3, Hsx3⟩, ⟨%fx0, Hxq0⟩, ⟨%fx1, Hxq1⟩, ⟨%fx2, Hxq2⟩, ⟨%fx3, Hxq3⟩, ⟨%fy0, Hyq0⟩, ⟨%fy1, Hyq1⟩, ⟨%fy2, Hyq2⟩, ⟨%fy3, Hyq3⟩⟩⟩,
    Ho, ⟨%d0, %g0, %hg0, Hx⟩, ⟨%d1, %g1, %hg1, Hdy⟩, ⟨%d2, %g2, %hg2, Hout⟩⟩, Hk⟩
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (hx_eq c _)) $$ Hx
  ihave Hdy := (Entails.of_eq (hdy_eq c _)) $$ Hdy
  ihave Hout := (Entails.of_eq (ho_eq c _)) $$ Hout
  unfold Dat.owesAt Pipeline.owesWithin
  icases Ho with ⟨%W, %hW, HO⟩
  rw [show (dats m ρ 0 c).owed t₀.castSucc = O₀ c from rfl]
  unfold O₀ O₁ OX0 OX1 OX2 OX3 OY0 OY1 OY2 OY3
  have hmB : (levAts L lv : sProp 𝕄) ⊢ MayWait (c : Thread nD τ) (.reg barS) () (tY c 3 + tY c 2 + tY c 1 + tY c 0 + tX c 3 + tX c 2 + tX c 1 + tX c 0) := mayWait_bar c
  have hm0 : (levAts L lv : sProp 𝕄) ⊢ MayWait (c : Thread nD τ) (.dma (7 : DmaSem sig)) () (tY c 3 + tY c 2 + tY c 1 + tY c 0) := mayWait_xr0 c
  have hm1 : (levAts L lv : sProp 𝕄) ⊢ MayWait (c : Thread nD τ) (.dma (8 : DmaSem sig)) () (tY c 3 + tY c 2 + tY c 1) := mayWait_xr1 c
  have hm2 : (levAts L lv : sProp 𝕄) ⊢ MayWait (c : Thread nD τ) (.dma (9 : DmaSem sig)) () (tY c 3 + tY c 2) := mayWait_xr2 c
  have hm3 : (levAts L lv : sProp 𝕄) ⊢ MayWait (c : Thread nD τ) (.dma (10 : DmaSem sig)) () (tY c 3) := mayWait_xr3 c
  have hc0 : Scalar.cmpi .ne (Scalar.extui (Scalar.cmpi .eq (cyW c) 0#32)) 0#32 = 1#1 := ((cond_facts c).1 hcy).1
  have hc1 : ¬ Scalar.cmpi .ne (Scalar.extui (Scalar.cmpi .eq (cyW c) 1#32)) 0#32 = 1#1 := ((cond_facts c).1 hcy).2
  sl_unfold [cc0_body]
  -- the two barrier signals, the first product stored, the barrier wait
  sl_exec (disch := simp only [dev1_eq, dev2_eq, dev3_eq, dev4_eq, dev5_eq, dev6_eq, dev7_eq, dev8_eq, dev9_eq, dev10_eq])
  -- what the two peers' signals handed over: their landing buffers
  ihave Hp := (Entails.of_eq (bar_pay_eq m ρ c)) $$ HaB_pay1
  unfold barPayX barPayY pts
  icases Hp with ⟨⟨⟨%px0, Hpx0⟩, ⟨%px1, Hpx1⟩, ⟨%px2, Hpx2⟩, ⟨%px3, Hpx3⟩⟩, ⟨%py0, Hpy0⟩, ⟨%py1, Hpy1⟩, ⟨%py2, Hpy2⟩, ⟨%py3, Hpy3⟩⟩
  ihave Hsx0 := (Entails.of_eq (sx0_restate m ρ c fs0 (k0_pay3 (body_cy0.sl.r m ρ c) (body_cy0.sl.r_1 m ρ c)) rfl)) $$ Hsx0
  icases HtXs with ⟨HtXs0, HtXs⟩
  sl_exec (disch := simp only [dev1_eq, dev2_eq, dev3_eq, dev4_eq, dev5_eq, dev6_eq, dev7_eq, dev8_eq, dev9_eq, dev10_eq])
  ihave Hsx1 := (Entails.of_eq (sx1_restate m ρ c fs1)) $$ Hsx1
  icases HtXs with ⟨HtXs1, HtXs⟩
  sl_exec (disch := simp only [dev1_eq, dev2_eq, dev3_eq, dev4_eq, dev5_eq, dev6_eq, dev7_eq, dev8_eq, dev9_eq, dev10_eq])
  ihave Hsx2 := (Entails.of_eq (sx2_restate m ρ c fs2)) $$ Hsx2
  icases HtXs with ⟨HtXs2, HtXs3⟩
  set_option sl_exec.maxSteps 8 in sl_exec (disch := simp only [dev1_eq, dev2_eq, dev3_eq, dev4_eq, dev5_eq, dev6_eq, dev7_eq, dev8_eq, dev9_eq, dev10_eq])
  ihave Hsx3 := (Entails.of_eq (sx3_restate m ρ c fs3)) $$ Hsx3
  sl_exec (disch := simp only [dev1_eq, dev2_eq, dev3_eq, dev4_eq, dev5_eq, dev6_eq, dev7_eq, dev8_eq, dev9_eq, dev10_eq])
  -- chunk by chunk: the landing's share split (the transfer holds one half, the body reads the other), forwarded, added
  ihave Hh := (pointsTo_share (PosShare.mem_left_op_right fullShare)).1 $$ HaXr0_pay1
  icases Hh with ⟨HxqL0, HxqR0⟩
  icases HtYs with ⟨HtYs0, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr1_pay1
  icases Hh with ⟨HxqL1, HxqR1⟩
  icases HtYs with ⟨HtYs1, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr2_pay1
  icases Hh with ⟨HxqL2, HxqR2⟩
  icases HtYs with ⟨HtYs2, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr3_pay1
  icases Hh with ⟨HxqL3, HxqR3⟩
  sl_exec (disch := simp only [dev1_eq, dev2_eq, dev3_eq, dev4_eq, dev5_eq, dev6_eq, dev7_eq, dev8_eq, dev9_eq, dev10_eq])
  -- the sixteen own cells close: their counters at zero are the core's again
  imod (Rounds.cell_close ER (sched m ρ) (Set.mem_univ (K (c, 1))) (fun h => h) (R := 0 + 1) (duties_later m ρ (xsCell c 0))) $$ [HaXs0] with HzXs0
  · isplitr; · iexact HIxs0
    iexact HaXs0
  imod (Rounds.cell_close ER (sched m ρ) (Set.mem_univ (K (c, 2))) (fun h => h) (R := 0 + 1) (duties_later m ρ (xsCell c 1))) $$ [HaXs1] with HzXs1
  · isplitr; · iexact HIxs1
    iexact HaXs1
  imod (Rounds.cell_close ER (sched m ρ) (Set.mem_univ (K (c, 3))) (fun h => h) (R := 0 + 1) (duties_later m ρ (xsCell c 2))) $$ [HaXs2] with HzXs2
  · isplitr; · iexact HIxs2
    iexact HaXs2
  imod (Rounds.cell_close ER (sched m ρ) (Set.mem_univ (K (c, 4))) (fun h => h) (R := 0 + 1) (duties_later m ρ (xsCell c 3))) $$ [HaXs3] with HzXs3
  · isplitr; · iexact HIxs3
    iexact HaXs3
  imod (Rounds.cell_close ER (sched m ρ) (Set.mem_univ (K (c, 5))) (fun h => h) (R := 0 + 1) (duties_later m ρ (xrCell c 0))) $$ [HaXr0] with HzXr0
  · isplitr; · iexact HIxr0
    iexact HaXr0
  imod (Rounds.cell_close ER (sched m ρ) (Set.mem_univ (K (c, 6))) (fun h => h) (R := 0 + 1) (duties_later m ρ (xrCell c 1))) $$ [HaXr1] with HzXr1
  · isplitr; · iexact HIxr1
    iexact HaXr1
  imod (Rounds.cell_close ER (sched m ρ) (Set.mem_univ (K (c, 7))) (fun h => h) (R := 0 + 1) (duties_later m ρ (xrCell c 2))) $$ [HaXr2] with HzXr2
  · isplitr; · iexact HIxr2
    iexact HaXr2
  imod (Rounds.cell_close ER (sched m ρ) (Set.mem_univ (K (c, 8))) (fun h => h) (R := 0 + 1) (duties_later m ρ (xrCell c 3))) $$ [HaXr3] with HzXr3
  · isplitr; · iexact HIxr3
    iexact HaXr3
  imod (Rounds.cell_close ER (sched m ρ) (Set.mem_univ (K (c, 9))) (fun h => h) (R := 0 + 1) (duties_later m ρ (ysCell c 0))) $$ [HaYs0] with HzYs0
  · isplitr; · iexact HIys0
    iexact HaYs0
  imod (Rounds.cell_close ER (sched m ρ) (Set.mem_univ (K (c, 10))) (fun h => h) (R := 0 + 1) (duties_later m ρ (ysCell c 1))) $$ [HaYs1] with HzYs1
  · isplitr; · iexact HIys1
    iexact HaYs1
  imod (Rounds.cell_close ER (sched m ρ) (Set.mem_univ (K (c, 11))) (fun h => h) (R := 0 + 1) (duties_later m ρ (ysCell c 2))) $$ [HaYs2] with HzYs2
  · isplitr; · iexact HIys2
    iexact HaYs2
  imod (Rounds.cell_close ER (sched m ρ) (Set.mem_univ (K (c, 12))) (fun h => h) (R := 0 + 1) (duties_later m ρ (ysCell c 3))) $$ [HaYs3] with HzYs3
  · isplitr; · iexact HIys3
    iexact HaYs3
  imod (Rounds.cell_close ER (sched m ρ) (Set.mem_univ (K (c, 13))) (fun h => h) (R := 0 + 1) (duties_later m ρ (yrCell c 0))) $$ [HaYr0] with HzYr0
  · isplitr; · iexact HIyr0
    iexact HaYr0
  imod (Rounds.cell_close ER (sched m ρ) (Set.mem_univ (K (c, 14))) (fun h => h) (R := 0 + 1) (duties_later m ρ (yrCell c 1))) $$ [HaYr1] with HzYr1
  · isplitr; · iexact HIyr1
    iexact HaYr1
  imod (Rounds.cell_close ER (sched m ρ) (Set.mem_univ (K (c, 15))) (fun h => h) (R := 0 + 1) (duties_later m ρ (yrCell c 2))) $$ [HaYr2] with HzYr2
  · isplitr; · iexact HIyr2
    iexact HaYr2
  imod (Rounds.cell_close ER (sched m ρ) (Set.mem_univ (K (c, 16))) (fun h => h) (R := 0 + 1) (duties_later m ρ (yrCell c 3))) $$ [HaYr3] with HzYr3
  · isplitr; · iexact HIyr3
    iexact HaYr3
  -- the two halves of each first-hop landing buffer joined again
  ihave Hxq0 := (pointsTo_share (PosShare.mem_left_op_right fullShare)).2 $$ [HaYs0_pay1 HxqR0]
  · isplitl [HaYs0_pay1] <;> iassumption
  ihave Hxq1 := (pointsTo_share (PosShare.mem_left_op_right fullShare)).2 $$ [HaYs1_pay1 HxqR1]
  · isplitl [HaYs1_pay1] <;> iassumption
  ihave Hxq2 := (pointsTo_share (PosShare.mem_left_op_right fullShare)).2 $$ [HaYs2_pay1 HxqR2]
  · isplitl [HaYs2_pay1] <;> iassumption
  ihave Hxq3 := (pointsTo_share (PosShare.mem_left_op_right fullShare)).2 $$ [HaYs3_pay1 HxqR3]
  · isplitl [HaYs3_pay1] <;> iassumption
  sl_step
  iapply Hk
  unfold bodyPost Φ₁ scr semsZero pts Dat.owesAt Pipeline.owesWithin
  rw [show (dats m ρ 0 c).owed t₀.succ = 0 from rfl]
  ihave Hx := (Entails.of_eq (hx_eq c _).symm) $$ Hx
  ihave Hdy := (Entails.of_eq (hdy_eq c _).symm) $$ Hdy
  ihave Hout := (Entails.of_eq (ho_eq c _).symm) $$ Hout
  isplitl [HaXs0_pay1 HaXs1_pay1 HaXs2_pay1 HaXs3_pay1 Hxq0 Hxq1 Hxq2 Hxq3 HaYr0_pay1 HaYr1_pay1 HaYr2_pay1 HaYr3_pay1 HzXs0 HzXs1 HzXs2 HzXs3 HzXr0 HzXr1 HzXr2 HzXr3 HzYs0 HzYs1 HzYs2 HzYs3 HzYr0 HzYr1 HzYr2 HzYr3]
  · isplitl [HaXs0_pay1 HaXs1_pay1 HaXs2_pay1 HaXs3_pay1 Hxq0 Hxq1 Hxq2 Hxq3 HaYr0_pay1 HaYr1_pay1 HaYr2_pay1 HaYr3_pay1]
    · -- the twelve scratch buffers, at whatever they hold now
      isplitl [HaXs0_pay1]; · iexists _; iexact HaXs0_pay1
      isplitl [HaXs1_pay1]; · iexists _; iexact HaXs1_pay1
      isplitl [HaXs2_pay1]; · iexists _; iexact HaXs2_pay1
      isplitl [HaXs3_pay1]; · iexists _; iexact HaXs3_pay1
      isplitl [Hxq0]; · iexists _; iexact Hxq0
      isplitl [Hxq1]; · iexists _; iexact Hxq1
      isplitl [Hxq2]; · iexists _; iexact Hxq2
      isplitl [Hxq3]; · iexists _; iexact Hxq3
      isplitl [HaYr0_pay1]; · iexists _; iexact HaYr0_pay1
      isplitl [HaYr1_pay1]; · iexists _; iexact HaYr1_pay1
      isplitl [HaYr2_pay1]; · iexists _; iexact HaYr2_pay1
      iexists _; iexact HaYr3_pay1
    · -- the sixteen own cells, closed at zero
      isplitl [HzXs0 HzXs1 HzXs2 HzXs3]
      ·
        isplitl [HzXs0]; · iexact HzXs0
        isplitl [HzXs1]; · iexact HzXs1
        isplitl [HzXs2]; · iexact HzXs2
        iexact HzXs3
      isplitl [HzXr0 HzXr1 HzXr2 HzXr3]
      ·
        isplitl [HzXr0]; · iexact HzXr0
        isplitl [HzXr1]; · iexact HzXr1
        isplitl [HzXr2]; · iexact HzXr2
        iexact HzXr3
      isplitl [HzYs0 HzYs1 HzYs2 HzYs3]
      ·
        isplitl [HzYs0]; · iexact HzYs0
        isplitl [HzYs1]; · iexact HzYs1
        isplitl [HzYs2]; · iexact HzYs2
        iexact HzYs3
      isplitl [HzYr0]; · iexact HzYr0
      isplitl [HzYr1]; · iexact HzYr1
      isplitl [HzYr2]; · iexact HzYr2
      iexact HzYr3
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _
  isplitr
  on_goal 2 => iexact Hout
  ipureintro
  refine (show _ = oM.view.writes (Elt F) g2 (LT12 (own m ρ c 0) (own m ρ c 1) (own m ρ c 2) (own m ρ c 3)
      (fun t => k0_pay10 t (View.readAt (Elt F) (Memref.whole cc0_scratch4 : Memref sig .tc .vmem S256x1024 .bf16).view (Rect.unit (s := S256x1024) ![0, 0] S256x1024.size inb_S256x1024_S256x1024_0_0).toLoadRect (xqv m ρ c 0)))
      (fun t => k0_pay15 t (View.readAt (Elt F) (Memref.whole cc0_scratch5 : Memref sig .tc .vmem S256x1024 .bf16).view (Rect.unit (s := S256x1024) ![0, 0] S256x1024.size inb_S256x1024_S256x1024_0_0).toLoadRect (xqv m ρ c 1)))
      (fun t => k0_pay20 t (View.readAt (Elt F) (Memref.whole cc0_scratch6 : Memref sig .tc .vmem S256x1024 .bf16).view (Rect.unit (s := S256x1024) ![0, 0] S256x1024.size inb_S256x1024_S256x1024_0_0).toLoadRect (xqv m ρ c 2)))
      (fun t => k0_pay25 t (View.readAt (Elt F) (Memref.whole cc0_scratch7 : Memref sig .tc .vmem S256x1024 .bf16).view (Rect.unit (s := S256x1024) ![0, 0] S256x1024.size inb_S256x1024_S256x1024_0_0).toLoadRect (xqv m ρ c 3)))
      (fun t => k0_pay27 t (View.readAt (Elt F) (Memref.whole cc0_scratch8 : Memref sig .tc .vmem S256x1024 .bf16).view (Rect.unit (s := S256x1024) ![0, 0] S256x1024.size inb_S256x1024_S256x1024_0_0).toLoadRect (yqv m ρ c 0)))
      (fun t => k0_pay29 t (View.readAt (Elt F) (Memref.whole cc0_scratch9 : Memref sig .tc .vmem S256x1024 .bf16).view (Rect.unit (s := S256x1024) ![0, 0] S256x1024.size inb_S256x1024_S256x1024_0_0).toLoadRect (yqv m ρ c 1)))
      (fun t => k0_pay31 t (View.readAt (Elt F) (Memref.whole cc0_scratch10 : Memref sig .tc .vmem S256x1024 .bf16).view (Rect.unit (s := S256x1024) ![0, 0] S256x1024.size inb_S256x1024_S256x1024_0_0).toLoadRect (yqv m ρ c 2)))
      (fun t => k0_pay33 t (View.readAt (Elt F) (Memref.whole cc0_scratch11 : Memref sig .tc .vmem S256x1024 .bf16).view (Rect.unit (s := S256x1024) ![0, 0] S256x1024.size inb_S256x1024_S256x1024_0_0).toLoadRect (yqv m ρ c 3)))) from rfl).trans ?_
  rw [hWr, outAt_eq_assemble]
  congr 1
  · funext k
    fin_cases k
    · show k0_pay10 (topOf (own m ρ c 0)) _ = (if cy c = 0 then _ else _); rw [if_pos hcy]; exact congrArg (k0_pay10 (topOf (own m ρ c 0))) (Memref.readAt_unit_zero (Elt F) cc0_scratch4 hz2 _ _)
    · show k0_pay15 (topOf (own m ρ c 1)) _ = (if cy c = 0 then _ else _); rw [if_pos hcy]; exact congrArg (k0_pay15 (topOf (own m ρ c 1))) (Memref.readAt_unit_zero (Elt F) cc0_scratch5 hz2 _ _)
    · show k0_pay20 (topOf (own m ρ c 2)) _ = (if cy c = 0 then _ else _); rw [if_pos hcy]; exact congrArg (k0_pay20 (topOf (own m ρ c 2))) (Memref.readAt_unit_zero (Elt F) cc0_scratch6 hz2 _ _)
    · show k0_pay25 (topOf (own m ρ c 3)) _ = (if cy c = 0 then _ else _); rw [if_pos hcy]; exact congrArg (k0_pay25 (topOf (own m ρ c 3))) (Memref.readAt_unit_zero (Elt F) cc0_scratch7 hz2 _ _)
  · funext k
    fin_cases k
    · show k0_pay27 (botOf (own m ρ c 0)) _ = (if cy c = 0 then _ else _); rw [if_pos hcy]; exact congrArg (k0_pay27 (botOf (own m ρ c 0))) (Memref.readAt_unit_zero (Elt F) cc0_scratch8 hz2 _ _)
    · show k0_pay29 (botOf (own m ρ c 1)) _ = (if cy c = 0 then _ else _); rw [if_pos hcy]; exact congrArg (k0_pay29 (botOf (own m ρ c 1))) (Memref.readAt_unit_zero (Elt F) cc0_scratch9 hz2 _ _)
    · show k0_pay31 (botOf (own m ρ c 2)) _ = (if cy c = 0 then _ else _); rw [if_pos hcy]; exact congrArg (k0_pay31 (botOf (own m ρ c 2))) (Memref.readAt_unit_zero (Elt F) cc0_scratch10 hz2 _ _)
    · show k0_pay33 (botOf (own m ρ c 3)) _ = (if cy c = 0 then _ else _); rw [if_pos hcy]; exact congrArg (k0_pay33 (botOf (own m ρ c 3))) (Memref.readAt_unit_zero (Elt F) cc0_scratch11 hz2 _ _)

end Cert.KernelIdeal.Hand

end
-- ==== Proof.KI.Body1.lean ====
/-
  The same body at a device whose second mesh coordinate is 1: the first-hop landings are added to the BOTTOM quarter,
  the second-hop landings to the TOP quarter; everything else is as in the other case.
-/
import proofs.«901047_g7700000000001048_dist_rsdw_v7x_xyz2x2x4_x_m1024_d1024_f4096_f32_1_alg».proof.Proof.KI.BodyPre

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_canon] dev1_eq dev2_eq dev3_eq dev4_eq dev5_eq dev6_eq dev7_eq dev8_eq dev9_eq dev10_eq
  slice_xs0 slice_xs1 slice_xs2 slice_xs3 slice_xr0 slice_xr1 slice_xr2 slice_xr3 slice_ys0 slice_ys1 slice_ys2 slice_ys3 slice_yr0 slice_yr1 slice_yr2 slice_yr3
attribute [local sl_rounds] duties_bar duties_dma amount_bar amount_dma expect_bar expect_dma payX_own payY_own
  pay_xs0 pay_xs1 pay_xs2 pay_xs3 pay_xr0 pay_xr1 pay_xr2 pay_xr3 pay_ys0 pay_ys1 pay_ys2 pay_ys3 pay_yr0 pay_yr1 pay_yr2 pay_yr3
attribute [local sl_rounds high] payX_peer payY_peer pay_xr0_peer pay_yr0_peer pay_xr1_peer pay_yr1_peer pay_xr2_peer pay_yr2_peer pay_xr3_peer pay_yr3_peer
attribute [local irreducible] xp yp

set_option maxHeartbeats 4000000 in
/-- The body stepped once from `bodyPre` to `bodyPost`, for a device whose second mesh coordinate is 1. -/
theorem body_cy1
    (hWr : ∀ (A0 A1 A2 A3 : Vec F S512x1024 .f32) (PX0 PX1 PX2 PX3 PY0 PY1 PY2 PY3 : Vec F S256x1024 .f32 → Vec F S256x1024 .f32)
      (g : (cc0_stg2_0 : Ref sig .tc).ty.Contents (Elt F)),
      oM.view.writes (Elt F) g (LB12 A0 A1 A2 A3 PX0 PX1 PX2 PX3 PY0 PY1 PY2 PY3)
        = assemble (fun k => match k with | 0 => PY0 (topOf A0) | 1 => PY1 (topOf A1) | 2 => PY2 (topOf A2) | 3 => PY3 (topOf A3))
            (fun k => match k with | 0 => PX0 (botOf A0) | 1 => PX1 (botOf A1) | 2 => PX2 (botOf A2) | 3 => PX3 (botOf A3)))
    (K : Dev nD × Fin 17 → ℕ) (c : Dev nD) (hcy : cy c = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  unfold bodyPre ghost invs poss reacheds payToks creds scr pts
  iintro ⟨⟨⟨⟨⟨#HIb, ⟨#HIxs0, #HIxs1, #HIxs2, #HIxs3⟩, ⟨#HIxr0, #HIxr1, #HIxr2, #HIxr3⟩, ⟨#HIys0, #HIys1, #HIys2, #HIys3⟩, ⟨#HIyr0, #HIyr1, #HIyr2, #HIyr3⟩, #HIbX, #HIbY, ⟨#HIxrP0, #HIxrP1, #HIxrP2, #HIxrP3⟩, ⟨#HIyrP0, #HIyrP1, #HIyrP2, #HIyrP3⟩⟩,
      ⟨HaB, ⟨HaXs0, HaXs1, HaXs2, HaXs3⟩, ⟨HaXr0, HaXr1, HaXr2, HaXr3⟩, ⟨HaYs0, HaYs1, HaYs2, HaYs3⟩, ⟨HaYr0, HaYr1, HaYr2, HaYr3⟩⟩,
      ⟨#HrBX, #HrBY, ⟨#HrXs0, #HrXs1, #HrXs2, #HrXs3⟩, ⟨#HrYs0, #HrYs1, #HrYs2, #HrYs3⟩, ⟨#HrXrP0, #HrXrP1, #HrXrP2, #HrXrP3⟩, ⟨#HrYrP0, #HrYrP1, #HrYrP2, #HrYrP3⟩⟩,
      ⟨HtBX, HtBY, HtXs, HtYs, ⟨HtXrP0, HtXrP1, HtXrP2, HtXrP3⟩, ⟨HtYrP0, HtYrP1, HtYrP2, HtYrP3⟩⟩⟩,
     ⟨HcB, ⟨HcXr0, HcXr1, HcXr2, HcXr3⟩, ⟨HcYr0, HcYr1, HcYr2, HcYr3⟩⟩, #Hlev,
     ⟨⟨%fs0, Hsx0⟩, ⟨%fs1, Hsx1⟩, ⟨%fs2, Hsx2⟩, ⟨%fs3, Hsx3⟩, ⟨%fx0, Hxq0⟩, ⟨%fx1, Hxq1⟩, ⟨%fx2, Hxq2⟩, ⟨%fx3, Hxq3⟩, ⟨%fy0, Hyq0⟩, ⟨%fy1, Hyq1⟩, ⟨%fy2, Hyq2⟩, ⟨%fy3, Hyq3⟩⟩⟩,
    Ho, ⟨%d0, %g0, %hg0, Hx⟩, ⟨%d1, %g1, %hg1, Hdy⟩, ⟨%d2, %g2, %hg2, Hout⟩⟩, Hk⟩
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (hx_eq c _)) $$ Hx
  ihave Hdy := (Entails.of_eq (hdy_eq c _)) $$ Hdy
  ihave Hout := (Entails.of_eq (ho_eq c _)) $$ Hout
  unfold Dat.owesAt Pipeline.owesWithin
  icases Ho with ⟨%W, %hW, HO⟩
  rw [show (dats m ρ 0 c).owed t₀.castSucc = O₀ c from rfl]
  unfold O₀ O₁ OX0 OX1 OX2 OX3 OY0 OY1 OY2 OY3
  have hmB : (levAts L lv : sProp 𝕄) ⊢ MayWait (c : Thread nD τ) (.reg barS) () (tY c 3 + tY c 2 + tY c 1 + tY c 0 + tX c 3 + tX c 2 + tX c 1 + tX c 0) := mayWait_bar c
  have hm0 : (levAts L lv : sProp 𝕄) ⊢ MayWait (c : Thread nD τ) (.dma (7 : DmaSem sig)) () (tY c 3 + tY c 2 + tY c 1 + tY c 0) := mayWait_xr0 c
  have hm1 : (levAts L lv : sProp 𝕄) ⊢ MayWait (c : Thread nD τ) (.dma (8 : DmaSem sig)) () (tY c 3 + tY c 2 + tY c 1) := mayWait_xr1 c
  have hm2 : (levAts L lv : sProp 𝕄) ⊢ MayWait (c : Thread nD τ) (.dma (9 : DmaSem sig)) () (tY c 3 + tY c 2) := mayWait_xr2 c
  have hm3 : (levAts L lv : sProp 𝕄) ⊢ MayWait (c : Thread nD τ) (.dma (10 : DmaSem sig)) () (tY c 3) := mayWait_xr3 c
  have hc0 : ¬ Scalar.cmpi .ne (Scalar.extui (Scalar.cmpi .eq (cyW c) 0#32)) 0#32 = 1#1 := ((cond_facts c).2 hcy).1
  have hc1 : Scalar.cmpi .ne (Scalar.extui (Scalar.cmpi .eq (cyW c) 1#32)) 0#32 = 1#1 := ((cond_facts c).2 hcy).2
  sl_unfold [cc0_body]
  -- the two barrier signals, the first product stored, the barrier wait
  sl_exec (disch := simp only [dev1_eq, dev2_eq, dev3_eq, dev4_eq, dev5_eq, dev6_eq, dev7_eq, dev8_eq, dev9_eq, dev10_eq])
  -- what the two peers' signals handed over: their landing buffers
  ihave Hp := (Entails.of_eq (bar_pay_eq m ρ c)) $$ HaB_pay1
  unfold barPayX barPayY pts
  icases Hp with ⟨⟨⟨%px0, Hpx0⟩, ⟨%px1, Hpx1⟩, ⟨%px2, Hpx2⟩, ⟨%px3, Hpx3⟩⟩, ⟨%py0, Hpy0⟩, ⟨%py1, Hpy1⟩, ⟨%py2, Hpy2⟩, ⟨%py3, Hpy3⟩⟩
  ihave Hsx0 := (Entails.of_eq (sx0_restate m ρ c fs0 (k0_pay3 (body_cy1.sl.r m ρ c) (body_cy1.sl.r_1 m ρ c)) rfl)) $$ Hsx0
  icases HtXs with ⟨HtXs0, HtXs⟩
  sl_exec (disch := simp only [dev1_eq, dev2_eq, dev3_eq, dev4_eq, dev5_eq, dev6_eq, dev7_eq, dev8_eq, dev9_eq, dev10_eq])
  ihave Hsx1 := (Entails.of_eq (sx1_restate m ρ c fs1)) $$ Hsx1
  icases HtXs with ⟨HtXs1, HtXs⟩
  sl_exec (disch := simp only [dev1_eq, dev2_eq, dev3_eq, dev4_eq, dev5_eq, dev6_eq, dev7_eq, dev8_eq, dev9_eq, dev10_eq])
  ihave Hsx2 := (Entails.of_eq (sx2_restate m ρ c fs2)) $$ Hsx2
  icases HtXs with ⟨HtXs2, HtXs3⟩
  set_option sl_exec.maxSteps 8 in sl_exec (disch := simp only [dev1_eq, dev2_eq, dev3_eq, dev4_eq, dev5_eq, dev6_eq, dev7_eq, dev8_eq, dev9_eq, dev10_eq])
  ihave Hsx3 := (Entails.of_eq (sx3_restate m ρ c fs3)) $$ Hsx3
  sl_exec (disch := simp only [dev1_eq, dev2_eq, dev3_eq, dev4_eq, dev5_eq, dev6_eq, dev7_eq, dev8_eq, dev9_eq, dev10_eq])
  -- chunk by chunk: the landing's share split (the transfer holds one half, the body reads the other), forwarded, added
  ihave Hh := (pointsTo_share (PosShare.mem_left_op_right fullShare)).1 $$ HaXr0_pay1
  icases Hh with ⟨HxqL0, HxqR0⟩
  icases HtYs with ⟨HtYs0, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr1_pay1
  icases Hh with ⟨HxqL1, HxqR1⟩
  icases HtYs with ⟨HtYs1, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr2_pay1
  icases Hh with ⟨HxqL2, HxqR2⟩
  icases HtYs with ⟨HtYs2, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr3_pay1
  icases Hh with ⟨HxqL3, HxqR3⟩
  sl_exec (disch := simp only [dev1_eq, dev2_eq, dev3_eq, dev4_eq, dev5_eq, dev6_eq, dev7_eq, dev8_eq, dev9_eq, dev10_eq])
  -- the sixteen own cells close: their counters at zero are the core's again
  imod (Rounds.cell_close ER (sched m ρ) (Set.mem_univ (K (c, 1))) (fun h => h) (R := 0 + 1) (duties_later m ρ (xsCell c 0))) $$ [HaXs0] with HzXs0
  · isplitr; · iexact HIxs0
    iexact HaXs0
  imod (Rounds.cell_close ER (sched m ρ) (Set.mem_univ (K (c, 2))) (fun h => h) (R := 0 + 1) (duties_later m ρ (xsCell c 1))) $$ [HaXs1] with HzXs1
  · isplitr; · iexact HIxs1
    iexact HaXs1
  imod (Rounds.cell_close ER (sched m ρ) (Set.mem_univ (K (c, 3))) (fun h => h) (R := 0 + 1) (duties_later m ρ (xsCell c 2))) $$ [HaXs2] with HzXs2
  · isplitr; · iexact HIxs2
    iexact HaXs2
  imod (Rounds.cell_close ER (sched m ρ) (Set.mem_univ (K (c, 4))) (fun h => h) (R := 0 + 1) (duties_later m ρ (xsCell c 3))) $$ [HaXs3] with HzXs3
  · isplitr; · iexact HIxs3
    iexact HaXs3
  imod (Rounds.cell_close ER (sched m ρ) (Set.mem_univ (K (c, 5))) (fun h => h) (R := 0 + 1) (duties_later m ρ (xrCell c 0))) $$ [HaXr0] with HzXr0
  · isplitr; · iexact HIxr0
    iexact HaXr0
  imod (Rounds.cell_close ER (sched m ρ) (Set.mem_univ (K (c, 6))) (fun h => h) (R := 0 + 1) (duties_later m ρ (xrCell c 1))) $$ [HaXr1] with HzXr1
  · isplitr; · iexact HIxr1
    iexact HaXr1
  imod (Rounds.cell_close ER (sched m ρ) (Set.mem_univ (K (c, 7))) (fun h => h) (R := 0 + 1) (duties_later m ρ (xrCell c 2))) $$ [HaXr2] with HzXr2
  · isplitr; · iexact HIxr2
    iexact HaXr2
  imod (Rounds.cell_close ER (sched m ρ) (Set.mem_univ (K (c, 8))) (fun h => h) (R := 0 + 1) (duties_later m ρ (xrCell c 3))) $$ [HaXr3] with HzXr3
  · isplitr; · iexact HIxr3
    iexact HaXr3
  imod (Rounds.cell_close ER (sched m ρ) (Set.mem_univ (K (c, 9))) (fun h => h) (R := 0 + 1) (duties_later m ρ (ysCell c 0))) $$ [HaYs0] with HzYs0
  · isplitr; · iexact HIys0
    iexact HaYs0
  imod (Rounds.cell_close ER (sched m ρ) (Set.mem_univ (K (c, 10))) (fun h => h) (R := 0 + 1) (duties_later m ρ (ysCell c 1))) $$ [HaYs1] with HzYs1
  · isplitr; · iexact HIys1
    iexact HaYs1
  imod (Rounds.cell_close ER (sched m ρ) (Set.mem_univ (K (c, 11))) (fun h => h) (R := 0 + 1) (duties_later m ρ (ysCell c 2))) $$ [HaYs2] with HzYs2
  · isplitr; · iexact HIys2
    iexact HaYs2
  imod (Rounds.cell_close ER (sched m ρ) (Set.mem_univ (K (c, 12))) (fun h => h) (R := 0 + 1) (duties_later m ρ (ysCell c 3))) $$ [HaYs3] with HzYs3
  · isplitr; · iexact HIys3
    iexact HaYs3
  imod (Rounds.cell_close ER (sched m ρ) (Set.mem_univ (K (c, 13))) (fun h => h) (R := 0 + 1) (duties_later m ρ (yrCell c 0))) $$ [HaYr0] with HzYr0
  · isplitr; · iexact HIyr0
    iexact HaYr0
  imod (Rounds.cell_close ER (sched m ρ) (Set.mem_univ (K (c, 14))) (fun h => h) (R := 0 + 1) (duties_later m ρ (yrCell c 1))) $$ [HaYr1] with HzYr1
  · isplitr; · iexact HIyr1
    iexact HaYr1
  imod (Rounds.cell_close ER (sched m ρ) (Set.mem_univ (K (c, 15))) (fun h => h) (R := 0 + 1) (duties_later m ρ (yrCell c 2))) $$ [HaYr2] with HzYr2
  · isplitr; · iexact HIyr2
    iexact HaYr2
  imod (Rounds.cell_close ER (sched m ρ) (Set.mem_univ (K (c, 16))) (fun h => h) (R := 0 + 1) (duties_later m ρ (yrCell c 3))) $$ [HaYr3] with HzYr3
  · isplitr; · iexact HIyr3
    iexact HaYr3
  -- the two halves of each first-hop landing buffer joined again
  ihave Hxq0 := (pointsTo_share (PosShare.mem_left_op_right fullShare)).2 $$ [HaYs0_pay1 HxqR0]
  · isplitl [HaYs0_pay1] <;> iassumption
  ihave Hxq1 := (pointsTo_share (PosShare.mem_left_op_right fullShare)).2 $$ [HaYs1_pay1 HxqR1]
  · isplitl [HaYs1_pay1] <;> iassumption
  ihave Hxq2 := (pointsTo_share (PosShare.mem_left_op_right fullShare)).2 $$ [HaYs2_pay1 HxqR2]
  · isplitl [HaYs2_pay1] <;> iassumption
  ihave Hxq3 := (pointsTo_share (PosShare.mem_left_op_right fullShare)).2 $$ [HaYs3_pay1 HxqR3]
  · isplitl [HaYs3_pay1] <;> iassumption
  sl_step
  iapply Hk
  unfold bodyPost Φ₁ scr semsZero pts Dat.owesAt Pipeline.owesWithin
  rw [show (dats m ρ 0 c).owed t₀.succ = 0 from rfl]
  ihave Hx := (Entails.of_eq (hx_eq c _).symm) $$ Hx
  ihave Hdy := (Entails.of_eq (hdy_eq c _).symm) $$ Hdy
  ihave Hout := (Entails.of_eq (ho_eq c _).symm) $$ Hout
  isplitl [HaXs0_pay1 HaXs1_pay1 HaXs2_pay1 HaXs3_pay1 Hxq0 Hxq1 Hxq2 Hxq3 HaYr0_pay1 HaYr1_pay1 HaYr2_pay1 HaYr3_pay1 HzXs0 HzXs1 HzXs2 HzXs3 HzXr0 HzXr1 HzXr2 HzXr3 HzYs0 HzYs1 HzYs2 HzYs3 HzYr0 HzYr1 HzYr2 HzYr3]
  · isplitl [HaXs0_pay1 HaXs1_pay1 HaXs2_pay1 HaXs3_pay1 Hxq0 Hxq1 Hxq2 Hxq3 HaYr0_pay1 HaYr1_pay1 HaYr2_pay1 HaYr3_pay1]
    · -- the twelve scratch buffers, at whatever they hold now
      isplitl [HaXs0_pay1]; · iexists _; iexact HaXs0_pay1
      isplitl [HaXs1_pay1]; · iexists _; iexact HaXs1_pay1
      isplitl [HaXs2_pay1]; · iexists _; iexact HaXs2_pay1
      isplitl [HaXs3_pay1]; · iexists _; iexact HaXs3_pay1
      isplitl [Hxq0]; · iexists _; iexact Hxq0
      isplitl [Hxq1]; · iexists _; iexact Hxq1
      isplitl [Hxq2]; · iexists _; iexact Hxq2
      isplitl [Hxq3]; · iexists _; iexact Hxq3
      isplitl [HaYr0_pay1]; · iexists _; iexact HaYr0_pay1
      isplitl [HaYr1_pay1]; · iexists _; iexact HaYr1_pay1
      isplitl [HaYr2_pay1]; · iexists _; iexact HaYr2_pay1
      iexists _; iexact HaYr3_pay1
    · -- the sixteen own cells, closed at zero
      isplitl [HzXs0 HzXs1 HzXs2 HzXs3]
      ·
        isplitl [HzXs0]; · iexact HzXs0
        isplitl [HzXs1]; · iexact HzXs1
        isplitl [HzXs2]; · iexact HzXs2
        iexact HzXs3
      isplitl [HzXr0 HzXr1 HzXr2 HzXr3]
      ·
        isplitl [HzXr0]; · iexact HzXr0
        isplitl [HzXr1]; · iexact HzXr1
        isplitl [HzXr2]; · iexact HzXr2
        iexact HzXr3
      isplitl [HzYs0 HzYs1 HzYs2 HzYs3]
      ·
        isplitl [HzYs0]; · iexact HzYs0
        isplitl [HzYs1]; · iexact HzYs1
        isplitl [HzYs2]; · iexact HzYs2
        iexact HzYs3
      isplitl [HzYr0]; · iexact HzYr0
      isplitl [HzYr1]; · iexact HzYr1
      isplitl [HzYr2]; · iexact HzYr2
      iexact HzYr3
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _
  isplitr
  on_goal 2 => iexact Hout
  ipureintro
  refine (show _ = oM.view.writes (Elt F) g2 (LB12 (own m ρ c 0) (own m ρ c 1) (own m ρ c 2) (own m ρ c 3)
      (fun t => k0_pay11 t (View.readAt (Elt F) (Memref.whole cc0_scratch4 : Memref sig .tc .vmem S256x1024 .bf16).view (Rect.unit (s := S256x1024) ![0, 0] S256x1024.size inb_S256x1024_S256x1024_0_0).toLoadRect (xqv m ρ c 0)))
      (fun t => k0_pay16 t (View.readAt (Elt F) (Memref.whole cc0_scratch5 : Memref sig .tc .vmem S256x1024 .bf16).view (Rect.unit (s := S256x1024) ![0, 0] S256x1024.size inb_S256x1024_S256x1024_0_0).toLoadRect (xqv m ρ c 1)))
      (fun t => k0_pay21 t (View.readAt (Elt F) (Memref.whole cc0_scratch6 : Memref sig .tc .vmem S256x1024 .bf16).view (Rect.unit (s := S256x1024) ![0, 0] S256x1024.size inb_S256x1024_S256x1024_0_0).toLoadRect (xqv m ρ c 2)))
      (fun t => k0_pay26 t (View.readAt (Elt F) (Memref.whole cc0_scratch7 : Memref sig .tc .vmem S256x1024 .bf16).view (Rect.unit (s := S256x1024) ![0, 0] S256x1024.size inb_S256x1024_S256x1024_0_0).toLoadRect (xqv m ρ c 3)))
      (fun t => k0_pay28 t (View.readAt (Elt F) (Memref.whole cc0_scratch8 : Memref sig .tc .vmem S256x1024 .bf16).view (Rect.unit (s := S256x1024) ![0, 0] S256x1024.size inb_S256x1024_S256x1024_0_0).toLoadRect (yqv m ρ c 0)))
      (fun t => k0_pay30 t (View.readAt (Elt F) (Memref.whole cc0_scratch9 : Memref sig .tc .vmem S256x1024 .bf16).view (Rect.unit (s := S256x1024) ![0, 0] S256x1024.size inb_S256x1024_S256x1024_0_0).toLoadRect (yqv m ρ c 1)))
      (fun t => k0_pay32 t (View.readAt (Elt F) (Memref.whole cc0_scratch10 : Memref sig .tc .vmem S256x1024 .bf16).view (Rect.unit (s := S256x1024) ![0, 0] S256x1024.size inb_S256x1024_S256x1024_0_0).toLoadRect (yqv m ρ c 2)))
      (fun t => k0_pay34 t (View.readAt (Elt F) (Memref.whole cc0_scratch11 : Memref sig .tc .vmem S256x1024 .bf16).view (Rect.unit (s := S256x1024) ![0, 0] S256x1024.size inb_S256x1024_S256x1024_0_0).toLoadRect (yqv m ρ c 3)))) from rfl).trans ?_
  rw [hWr, outAt_eq_assemble]
  congr 1
  · funext k
    fin_cases k
    · show k0_pay28 (topOf (own m ρ c 0)) _ = (if cy c = 0 then _ else _); rw [if_neg (by rw [hcy]; decide)]; exact congrArg (k0_pay28 (topOf (own m ρ c 0))) (Memref.readAt_unit_zero (Elt F) cc0_scratch8 hz2 _ _)
    · show k0_pay30 (topOf (own m ρ c 1)) _ = (if cy c = 0 then _ else _); rw [if_neg (by rw [hcy]; decide)]; exact congrArg (k0_pay30 (topOf (own m ρ c 1))) (Memref.readAt_unit_zero (Elt F) cc0_scratch9 hz2 _ _)
    · show k0_pay32 (topOf (own m ρ c 2)) _ = (if cy c = 0 then _ else _); rw [if_neg (by rw [hcy]; decide)]; exact congrArg (k0_pay32 (topOf (own m ρ c 2))) (Memref.readAt_unit_zero (Elt F) cc0_scratch10 hz2 _ _)
    · show k0_pay34 (topOf (own m ρ c 3)) _ = (if cy c = 0 then _ else _); rw [if_neg (by rw [hcy]; decide)]; exact congrArg (k0_pay34 (topOf (own m ρ c 3))) (Memref.readAt_unit_zero (Elt F) cc0_scratch11 hz2 _ _)
  · funext k
    fin_cases k
    · show k0_pay11 (botOf (own m ρ c 0)) _ = (if cy c = 0 then _ else _); rw [if_neg (by rw [hcy]; decide)]; exact congrArg (k0_pay11 (botOf (own m ρ c 0))) (Memref.readAt_unit_zero (Elt F) cc0_scratch4 hz2 _ _)
    · show k0_pay16 (botOf (own m ρ c 1)) _ = (if cy c = 0 then _ else _); rw [if_neg (by rw [hcy]; decide)]; exact congrArg (k0_pay16 (botOf (own m ρ c 1))) (Memref.readAt_unit_zero (Elt F) cc0_scratch5 hz2 _ _)
    · show k0_pay21 (botOf (own m ρ c 2)) _ = (if cy c = 0 then _ else _); rw [if_neg (by rw [hcy]; decide)]; exact congrArg (k0_pay21 (botOf (own m ρ c 2))) (Memref.readAt_unit_zero (Elt F) cc0_scratch6 hz2 _ _)
    · show k0_pay26 (botOf (own m ρ c 3)) _ = (if cy c = 0 then _ else _); rw [if_neg (by rw [hcy]; decide)]; exact congrArg (k0_pay26 (botOf (own m ρ c 3))) (Memref.readAt_unit_zero (Elt F) cc0_scratch7 hz2 _ _)

end Cert.KernelIdeal.Hand

end
-- ==== Proof.KI.OutWrites.lean ====
/-
  What a run of twelve stores leaves in the 512 × 4096 result buffer, whatever it held before: a half read back after
  its chunk's whole store is that half of the chunk, and the twelve stores cover every entry.
-/
import proofs.«901047_g7700000000001048_dist_rsdw_v7x_xyz2x2x4_x_m1024_d1024_f4096_f32_1_alg».proof.Proof.KI.OutDefs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One index read after a list of stores through unit-stride rectangles -/

section ReadWrites
variable {sig' : RefSig} {κ' : Kind} {sp' : Space} {S : Shape} {e' : EltTy} {Val : EltTy → Type}
  (v : View sig' κ' sp' S e') (f : v.ty.Contents Val)

/-- A store whose box misses the index on one axis is not seen there. -/
theorem read_writes_unit_skip {off size : Fin S.rank → Nat} {inb : ∀ a, off a + size a ≤ S.size a}
    (w : (Rect.unit off size inb).shape.Idx → Val e') (L : List (View.Piece Val S e')) (y : S.Idx) (a : Fin S.rank)
    (h : (y a).val < off a ∨ off a + size a ≤ (y a).val) :
    v.read Val (v.writes Val f (⟨Rect.unit off size inb, w⟩ :: L)) y = v.read Val (v.writes Val f L) y := by
  have hy : y ∉ (Finset.univ : Finset (Rect.unit off size inb).shape.Idx).map (Rect.unit off size inb).emb := by
    rw [Rect.map_emb_univ]
    intro hm
    have h2 := (Rect.mem_set_unit.mp hm) a
    omega
  rw [View.writes_cons]
  exact View.read_slice_write_of_not_mem (Rect.unit off size inb) _ w _ hy

/-- A store whose box holds the index is read at the index's place in the box. -/
theorem read_writes_unit_hit {off size : Fin S.rank → Nat} {inb : ∀ a, off a + size a ≤ S.size a}
    (w : (Rect.unit off size inb).shape.Idx → Val e') (L : List (View.Piece Val S e')) (y : S.Idx)
    (x : (Rect.unit off size inb).shape.Idx) (h : ∀ a, (y a).val = off a + (x a).val) :
    v.read Val (v.writes Val f (⟨Rect.unit off size inb, w⟩ :: L)) y = w x := by
  have hy : y = (Rect.unit off size inb).emb x := funext fun a => Fin.ext (by
    rw [Rect.emb_apply, h a]
    show off a + (x a).val = off a + 1 * (x a).val
    rw [Nat.one_mul])
  rw [hy]
  exact View.read_writes_cons_emb v f _ w L x

end ReadWrites

section ReadWrites2
variable {sig' : RefSig} {κ' : Kind} {sp' : Space} {S : Shape} {e' : EltTy} {Val : EltTy → Type}
  (v : View sig' κ' sp' S e') (f : v.ty.Contents Val)

/-- The same with the box's span on the axis named by two numbers. -/
theorem read_writes_unit_skip' {off size : Fin S.rank → Nat} {inb : ∀ a, off a + size a ≤ S.size a}
    (w : (Rect.unit off size inb).shape.Idx → Val e') (L : List (View.Piece Val S e')) (y : S.Idx) (a : Fin S.rank)
    (o n : Nat) (ho : off a = o) (hn : size a = n) (h : (y a).val < o ∨ o + n ≤ (y a).val) :
    v.read Val (v.writes Val f (⟨Rect.unit off size inb, w⟩ :: L)) y = v.read Val (v.writes Val f L) y := by
  subst ho hn
  exact read_writes_unit_skip v f w L y a h

end ReadWrites2

/-! ## The result buffer: stores through a top half, a bottom half and a whole chunk, read at one entry -/

section Buf
variable (f : (cc0_stg2_0 : Ref sig .tc).ty.Contents (Elt F)) (L : List (View.Piece (Elt F) S512x4096 .f32)) (y : S512x4096.Idx)

theorem skipT (c : Nat) (inb : ∀ a, (![0, c] : Fin 2 → Nat) a + S256x1024.size a ≤ S512x4096.size a) (w : Vec F S256x1024 .f32)
    (h : 256 ≤ (y 0).val ∨ (y 1).val < c ∨ c + 1024 ≤ (y 1).val) :
    oM.view.read (Elt F) (oM.view.writes (Elt F) f (⟨Rect.unit (s := S512x4096) ![0, c] S256x1024.size inb, w⟩ :: L)) y
      = oM.view.read (Elt F) (oM.view.writes (Elt F) f L) y := by
  rcases h with h | h
  · exact read_writes_unit_skip' oM.view f w L y 0 0 256 rfl rfl (by omega)
  · exact read_writes_unit_skip' oM.view f w L y 1 c 1024 rfl rfl (by omega)

theorem skipB (c : Nat) (inb : ∀ a, (![256, c] : Fin 2 → Nat) a + S256x1024.size a ≤ S512x4096.size a) (w : Vec F S256x1024 .f32)
    (h : (y 0).val < 256 ∨ (y 1).val < c ∨ c + 1024 ≤ (y 1).val) :
    oM.view.read (Elt F) (oM.view.writes (Elt F) f (⟨Rect.unit (s := S512x4096) ![256, c] S256x1024.size inb, w⟩ :: L)) y
      = oM.view.read (Elt F) (oM.view.writes (Elt F) f L) y := by
  rcases h with h | h
  · exact read_writes_unit_skip' oM.view f w L y 0 256 256 rfl rfl (by omega)
  · exact read_writes_unit_skip' oM.view f w L y 1 c 1024 rfl rfl (by omega)

theorem skipF (c : Nat) (inb : ∀ a, (![0, c] : Fin 2 → Nat) a + S512x1024.size a ≤ S512x4096.size a) (w : Vec F S512x1024 .f32)
    (h : (y 1).val < c ∨ c + 1024 ≤ (y 1).val) :
    oM.view.read (Elt F) (oM.view.writes (Elt F) f (⟨Rect.unit (s := S512x4096) ![0, c] S512x1024.size inb, w⟩ :: L)) y
      = oM.view.read (Elt F) (oM.view.writes (Elt F) f L) y :=
  read_writes_unit_skip' oM.view f w L y 1 c 1024 rfl rfl h

theorem hitT (c : Nat) (inb : ∀ a, (![0, c] : Fin 2 → Nat) a + S256x1024.size a ≤ S512x4096.size a) (w : Vec F S256x1024 .f32)
    (h0 : (y 0).val < 256) (h1 : c ≤ (y 1).val) (h2 : (y 1).val < c + 1024) :
    oM.view.read (Elt F) (oM.view.writes (Elt F) f (⟨Rect.unit (s := S512x4096) ![0, c] S256x1024.size inb, w⟩ :: L)) y
      = w (ValueIdx.ix2 (⟨(y 0).val, h0⟩ : Fin 256) (⟨(y 1).val - c, by omega⟩ : Fin 1024)) :=
  read_writes_unit_hit oM.view f w L y (ValueIdx.ix2 (⟨(y 0).val, h0⟩ : Fin 256) (⟨(y 1).val - c, by omega⟩ : Fin 1024))
    (Fin.forall_fin_two.mpr ⟨by show (y 0).val = 0 + (y 0).val; omega, by show (y 1).val = c + ((y 1).val - c); omega⟩)

theorem hitB (c : Nat) (inb : ∀ a, (![256, c] : Fin 2 → Nat) a + S256x1024.size a ≤ S512x4096.size a) (w : Vec F S256x1024 .f32)
    (h0 : 256 ≤ (y 0).val) (h1 : c ≤ (y 1).val) (h2 : (y 1).val < c + 1024) :
    oM.view.read (Elt F) (oM.view.writes (Elt F) f (⟨Rect.unit (s := S512x4096) ![256, c] S256x1024.size inb, w⟩ :: L)) y
      = w (ValueIdx.ix2 (⟨(y 0).val - 256, by have h' : (y 0).val < 512 := (y 0).isLt; omega⟩ : Fin 256) (⟨(y 1).val - c, by omega⟩ : Fin 1024)) :=
  read_writes_unit_hit oM.view f w L y (ValueIdx.ix2 (⟨(y 0).val - 256, by have h' : (y 0).val < 512 := (y 0).isLt; omega⟩ : Fin 256) (⟨(y 1).val - c, by omega⟩ : Fin 1024))
    (Fin.forall_fin_two.mpr ⟨by show (y 0).val = 256 + ((y 0).val - 256); omega, by show (y 1).val = c + ((y 1).val - c); omega⟩)

theorem hitF (c : Nat) (inb : ∀ a, (![0, c] : Fin 2 → Nat) a + S512x1024.size a ≤ S512x4096.size a) (w : Vec F S512x1024 .f32)
    (h1 : c ≤ (y 1).val) (h2 : (y 1).val < c + 1024) :
    oM.view.read (Elt F) (oM.view.writes (Elt F) f (⟨Rect.unit (s := S512x4096) ![0, c] S512x1024.size inb, w⟩ :: L)) y
      = w (ValueIdx.ix2 (⟨(y 0).val, (y 0).isLt⟩ : Fin 512) (⟨(y 1).val - c, by omega⟩ : Fin 1024)) :=
  read_writes_unit_hit oM.view f w L y (ValueIdx.ix2 (⟨(y 0).val, (y 0).isLt⟩ : Fin 512) (⟨(y 1).val - c, by omega⟩ : Fin 1024))
    (Fin.forall_fin_two.mpr ⟨by show (y 0).val = 0 + (y 0).val; omega, by show (y 1).val = c + ((y 1).val - c); omega⟩)

end Buf

/-! ## Reading a half of a chunk back from the whole-chunk store -/

theorem ix2_congr {n0 n1 : Nat} {a a' : Fin n0} {b b' : Fin n1} (ha : a.val = a'.val) (hb : b.val = b'.val) :
    ValueIdx.ix2 a b = ValueIdx.ix2 a' b' := by
  obtain rfl := Fin.ext ha
  obtain rfl := Fin.ext hb
  rfl

section Half
variable (f : (cc0_stg2_0 : Ref sig .tc).ty.Contents (Elt F)) (L : List (View.Piece (Elt F) S512x4096 .f32)) (y : S512x4096.Idx)

/-- The entry at row `j 0`, column `c + j 1` under the whole-chunk store at column `c` is the top half's entry `j`. -/
theorem read_top_y (c : Nat) (inb : ∀ a, (![0, c] : Fin 2 → Nat) a + S512x1024.size a ≤ S512x4096.size a) (A : Vec F S512x1024 .f32)
    (j : S256x1024.Idx) (e0 : (y 0).val = (j 0).val) (e1 : (y 1).val = c + (j 1).val) :
    oM.view.read (Elt F) (oM.view.writes (Elt F) f (⟨Rect.unit (s := S512x4096) ![0, c] S512x1024.size inb, A⟩ :: L)) y = topOf A j := by
  have hj1 : (j 1).val < 1024 := (j 1).isLt
  rw [hitF f L y c inb A (by omega) (by omega)]
  exact congrArg A (ix2_congr e0 (show (y 1).val - c = (j 1).val by omega))

/-- The entry at row `256 + j 0`, column `c + j 1` under it is the bottom half's entry `j`. -/
theorem read_bot_y (c : Nat) (inb : ∀ a, (![0, c] : Fin 2 → Nat) a + S512x1024.size a ≤ S512x4096.size a) (A : Vec F S512x1024 .f32)
    (j : S256x1024.Idx) (e0 : (y 0).val = 256 + (j 0).val) (e1 : (y 1).val = c + (j 1).val) :
    oM.view.read (Elt F) (oM.view.writes (Elt F) f (⟨Rect.unit (s := S512x4096) ![0, c] S512x1024.size inb, A⟩ :: L)) y = botOf A j := by
  have hj1 : (j 1).val < 1024 := (j 1).isLt
  rw [hitF f L y c inb A (by omega) (by omega)]
  exact congrArg A (ix2_congr (show (y 0).val = (j 0).val + 256 by omega) (show (y 1).val - c = (j 1).val by omega))

end Half

/-- A covered load of the top half at column `c`, the whole-chunk store at column `c` being the last store. -/
theorem readCov_top_head (c : Nat) (inbF : ∀ a, (![0, c] : Fin 2 → Nat) a + S512x1024.size a ≤ S512x4096.size a)
    (inbT : ∀ a, (![0, c] : Fin 2 → Nat) a + S256x1024.size a ≤ S512x4096.size a)
    (A : Vec F S512x1024 .f32) (L : List (View.Piece (Elt F) S512x4096 .f32)) :
    oM.view.readCov (⟨Rect.unit (s := S512x4096) ![0, c] S512x1024.size inbF, A⟩ :: L)
        (Rect.unit (s := S512x4096) ![0, c] S256x1024.size inbT).toLoadRect = topOf A := by
  funext j
  rw [View.readCov, View.readAt_apply]
  exact read_top_y oM.view.junk L ((Rect.unit (s := S512x4096) ![0, c] S256x1024.size inbT).toLoadRect.idx j) c inbF A j
    (show 0 + 1 * (j 0).val = (j 0).val by omega) (show c + 1 * (j 1).val = c + (j 1).val by omega)

/-- The same of the bottom half. -/
theorem readCov_bot_head (c : Nat) (inbF : ∀ a, (![0, c] : Fin 2 → Nat) a + S512x1024.size a ≤ S512x4096.size a)
    (inbB : ∀ a, (![256, c] : Fin 2 → Nat) a + S256x1024.size a ≤ S512x4096.size a)
    (A : Vec F S512x1024 .f32) (L : List (View.Piece (Elt F) S512x4096 .f32)) :
    oM.view.readCov (⟨Rect.unit (s := S512x4096) ![0, c] S512x1024.size inbF, A⟩ :: L)
        (Rect.unit (s := S512x4096) ![256, c] S256x1024.size inbB).toLoadRect = botOf A := by
  funext j
  rw [View.readCov, View.readAt_apply]
  exact read_bot_y oM.view.junk L ((Rect.unit (s := S512x4096) ![256, c] S256x1024.size inbB).toLoadRect.idx j) c inbF A j
    (show 256 + 1 * (j 0).val = 256 + (j 0).val by omega) (show c + 1 * (j 1).val = c + (j 1).val by omega)

/-- A store through a unit rectangle separated on one axis from the load's rectangle is not read by the load. -/
theorem readCov_skip {off size off' size' : Fin 2 → Nat} {inb : ∀ a, off a + size a ≤ S512x4096.size a}
    {inb' : ∀ a, off' a + size' a ≤ S512x4096.size a}
    {w : (Rect.unit (s := S512x4096) off size inb).shape.Idx → Elt F .f32} {L : List (View.Piece (Elt F) S512x4096 .f32)} (a : Fin 2)
    (h : off a + size a ≤ off' a ∨ off' a + size' a ≤ off a) :
    oM.view.readCov (⟨Rect.unit (s := S512x4096) off size inb, w⟩ :: L) (Rect.unit (s := S512x4096) off' size' inb').toLoadRect
      = oM.view.readCov L (Rect.unit (s := S512x4096) off' size' inb').toLoadRect :=
  View.readCov_cons_of_disjoint oM.view _ L _ (Rect.unit_disjoint (inb := inb) (inb' := inb') a h)

/-! ## The assembled contents at one entry -/

theorem T_congr (T : Fin 4 → Vec F S256x1024 .f32) {k k' : Fin 4} {a a' : Fin 256} {b b' : Fin 1024}
    (hk : k.val = k'.val) (ha : a.val = a'.val) (hb : b.val = b'.val) :
    T k (ValueIdx.ix2 a b) = T k' (ValueIdx.ix2 a' b') := by
  obtain rfl := Fin.ext hk
  obtain rfl := Fin.ext ha
  obtain rfl := Fin.ext hb
  rfl

theorem assemble_top (T B : Fin 4 → Vec F S256x1024 .f32) (y : S512x4096.Idx) (k : Fin 4) (c : Nat) (hc : c = 1024 * k.val)
    (h0 : (y 0).val < 256) (h1 : c ≤ (y 1).val) (h2 : (y 1).val < c + 1024) :
    assemble T B y = T k (ValueIdx.ix2 (⟨(y 0).val, h0⟩ : Fin 256) (⟨(y 1).val - c, by omega⟩ : Fin 1024)) := by
  have hk : (y 1).val / 1024 = k.val := by omega
  have hj : (y 1).val % 1024 = (y 1).val - c := by omega
  unfold assemble
  simp only [dif_pos h0]
  exact T_congr T hk rfl hj

theorem assemble_bot (T B : Fin 4 → Vec F S256x1024 .f32) (y : S512x4096.Idx) (k : Fin 4) (c : Nat) (hc : c = 1024 * k.val)
    (h0 : 256 ≤ (y 0).val) (h1 : c ≤ (y 1).val) (h2 : (y 1).val < c + 1024) :
    assemble T B y = B k (ValueIdx.ix2 (⟨(y 0).val - 256, by have h' : (y 0).val < 512 := (y 0).isLt; omega⟩ : Fin 256)
      (⟨(y 1).val - c, by omega⟩ : Fin 1024)) := by
  have hk : (y 1).val / 1024 = k.val := by omega
  have hj : (y 1).val % 1024 = (y 1).val - c := by omega
  have hn : ¬ (y 0).val < 256 := by omega
  unfold assemble
  simp only [dif_neg hn]
  exact T_congr B hk rfl hj

/-- Contents of the whole buffer are equal when they read the same at every entry. -/
theorem eq_of_read (g G : (cc0_stg2_0 : Ref sig .tc).ty.Contents (Elt F)) (M : List (View.Piece (Elt F) S512x4096 .f32))
    (h : ∀ y : S512x4096.Idx, oM.view.read (Elt F) (oM.view.writes (Elt F) g M) y = G y) :
    oM.view.writes (Elt F) g M = G :=
  funext fun y => h y

section Lists
variable (A0 A1 A2 A3 : Vec F S512x1024 .f32)
  (PX0 PX1 PX2 PX3 PY0 PY1 PY2 PY3 : Vec F S256x1024 .f32 → Vec F S256x1024 .f32)

/-! ## The top-first run in closed form -/

/-- The first eight stores of the top-first run, the covered loads evaluated. -/
def CT8 : List (View.Piece (Elt F) S512x4096 .f32) :=
  [⟨rT3, PX3 (topOf A3)⟩, ⟨rF3, A3⟩, ⟨rT2, PX2 (topOf A2)⟩, ⟨rF2, A2⟩, ⟨rT1, PX1 (topOf A1)⟩, ⟨rF1, A1⟩, ⟨rT0, PX0 (topOf A0)⟩, ⟨rF0, A0⟩]

theorem LT8_eq : LT8 A0 A1 A2 A3 PX0 PX1 PX2 PX3 = CT8 A0 A1 A2 A3 PX0 PX1 PX2 PX3 := by
  rw [LT8, LT7, readCov_top_head, LT6, LT5, readCov_top_head, LT4, LT3, readCov_top_head, LT2, LT1, readCov_top_head, CT8]

theorem rcT8 : oM.view.readCov (LT8 A0 A1 A2 A3 PX0 PX1 PX2 PX3) rB0.toLoadRect = botOf A0 := by
  rw [LT8_eq, CT8, readCov_skip 0 ?_, readCov_skip 1 ?_, readCov_skip 0 ?_, readCov_skip 1 ?_, readCov_skip 0 ?_, readCov_skip 1 ?_,
    readCov_skip 0 ?_, readCov_bot_head]
  all_goals decide

theorem LT9_eq : LT9 A0 A1 A2 A3 PX0 PX1 PX2 PX3 PY0 = ⟨rB0, PY0 (botOf A0)⟩ :: CT8 A0 A1 A2 A3 PX0 PX1 PX2 PX3 := by
  rw [LT9, rcT8, LT8_eq]

theorem rcT9 : oM.view.readCov (LT9 A0 A1 A2 A3 PX0 PX1 PX2 PX3 PY0) rB1.toLoadRect = botOf A1 := by
  rw [LT9_eq, CT8, readCov_skip 1 ?_, readCov_skip 0 ?_, readCov_skip 1 ?_, readCov_skip 0 ?_, readCov_skip 1 ?_, readCov_skip 0 ?_,
    readCov_bot_head]
  all_goals decide

theorem LT10_eq : LT10 A0 A1 A2 A3 PX0 PX1 PX2 PX3 PY0 PY1
    = ⟨rB1, PY1 (botOf A1)⟩ :: ⟨rB0, PY0 (botOf A0)⟩ :: CT8 A0 A1 A2 A3 PX0 PX1 PX2 PX3 := by
  rw [LT10, rcT9, LT9_eq]

theorem rcT10 : oM.view.readCov (LT10 A0 A1 A2 A3 PX0 PX1 PX2 PX3 PY0 PY1) rB2.toLoadRect = botOf A2 := by
  rw [LT10_eq, CT8, readCov_skip 1 ?_, readCov_skip 1 ?_, readCov_skip 0 ?_, readCov_skip 1 ?_, readCov_skip 0 ?_, readCov_bot_head]
  all_goals decide

theorem LT11_eq : LT11 A0 A1 A2 A3 PX0 PX1 PX2 PX3 PY0 PY1 PY2
    = ⟨rB2, PY2 (botOf A2)⟩ :: ⟨rB1, PY1 (botOf A1)⟩ :: ⟨rB0, PY0 (botOf A0)⟩ :: CT8 A0 A1 A2 A3 PX0 PX1 PX2 PX3 := by
  rw [LT11, rcT10, LT10_eq]

theorem rcT11 : oM.view.readCov (LT11 A0 A1 A2 A3 PX0 PX1 PX2 PX3 PY0 PY1 PY2) rB3.toLoadRect = botOf A3 := by
  rw [LT11_eq, CT8, readCov_skip 1 ?_, readCov_skip 1 ?_, readCov_skip 1 ?_, readCov_skip 0 ?_, readCov_bot_head]
  all_goals decide

theorem LT12_eq : LT12 A0 A1 A2 A3 PX0 PX1 PX2 PX3 PY0 PY1 PY2 PY3
    = ⟨rB3, PY3 (botOf A3)⟩ :: ⟨rB2, PY2 (botOf A2)⟩ :: ⟨rB1, PY1 (botOf A1)⟩ :: ⟨rB0, PY0 (botOf A0)⟩
        :: CT8 A0 A1 A2 A3 PX0 PX1 PX2 PX3 := by
  rw [LT12, rcT11, LT11_eq]

/-- The run with the first landing on the top halves: whatever the buffer held (`g`), it ends with chunk `k` holding
    `PX k (top of A k)` over `PY k (bottom of A k)`. -/
theorem writes_top_first (g : (cc0_stg2_0 : Ref sig .tc).ty.Contents (Elt F)) :
    oM.view.writes (Elt F) g (LT12 A0 A1 A2 A3 PX0 PX1 PX2 PX3 PY0 PY1 PY2 PY3)
      = assemble (fun k => match k with | 0 => PX0 (topOf A0) | 1 => PX1 (topOf A1) | 2 => PX2 (topOf A2) | 3 => PX3 (topOf A3))
          (fun k => match k with | 0 => PY0 (botOf A0) | 1 => PY1 (botOf A1) | 2 => PY2 (botOf A2) | 3 => PY3 (botOf A3)) := by
  rw [LT12_eq, CT8]
  refine eq_of_read g _ _ fun y => ?_
  have hy1 : (y 1).val < 4096 := (y 1).isLt
  by_cases h0 : (y 0).val < 256
  · by_cases c3 : 3072 ≤ (y 1).val
    · rw [skipB g _ y 3072 _ _ (Or.inl h0), skipB g _ y 2048 _ _ (Or.inl h0), skipB g _ y 1024 _ _ (Or.inl h0),
        skipB g _ y 0 _ _ (Or.inl h0), hitT g _ y 3072 _ _ h0 c3 (by omega), assemble_top _ _ y 3 3072 (by decide) h0 c3 (by omega)] <;> rfl
    · by_cases c2 : 2048 ≤ (y 1).val
      · rw [skipB g _ y 3072 _ _ (Or.inl h0), skipB g _ y 2048 _ _ (Or.inl h0), skipB g _ y 1024 _ _ (Or.inl h0),
          skipB g _ y 0 _ _ (Or.inl h0), skipT g _ y 3072 _ _ (by omega), skipF g _ y 3072 _ _ (by omega),
          hitT g _ y 2048 _ _ h0 c2 (by omega), assemble_top _ _ y 2 2048 (by decide) h0 c2 (by omega)] <;> rfl
      · by_cases c1 : 1024 ≤ (y 1).val
        · rw [skipB g _ y 3072 _ _ (Or.inl h0), skipB g _ y 2048 _ _ (Or.inl h0), skipB g _ y 1024 _ _ (Or.inl h0),
            skipB g _ y 0 _ _ (Or.inl h0), skipT g _ y 3072 _ _ (by omega), skipF g _ y 3072 _ _ (by omega),
            skipT g _ y 2048 _ _ (by omega), skipF g _ y 2048 _ _ (by omega),
            hitT g _ y 1024 _ _ h0 c1 (by omega), assemble_top _ _ y 1 1024 (by decide) h0 c1 (by omega)] <;> rfl
        · rw [skipB g _ y 3072 _ _ (Or.inl h0), skipB g _ y 2048 _ _ (Or.inl h0), skipB g _ y 1024 _ _ (Or.inl h0),
            skipB g _ y 0 _ _ (Or.inl h0), skipT g _ y 3072 _ _ (by omega), skipF g _ y 3072 _ _ (by omega),
            skipT g _ y 2048 _ _ (by omega), skipF g _ y 2048 _ _ (by omega),
            skipT g _ y 1024 _ _ (by omega), skipF g _ y 1024 _ _ (by omega),
            hitT g _ y 0 _ _ h0 (by omega) (by omega), assemble_top _ _ y 0 0 (by decide) h0 (by omega) (by omega)] <;> rfl
  · have h0' : 256 ≤ (y 0).val := by omega
    by_cases c3 : 3072 ≤ (y 1).val
    · rw [hitB g _ y 3072 _ _ h0' c3 (by omega), assemble_bot _ _ y 3 3072 (by decide) h0' c3 (by omega)] <;> rfl
    · by_cases c2 : 2048 ≤ (y 1).val
      · rw [skipB g _ y 3072 _ _ (by omega), hitB g _ y 2048 _ _ h0' c2 (by omega),
          assemble_bot _ _ y 2 2048 (by decide) h0' c2 (by omega)] <;> rfl
      · by_cases c1 : 1024 ≤ (y 1).val
        · rw [skipB g _ y 3072 _ _ (by omega), skipB g _ y 2048 _ _ (by omega), hitB g _ y 1024 _ _ h0' c1 (by omega),
            assemble_bot _ _ y 1 1024 (by decide) h0' c1 (by omega)] <;> rfl
        · rw [skipB g _ y 3072 _ _ (by omega), skipB g _ y 2048 _ _ (by omega), skipB g _ y 1024 _ _ (by omega),
            hitB g _ y 0 _ _ h0' (by omega) (by omega), assemble_bot _ _ y 0 0 (by decide) h0' (by omega) (by omega)] <;> rfl

/-! ## The bottom-first run in closed form -/

/-- The first eight stores of the bottom-first run, the covered loads evaluated. -/
def CB8 : List (View.Piece (Elt F) S512x4096 .f32) :=
  [⟨rB3, PX3 (botOf A3)⟩, ⟨rF3, A3⟩, ⟨rB2, PX2 (botOf A2)⟩, ⟨rF2, A2⟩, ⟨rB1, PX1 (botOf A1)⟩, ⟨rF1, A1⟩, ⟨rB0, PX0 (botOf A0)⟩, ⟨rF0, A0⟩]

theorem LB8_eq : LB8 A0 A1 A2 A3 PX0 PX1 PX2 PX3 = CB8 A0 A1 A2 A3 PX0 PX1 PX2 PX3 := by
  rw [LB8, LB7, readCov_bot_head, LB6, LB5, readCov_bot_head, LB4, LB3, readCov_bot_head, LB2, LB1, readCov_bot_head, CB8]

theorem rcB8 : oM.view.readCov (LB8 A0 A1 A2 A3 PX0 PX1 PX2 PX3) rT0.toLoadRect = topOf A0 := by
  rw [LB8_eq, CB8, readCov_skip 0 ?_, readCov_skip 1 ?_, readCov_skip 0 ?_, readCov_skip 1 ?_, readCov_skip 0 ?_, readCov_skip 1 ?_,
    readCov_skip 0 ?_, readCov_top_head]
  all_goals decide

theorem LB9_eq : LB9 A0 A1 A2 A3 PX0 PX1 PX2 PX3 PY0 = ⟨rT0, PY0 (topOf A0)⟩ :: CB8 A0 A1 A2 A3 PX0 PX1 PX2 PX3 := by
  rw [LB9, rcB8, LB8_eq]

theorem rcB9 : oM.view.readCov (LB9 A0 A1 A2 A3 PX0 PX1 PX2 PX3 PY0) rT1.toLoadRect = topOf A1 := by
  rw [LB9_eq, CB8, readCov_skip 1 ?_, readCov_skip 0 ?_, readCov_skip 1 ?_, readCov_skip 0 ?_, readCov_skip 1 ?_, readCov_skip 0 ?_,
    readCov_top_head]
  all_goals decide

theorem LB10_eq : LB10 A0 A1 A2 A3 PX0 PX1 PX2 PX3 PY0 PY1
    = ⟨rT1, PY1 (topOf A1)⟩ :: ⟨rT0, PY0 (topOf A0)⟩ :: CB8 A0 A1 A2 A3 PX0 PX1 PX2 PX3 := by
  rw [LB10, rcB9, LB9_eq]

theorem rcB10 : oM.view.readCov (LB10 A0 A1 A2 A3 PX0 PX1 PX2 PX3 PY0 PY1) rT2.toLoadRect = topOf A2 := by
  rw [LB10_eq, CB8, readCov_skip 1 ?_, readCov_skip 1 ?_, readCov_skip 0 ?_, readCov_skip 1 ?_, readCov_skip 0 ?_, readCov_top_head]
  all_goals decide

theorem LB11_eq : LB11 A0 A1 A2 A3 PX0 PX1 PX2 PX3 PY0 PY1 PY2
    = ⟨rT2, PY2 (topOf A2)⟩ :: ⟨rT1, PY1 (topOf A1)⟩ :: ⟨rT0, PY0 (topOf A0)⟩ :: CB8 A0 A1 A2 A3 PX0 PX1 PX2 PX3 := by
  rw [LB11, rcB10, LB10_eq]

theorem rcB11 : oM.view.readCov (LB11 A0 A1 A2 A3 PX0 PX1 PX2 PX3 PY0 PY1 PY2) rT3.toLoadRect = topOf A3 := by
  rw [LB11_eq, CB8, readCov_skip 1 ?_, readCov_skip 1 ?_, readCov_skip 1 ?_, readCov_skip 0 ?_, readCov_top_head]
  all_goals decide

theorem LB12_eq : LB12 A0 A1 A2 A3 PX0 PX1 PX2 PX3 PY0 PY1 PY2 PY3
    = ⟨rT3, PY3 (topOf A3)⟩ :: ⟨rT2, PY2 (topOf A2)⟩ :: ⟨rT1, PY1 (topOf A1)⟩ :: ⟨rT0, PY0 (topOf A0)⟩
        :: CB8 A0 A1 A2 A3 PX0 PX1 PX2 PX3 := by
  rw [LB12, rcB11, LB11_eq]

/-- The run with the first landing on the bottom halves: chunk `k` ends holding `PY k (top of A k)` over `PX k (bottom of A k)`. -/
theorem writes_bot_first (g : (cc0_stg2_0 : Ref sig .tc).ty.Contents (Elt F)) :
    oM.view.writes (Elt F) g (LB12 A0 A1 A2 A3 PX0 PX1 PX2 PX3 PY0 PY1 PY2 PY3)
      = assemble (fun k => match k with | 0 => PY0 (topOf A0) | 1 => PY1 (topOf A1) | 2 => PY2 (topOf A2) | 3 => PY3 (topOf A3))
          (fun k => match k with | 0 => PX0 (botOf A0) | 1 => PX1 (botOf A1) | 2 => PX2 (botOf A2) | 3 => PX3 (botOf A3)) := by
  rw [LB12_eq, CB8]
  refine eq_of_read g _ _ fun y => ?_
  have hy1 : (y 1).val < 4096 := (y 1).isLt
  by_cases h0 : (y 0).val < 256
  · by_cases c3 : 3072 ≤ (y 1).val
    · rw [hitT g _ y 3072 _ _ h0 c3 (by omega), assemble_top _ _ y 3 3072 (by decide) h0 c3 (by omega)] <;> rfl
    · by_cases c2 : 2048 ≤ (y 1).val
      · rw [skipT g _ y 3072 _ _ (by omega), hitT g _ y 2048 _ _ h0 c2 (by omega),
          assemble_top _ _ y 2 2048 (by decide) h0 c2 (by omega)] <;> rfl
      · by_cases c1 : 1024 ≤ (y 1).val
        · rw [skipT g _ y 3072 _ _ (by omega), skipT g _ y 2048 _ _ (by omega), hitT g _ y 1024 _ _ h0 c1 (by omega),
            assemble_top _ _ y 1 1024 (by decide) h0 c1 (by omega)] <;> rfl
        · rw [skipT g _ y 3072 _ _ (by omega), skipT g _ y 2048 _ _ (by omega), skipT g _ y 1024 _ _ (by omega),
            hitT g _ y 0 _ _ h0 (by omega) (by omega), assemble_top _ _ y 0 0 (by decide) h0 (by omega) (by omega)] <;> rfl
  · have h0' : 256 ≤ (y 0).val := by omega
    by_cases c3 : 3072 ≤ (y 1).val
    · rw [skipT g _ y 3072 _ _ (Or.inl h0'), skipT g _ y 2048 _ _ (Or.inl h0'), skipT g _ y 1024 _ _ (Or.inl h0'),
        skipT g _ y 0 _ _ (Or.inl h0'), hitB g _ y 3072 _ _ h0' c3 (by omega), assemble_bot _ _ y 3 3072 (by decide) h0' c3 (by omega)] <;> rfl
    · by_cases c2 : 2048 ≤ (y 1).val
      · rw [skipT g _ y 3072 _ _ (Or.inl h0'), skipT g _ y 2048 _ _ (Or.inl h0'), skipT g _ y 1024 _ _ (Or.inl h0'),
          skipT g _ y 0 _ _ (Or.inl h0'), skipB g _ y 3072 _ _ (by omega), skipF g _ y 3072 _ _ (by omega),
          hitB g _ y 2048 _ _ h0' c2 (by omega), assemble_bot _ _ y 2 2048 (by decide) h0' c2 (by omega)] <;> rfl
      · by_cases c1 : 1024 ≤ (y 1).val
        · rw [skipT g _ y 3072 _ _ (Or.inl h0'), skipT g _ y 2048 _ _ (Or.inl h0'), skipT g _ y 1024 _ _ (Or.inl h0'),
            skipT g _ y 0 _ _ (Or.inl h0'), skipB g _ y 3072 _ _ (by omega), skipF g _ y 3072 _ _ (by omega),
            skipB g _ y 2048 _ _ (by omega), skipF g _ y 2048 _ _ (by omega),
            hitB g _ y 1024 _ _ h0' c1 (by omega), assemble_bot _ _ y 1 1024 (by decide) h0' c1 (by omega)] <;> rfl
        · rw [skipT g _ y 3072 _ _ (Or.inl h0'), skipT g _ y 2048 _ _ (Or.inl h0'), skipT g _ y 1024 _ _ (Or.inl h0'),
            skipT g _ y 0 _ _ (Or.inl h0'), skipB g _ y 3072 _ _ (by omega), skipF g _ y 3072 _ _ (by omega),
            skipB g _ y 2048 _ _ (by omega), skipF g _ y 2048 _ _ (by omega),
            skipB g _ y 1024 _ _ (by omega), skipF g _ y 1024 _ _ (by omega),
            hitB g _ y 0 _ _ h0' (by omega) (by omega), assemble_bot _ _ y 0 0 (by decide) h0' (by omega) (by omega)] <;> rfl

end Lists

end Cert.KernelIdeal.Hand

end
-- ==== Proof.KI.Body.lean ====
/-
  The body at any device (by its second mesh coordinate), and the pipeline's body obligation.
-/
import proofs.«901047_g7700000000001048_dist_rsdw_v7x_xyz2x2x4_x_m1024_d1024_f4096_f32_1_alg».proof.Proof.KI.Body0
import proofs.«901047_g7700000000001048_dist_rsdw_v7x_xyz2x2x4_x_m1024_d1024_f4096_f32_1_alg».proof.Proof.KI.Body1
import proofs.«901047_g7700000000001048_dist_rsdw_v7x_xyz2x2x4_x_m1024_d1024_f4096_f32_1_alg».proof.Proof.KI.OutWrites

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body at any device. -/
theorem sound_body (K : Dev nD × Fin 17 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  rcases cy_lt c with h | h
  · exact body_cy0 m ρ (fun A0 A1 A2 A3 PX0 PX1 PX2 PX3 PY0 PY1 PY2 PY3 g => writes_top_first A0 A1 A2 A3 PX0 PX1 PX2 PX3 PY0 PY1 PY2 PY3 g) K c h Kt
  · exact body_cy1 m ρ (fun A0 A1 A2 A3 PX0 PX1 PX2 PX3 PY0 PY1 PY2 PY3 g => writes_bot_first A0 A1 A2 A3 PX0 PX1 PX2 PX3 PY0 PY1 PY2 PY3 g) K c h Kt

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) (fun _ => bodyPost m ρ c)
  unfold bodyPre' Φ₀ start
  iintro ⟨⟨⟨⟨%K, Hg⟩, Hcr, Hlev⟩, Hscr⟩, Ho, Hx, Hdy, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

end Cert.KernelIdeal.Hand

end
-- ==== Proof.KI.Launch.lean ====
/-
  The launch: every weakly fair execution of the sixteen devices' kernels terminates, nothing faulting, with each
  windowed array at the contents the proof data computes: the two arguments unchanged, the result at `outAt`.
  The launch credit of a cell is the sum over all devices of what each owes it at launch: a barrier cell is owed one
  unit by the owner's x-peer and one by its y-peer; first-hop receive cell `k` the buffer's credit by the x-peer,
  second-hop receive cell `k` the buffer's credit by the y-peer.
-/
import proofs.«901047_g7700000000001048_dist_rsdw_v7x_xyz2x2x4_x_m1024_d1024_f4096_f32_1_alg».proof.Proof.KI.Alloc
import proofs.«901047_g7700000000001048_dist_rsdw_v7x_xyz2x2x4_x_m1024_d1024_f4096_f32_1_alg».proof.Proof.KI.Body

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout of the own semaphores; the arrays' shares -/

theorem ownSemFacts : Pipeline.OwnSemFacts cfg0.spec osem := by decide

theorem share_eq (c : Dev nD) (w : Fin cfg0.W) : (dats m ρ 0 c).share w = fullShare := by unfold Dat.share; split <;> rfl

/-! ## The launch credit -/

omit [FloatOps F] in
/-- Two units of credit on one barrier cell are the cell's credit of two. -/
theorem cred_bar_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add (barCell c) () 1 1).symm]
  exact (cred_add _ _).2

omit [FloatOps F] in
/-- Summed over the devices that owe them, the launch's dues are each device's own credits: its barrier cell is owed a
    unit by its x-peer and a unit by its y-peer, its first-hop receive cells the buffer's credit by its x-peer, its
    second-hop receive cells the buffer's credit by its y-peer (the peers are involutions). -/
theorem creds_intro (c : Dev nD) : (Pipeline.launchCred O₀ c : sProp 𝕄) ⊢ creds c := by
  have hBx : (Pipeline.launchCred (fun d => tBx d) c : sProp 𝕄) ⊢ cred (tallyAt (barCell c) () 1) :=
    Pipeline.launchCred_tallyAt (.reg barS) xp xp xp_xp xp_xp () 1 c
  have hBy : (Pipeline.launchCred (fun d => tBy d) c : sProp 𝕄) ⊢ cred (tallyAt (barCell c) () 1) :=
    Pipeline.launchCred_tallyAt (.reg barS) yp yp yp_yp yp_yp () 1 c
  have hX (k : Fin 4) : (Pipeline.launchCred (fun d => tX d k) c : sProp 𝕄) ⊢ cred (tallyAt (xrCell c k) () N) :=
    Pipeline.launchCred_tallyAt (.dma (xrS k)) xp xp xp_xp xp_xp () N c
  have hY (k : Fin 4) : (Pipeline.launchCred (fun d => tY d k) c : sProp 𝕄) ⊢ cred (tallyAt (yrCell c k) () N) :=
    Pipeline.launchCred_tallyAt (.dma (yrS k)) yp yp yp_yp yp_yp () N c
  have e0 : (Pipeline.launchCred O₀ c : sProp 𝕄) = iprop(Pipeline.launchCred O₁ c ∗ Pipeline.launchCred (fun d => tBx d) c) := Pipeline.launchCred_add O₁ (fun d => tBx d) c
  have e1 : (Pipeline.launchCred O₁ c : sProp 𝕄) = iprop(Pipeline.launchCred OX0 c ∗ Pipeline.launchCred (fun d => tBy d) c) := Pipeline.launchCred_add OX0 (fun d => tBy d) c
  have e2 : (Pipeline.launchCred OX0 c : sProp 𝕄) = iprop(Pipeline.launchCred OX1 c ∗ Pipeline.launchCred (fun d => tX d 0) c) := Pipeline.launchCred_add OX1 (fun d => tX d 0) c
  have e3 : (Pipeline.launchCred OX1 c : sProp 𝕄) = iprop(Pipeline.launchCred OX2 c ∗ Pipeline.launchCred (fun d => tX d 1) c) := Pipeline.launchCred_add OX2 (fun d => tX d 1) c
  have e4 : (Pipeline.launchCred OX2 c : sProp 𝕄) = iprop(Pipeline.launchCred OX3 c ∗ Pipeline.launchCred (fun d => tX d 2) c) := Pipeline.launchCred_add OX3 (fun d => tX d 2) c
  have e5 : (Pipeline.launchCred OX3 c : sProp 𝕄) = iprop(Pipeline.launchCred OY0 c ∗ Pipeline.launchCred (fun d => tX d 3) c) := Pipeline.launchCred_add OY0 (fun d => tX d 3) c
  have e6 : (Pipeline.launchCred OY0 c : sProp 𝕄) = iprop(Pipeline.launchCred OY1 c ∗ Pipeline.launchCred (fun d => tY d 0) c) := Pipeline.launchCred_add OY1 (fun d => tY d 0) c
  have e7 : (Pipeline.launchCred OY1 c : sProp 𝕄) = iprop(Pipeline.launchCred OY2 c ∗ Pipeline.launchCred (fun d => tY d 1) c) := Pipeline.launchCred_add OY2 (fun d => tY d 1) c
  have e8 : (Pipeline.launchCred OY2 c : sProp 𝕄) = iprop(Pipeline.launchCred (fun d => tY d 3) c ∗ Pipeline.launchCred (fun d => tY d 2) c) := Pipeline.launchCred_add (fun d => tY d 3) (fun d => tY d 2) c
  rw [e0, e1, e2, e3, e4, e5, e6, e7, e8]
  refine (BIClass.sep_mono (BIClass.sep_mono (BIClass.sep_mono (BIClass.sep_mono (BIClass.sep_mono (BIClass.sep_mono (BIClass.sep_mono (BIClass.sep_mono (BIClass.sep_mono (hY 3) (hY 2)) (hY 1)) (hY 0)) (hX 3)) (hX 2)) (hX 1)) (hX 0)) hBy) hBx).trans ?_
  unfold creds
  iintro ⟨⟨⟨⟨⟨⟨⟨⟨⟨HY3, HY2⟩, HY1⟩, HY0⟩, HX3⟩, HX2⟩, HX1⟩, HX0⟩, HBy⟩, HBx⟩
  isplitl [HBy HBx]
  · iapply (cred_bar_two c)
    isplitl [HBy] <;> iassumption
  isplitl [HX0 HX1 HX2 HX3]
  · isplitl [HX0]; · iexact HX0
    isplitl [HX1]; · iexact HX1
    isplitl [HX2]; · iexact HX2
    iexact HX3
  · isplitl [HY0]; · iexact HY0
    isplitl [HY1]; · iexact HY1
    isplitl [HY2]; · iexact HY2
    iexact HY3

/-! ## The theorem's side conditions -/

omit [FloatOps F] in
/-- A buffer held whole through a memref whose view covers it is the buffer held whole. -/
theorem ex_pts_eq {s : Shape} {e : EltTy} (M : Memref sig .tc .vmem s e) (c : Dev nD) (h : M.view.set = Finset.univ) :
    (iprop(∃ f, pts M c fullShare f) : sProp 𝕄)
      = iprop(∃ f : Buf (Elt F) (M.view.loc (c : Thread nD τ)), (M.view.loc (c : Thread nD τ)) ↦{fullShare} f) := by
  unfold pts; rw [h]

omit [FloatOps F] in
theorem scratch0_pts (c : Dev nD) :
    (iprop(∃ f, pts (Memref.whole cc0_scratch0 : Memref sig .tc .vmem S256x1024 .bf16) c fullShare f) : sProp 𝕄)
      = iprop(∃ f : Buf (Elt F) ((c : Thread nD τ).loc cc0_scratch0), ((c : Thread nD τ).loc cc0_scratch0) ↦{fullShare} f) :=
  ex_pts_eq _ c (View.set_whole cc0_scratch0)
omit [FloatOps F] in
theorem scratch1_pts (c : Dev nD) :
    (iprop(∃ f, pts (Memref.whole cc0_scratch1 : Memref sig .tc .vmem S256x1024 .bf16) c fullShare f) : sProp 𝕄)
      = iprop(∃ f : Buf (Elt F) ((c : Thread nD τ).loc cc0_scratch1), ((c : Thread nD τ).loc cc0_scratch1) ↦{fullShare} f) :=
  ex_pts_eq _ c (View.set_whole cc0_scratch1)
omit [FloatOps F] in
theorem scratch2_pts (c : Dev nD) :
    (iprop(∃ f, pts (Memref.whole cc0_scratch2 : Memref sig .tc .vmem S256x1024 .bf16) c fullShare f) : sProp 𝕄)
      = iprop(∃ f : Buf (Elt F) ((c : Thread nD τ).loc cc0_scratch2), ((c : Thread nD τ).loc cc0_scratch2) ↦{fullShare} f) :=
  ex_pts_eq _ c (View.set_whole cc0_scratch2)
omit [FloatOps F] in
theorem scratch3_pts (c : Dev nD) :
    (iprop(∃ f, pts (Memref.whole cc0_scratch3 : Memref sig .tc .vmem S256x1024 .bf16) c fullShare f) : sProp 𝕄)
      = iprop(∃ f : Buf (Elt F) ((c : Thread nD τ).loc cc0_scratch3), ((c : Thread nD τ).loc cc0_scratch3) ↦{fullShare} f) :=
  ex_pts_eq _ c (View.set_whole cc0_scratch3)
omit [FloatOps F] in
theorem scratch4_pts (c : Dev nD) :
    (iprop(∃ f, pts (Memref.whole cc0_scratch4 : Memref sig .tc .vmem S256x1024 .bf16) c fullShare f) : sProp 𝕄)
      = iprop(∃ f : Buf (Elt F) ((c : Thread nD τ).loc cc0_scratch4), ((c : Thread nD τ).loc cc0_scratch4) ↦{fullShare} f) :=
  ex_pts_eq _ c (View.set_whole cc0_scratch4)
omit [FloatOps F] in
theorem scratch5_pts (c : Dev nD) :
    (iprop(∃ f, pts (Memref.whole cc0_scratch5 : Memref sig .tc .vmem S256x1024 .bf16) c fullShare f) : sProp 𝕄)
      = iprop(∃ f : Buf (Elt F) ((c : Thread nD τ).loc cc0_scratch5), ((c : Thread nD τ).loc cc0_scratch5) ↦{fullShare} f) :=
  ex_pts_eq _ c (View.set_whole cc0_scratch5)
omit [FloatOps F] in
theorem scratch6_pts (c : Dev nD) :
    (iprop(∃ f, pts (Memref.whole cc0_scratch6 : Memref sig .tc .vmem S256x1024 .bf16) c fullShare f) : sProp 𝕄)
      = iprop(∃ f : Buf (Elt F) ((c : Thread nD τ).loc cc0_scratch6), ((c : Thread nD τ).loc cc0_scratch6) ↦{fullShare} f) :=
  ex_pts_eq _ c (View.set_whole cc0_scratch6)
omit [FloatOps F] in
theorem scratch7_pts (c : Dev nD) :
    (iprop(∃ f, pts (Memref.whole cc0_scratch7 : Memref sig .tc .vmem S256x1024 .bf16) c fullShare f) : sProp 𝕄)
      = iprop(∃ f : Buf (Elt F) ((c : Thread nD τ).loc cc0_scratch7), ((c : Thread nD τ).loc cc0_scratch7) ↦{fullShare} f) :=
  ex_pts_eq _ c (View.set_whole cc0_scratch7)
omit [FloatOps F] in
theorem scratch8_pts (c : Dev nD) :
    (iprop(∃ f, pts (Memref.whole cc0_scratch8 : Memref sig .tc .vmem S256x1024 .bf16) c fullShare f) : sProp 𝕄)
      = iprop(∃ f : Buf (Elt F) ((c : Thread nD τ).loc cc0_scratch8), ((c : Thread nD τ).loc cc0_scratch8) ↦{fullShare} f) :=
  ex_pts_eq _ c (View.set_whole cc0_scratch8)
omit [FloatOps F] in
theorem scratch9_pts (c : Dev nD) :
    (iprop(∃ f, pts (Memref.whole cc0_scratch9 : Memref sig .tc .vmem S256x1024 .bf16) c fullShare f) : sProp 𝕄)
      = iprop(∃ f : Buf (Elt F) ((c : Thread nD τ).loc cc0_scratch9), ((c : Thread nD τ).loc cc0_scratch9) ↦{fullShare} f) :=
  ex_pts_eq _ c (View.set_whole cc0_scratch9)
omit [FloatOps F] in
theorem scratch10_pts (c : Dev nD) :
    (iprop(∃ f, pts (Memref.whole cc0_scratch10 : Memref sig .tc .vmem S256x1024 .bf16) c fullShare f) : sProp 𝕄)
      = iprop(∃ f : Buf (Elt F) ((c : Thread nD τ).loc cc0_scratch10), ((c : Thread nD τ).loc cc0_scratch10) ↦{fullShare} f) :=
  ex_pts_eq _ c (View.set_whole cc0_scratch10)
omit [FloatOps F] in
theorem scratch11_pts (c : Dev nD) :
    (iprop(∃ f, pts (Memref.whole cc0_scratch11 : Memref sig .tc .vmem S256x1024 .bf16) c fullShare f) : sProp 𝕄)
      = iprop(∃ f : Buf (Elt F) ((c : Thread nD τ).loc cc0_scratch11), ((c : Thread nD τ).loc cc0_scratch11) ↦{fullShare} f) :=
  ex_pts_eq _ c (View.set_whole cc0_scratch11)

omit [FloatOps F] in
theorem sep_eq {P P' Q Q' : sProp 𝕄} (h1 : P = P') (h2 : Q = Q') : (iprop(P ∗ Q) : sProp 𝕄) = iprop(P' ∗ Q') := h1 ▸ h2 ▸ rfl

omit [FloatOps F] in
/-- The twelve scratch buffers at some contents are the region's scoped buffers that are no staging buffer. -/
theorem scr_eq (c : Dev nD) : (scr c : sProp 𝕄) = Pipeline.scopedRest cfg0.spec c :=
  (sep_eq (scratch0_pts c) (sep_eq (scratch1_pts c) (sep_eq (scratch2_pts c) (sep_eq (scratch3_pts c) (sep_eq (scratch4_pts c) (sep_eq (scratch5_pts c)
    (sep_eq (scratch6_pts c) (sep_eq (scratch7_pts c) (sep_eq (scratch8_pts c) (sep_eq (scratch9_pts c) (sep_eq (scratch10_pts c) (scratch11_pts c)))))))))))).trans
    (scopedRest0_eq c).symm

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ← scr_eq, ownSems0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, and every final state has each windowed array at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held; the result array holds the device's result block. -/
theorem finalA_x (c : Dev nD) : finalA m ρ c (0 : Fin 3) = (st0 m ρ).mem (win0_0.arr.view.loc (c : Thread nD τ)) :=
  (dats (F := F) m ρ 0 c).arrAt_in (0 : Fin 3) rfl _
theorem finalA_dy (c : Dev nD) : finalA m ρ c (1 : Fin 3) = (st0 m ρ).mem (win0_1.arr.view.loc (c : Thread nD τ)) :=
  (dats (F := F) m ρ 0 c).arrAt_in (1 : Fin 3) rfl _
theorem finalA_out (c : Dev nD) : finalA m ρ c (2 : Fin 3) = (outAt m ρ c : Buf (Elt F) (win0_2.arr.view.loc (c : Thread nD τ))) := by
  have ho : ((cfg0.win (2 : Fin 3)).blk t₀).view.read (Elt F) ((dats m ρ 0 c).arrAt (2 : Fin 3) cfg0.N) = (dats m ρ 0 c).flushed (2 : Fin 3) t₀ := by
    rw [show cfg0.N = (t₀ : Fin cfg0.N).val + 1 from rfl, (dats m ρ 0 c).arrAt_succ (2 : Fin 3) t₀, if_pos (flush0_2 t₀)]
    exact View.read_write_univ _ _
  have hz : (fun a => (win0_2.index t₀) a * main_v1.ty.shape.size a) = fun _ => 0 := funext fun a => by fin_cases a <;> decide
  have hr := fun f => Memref.read_access_unit_zero (Elt F) main_v1 hz (fun a => by fin_cases a <;> decide) f
  rw [hr] at ho
  exact ho

end Cert.KernelIdeal.Hand

end
-- ==== Proof.K.Defs0.lean ====
/-
  The protocol of the two-hop exchange, device by device.

  The sixteen devices form a 2 × 2 × 4 mesh; device `c` has coordinates (cx, cy, cz) with `c = 8·cx + 4·cy + cz`. Its
  x-peer `xp c` flips cx, its y-peer `yp c` flips cy; both are involutions. Each device multiplies a quarter of the
  columns of its block of `x` (the quarter its x-peer's half and its own cy name) with each of the four column chunks of
  its block of `dy`, sends product `k` to its x-peer (landing in the peer's buffer `xq k`), and forwards what it received
  in `xq k` to its y-peer (landing in `yq k`). So `xq k` of `c` ends holding product `k` of `xp c`, and `yq k` of `c`
  product `k` of `xp (yp c)`.

  Semaphores, per device: the barrier semaphore (two signals of one unit at entry, from the x-peer and from the y-peer,
  waited for together), and for each chunk `k` a send and a receive DMA semaphore of the first hop and a send and a
  receive DMA semaphore of the second. Every cell has one round. What a signal or a landing hands the waiter:
  the x-peer's barrier signal hands over the x-peer's four `xq` buffers (so that the first hop may write them), the
  y-peer's the y-peer's four `yq` buffers; a first-hop landing hands `xq k` holding the x-peer's product; a second-hop
  landing `yq k` holding the y-peer's `xq k`; a send cell returns the source (for the second hop: the half share of
  `xq k` the transfer held, the other half staying with the device, which reads `xq k` meanwhile).

  Levels: barrier cells at 1, first-hop receive cells at 2, second-hop receive cells at 3, all else 0: a device waits
  on its barrier owing only receive credits, on a first-hop receive cell owing only second-hop receive credits, and on
  everything else owing nothing.
-/
import proofs.«901047_g7700000000001048_dist_rsdw_v7x_xyz2x2x4_x_m1024_d1024_f4096_f32_1_alg».proof.Proof.Gen.Kernel
import proofs.«901047_g7700000000001048_dist_rsdw_v7x_xyz2x2x4_x_m1024_d1024_f4096_f32_1_alg».proof.Proof.Gen.Kernel.Skeleton
import proofs.«901047_g7700000000001048_dist_rsdw_v7x_xyz2x2x4_x_m1024_d1024_f4096_f32_1_alg».proof.Proof.Gen.Kernel.Launch
import proofs.«901047_g7700000000001048_dist_rsdw_v7x_xyz2x2x4_x_m1024_d1024_f4096_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The peers -/

/-- The x-peer: the device whose first mesh coordinate is the other one. -/
def xp (c : Dev nD) : Dev nD := ⟨k0_dev1 c, k0_dev1_lt c⟩
/-- The y-peer: the device whose second mesh coordinate is the other one. -/
def yp (c : Dev nD) : Dev nD := ⟨k0_dev2 c, k0_dev2_lt c⟩

theorem xp_xp (c : Dev nD) : xp (xp c) = c := by revert c; decide +kernel
theorem yp_yp (c : Dev nD) : yp (yp c) = c := by revert c; decide +kernel
theorem xp_yp (c : Dev nD) : xp (yp c) = yp (xp c) := by revert c; decide +kernel
theorem xp_ne_yp (c : Dev nD) : xp c ≠ yp c := by revert c; decide +kernel
theorem xp_ne (c : Dev nD) : xp c ≠ c := by revert c; decide +kernel
theorem yp_ne (c : Dev nD) : yp c ≠ c := by revert c; decide +kernel

theorem dev1_eq (c : Dev nD) : (⟨k0_dev1 c, k0_dev1_lt c⟩ : Dev nD) = xp c := rfl
theorem dev2_eq (c : Dev nD) : (⟨k0_dev2 c, k0_dev2_lt c⟩ : Dev nD) = yp c := rfl
theorem dev3_eq (c : Dev nD) : (⟨k0_dev3 c, k0_dev3_lt c⟩ : Dev nD) = xp c := Fin.ext ((k0_dev3_eq c).trans (k0_dev1_eq c).symm)
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = yp c := Fin.ext ((k0_dev7_eq c).trans (k0_dev2_eq c).symm)
theorem dev8_eq (c : Dev nD) : (⟨k0_dev8 c, k0_dev8_lt c⟩ : Dev nD) = yp c := Fin.ext ((k0_dev8_eq c).trans (k0_dev2_eq c).symm)
theorem dev9_eq (c : Dev nD) : (⟨k0_dev9 c, k0_dev9_lt c⟩ : Dev nD) = yp c := Fin.ext ((k0_dev9_eq c).trans (k0_dev2_eq c).symm)
theorem dev10_eq (c : Dev nD) : (⟨k0_dev10 c, k0_dev10_lt c⟩ : Dev nD) = yp c := Fin.ext ((k0_dev10_eq c).trans (k0_dev2_eq c).symm)

def xpE : Dev nD ≃ Dev nD := ⟨xp, xp, xp_xp, xp_xp⟩
def ypE : Dev nD ≃ Dev nD := ⟨yp, yp, yp_yp, yp_yp⟩

/-- The second mesh coordinate of a device (0 or 1): which quarter of its half a device adds the direct landing to. -/
def cy (c : Dev nD) : ℕ := (c.val / 4) % 2
theorem cy_lt (c : Dev nD) : cy c = 0 ∨ cy c = 1 := by unfold cy; omega

/-! ## The memrefs and the semaphores -/

abbrev xM : Memref sig .tc .vmem S1024x1024 .f32 := Memref.whole cc0_stg0_0
abbrev dyM : Memref sig .tc .vmem S1024x4096 .f32 := Memref.whole cc0_stg1_0
abbrev oM : Memref sig .tc .vmem S512x4096 .f32 := Memref.whole cc0_stg2_0

/-- The products to send (`sx`), the first hop's landing buffers (`xq`), the second hop's (`yq`): four each. -/
abbrev sxM : Fin 4 → Memref sig .tc .vmem S256x1024 .bf16
  | 0 => Memref.whole cc0_scratch0 | 1 => Memref.whole cc0_scratch1 | 2 => Memref.whole cc0_scratch2 | 3 => Memref.whole cc0_scratch3
abbrev xqM : Fin 4 → Memref sig .tc .vmem S256x1024 .bf16
  | 0 => Memref.whole cc0_scratch4 | 1 => Memref.whole cc0_scratch5 | 2 => Memref.whole cc0_scratch6 | 3 => Memref.whole cc0_scratch7
abbrev yqM : Fin 4 → Memref sig .tc .vmem S256x1024 .bf16
  | 0 => Memref.whole cc0_scratch8 | 1 => Memref.whole cc0_scratch9 | 2 => Memref.whole cc0_scratch10 | 3 => Memref.whole cc0_scratch11

/-- The runtime's barrier semaphore of collective id 0 (not scoped to the launch). -/
abbrev barS : Sem sig := (SemArray.scalar (sig.barrier 0 rfl) : Sems sig S_).sem
/-- The DMA semaphores: first hop send 3..6 and receive 7..10, second hop send 11..14 and receive 15..18. -/
abbrev xsS : Fin 4 → DmaSem sig | 0 => 3 | 1 => 4 | 2 => 5 | 3 => 6
abbrev xrS : Fin 4 → DmaSem sig | 0 => 7 | 1 => 8 | 2 => 9 | 3 => 10
abbrev ysS : Fin 4 → DmaSem sig | 0 => 11 | 1 => 12 | 2 => 13 | 3 => 14
abbrev yrS : Fin 4 → DmaSem sig | 0 => 15 | 1 => 16 | 2 => 17 | 3 => 18

/-- The kernel reaches them by slicing its four semaphore arrays. -/
theorem slice_xs0 : ((cc0_scratch12.slice (Rect.unit (s := S4) ![0] S1.size inb_S4_S1_0)).squeeze S_ squeezes_S1_S_).sem = (3 : DmaSem sig) := rfl
theorem slice_xs1 : ((cc0_scratch12.slice (Rect.unit (s := S4) ![1] S1.size inb_S4_S1_1)).squeeze S_ squeezes_S1_S_).sem = (4 : DmaSem sig) := rfl
theorem slice_xs2 : ((cc0_scratch12.slice (Rect.unit (s := S4) ![2] S1.size inb_S4_S1_2)).squeeze S_ squeezes_S1_S_).sem = (5 : DmaSem sig) := rfl
theorem slice_xs3 : ((cc0_scratch12.slice (Rect.unit (s := S4) ![3] S1.size inb_S4_S1_3)).squeeze S_ squeezes_S1_S_).sem = (6 : DmaSem sig) := rfl
theorem slice_xr0 : ((cc0_scratch13.slice (Rect.unit (s := S4) ![0] S1.size inb_S4_S1_0)).squeeze S_ squeezes_S1_S_).sem = (7 : DmaSem sig) := rfl
theorem slice_xr1 : ((cc0_scratch13.slice (Rect.unit (s := S4) ![1] S1.size inb_S4_S1_1)).squeeze S_ squeezes_S1_S_).sem = (8 : DmaSem sig) := rfl
theorem slice_xr2 : ((cc0_scratch13.slice (Rect.unit (s := S4) ![2] S1.size inb_S4_S1_2)).squeeze S_ squeezes_S1_S_).sem = (9 : DmaSem sig) := rfl
theorem slice_xr3 : ((cc0_scratch13.slice (Rect.unit (s := S4) ![3] S1.size inb_S4_S1_3)).squeeze S_ squeezes_S1_S_).sem = (10 : DmaSem sig) := rfl
theorem slice_ys0 : ((cc0_scratch14.slice (Rect.unit (s := S4) ![0] S1.size inb_S4_S1_0)).squeeze S_ squeezes_S1_S_).sem = (11 : DmaSem sig) := rfl
theorem slice_ys1 : ((cc0_scratch14.slice (Rect.unit (s := S4) ![1] S1.size inb_S4_S1_1)).squeeze S_ squeezes_S1_S_).sem = (12 : DmaSem sig) := rfl
theorem slice_ys2 : ((cc0_scratch14.slice (Rect.unit (s := S4) ![2] S1.size inb_S4_S1_2)).squeeze S_ squeezes_S1_S_).sem = (13 : DmaSem sig) := rfl
theorem slice_ys3 : ((cc0_scratch14.slice (Rect.unit (s := S4) ![3] S1.size inb_S4_S1_3)).squeeze S_ squeezes_S1_S_).sem = (14 : DmaSem sig) := rfl
theorem slice_yr0 : ((cc0_scratch15.slice (Rect.unit (s := S4) ![0] S1.size inb_S4_S1_0)).squeeze S_ squeezes_S1_S_).sem = (15 : DmaSem sig) := rfl
theorem slice_yr1 : ((cc0_scratch15.slice (Rect.unit (s := S4) ![1] S1.size inb_S4_S1_1)).squeeze S_ squeezes_S1_S_).sem = (16 : DmaSem sig) := rfl
theorem slice_yr2 : ((cc0_scratch15.slice (Rect.unit (s := S4) ![2] S1.size inb_S4_S1_2)).squeeze S_ squeezes_S1_S_).sem = (17 : DmaSem sig) := rfl
theorem slice_yr3 : ((cc0_scratch15.slice (Rect.unit (s := S4) ![3] S1.size inb_S4_S1_3)).squeeze S_ squeezes_S1_S_).sem = (18 : DmaSem sig) := rfl

abbrev barCell (c : Dev nD) : GSem nD τ sig := ((c : Thread nD τ), .reg barS)
abbrev xsCell (c : Dev nD) (k : Fin 4) : GSem nD τ sig := ((c : Thread nD τ), .dma (xsS k))
abbrev xrCell (c : Dev nD) (k : Fin 4) : GSem nD τ sig := ((c : Thread nD τ), .dma (xrS k))
abbrev ysCell (c : Dev nD) (k : Fin 4) : GSem nD τ sig := ((c : Thread nD τ), .dma (ysS k))
abbrev yrCell (c : Dev nD) (k : Fin 4) : GSem nD τ sig := ((c : Thread nD τ), .dma (yrS k))

/-- The kernel's OWN (scoped) semaphores, as the launch theorem indexes them: DMA semaphores 3..18. -/
abbrev osem : Fin 16 → SemLoc sig := fun j => .dma ⟨3 + j.val, by have := j.isLt; show 3 + j.val < 19; omega⟩
/-- All seventeen of the exchange's, as this proof indexes them: the barrier, then DMA semaphores 3..18. -/
abbrev csem : Fin 17 → SemLoc sig := fun j => if h : j.val = 0 then .reg barS else .dma ⟨2 + j.val, by have := j.isLt; show 2 + j.val < 19; omega⟩
abbrev kcell (ck : Dev nD × Fin 17) : GSem nD τ sig := ((ck.1 : Thread nD τ), csem ck.2)

/-- The credit of one 256 × 1024 bf16 buffer's transfer (the same for all twelve). -/
abbrev N : ℕ := (Memref.whole cc0_scratch0 : Memref sig .tc .vmem S256x1024 .bf16).view.dmaCredit
theorem N_pos : 0 < N := View.dmaCredit_pos _ (by decide)

/-! ## Contents -/

/-- A device's staged block of `x` and of `dy` (the blocks are whole: the call has no grid). -/
def xstg (c : Dev nD) : (cc0_stg0_0 : Ref sig .tc).ty.Contents (Elt F) :=
  (win0_0.blk (0 : Fin 1)).view.read (Elt F) ((st0 m ρ).mem ((c : Thread nD τ).loc main_arg0))
def dystg (c : Dev nD) : (cc0_stg1_0 : Ref sig .tc).ty.Contents (Elt F) :=
  (win0_1.blk (0 : Fin 1)).view.read (Elt F) ((st0 m ρ).mem ((c : Thread nD τ).loc main_arg1))

/-- The quarter of the columns of `x` a device multiplies for its x-peer, and the half it multiplies for itself. -/
def xQuarter (c : Dev nD) : Vec F S1024x256 .f32 :=
  xM.view.readAt (Elt F) (Rect.unit (s := S1024x1024) (k0_off1 c) S1024x256.size (k0_off1_inb c)).toLoadRect (xstg m ρ c)
def xHalf (c : Dev nD) : Vec F S1024x512 .f32 :=
  xM.view.readAt (Elt F) (Rect.unit (s := S1024x1024) (k0_off2 c) S1024x512.size (k0_off2_inb c)).toLoadRect (xstg m ρ c)
/-- The four column chunks of `dy`. -/
def dyChunk (c : Dev nD) : Fin 4 → Vec F S1024x1024 .f32
  | 0 => dyM.view.readAt (Elt F) (Rect.unit (s := S1024x4096) ![0, 0] S1024x1024.size inb_S1024x4096_S1024x1024_0_0).toLoadRect (dystg m ρ c)
  | 1 => dyM.view.readAt (Elt F) (Rect.unit (s := S1024x4096) ![0, 1024] S1024x1024.size inb_S1024x4096_S1024x1024_0_1024).toLoadRect (dystg m ρ c)
  | 2 => dyM.view.readAt (Elt F) (Rect.unit (s := S1024x4096) ![0, 2048] S1024x1024.size inb_S1024x4096_S1024x1024_0_2048).toLoadRect (dystg m ρ c)
  | 3 => dyM.view.readAt (Elt F) (Rect.unit (s := S1024x4096) ![0, 3072] S1024x1024.size inb_S1024x4096_S1024x1024_0_3072).toLoadRect (dystg m ρ c)

/-- Product `k` a device sends: its quarter of `x` against chunk `k` of `dy`, as the body computes it. -/
def sx (c : Dev nD) : Fin 4 → Vec F S256x1024 .bf16
  | 0 => k0_pay3 (k0_pay1 (xQuarter m ρ c)) (k0_pay2 (dyChunk m ρ c 0))
  | 1 => k0_pay4 (xQuarter m ρ c) (dyChunk m ρ c 1)
  | 2 => k0_pay5 (xQuarter m ρ c) (dyChunk m ρ c 2)
  | 3 => k0_pay6 (xQuarter m ρ c) (dyChunk m ρ c 3)

end Cert.Kernel.Hand

end
-- ==== Proof.K.Sched.lean ====
/-
  What each device's result block holds, the exchange's schedule, what each device owes at launch, the levels, and
  the pipeline's proof data.

  The result block of device `c` is 512 × 4096, in four column chunks of 1024. In chunk `k` it holds the device's own
  product (its half of the columns of `x` against chunk `k` of `dy`) with the x-peer's contribution added: the quarter
  of rows `cy c` names gets what landed directly from the x-peer (`xq k`), the other quarter what the y-peer forwarded
  (`yq k`).
-/
import proofs.«901047_g7700000000001048_dist_rsdw_v7x_xyz2x2x4_x_m1024_d1024_f4096_f32_1_alg».proof.Proof.K.Defs0
import Idealize.ShloMosaic.Lib.ValueIdx

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result block -/

/-- The device's own product for chunk `k`: its half of `x`'s columns against chunk `k` of `dy`. -/
def own (c : Dev nD) : Fin 4 → Vec F S512x1024 .f32
  | 0 => k0_pay9 (k0_pay7 (xHalf m ρ c)) (k0_pay8 (dyChunk m ρ c 0)) (constant S512x1024 .f32 0x00000000#32)
  | 1 => k0_pay14 (k0_pay12 (xHalf m ρ c)) (k0_pay13 (dyChunk m ρ c 1)) (constant S512x1024 .f32 0x00000000#32)
  | 2 => k0_pay19 (k0_pay17 (xHalf m ρ c)) (k0_pay18 (dyChunk m ρ c 2)) (constant S512x1024 .f32 0x00000000#32)
  | 3 => k0_pay24 (k0_pay22 (xHalf m ρ c)) (k0_pay23 (dyChunk m ρ c 3)) (constant S512x1024 .f32 0x00000000#32)

/-- The top and the bottom 256 rows of a 512 × 1024 piece. -/
def topOf (v : Vec F S512x1024 .f32) : Vec F S256x1024 .f32 :=
  fun i => v (ValueIdx.ix2 (⟨(i 0).val, by have h : (i 0).val < 256 := (i 0).isLt; omega⟩ : Fin 512) (⟨(i 1).val, (i 1).isLt⟩ : Fin 1024))
def botOf (v : Vec F S512x1024 .f32) : Vec F S256x1024 .f32 :=
  fun i => v (ValueIdx.ix2 (⟨(i 0).val + 256, by have h : (i 0).val < 256 := (i 0).isLt; omega⟩ : Fin 512) (⟨(i 1).val, (i 1).isLt⟩ : Fin 1024))

/-- What lands in `xq k` of device `c` (the x-peer's product) and in `yq k` (the y-peer's `xq k`). -/
def xqv (c : Dev nD) (k : Fin 4) : Vec F S256x1024 .bf16 := sx m ρ (xp c) k
def yqv (c : Dev nD) (k : Fin 4) : Vec F S256x1024 .bf16 := sx m ρ (xp (yp c)) k

/-- The top quarter of chunk `k` after both additions: the direct landing if `cy c = 0`, the forwarded one otherwise. -/
def topVal (c : Dev nD) : Fin 4 → Vec F S256x1024 .f32
  | 0 => if cy c = 0 then k0_pay10 (topOf (own m ρ c 0)) (xqv m ρ c 0) else k0_pay28 (topOf (own m ρ c 0)) (yqv m ρ c 0)
  | 1 => if cy c = 0 then k0_pay15 (topOf (own m ρ c 1)) (xqv m ρ c 1) else k0_pay30 (topOf (own m ρ c 1)) (yqv m ρ c 1)
  | 2 => if cy c = 0 then k0_pay20 (topOf (own m ρ c 2)) (xqv m ρ c 2) else k0_pay32 (topOf (own m ρ c 2)) (yqv m ρ c 2)
  | 3 => if cy c = 0 then k0_pay25 (topOf (own m ρ c 3)) (xqv m ρ c 3) else k0_pay34 (topOf (own m ρ c 3)) (yqv m ρ c 3)
/-- The bottom quarter: the forwarded landing if `cy c = 0`, the direct one otherwise. -/
def botVal (c : Dev nD) : Fin 4 → Vec F S256x1024 .f32
  | 0 => if cy c = 0 then k0_pay27 (botOf (own m ρ c 0)) (yqv m ρ c 0) else k0_pay11 (botOf (own m ρ c 0)) (xqv m ρ c 0)
  | 1 => if cy c = 0 then k0_pay29 (botOf (own m ρ c 1)) (yqv m ρ c 1) else k0_pay16 (botOf (own m ρ c 1)) (xqv m ρ c 1)
  | 2 => if cy c = 0 then k0_pay31 (botOf (own m ρ c 2)) (yqv m ρ c 2) else k0_pay21 (botOf (own m ρ c 2)) (xqv m ρ c 2)
  | 3 => if cy c = 0 then k0_pay33 (botOf (own m ρ c 3)) (yqv m ρ c 3) else k0_pay26 (botOf (own m ρ c 3)) (xqv m ρ c 3)

/-- The device's result block, entry by entry: column `j` lies in chunk `j / 1024` at `j % 1024`; row `r` in the top quarter if `r < 256`. -/
def outAt (c : Dev nD) : (cc0_stg2_0 : Ref sig .tc).ty.Contents (Elt F) :=
  fun i =>
    let k : Fin 4 := ⟨(i 1).val / 1024, by have h : (i 1).val < 4096 := (i 1).isLt; omega⟩
    let j : Fin 1024 := ⟨(i 1).val % 1024, Nat.mod_lt _ (by decide)⟩
    if h : (i 0).val < 256 then topVal m ρ c k (ValueIdx.ix2 (⟨(i 0).val, h⟩ : Fin 256) j)
    else botVal m ρ c k (ValueIdx.ix2 (⟨(i 0).val - 256, by have h' : (i 0).val < 512 := (i 0).isLt; omega⟩ : Fin 256) j)

/-! ## Points-to assertions of the twelve scratch buffers and the three staging buffers -/

/-- A whole buffer of a device, spelt through the memref's view (the spelling the transfer rules use). -/
abbrev pts {s : Shape} {e : EltTy} (M : Memref sig .tc .vmem s e) (c : Dev nD) (q : PosShare TreeShare) (f : Buf (Elt F) (M.view.loc (c : Thread nD τ))) : sProp 𝕄 :=
  M.view.loc (c : Thread nD τ) ↦[M.view.set]{q} f

/-- The half of `xq k` the second hop's transfer holds while the device reads the other half. -/
abbrev hL : PosShare TreeShare := fullShare.left
abbrev hR : PosShare TreeShare := fullShare.right

/-! ## The schedule: one round; the barrier cell two duties of one unit, every DMA cell one duty of the buffer's credit -/

/-- What the x-peer's barrier signal (duty `false`) hands device `c`: the x-peer's four first-hop landing buffers. -/
def barPayX (c : Dev nD) : sProp 𝕄 :=
  iprop((∃ f, pts (Memref.whole cc0_scratch4 : Memref sig .tc .vmem S256x1024 .bf16) (xp c) fullShare f) ∗ (∃ f, pts (Memref.whole cc0_scratch5 : Memref sig .tc .vmem S256x1024 .bf16) (xp c) fullShare f) ∗ (∃ f, pts (Memref.whole cc0_scratch6 : Memref sig .tc .vmem S256x1024 .bf16) (xp c) fullShare f) ∗ (∃ f, pts (Memref.whole cc0_scratch7 : Memref sig .tc .vmem S256x1024 .bf16) (xp c) fullShare f))
/-- What the y-peer's (duty `true`) hands it: the y-peer's four second-hop landing buffers. -/
def barPayY (c : Dev nD) : sProp 𝕄 :=
  iprop((∃ f, pts (Memref.whole cc0_scratch8 : Memref sig .tc .vmem S256x1024 .bf16) (yp c) fullShare f) ∗ (∃ f, pts (Memref.whole cc0_scratch9 : Memref sig .tc .vmem S256x1024 .bf16) (yp c) fullShare f) ∗ (∃ f, pts (Memref.whole cc0_scratch10 : Memref sig .tc .vmem S256x1024 .bf16) (yp c) fullShare f) ∗ (∃ f, pts (Memref.whole cc0_scratch11 : Memref sig .tc .vmem S256x1024 .bf16) (yp c) fullShare f))

/-- What a DMA cell's one duty hands its owner `c`, by the semaphore's number. -/
def dmaPay (c : Dev nD) : DmaSem sig → sProp 𝕄
  | ⟨3, _⟩ => pts (Memref.whole cc0_scratch0 : Memref sig .tc .vmem S256x1024 .bf16) c fullShare (sx m ρ c 0)
  | ⟨4, _⟩ => pts (Memref.whole cc0_scratch1 : Memref sig .tc .vmem S256x1024 .bf16) c fullShare (sx m ρ c 1)
  | ⟨5, _⟩ => pts (Memref.whole cc0_scratch2 : Memref sig .tc .vmem S256x1024 .bf16) c fullShare (sx m ρ c 2)
  | ⟨6, _⟩ => pts (Memref.whole cc0_scratch3 : Memref sig .tc .vmem S256x1024 .bf16) c fullShare (sx m ρ c 3)
  | ⟨7, _⟩ => pts (Memref.whole cc0_scratch4 : Memref sig .tc .vmem S256x1024 .bf16) c fullShare (xqv m ρ c 0)
  | ⟨8, _⟩ => pts (Memref.whole cc0_scratch5 : Memref sig .tc .vmem S256x1024 .bf16) c fullShare (xqv m ρ c 1)
  | ⟨9, _⟩ => pts (Memref.whole cc0_scratch6 : Memref sig .tc .vmem S256x1024 .bf16) c fullShare (xqv m ρ c 2)
  | ⟨10, _⟩ => pts (Memref.whole cc0_scratch7 : Memref sig .tc .vmem S256x1024 .bf16) c fullShare (xqv m ρ c 3)
  | ⟨11, _⟩ => pts (Memref.whole cc0_scratch4 : Memref sig .tc .vmem S256x1024 .bf16) c hL (xqv m ρ c 0)
  | ⟨12, _⟩ => pts (Memref.whole cc0_scratch5 : Memref sig .tc .vmem S256x1024 .bf16) c hL (xqv m ρ c 1)
  | ⟨13, _⟩ => pts (Memref.whole cc0_scratch6 : Memref sig .tc .vmem S256x1024 .bf16) c hL (xqv m ρ c 2)
  | ⟨14, _⟩ => pts (Memref.whole cc0_scratch7 : Memref sig .tc .vmem S256x1024 .bf16) c hL (xqv m ρ c 3)
  | ⟨15, _⟩ => pts (Memref.whole cc0_scratch8 : Memref sig .tc .vmem S256x1024 .bf16) c fullShare (yqv m ρ c 0)
  | ⟨16, _⟩ => pts (Memref.whole cc0_scratch9 : Memref sig .tc .vmem S256x1024 .bf16) c fullShare (yqv m ρ c 1)
  | ⟨17, _⟩ => pts (Memref.whole cc0_scratch10 : Memref sig .tc .vmem S256x1024 .bf16) c fullShare (yqv m ρ c 2)
  | ⟨18, _⟩ => pts (Memref.whole cc0_scratch11 : Memref sig .tc .vmem S256x1024 .bf16) c fullShare (yqv m ρ c 3)
  | _ => iprop(emp)

def sched : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma _ => N
  payload g _ d := match g.2 with
    | .reg _ => if d then barPayY g.1.1 else barPayX g.1.1
    | .dma q => dmaPay m ρ g.1.1 q
  amount_pos g _ _ _ := by
    cases g.2 with
    | reg _ => exact Nat.one_pos
    | dma _ => exact N_pos

/-! ## What each device owes at launch, in the order it pays; the levels -/

abbrev tBx (c : Dev nD) : CellTallies nD τ sig Unit := tallyAt (barCell (xp c)) () 1
abbrev tBy (c : Dev nD) : CellTallies nD τ sig Unit := tallyAt (barCell (yp c)) () 1
abbrev tX (c : Dev nD) (k : Fin 4) : CellTallies nD τ sig Unit := tallyAt (xrCell (xp c) k) () N
abbrev tY (c : Dev nD) (k : Fin 4) : CellTallies nD τ sig Unit := tallyAt (yrCell (yp c) k) () N

/-- Summed so that each payment peels the last summand: the two signals, the four first-hop transfers, the four second-hop ones. -/
def OY3 (c : Dev nD) : CellTallies nD τ sig Unit := tY c 3
def OY2 (c : Dev nD) : CellTallies nD τ sig Unit := OY3 c + tY c 2
def OY1 (c : Dev nD) : CellTallies nD τ sig Unit := OY2 c + tY c 1
def OY0 (c : Dev nD) : CellTallies nD τ sig Unit := OY1 c + tY c 0
def OX3 (c : Dev nD) : CellTallies nD τ sig Unit := OY0 c + tX c 3
def OX2 (c : Dev nD) : CellTallies nD τ sig Unit := OX3 c + tX c 2
def OX1 (c : Dev nD) : CellTallies nD τ sig Unit := OX2 c + tX c 1
def OX0 (c : Dev nD) : CellTallies nD τ sig Unit := OX1 c + tX c 0
def O₁ (c : Dev nD) : CellTallies nD τ sig Unit := OX0 c + tBy c
def O₀ (c : Dev nD) : CellTallies nD τ sig Unit := O₁ c + tBx c

def L (g : GSem nD τ sig) : Finset Unit := if g.1.2 = .tc then {()} else ∅
/-- Barrier cells at 1, first-hop receive cells at 2, second-hop receive cells at 3, everything else (staging, send) at 0. -/
def lv (g : GSem nD τ sig) (_ : Unit) : ℕ := match g.2 with
  | .reg _ => 1
  | .dma q => if 7 ≤ q.val ∧ q.val ≤ 10 then 2 else if 15 ≤ q.val then 3 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own seventeen,
    both peers' barrier cells, the x-peer's first-hop receive cells, the y-peer's second-hop receive cells. -/
def invs (K : Dev nD × Fin 17 → ℕ) (c : Dev nD) : sProp 𝕄 :=
  iprop(cellInv ER (sched m ρ) (K (c, 0)) (barCell c)
    ∗ (cellInv ER (sched m ρ) (K (c, 1)) (xsCell c 0) ∗ cellInv ER (sched m ρ) (K (c, 2)) (xsCell c 1) ∗ cellInv ER (sched m ρ) (K (c, 3)) (xsCell c 2) ∗ cellInv ER (sched m ρ) (K (c, 4)) (xsCell c 3))
    ∗ (cellInv ER (sched m ρ) (K (c, 5)) (xrCell c 0) ∗ cellInv ER (sched m ρ) (K (c, 6)) (xrCell c 1) ∗ cellInv ER (sched m ρ) (K (c, 7)) (xrCell c 2) ∗ cellInv ER (sched m ρ) (K (c, 8)) (xrCell c 3))
    ∗ (cellInv ER (sched m ρ) (K (c, 9)) (ysCell c 0) ∗ cellInv ER (sched m ρ) (K (c, 10)) (ysCell c 1) ∗ cellInv ER (sched m ρ) (K (c, 11)) (ysCell c 2) ∗ cellInv ER (sched m ρ) (K (c, 12)) (ysCell c 3))
    ∗ (cellInv ER (sched m ρ) (K (c, 13)) (yrCell c 0) ∗ cellInv ER (sched m ρ) (K (c, 14)) (yrCell c 1) ∗ cellInv ER (sched m ρ) (K (c, 15)) (yrCell c 2) ∗ cellInv ER (sched m ρ) (K (c, 16)) (yrCell c 3))
    ∗ cellInv ER (sched m ρ) (K (xp c, 0)) (barCell (xp c)) ∗ cellInv ER (sched m ρ) (K (yp c, 0)) (barCell (yp c))
    ∗ (cellInv ER (sched m ρ) (K (xp c, 5)) (xrCell (xp c) 0) ∗ cellInv ER (sched m ρ) (K (xp c, 6)) (xrCell (xp c) 1) ∗ cellInv ER (sched m ρ) (K (xp c, 7)) (xrCell (xp c) 2) ∗ cellInv ER (sched m ρ) (K (xp c, 8)) (xrCell (xp c) 3))
    ∗ (cellInv ER (sched m ρ) (K (yp c, 13)) (yrCell (yp c) 0) ∗ cellInv ER (sched m ρ) (K (yp c, 14)) (yrCell (yp c) 1) ∗ cellInv ER (sched m ρ) (K (yp c, 15)) (yrCell (yp c) 2) ∗ cellInv ER (sched m ρ) (K (yp c, 16)) (yrCell (yp c) 3)))

instance invs_persistent (K : Dev nD × Fin 17 → ℕ) (c : Dev nD) : BI.Persistent (invs m ρ K c) := by unfold invs; infer_instance

/-- The positions at round 0 of the device's own seventeen cells. -/
def poss (c : Dev nD) : sProp 𝕄 :=
  iprop(atPos ER (barCell c) 0 ∅ 0
    ∗ (atPos ER (xsCell c 0) 0 ∅ 0 ∗ atPos ER (xsCell c 1) 0 ∅ 0 ∗ atPos ER (xsCell c 2) 0 ∅ 0 ∗ atPos ER (xsCell c 3) 0 ∅ 0)
    ∗ (atPos ER (xrCell c 0) 0 ∅ 0 ∗ atPos ER (xrCell c 1) 0 ∅ 0 ∗ atPos ER (xrCell c 2) 0 ∅ 0 ∗ atPos ER (xrCell c 3) 0 ∅ 0)
    ∗ (atPos ER (ysCell c 0) 0 ∅ 0 ∗ atPos ER (ysCell c 1) 0 ∅ 0 ∗ atPos ER (ysCell c 2) 0 ∅ 0 ∗ atPos ER (ysCell c 3) 0 ∅ 0)
    ∗ (atPos ER (yrCell c 0) 0 ∅ 0 ∗ atPos ER (yrCell c 1) 0 ∅ 0 ∗ atPos ER (yrCell c 2) 0 ∅ 0 ∗ atPos ER (yrCell c 3) 0 ∅ 0))

/-- Round 0 reached, of every cell the device pays: both peers' barrier cells, its own send cells, the peers' receive cells. -/
def reacheds (c : Dev nD) : sProp 𝕄 :=
  iprop(reached ER (barCell (xp c)) 0 ∗ reached ER (barCell (yp c)) 0
    ∗ (reached ER (xsCell c 0) 0 ∗ reached ER (xsCell c 1) 0 ∗ reached ER (xsCell c 2) 0 ∗ reached ER (xsCell c 3) 0)
    ∗ (reached ER (ysCell c 0) 0 ∗ reached ER (ysCell c 1) 0 ∗ reached ER (ysCell c 2) 0 ∗ reached ER (ysCell c 3) 0)
    ∗ (reached ER (xrCell (xp c) 0) 0 ∗ reached ER (xrCell (xp c) 1) 0 ∗ reached ER (xrCell (xp c) 2) 0 ∗ reached ER (xrCell (xp c) 3) 0)
    ∗ (reached ER (yrCell (yp c) 0) 0 ∗ reached ER (yrCell (yp c) 1) 0 ∗ reached ER (yrCell (yp c) 2) 0 ∗ reached ER (yrCell (yp c) 3) 0))

instance reacheds_persistent (c : Dev nD) : BI.Persistent (reacheds (F := F) c) := by unfold reacheds; infer_instance

/-- The tokens of the eighteen duties the device pays: the x-peer's barrier duty `false`, the y-peer's barrier duty `true`,
    its own eight send duties, the x-peer's four first-hop receive duties, the y-peer's four second-hop receive duties. -/
def payToks (c : Dev nD) : sProp 𝕄 :=
  iprop(dutyTok ER (barCell (xp c)) 0 false ∗ dutyTok ER (barCell (yp c)) 0 true
    ∗ (dutyTok ER (xsCell c 0) 0 false ∗ dutyTok ER (xsCell c 1) 0 false ∗ dutyTok ER (xsCell c 2) 0 false ∗ dutyTok ER (xsCell c 3) 0 false)
    ∗ (dutyTok ER (ysCell c 0) 0 false ∗ dutyTok ER (ysCell c 1) 0 false ∗ dutyTok ER (ysCell c 2) 0 false ∗ dutyTok ER (ysCell c 3) 0 false)
    ∗ (dutyTok ER (xrCell (xp c) 0) 0 false ∗ dutyTok ER (xrCell (xp c) 1) 0 false ∗ dutyTok ER (xrCell (xp c) 2) 0 false ∗ dutyTok ER (xrCell (xp c) 3) 0 false)
    ∗ (dutyTok ER (yrCell (yp c) 0) 0 false ∗ dutyTok ER (yrCell (yp c) 1) 0 false ∗ dutyTok ER (yrCell (yp c) 2) 0 false ∗ dutyTok ER (yrCell (yp c) 3) 0 false))

/-- The exchange's ghost state device `c` starts from. -/
def ghost (K : Dev nD × Fin 17 → ℕ) (c : Dev nD) : sProp 𝕄 :=
  iprop(invs m ρ K c ∗ poss c ∗ reacheds c ∗ payToks c)

/-- The credit dealt at launch: its barrier's two units and each of its eight receive cells' credit. -/
def creds (c : Dev nD) : sProp 𝕄 :=
  iprop(cred (tallyAt (barCell c) () 2)
    ∗ (cred (tallyAt (xrCell c 0) () N) ∗ cred (tallyAt (xrCell c 1) () N) ∗ cred (tallyAt (xrCell c 2) () N) ∗ cred (tallyAt (xrCell c 3) () N))
    ∗ (cred (tallyAt (yrCell c 0) () N) ∗ cred (tallyAt (yrCell c 1) () N) ∗ cred (tallyAt (yrCell c 2) () N) ∗ cred (tallyAt (yrCell c 3) () N)))

/-- What device `c`'s body starts from besides its buffers. -/
def start (c : Dev nD) : sProp 𝕄 :=
  iprop((∃ K, ghost m ρ K c) ∗ creds c ∗ levAts L lv)

/-- The twelve scratch buffers at some contents (as the region hands them over, and takes them back). -/
def scr (c : Dev nD) : sProp 𝕄 :=
  iprop((∃ f, pts (Memref.whole cc0_scratch0 : Memref sig .tc .vmem S256x1024 .bf16) c fullShare f) ∗ (∃ f, pts (Memref.whole cc0_scratch1 : Memref sig .tc .vmem S256x1024 .bf16) c fullShare f) ∗ (∃ f, pts (Memref.whole cc0_scratch2 : Memref sig .tc .vmem S256x1024 .bf16) c fullShare f) ∗ (∃ f, pts (Memref.whole cc0_scratch3 : Memref sig .tc .vmem S256x1024 .bf16) c fullShare f)
    ∗ (∃ f, pts (Memref.whole cc0_scratch4 : Memref sig .tc .vmem S256x1024 .bf16) c fullShare f) ∗ (∃ f, pts (Memref.whole cc0_scratch5 : Memref sig .tc .vmem S256x1024 .bf16) c fullShare f) ∗ (∃ f, pts (Memref.whole cc0_scratch6 : Memref sig .tc .vmem S256x1024 .bf16) c fullShare f) ∗ (∃ f, pts (Memref.whole cc0_scratch7 : Memref sig .tc .vmem S256x1024 .bf16) c fullShare f)
    ∗ (∃ f, pts (Memref.whole cc0_scratch8 : Memref sig .tc .vmem S256x1024 .bf16) c fullShare f) ∗ (∃ f, pts (Memref.whole cc0_scratch9 : Memref sig .tc .vmem S256x1024 .bf16) c fullShare f) ∗ (∃ f, pts (Memref.whole cc0_scratch10 : Memref sig .tc .vmem S256x1024 .bf16) c fullShare f) ∗ (∃ f, pts (Memref.whole cc0_scratch11 : Memref sig .tc .vmem S256x1024 .bf16) c fullShare f))

/-- The sixteen own DMA cells at zero, closed. -/
def semsZero (c : Dev nD) : sProp 𝕄 :=
  iprop((semVal (xsCell c 0) 0 ∗ semVal (xsCell c 1) 0 ∗ semVal (xsCell c 2) 0 ∗ semVal (xsCell c 3) 0)
    ∗ (semVal (xrCell c 0) 0 ∗ semVal (xrCell c 1) 0 ∗ semVal (xrCell c 2) 0 ∗ semVal (xrCell c 3) 0)
    ∗ (semVal (ysCell c 0) 0 ∗ semVal (ysCell c 1) 0 ∗ semVal (ysCell c 2) 0 ∗ semVal (ysCell c 3) 0)
    ∗ (semVal (yrCell c 0) 0 ∗ semVal (yrCell c 1) 0 ∗ semVal (yrCell c 2) 0 ∗ semVal (yrCell c 3) 0))

def Φ₀ (c : Dev nD) : sProp 𝕄 := iprop(start m ρ c ∗ scr c)
/-- After the point: the scratch buffers back (at some contents), the sixteen own cells at zero. -/
def Φ₁ (c : Dev nD) : sProp 𝕄 := iprop(scr (F := F) c ∗ semsZero c)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A staging buffer whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Hand

end
-- ==== Proof.K.LaunchDefs.lean ====
/-
  What the launch allocates for the exchange: per device seventeen cells (its barrier cell and sixteen DMA cells) and
  eighteen duty tokens (the barrier's two, each DMA cell's one); what the launch element deals each device; and what
  the one global step makes of it: each device's ghost state, with the tokens dealt to the devices that pay the duties.
-/
import proofs.«901047_g7700000000001048_dist_rsdw_v7x_xyz2x2x4_x_m1024_d1024_f4096_f32_1_alg».proof.Proof.K.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have key : ∀ k k' : Fin 17, csem k = csem k' → k = k' := by decide
  have : k = k' := key k k' h2
  subst this; rfl

/-- The exchange's cells: every device's seventeen. -/
def xCells : Finset (GSem nD τ sig) := Finset.univ.map ⟨kcell, kcell_injective⟩

/-- A device's own cells' duty tokens as minted: the barrier's `false` and `true`, then each DMA cell's `false`. -/
abbrev tokOf (cj : Dev nD × Fin 18) : GSem nD τ sig × ℕ × Bool :=
  if h0 : cj.2.val = 0 then (barCell cj.1, 0, false)
  else if h1 : cj.2.val = 1 then (barCell cj.1, 0, true)
  else (kcell (cj.1, ⟨cj.2.val - 1, by have := cj.2.isLt; omega⟩), 0, false)

theorem tokOf_injective : Function.Injective (tokOf : Dev nD × Fin 18 → GSem nD τ sig × ℕ × Bool) := by
  -- The device is read off the cell; the semaphore and the duty depend on the index alone, and tell the indices apart.
  have hdev : ∀ (c : Dev nD) (j : Fin 18), (tokOf (c, j)).1.1.1 = c := by
    intro c j; dsimp only [tokOf]; split <;> [rfl; (split <;> rfl)]
  have hsnd : ∀ (c : Dev nD) (j : Fin 18), ((tokOf (c, j)).1.2, (tokOf (c, j)).2.2)
      = (if h0 : j.val = 0 then ((.reg barS : SemLoc sig), false) else if h1 : j.val = 1 then ((.reg barS : SemLoc sig), true)
          else (csem ⟨j.val - 1, by have := j.isLt; omega⟩, false)) := by
    intro c j; dsimp only [tokOf]; split <;> [rfl; (split <;> rfl)]
  have key : ∀ j j' : Fin 18,
      (if h0 : j.val = 0 then ((.reg barS : SemLoc sig), false) else if h1 : j.val = 1 then ((.reg barS : SemLoc sig), true)
          else (csem ⟨j.val - 1, by have := j.isLt; omega⟩, false))
      = (if h0 : j'.val = 0 then ((.reg barS : SemLoc sig), false) else if h1 : j'.val = 1 then ((.reg barS : SemLoc sig), true)
          else (csem ⟨j'.val - 1, by have := j'.isLt; omega⟩, false)) → j = j' := by decide
  rintro ⟨c, j⟩ ⟨c', j'⟩ h
  have h1 : c = c' := (hdev c j).symm.trans ((congrArg (fun x : GSem nD τ sig × ℕ × Bool => x.1.1.1) h).trans (hdev c' j'))
  subst h1
  have h2 : j = j' := key j j' ((hsnd c j).symm.trans ((congrArg (fun x : GSem nD τ sig × ℕ × Bool => (x.1.2, x.2.2)) h).trans (hsnd c j')))
  subst h2; rfl

def xToks : Finset (GSem nD τ sig × ℕ × Bool) := Finset.univ.map ⟨tokOf, tokOf_injective⟩

/-- The launch element: the pipeline's cells and tokens beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  bigSep Finset.univ fun j : Fin 18 => dutyTok ER (tokOf (c, j)).1 (tokOf (c, j)).2.1 (tokOf (c, j)).2.2

/-- What the launch element deals device `c`. -/
def G (c : Dev nD) : sProp 𝕄 :=
  iprop((bigSep Finset.univ fun k : Fin 17 => roundState ER (sched m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

end Cert.Kernel.Hand

end
-- ==== Proof.K.Tables.lean ====
/-
  The schedule's tables read at each cell, and the waits the levels allow.

  Every cell has one round. A barrier cell has the two duties `false` (the x-peer's signal) and `true` (the y-peer's),
  one unit each, so its round expects 2; a DMA cell of the exchange has the one duty `false` of the buffer's credit.
  A device waits on a staging cell owing whatever it owes (staging cells lie below everything), on its barrier owing
  receive credits only, on first-hop receive cell `k` owing second-hop receive credits only.
-/
import proofs.«901047_g7700000000001048_dist_rsdw_v7x_xyz2x2x4_x_m1024_d1024_f4096_f32_1_alg».proof.Proof.K.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem duties_bar : (sched (F := F) m ρ).duties (barCell c) 0 = Finset.univ := by
  dsimp only [sched]; exact if_pos ⟨rfl, rfl⟩
theorem duties_dma (q : DmaSem sig) (hq : 3 ≤ q.val) : (sched (F := F) m ρ).duties ((c : Thread nD τ), .dma q) 0 = {false} := by
  dsimp only [sched]; exact (if_pos ⟨rfl, rfl⟩).trans (if_pos hq)
theorem duties_later (g : GSem nD τ sig) : ∀ r, 1 ≤ r → (sched (F := F) m ρ).duties g r = ∅ := by
  intro r hr; dsimp only [sched]; exact if_neg fun h => by have := h.1; omega
theorem amount_bar (d : Bool) : (sched (F := F) m ρ).amount (barCell c) 0 d = 1 := by
  rfl
theorem amount_dma (q : DmaSem sig) (d : Bool) : (sched (F := F) m ρ).amount ((c : Thread nD τ), .dma q) 0 d = N := by
  rfl
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) (hq : 3 ≤ q.val) : (sched (F := F) m ρ).expect ((c : Thread nD τ), .dma q) 0 = N := by
  unfold Schedule.expect Schedule.amountOf
  rw [duties_dma m ρ c q hq, Finset.sum_singleton, amount_dma]
theorem payload_bar_false : (sched m ρ).payload (barCell c) 0 false = barPayX (F := F) c := by
  rfl
theorem payload_bar_true : (sched m ρ).payload (barCell c) 0 true = barPayY (F := F) c := by
  rfl
theorem payload_dma (q : DmaSem sig) (d : Bool) : (sched m ρ).payload ((c : Thread nD τ), .dma q) 0 d = dmaPay m ρ c q := by
  rfl

/-- The rest of the barrier cell's round, no duty taken: both peers' landing buffers. -/
theorem rest_bar : bigSep ((sched m ρ).duties (barCell c) 0 \ ∅) (fun d => (sched m ρ).payload (barCell c) 0 d) = iprop(barPayX (F := F) c ∗ barPayY c) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 3 ≤ q.val) :
    bigSep ((sched m ρ).duties ((c : Thread nD τ), .dma q) 0 \ ∅) (fun d => (sched m ρ).payload ((c : Thread nD τ), .dma q) 0 d) = dmaPay m ρ c q := by
  rw [Finset.sdiff_empty, duties_dma m ρ c q hq, bigSep_singleton, payload_dma]

end Tables

/-- Four storable assertions together are storable. -/
theorem storable_sep4 (A B C D : sProp 𝕄) [BI.Storable (upEmb : UEmb _ 𝕄) A] [BI.Storable (upEmb : UEmb _ 𝕄) B]
    [BI.Storable (upEmb : UEmb _ 𝕄) C] [BI.Storable (upEmb : UEmb _ 𝕄) D] :
    BI.Storable (upEmb : UEmb _ 𝕄) iprop(A ∗ B ∗ C ∗ D) := inferInstance

/-- A whole buffer of a device at some contents may be stored. -/
instance pts_ex_storable {s : Shape} {e : EltTy} (M : Memref sig .tc .vmem s e) (c : Dev nD) (q : PosShare TreeShare) :
    BI.Storable (upEmb : UEmb _ 𝕄) (iprop(∃ f, pts (F := F) M c q f)) := by infer_instance

instance barPayX_storable (c : Dev nD) : BI.Storable (upEmb : UEmb _ 𝕄) (barPayX (F := F) c) := by
  unfold barPayX
  haveI := pts_ex_storable (F := F) (Memref.whole cc0_scratch4 : Memref sig .tc .vmem S256x1024 .bf16) (xp c) fullShare
  haveI := pts_ex_storable (F := F) (Memref.whole cc0_scratch5 : Memref sig .tc .vmem S256x1024 .bf16) (xp c) fullShare
  haveI := pts_ex_storable (F := F) (Memref.whole cc0_scratch6 : Memref sig .tc .vmem S256x1024 .bf16) (xp c) fullShare
  haveI := pts_ex_storable (F := F) (Memref.whole cc0_scratch7 : Memref sig .tc .vmem S256x1024 .bf16) (xp c) fullShare
  exact storable_sep4 _ _ _ _
instance barPayY_storable (c : Dev nD) : BI.Storable (upEmb : UEmb _ 𝕄) (barPayY (F := F) c) := by
  unfold barPayY
  haveI := pts_ex_storable (F := F) (Memref.whole cc0_scratch8 : Memref sig .tc .vmem S256x1024 .bf16) (yp c) fullShare
  haveI := pts_ex_storable (F := F) (Memref.whole cc0_scratch9 : Memref sig .tc .vmem S256x1024 .bf16) (yp c) fullShare
  haveI := pts_ex_storable (F := F) (Memref.whole cc0_scratch10 : Memref sig .tc .vmem S256x1024 .bf16) (yp c) fullShare
  haveI := pts_ex_storable (F := F) (Memref.whole cc0_scratch11 : Memref sig .tc .vmem S256x1024 .bf16) (yp c) fullShare
  exact storable_sep4 _ _ _ _

instance sched_payload_storable (g : GSem nD τ sig) (r : ℕ) (d : Bool) :
    BI.Storable (upEmb : UEmb _ 𝕄) ((sched m ρ).payload g r d) := by
  obtain ⟨t, sm⟩ := g
  cases sm with
  | reg s =>
    show BI.Storable upEmb (if d then barPayY t.1 else barPayX t.1)
    split <;> infer_instance
  | dma q =>
    show BI.Storable upEmb (dmaPay m ρ t.1 q)
    unfold dmaPay
    split <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A cell of a TensorCore thread whose level lies strictly above `b`. -/
def Above (b : ℕ) (g : GSem nD τ sig) : Prop := g.1.2 = .tc ∧ b < lv g ()

theorem Above.mono {b b' : ℕ} {g : GSem nD τ sig} (h : b' ≤ b) (hg : Above b g) : Above b' g := ⟨hg.1, lt_of_le_of_lt h hg.2⟩

/-- The level of a DMA cell, read off the semaphore's number. -/
theorem lv_dma (t : Thread nD τ) (q : DmaSem sig) :
    lv (t, .dma q) () = if 7 ≤ q.val ∧ q.val ≤ 10 then 2 else if 15 ≤ q.val then 3 else 0 := rfl

/-- Barrier cells lie at level 1, first-hop receive cells at 2, second-hop receive cells at 3. -/
theorem above_bar (d : Dev nD) : Above 0 (barCell d) := ⟨rfl, Nat.one_pos⟩
theorem above_xr (d : Dev nD) : ∀ k : Fin 4, Above 1 (xrCell d k)
  | 0 => ⟨rfl, by rw [lv_dma]; decide⟩ | 1 => ⟨rfl, by rw [lv_dma]; decide⟩ | 2 => ⟨rfl, by rw [lv_dma]; decide⟩ | 3 => ⟨rfl, by rw [lv_dma]; decide⟩
theorem above_yr (d : Dev nD) : ∀ k : Fin 4, Above 2 (yrCell d k)
  | 0 => ⟨rfl, by rw [lv_dma]; decide⟩ | 1 => ⟨rfl, by rw [lv_dma]; decide⟩ | 2 => ⟨rfl, by rw [lv_dma]; decide⟩ | 3 => ⟨rfl, by rw [lv_dma]; decide⟩

/-- A sum of tallies is positive only where a summand is. -/
theorem above_add {b : ℕ} {A B : CellTallies nD τ sig Unit} (hA : ∀ g u, 0 < A g u → Above b g) (hB : ∀ g u, 0 < B g u → Above b g) :
    ∀ g u, 0 < (A + B) g u → Above b g := by
  intro g u h
  rw [Pi.add_apply, Finsupp.add_apply] at h
  rcases Nat.eq_zero_or_pos (A g u) with h0 | h0
  · exact hB g u (by omega)
  · exact hA g u h0

/-- A tally at one cell is positive only at that cell. -/
theorem above_tallyAt {b : ℕ} {g₀ : GSem nD τ sig} (k : ℕ) (h₀ : Above b g₀) : ∀ g u, 0 < tallyAt g₀ () k g u → Above b g := by
  intro g u h
  rw [tallyAt_apply] at h
  by_cases hg : g = g₀ ∧ u = ()
  · rw [hg.1]; exact h₀
  · rw [if_neg hg] at h; exact absurd h (Nat.lt_irrefl 0)

/-- What is owed from the second hop on lies above level 2; with the first hop's credits, above 1; with the signals, above 0. -/
theorem OY3_above (c : Dev nD) : ∀ g u, 0 < OY3 c g u → Above 2 g := above_tallyAt N (above_yr (yp c) 3)
theorem OY2_above (c : Dev nD) : ∀ g u, 0 < OY2 c g u → Above 2 g := above_add (OY3_above c) (above_tallyAt N (above_yr (yp c) 2))
theorem OY1_above (c : Dev nD) : ∀ g u, 0 < OY1 c g u → Above 2 g := above_add (OY2_above c) (above_tallyAt N (above_yr (yp c) 1))
theorem OY0_above (c : Dev nD) : ∀ g u, 0 < OY0 c g u → Above 2 g := above_add (OY1_above c) (above_tallyAt N (above_yr (yp c) 0))
theorem OX3_above (c : Dev nD) : ∀ g u, 0 < OX3 c g u → Above 1 g :=
  above_add (fun g u h => (OY0_above c g u h).mono (by decide)) (above_tallyAt N (above_xr (xp c) 3))
theorem OX2_above (c : Dev nD) : ∀ g u, 0 < OX2 c g u → Above 1 g := above_add (OX3_above c) (above_tallyAt N (above_xr (xp c) 2))
theorem OX1_above (c : Dev nD) : ∀ g u, 0 < OX1 c g u → Above 1 g := above_add (OX2_above c) (above_tallyAt N (above_xr (xp c) 1))
theorem OX0_above (c : Dev nD) : ∀ g u, 0 < OX0 c g u → Above 1 g := above_add (OX1_above c) (above_tallyAt N (above_xr (xp c) 0))
theorem O₁_above (c : Dev nD) : ∀ g u, 0 < O₁ c g u → Above 0 g :=
  above_add (fun g u h => (OX0_above c g u h).mono (by decide)) (above_tallyAt 1 (above_bar (yp c)))
theorem O₀_above (c : Dev nD) : ∀ g u, 0 < O₀ c g u → Above 0 g := above_add (O₁_above c) (above_tallyAt 1 (above_bar (xp c)))

omit [FloatOps F] in
/-- The cut: a device may wait on its cell `sm`, of level at most `b`, owing tallies that are positive only above `b`. -/
theorem mayWait_cut (c : Dev nD) (sm : SemLoc sig) (b : ℕ) (D : CellTallies nD τ sig Unit)
    (hb : lv ((c : Thread nD τ), sm) () ≤ b) (hD : ∀ g u, 0 < D g u → Above b g) :
    (levAts L lv : sProp 𝕄) ⊢ MayWait (c : Thread nD τ) sm () D :=
  MayOwe.of_cut (L := L) (lev := lv) b
    (fun p hp => by rw [Finset.mem_singleton.mp hp, L_tc]; exact Finset.mem_singleton_self _)
    (fun g u hg => by rw [L, if_pos (hD g u hg).1]; exact Finset.mem_singleton_self _)
    (fun p hp => by rw [Finset.mem_singleton.mp hp]; exact hb)
    (fun g u hg => (hD g u hg).2)

omit [FloatOps F] in
/-- A staging cell (DMA semaphores 0, 1, 2) may be waited on owing everything owed at launch, or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_cut c (.dma q) 0 (O₀ c) ?_ (O₀_above c)
    dsimp only [lv]
    rw [if_neg (fun h => by omega), if_neg (by omega)]
  · rw [MayWait_zero]; iintro -; iempintro

omit [FloatOps F] in
/-- At its barrier wait a device owes the eight receive credits: all above its barrier cell. -/
theorem mayWait_bar (c : Dev nD) :
    (levAts L lv : sProp 𝕄) ⊢ MayWait (c : Thread nD τ) (.reg barS) () (OX0 c) :=
  mayWait_cut c (.reg barS) 1 (OX0 c) (le_refl 1) (OX0_above c)

omit [FloatOps F] in
/-- At the wait on first-hop receive cell 0..3 it owes second-hop receive credits only. -/
theorem mayWait_xr0 (c : Dev nD) : (levAts L lv : sProp 𝕄) ⊢ MayWait (c : Thread nD τ) (.dma (xrS 0)) () (OY0 c) :=
  mayWait_cut c (.dma (xrS 0)) 2 (OY0 c) (by rw [lv_dma]; decide) (OY0_above c)
omit [FloatOps F] in
theorem mayWait_xr1 (c : Dev nD) : (levAts L lv : sProp 𝕄) ⊢ MayWait (c : Thread nD τ) (.dma (xrS 1)) () (OY1 c) :=
  mayWait_cut c (.dma (xrS 1)) 2 (OY1 c) (by rw [lv_dma]; decide) (OY1_above c)
omit [FloatOps F] in
theorem mayWait_xr2 (c : Dev nD) : (levAts L lv : sProp 𝕄) ⊢ MayWait (c : Thread nD τ) (.dma (xrS 2)) () (OY2 c) :=
  mayWait_cut c (.dma (xrS 2)) 2 (OY2 c) (by rw [lv_dma]; decide) (OY2_above c)
omit [FloatOps F] in
theorem mayWait_xr3 (c : Dev nD) : (levAts L lv : sProp 𝕄) ⊢ MayWait (c : Thread nD τ) (.dma (xrS 3)) () (OY3 c) :=
  mayWait_cut c (.dma (xrS 3)) 2 (OY3 c) (by rw [lv_dma]; decide) (OY3_above c)

end Cert.Kernel.Hand

end
-- ==== Proof.K.Alloc.lean ====
/-
  The allocation: from the launch element the per-device rounds state; then, in one step over all devices, the cells'
  invariants allocated from the semaphores at zero, and the duty tokens dealt around: a barrier's `false` token to the
  owner's x-peer and its `true` token to its y-peer (the devices that signal it), a first-hop receive token to the
  owner's x-peer and a second-hop receive token to its y-peer (the devices that transfer into it), the send tokens
  staying with their owner.
-/
import proofs.«901047_g7700000000001048_dist_rsdw_v7x_xyz2x2x4_x_m1024_d1024_f4096_f32_1_alg».proof.Proof.K.LaunchDefs
import proofs.«901047_g7700000000001048_dist_rsdw_v7x_xyz2x2x4_x_m1024_d1024_f4096_f32_1_alg».proof.Proof.K.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite products written out -/

theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- Separating conjunction associates, as an equation. -/
theorem sep_assoc_eq (P Q R : sProp 𝕄) : iprop((P ∗ Q) ∗ R) = iprop(P ∗ Q ∗ R) :=
  equiv_iff.mp ⟨sep_assoc, sep_assoc'⟩

/-! ## The launch element, device by device -/

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 17 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, as the cells' counters -/

/-- The sixteen own DMA semaphores are the cells 1 to 16. -/
theorem ownSems0_kcell (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
      ∗ semVal (kcell (c, 5)) 0 ∗ semVal (kcell (c, 6)) 0 ∗ semVal (kcell (c, 7)) 0 ∗ semVal (kcell (c, 8)) 0
      ∗ semVal (kcell (c, 9)) 0 ∗ semVal (kcell (c, 10)) 0 ∗ semVal (kcell (c, 11)) 0 ∗ semVal (kcell (c, 12)) 0
      ∗ semVal (kcell (c, 13)) 0 ∗ semVal (kcell (c, 14)) 0 ∗ semVal (kcell (c, 15)) 0 ∗ semVal (kcell (c, 16)) 0) := by
  rw [Pipeline.ownSems0_eq_of_list c osem [0, 1, 2, 3, 4, 5, 6, 7, 8, 9, 10, 11, 12, 13, 14, 15] (by decide) (by decide)]; rfl

/-- The barrier semaphore is the launch's one unscoped semaphore: cell 0. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_kcell, unscopedSems0_eq, bigSep_fin17]
  exact sep_comm

/-! ## Each device allocates its seventeen cells' invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The persistent records, and what stays with a device -/

/-- Every cell's invariant under its name, and round 0 reached at every cell: persistent, so each device takes what it needs. -/
def records (K : Dev nD × Fin 17 → ℕ) : sProp 𝕄 :=
  iprop((bigSep Finset.univ fun ck : Dev nD × Fin 17 => cellInv ER (sched m ρ) (K ck) (kcell ck))
    ∗ bigSep Finset.univ fun ck : Dev nD × Fin 17 => reached ER (kcell ck) 0)

instance records_persistent (K : Dev nD × Fin 17 → ℕ) : BI.Persistent (records m ρ K) := by unfold records; infer_instance

theorem inv_at (K : Dev nD × Fin 17 → ℕ) (ck : Dev nD × Fin 17) (g : GSem nD τ sig) (hg : kcell ck = g) :
    (bigSep Finset.univ fun ck : Dev nD × Fin 17 => (cellInv ER (sched m ρ) (K ck) (kcell ck) : sProp 𝕄)) ⊢ cellInv ER (sched m ρ) (K ck) g :=
  hg ▸ bigSep_elim (Finset.mem_univ ck)
theorem reached_at (ck : Dev nD × Fin 17) (g : GSem nD τ sig) (hg : kcell ck = g) :
    (bigSep Finset.univ fun ck : Dev nD × Fin 17 => (reached ER (kcell ck) 0 : sProp 𝕄)) ⊢ reached ER g 0 :=
  hg ▸ bigSep_elim (Finset.mem_univ ck)

/-- The invariants a device opens: its own seventeen, both peers' barrier cells, the receive cells it transfers into. -/
theorem records_invs (K : Dev nD × Fin 17 → ℕ) (c : Dev nD) : records m ρ K ⊢ invs m ρ K c := by
  unfold records invs
  iintro ⟨#HI, -⟩
  isplitr; · iapply (inv_at m ρ K (c, 0) (barCell c) rfl); iexact HI
  isplitr
  · isplitr; · iapply (inv_at m ρ K (c, 1) (xsCell c 0) rfl); iexact HI
    isplitr; · iapply (inv_at m ρ K (c, 2) (xsCell c 1) rfl); iexact HI
    isplitr; · iapply (inv_at m ρ K (c, 3) (xsCell c 2) rfl); iexact HI
    iapply (inv_at m ρ K (c, 4) (xsCell c 3) rfl); iexact HI
  isplitr
  · isplitr; · iapply (inv_at m ρ K (c, 5) (xrCell c 0) rfl); iexact HI
    isplitr; · iapply (inv_at m ρ K (c, 6) (xrCell c 1) rfl); iexact HI
    isplitr; · iapply (inv_at m ρ K (c, 7) (xrCell c 2) rfl); iexact HI
    iapply (inv_at m ρ K (c, 8) (xrCell c 3) rfl); iexact HI
  isplitr
  · isplitr; · iapply (inv_at m ρ K (c, 9) (ysCell c 0) rfl); iexact HI
    isplitr; · iapply (inv_at m ρ K (c, 10) (ysCell c 1) rfl); iexact HI
    isplitr; · iapply (inv_at m ρ K (c, 11) (ysCell c 2) rfl); iexact HI
    iapply (inv_at m ρ K (c, 12) (ysCell c 3) rfl); iexact HI
  isplitr
  · isplitr; · iapply (inv_at m ρ K (c, 13) (yrCell c 0) rfl); iexact HI
    isplitr; · iapply (inv_at m ρ K (c, 14) (yrCell c 1) rfl); iexact HI
    isplitr; · iapply (inv_at m ρ K (c, 15) (yrCell c 2) rfl); iexact HI
    iapply (inv_at m ρ K (c, 16) (yrCell c 3) rfl); iexact HI
  isplitr; · iapply (inv_at m ρ K (xp c, 0) (barCell (xp c)) rfl); iexact HI
  isplitr; · iapply (inv_at m ρ K (yp c, 0) (barCell (yp c)) rfl); iexact HI
  isplitr
  · isplitr; · iapply (inv_at m ρ K (xp c, 5) (xrCell (xp c) 0) rfl); iexact HI
    isplitr; · iapply (inv_at m ρ K (xp c, 6) (xrCell (xp c) 1) rfl); iexact HI
    isplitr; · iapply (inv_at m ρ K (xp c, 7) (xrCell (xp c) 2) rfl); iexact HI
    iapply (inv_at m ρ K (xp c, 8) (xrCell (xp c) 3) rfl); iexact HI
  · isplitr; · iapply (inv_at m ρ K (yp c, 13) (yrCell (yp c) 0) rfl); iexact HI
    isplitr; · iapply (inv_at m ρ K (yp c, 14) (yrCell (yp c) 1) rfl); iexact HI
    isplitr; · iapply (inv_at m ρ K (yp c, 15) (yrCell (yp c) 2) rfl); iexact HI
    iapply (inv_at m ρ K (yp c, 16) (yrCell (yp c) 3) rfl); iexact HI

/-- Round 0 reached at every cell a device pays. -/
theorem records_reacheds (K : Dev nD × Fin 17 → ℕ) (c : Dev nD) : records m ρ K ⊢ reacheds c := by
  unfold records reacheds
  iintro ⟨-, #HR⟩
  isplitr; · iapply (reached_at (F := F) (xp c, 0) (barCell (xp c)) rfl); iexact HR
  isplitr; · iapply (reached_at (F := F) (yp c, 0) (barCell (yp c)) rfl); iexact HR
  isplitr
  · isplitr; · iapply (reached_at (F := F) (c, 1) (xsCell c 0) rfl); iexact HR
    isplitr; · iapply (reached_at (F := F) (c, 2) (xsCell c 1) rfl); iexact HR
    isplitr; · iapply (reached_at (F := F) (c, 3) (xsCell c 2) rfl); iexact HR
    iapply (reached_at (F := F) (c, 4) (xsCell c 3) rfl); iexact HR
  isplitr
  · isplitr; · iapply (reached_at (F := F) (c, 9) (ysCell c 0) rfl); iexact HR
    isplitr; · iapply (reached_at (F := F) (c, 10) (ysCell c 1) rfl); iexact HR
    isplitr; · iapply (reached_at (F := F) (c, 11) (ysCell c 2) rfl); iexact HR
    iapply (reached_at (F := F) (c, 12) (ysCell c 3) rfl); iexact HR
  isplitr
  · isplitr; · iapply (reached_at (F := F) (xp c, 5) (xrCell (xp c) 0) rfl); iexact HR
    isplitr; · iapply (reached_at (F := F) (xp c, 6) (xrCell (xp c) 1) rfl); iexact HR
    isplitr; · iapply (reached_at (F := F) (xp c, 7) (xrCell (xp c) 2) rfl); iexact HR
    iapply (reached_at (F := F) (xp c, 8) (xrCell (xp c) 3) rfl); iexact HR
  · isplitr; · iapply (reached_at (F := F) (yp c, 13) (yrCell (yp c) 0) rfl); iexact HR
    isplitr; · iapply (reached_at (F := F) (yp c, 14) (yrCell (yp c) 1) rfl); iexact HR
    isplitr; · iapply (reached_at (F := F) (yp c, 15) (yrCell (yp c) 2) rfl); iexact HR
    iapply (reached_at (F := F) (yp c, 16) (yrCell (yp c) 3) rfl); iexact HR

/-- What stays with device `c`: its positions, and the tokens of the duties it pays. -/
def linear (c : Dev nD) : sProp 𝕄 := iprop(poss c ∗ payToks c)

theorem ghost_intro (K : Dev nD × Fin 17 → ℕ) (c : Dev nD) : iprop(records m ρ K ∗ linear c) ⊢ G' m ρ c := by
  unfold linear G' ghost
  iintro ⟨#HR, Hp, Ht⟩
  iexists K
  isplitr; · iapply (records_invs m ρ K c); iexact HR
  isplitl [Hp]; · iexact Hp
  isplitr; · iapply (records_reacheds m ρ K c); iexact HR
  iexact Ht

/-- The seventeen positions of a device, cell by cell. -/
theorem poss_eq (c : Dev nD) : (bigSep Finset.univ fun k : Fin 17 => (atPos ER (kcell (c, k)) 0 ∅ 0 : sProp 𝕄)) = poss c := by
  rw [bigSep_fin17]; unfold poss; simp only [sep_assoc_eq]; rfl

/-- The eighteen tokens minted for a device's own cells, one by one. -/
theorem toks_eq (c : Dev nD) : (toks c : sProp 𝕄)
    = iprop(dutyTok ER (barCell c) 0 false ∗ dutyTok ER (barCell c) 0 true
      ∗ dutyTok ER (xsCell c 0) 0 false ∗ dutyTok ER (xsCell c 1) 0 false ∗ dutyTok ER (xsCell c 2) 0 false ∗ dutyTok ER (xsCell c 3) 0 false
      ∗ dutyTok ER (xrCell c 0) 0 false ∗ dutyTok ER (xrCell c 1) 0 false ∗ dutyTok ER (xrCell c 2) 0 false ∗ dutyTok ER (xrCell c 3) 0 false
      ∗ dutyTok ER (ysCell c 0) 0 false ∗ dutyTok ER (ysCell c 1) 0 false ∗ dutyTok ER (ysCell c 2) 0 false ∗ dutyTok ER (ysCell c 3) 0 false
      ∗ dutyTok ER (yrCell c 0) 0 false ∗ dutyTok ER (yrCell c 1) 0 false ∗ dutyTok ER (yrCell c 2) 0 false ∗ dutyTok ER (yrCell c 3) 0 false) := by
  unfold toks; rw [bigSep_fin18]; rfl

/-- The tokens dealt around: a barrier's `false` token to the x-peer and its `true` token to the y-peer, a first-hop receive
    token to the x-peer, a second-hop receive token to the y-peer; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv xpE (fun c : Dev nD => (dutyTok ER (barCell c) 0 false : sProp 𝕄)),
    bigSep_univ_equiv ypE (fun c : Dev nD => (dutyTok ER (barCell c) 0 true : sProp 𝕄)),
    bigSep_univ_equiv xpE (fun c : Dev nD => (dutyTok ER (xrCell c 0) 0 false : sProp 𝕄)),
    bigSep_univ_equiv xpE (fun c : Dev nD => (dutyTok ER (xrCell c 1) 0 false : sProp 𝕄)),
    bigSep_univ_equiv xpE (fun c : Dev nD => (dutyTok ER (xrCell c 2) 0 false : sProp 𝕄)),
    bigSep_univ_equiv xpE (fun c : Dev nD => (dutyTok ER (xrCell c 3) 0 false : sProp 𝕄)),
    bigSep_univ_equiv ypE (fun c : Dev nD => (dutyTok ER (yrCell c 0) 0 false : sProp 𝕄)),
    bigSep_univ_equiv ypE (fun c : Dev nD => (dutyTok ER (yrCell c 1) 0 false : sProp 𝕄)),
    bigSep_univ_equiv ypE (fun c : Dev nD => (dutyTok ER (yrCell c 2) 0 false : sProp 𝕄)),
    bigSep_univ_equiv ypE (fun c : Dev nD => (dutyTok ER (yrCell c 3) 0 false : sProp 𝕄))]
  iintro ⟨HbF, HbT, Hxs0, Hxs1, Hxs2, Hxs3, Hxr0, Hxr1, Hxr2, Hxr3, Hys0, Hys1, Hys2, Hys3, Hyr0, Hyr1, Hyr2, Hyr3⟩
  isplitl [HbF]; · iexact HbF
  isplitl [HbT]; · iexact HbT
  isplitl [Hxs0 Hxs1 Hxs2 Hxs3]
  · isplitl [Hxs0]; · iexact Hxs0
    isplitl [Hxs1]; · iexact Hxs1
    isplitl [Hxs2]; · iexact Hxs2
    iexact Hxs3
  isplitl [Hys0 Hys1 Hys2 Hys3]
  · isplitl [Hys0]; · iexact Hys0
    isplitl [Hys1]; · iexact Hys1
    isplitl [Hys2]; · iexact Hys2
    iexact Hys3
  isplitl [Hxr0 Hxr1 Hxr2 Hxr3]
  · isplitl [Hxr0]; · iexact Hxr0
    isplitl [Hxr1]; · iexact Hxr1
    isplitl [Hxr2]; · iexact Hxr2
    iexact Hxr3
  · isplitl [Hyr0]; · iexact Hyr0
    isplitl [Hyr1]; · iexact Hyr1
    isplitl [Hyr2]; · iexact Hyr2
    iexact Hyr3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocations together: the names chosen, the records shared, the tokens dealt. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (sched m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rw [poss_eq])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The sixteen own DMA semaphores at zero, as the region hands them back at exit. -/
theorem ownSems0_eq (c : Dev nD) : (Pipeline.ownSems0 (Ix := Unit) (Name := ℕ) (U := UU) (Lvl := ℕ) (Val := Elt F) (τ := τ) osem c : sProp 𝕄) = semsZero c := by
  rw [Pipeline.ownSems0_eq_of_list c osem [0, 1, 2, 3, 4, 5, 6, 7, 8, 9, 10, 11, 12, 13, 14, 15] (by decide) (by decide)]
  unfold semsZero
  simp only [sep_assoc_eq]
  rfl

end Cert.Kernel.Hand

end
-- ==== Proof.K.OutDefs.lean ====
/-
  What a run of twelve stores leaves in the 512 × 4096 result buffer, whatever it held before.

  For each of the four column chunks (1024 columns each) the body stores the whole 512 × 1024 chunk `A k`, then adds a
  landing to one 256-row half of it (reading that half back, computing, storing it), and later, for each chunk, adds
  another landing to the other half the same way. A half read back after the whole-chunk store is that half of `A k`
  (no later store touches it before its own), so the buffer ends holding, in chunk `k`, `PX k (half of A k)` on the
  first half and `PY k (other half of A k)` on the other. The twelve stores cover every entry, so what the buffer held
  before does not matter.
-/
import proofs.«901047_g7700000000001048_dist_rsdw_v7x_xyz2x2x4_x_m1024_d1024_f4096_f32_1_alg».proof.Proof.K.Sched
import Idealize.ShloMosaic.Lib.Writes
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangles -/

abbrev rF0 : Rect S512x4096 := Rect.unit (s := S512x4096) ![0, 0] S512x1024.size inb_S512x4096_S512x1024_0_0
abbrev rF1 : Rect S512x4096 := Rect.unit (s := S512x4096) ![0, 1024] S512x1024.size inb_S512x4096_S512x1024_0_1024
abbrev rF2 : Rect S512x4096 := Rect.unit (s := S512x4096) ![0, 2048] S512x1024.size inb_S512x4096_S512x1024_0_2048
abbrev rF3 : Rect S512x4096 := Rect.unit (s := S512x4096) ![0, 3072] S512x1024.size inb_S512x4096_S512x1024_0_3072
abbrev rT0 : Rect S512x4096 := Rect.unit (s := S512x4096) ![0, 0] S256x1024.size inb_S512x4096_S256x1024_0_0
abbrev rT1 : Rect S512x4096 := Rect.unit (s := S512x4096) ![0, 1024] S256x1024.size inb_S512x4096_S256x1024_0_1024
abbrev rT2 : Rect S512x4096 := Rect.unit (s := S512x4096) ![0, 2048] S256x1024.size inb_S512x4096_S256x1024_0_2048
abbrev rT3 : Rect S512x4096 := Rect.unit (s := S512x4096) ![0, 3072] S256x1024.size inb_S512x4096_S256x1024_0_3072
abbrev rB0 : Rect S512x4096 := Rect.unit (s := S512x4096) ![256, 0] S256x1024.size inb_S512x4096_S256x1024_256_0
abbrev rB1 : Rect S512x4096 := Rect.unit (s := S512x4096) ![256, 1024] S256x1024.size inb_S512x4096_S256x1024_256_1024
abbrev rB2 : Rect S512x4096 := Rect.unit (s := S512x4096) ![256, 2048] S256x1024.size inb_S512x4096_S256x1024_256_2048
abbrev rB3 : Rect S512x4096 := Rect.unit (s := S512x4096) ![256, 3072] S256x1024.size inb_S512x4096_S256x1024_256_3072

section Lists
variable (A0 A1 A2 A3 : Vec F S512x1024 .f32)
  (PX0 PX1 PX2 PX3 PY0 PY1 PY2 PY3 : Vec F S256x1024 .f32 → Vec F S256x1024 .f32)

/-! ## The lists, when the first landing goes to the TOP half (the later one to the bottom half) -/

def LT1 : List (View.Piece (Elt F) S512x4096 .f32) := [⟨rF0, A0⟩]
def LT2 : List (View.Piece (Elt F) S512x4096 .f32) := ⟨rT0, PX0 (oM.view.readCov (LT1 A0) rT0.toLoadRect)⟩ :: LT1 A0
def LT3 : List (View.Piece (Elt F) S512x4096 .f32) := ⟨rF1, A1⟩ :: LT2 A0 PX0
def LT4 : List (View.Piece (Elt F) S512x4096 .f32) := ⟨rT1, PX1 (oM.view.readCov (LT3 A0 A1 PX0) rT1.toLoadRect)⟩ :: LT3 A0 A1 PX0
def LT5 : List (View.Piece (Elt F) S512x4096 .f32) := ⟨rF2, A2⟩ :: LT4 A0 A1 PX0 PX1
def LT6 : List (View.Piece (Elt F) S512x4096 .f32) := ⟨rT2, PX2 (oM.view.readCov (LT5 A0 A1 A2 PX0 PX1) rT2.toLoadRect)⟩ :: LT5 A0 A1 A2 PX0 PX1
def LT7 : List (View.Piece (Elt F) S512x4096 .f32) := ⟨rF3, A3⟩ :: LT6 A0 A1 A2 PX0 PX1 PX2
def LT8 : List (View.Piece (Elt F) S512x4096 .f32) := ⟨rT3, PX3 (oM.view.readCov (LT7 A0 A1 A2 A3 PX0 PX1 PX2) rT3.toLoadRect)⟩ :: LT7 A0 A1 A2 A3 PX0 PX1 PX2
def LT9 : List (View.Piece (Elt F) S512x4096 .f32) := ⟨rB0, PY0 (oM.view.readCov (LT8 A0 A1 A2 A3 PX0 PX1 PX2 PX3) rB0.toLoadRect)⟩ :: LT8 A0 A1 A2 A3 PX0 PX1 PX2 PX3
def LT10 : List (View.Piece (Elt F) S512x4096 .f32) := ⟨rB1, PY1 (oM.view.readCov (LT9 A0 A1 A2 A3 PX0 PX1 PX2 PX3 PY0) rB1.toLoadRect)⟩ :: LT9 A0 A1 A2 A3 PX0 PX1 PX2 PX3 PY0
def LT11 : List (View.Piece (Elt F) S512x4096 .f32) := ⟨rB2, PY2 (oM.view.readCov (LT10 A0 A1 A2 A3 PX0 PX1 PX2 PX3 PY0 PY1) rB2.toLoadRect)⟩ :: LT10 A0 A1 A2 A3 PX0 PX1 PX2 PX3 PY0 PY1
def LT12 : List (View.Piece (Elt F) S512x4096 .f32) := ⟨rB3, PY3 (oM.view.readCov (LT11 A0 A1 A2 A3 PX0 PX1 PX2 PX3 PY0 PY1 PY2) rB3.toLoadRect)⟩ :: LT11 A0 A1 A2 A3 PX0 PX1 PX2 PX3 PY0 PY1 PY2

/-! ## The lists, when the first landing goes to the BOTTOM half (the later one to the top half) -/

def LB1 : List (View.Piece (Elt F) S512x4096 .f32) := [⟨rF0, A0⟩]
def LB2 : List (View.Piece (Elt F) S512x4096 .f32) := ⟨rB0, PX0 (oM.view.readCov (LB1 A0) rB0.toLoadRect)⟩ :: LB1 A0
def LB3 : List (View.Piece (Elt F) S512x4096 .f32) := ⟨rF1, A1⟩ :: LB2 A0 PX0
def LB4 : List (View.Piece (Elt F) S512x4096 .f32) := ⟨rB1, PX1 (oM.view.readCov (LB3 A0 A1 PX0) rB1.toLoadRect)⟩ :: LB3 A0 A1 PX0
def LB5 : List (View.Piece (Elt F) S512x4096 .f32) := ⟨rF2, A2⟩ :: LB4 A0 A1 PX0 PX1
def LB6 : List (View.Piece (Elt F) S512x4096 .f32) := ⟨rB2, PX2 (oM.view.readCov (LB5 A0 A1 A2 PX0 PX1) rB2.toLoadRect)⟩ :: LB5 A0 A1 A2 PX0 PX1
def LB7 : List (View.Piece (Elt F) S512x4096 .f32) := ⟨rF3, A3⟩ :: LB6 A0 A1 A2 PX0 PX1 PX2
def LB8 : List (View.Piece (Elt F) S512x4096 .f32) := ⟨rB3, PX3 (oM.view.readCov (LB7 A0 A1 A2 A3 PX0 PX1 PX2) rB3.toLoadRect)⟩ :: LB7 A0 A1 A2 A3 PX0 PX1 PX2
def LB9 : List (View.Piece (Elt F) S512x4096 .f32) := ⟨rT0, PY0 (oM.view.readCov (LB8 A0 A1 A2 A3 PX0 PX1 PX2 PX3) rT0.toLoadRect)⟩ :: LB8 A0 A1 A2 A3 PX0 PX1 PX2 PX3
def LB10 : List (View.Piece (Elt F) S512x4096 .f32) := ⟨rT1, PY1 (oM.view.readCov (LB9 A0 A1 A2 A3 PX0 PX1 PX2 PX3 PY0) rT1.toLoadRect)⟩ :: LB9 A0 A1 A2 A3 PX0 PX1 PX2 PX3 PY0
def LB11 : List (View.Piece (Elt F) S512x4096 .f32) := ⟨rT2, PY2 (oM.view.readCov (LB10 A0 A1 A2 A3 PX0 PX1 PX2 PX3 PY0 PY1) rT2.toLoadRect)⟩ :: LB10 A0 A1 A2 A3 PX0 PX1 PX2 PX3 PY0 PY1
def LB12 : List (View.Piece (Elt F) S512x4096 .f32) := ⟨rT3, PY3 (oM.view.readCov (LB11 A0 A1 A2 A3 PX0 PX1 PX2 PX3 PY0 PY1 PY2) rT3.toLoadRect)⟩ :: LB11 A0 A1 A2 A3 PX0 PX1 PX2 PX3 PY0 PY1 PY2

/-- Chunk `k`'s two halves after the run, entry by entry of the whole buffer. -/
def assemble (T B : Fin 4 → Vec F S256x1024 .f32) : (cc0_stg2_0 : Ref sig .tc).ty.Contents (Elt F) :=
  fun i =>
    let k : Fin 4 := ⟨(i 1).val / 1024, by have h : (i 1).val < 4096 := (i 1).isLt; omega⟩
    let j : Fin 1024 := ⟨(i 1).val % 1024, Nat.mod_lt _ (by decide)⟩
    if h : (i 0).val < 256 then T k (ValueIdx.ix2 (⟨(i 0).val, h⟩ : Fin 256) j)
    else B k (ValueIdx.ix2 (⟨(i 0).val - 256, by have h' : (i 0).val < 512 := (i 0).isLt; omega⟩ : Fin 256) j)

end Lists

end Cert.Kernel.Hand

end
-- ==== Proof.K.BodyPre.lean ====
/-
  What the stepping of one device's body starts from and ends with, and the small facts it reads: the schedule's tables
  at the literal cells (with the peers' entries resolved through the involutions), buffers restated through their
  memrefs, a whole-buffer store leaving the stored vector, and the two branch conditions decided from the device's
  second mesh coordinate.
-/
import proofs.«901047_g7700000000001048_dist_rsdw_v7x_xyz2x2x4_x_m1024_d1024_f4096_f32_1_alg».proof.Proof.K.Sched
import proofs.«901047_g7700000000001048_dist_rsdw_v7x_xyz2x2x4_x_m1024_d1024_f4096_f32_1_alg».proof.Proof.K.Tables
import proofs.«901047_g7700000000001048_dist_rsdw_v7x_xyz2x2x4_x_m1024_d1024_f4096_f32_1_alg».proof.Proof.K.OutDefs

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's pre- and postcondition -/

def bodyPre (K : Dev nD × Fin 17 → ℕ) (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (dystg m ρ c) ∗ stg c cc0_stg2_0 (outAt m ρ c))

/-! ## The schedule's tables at the literal cells, as the stepping reads them -/

theorem pay_xs0 (c : Dev nD) (d : Bool) : (sched m ρ).payload ((c : Thread nD τ), .dma (3 : DmaSem sig)) 0 d = ((Memref.whole cc0_scratch0 : Memref sig .tc .vmem S256x1024 .bf16).view.loc (c : Thread nD τ) ↦[(Memref.whole cc0_scratch0 : Memref sig .tc .vmem S256x1024 .bf16).view.set]{fullShare} (sx m ρ c 0) : sProp 𝕄) := rfl
theorem pay_xr0 (c : Dev nD) (d : Bool) : (sched m ρ).payload ((c : Thread nD τ), .dma (7 : DmaSem sig)) 0 d = ((Memref.whole cc0_scratch4 : Memref sig .tc .vmem S256x1024 .bf16).view.loc (c : Thread nD τ) ↦[(Memref.whole cc0_scratch4 : Memref sig .tc .vmem S256x1024 .bf16).view.set]{fullShare} (xqv m ρ c 0) : sProp 𝕄) := rfl
theorem pay_ys0 (c : Dev nD) (d : Bool) : (sched m ρ).payload ((c : Thread nD τ), .dma (11 : DmaSem sig)) 0 d = ((Memref.whole cc0_scratch4 : Memref sig .tc .vmem S256x1024 .bf16).view.loc (c : Thread nD τ) ↦[(Memref.whole cc0_scratch4 : Memref sig .tc .vmem S256x1024 .bf16).view.set]{fullShare.left} (xqv m ρ c 0) : sProp 𝕄) := rfl
theorem pay_yr0 (c : Dev nD) (d : Bool) : (sched m ρ).payload ((c : Thread nD τ), .dma (15 : DmaSem sig)) 0 d = ((Memref.whole cc0_scratch8 : Memref sig .tc .vmem S256x1024 .bf16).view.loc (c : Thread nD τ) ↦[(Memref.whole cc0_scratch8 : Memref sig .tc .vmem S256x1024 .bf16).view.set]{fullShare} (yqv m ρ c 0) : sProp 𝕄) := rfl
theorem pay_xs1 (c : Dev nD) (d : Bool) : (sched m ρ).payload ((c : Thread nD τ), .dma (4 : DmaSem sig)) 0 d = ((Memref.whole cc0_scratch1 : Memref sig .tc .vmem S256x1024 .bf16).view.loc (c : Thread nD τ) ↦[(Memref.whole cc0_scratch1 : Memref sig .tc .vmem S256x1024 .bf16).view.set]{fullShare} (sx m ρ c 1) : sProp 𝕄) := rfl
theorem pay_xr1 (c : Dev nD) (d : Bool) : (sched m ρ).payload ((c : Thread nD τ), .dma (8 : DmaSem sig)) 0 d = ((Memref.whole cc0_scratch5 : Memref sig .tc .vmem S256x1024 .bf16).view.loc (c : Thread nD τ) ↦[(Memref.whole cc0_scratch5 : Memref sig .tc .vmem S256x1024 .bf16).view.set]{fullShare} (xqv m ρ c 1) : sProp 𝕄) := rfl
theorem pay_ys1 (c : Dev nD) (d : Bool) : (sched m ρ).payload ((c : Thread nD τ), .dma (12 : DmaSem sig)) 0 d = ((Memref.whole cc0_scratch5 : Memref sig .tc .vmem S256x1024 .bf16).view.loc (c : Thread nD τ) ↦[(Memref.whole cc0_scratch5 : Memref sig .tc .vmem S256x1024 .bf16).view.set]{fullShare.left} (xqv m ρ c 1) : sProp 𝕄) := rfl
theorem pay_yr1 (c : Dev nD) (d : Bool) : (sched m ρ).payload ((c : Thread nD τ), .dma (16 : DmaSem sig)) 0 d = ((Memref.whole cc0_scratch9 : Memref sig .tc .vmem S256x1024 .bf16).view.loc (c : Thread nD τ) ↦[(Memref.whole cc0_scratch9 : Memref sig .tc .vmem S256x1024 .bf16).view.set]{fullShare} (yqv m ρ c 1) : sProp 𝕄) := rfl
theorem pay_xs2 (c : Dev nD) (d : Bool) : (sched m ρ).payload ((c : Thread nD τ), .dma (5 : DmaSem sig)) 0 d = ((Memref.whole cc0_scratch2 : Memref sig .tc .vmem S256x1024 .bf16).view.loc (c : Thread nD τ) ↦[(Memref.whole cc0_scratch2 : Memref sig .tc .vmem S256x1024 .bf16).view.set]{fullShare} (sx m ρ c 2) : sProp 𝕄) := rfl
theorem pay_xr2 (c : Dev nD) (d : Bool) : (sched m ρ).payload ((c : Thread nD τ), .dma (9 : DmaSem sig)) 0 d = ((Memref.whole cc0_scratch6 : Memref sig .tc .vmem S256x1024 .bf16).view.loc (c : Thread nD τ) ↦[(Memref.whole cc0_scratch6 : Memref sig .tc .vmem S256x1024 .bf16).view.set]{fullShare} (xqv m ρ c 2) : sProp 𝕄) := rfl
theorem pay_ys2 (c : Dev nD) (d : Bool) : (sched m ρ).payload ((c : Thread nD τ), .dma (13 : DmaSem sig)) 0 d = ((Memref.whole cc0_scratch6 : Memref sig .tc .vmem S256x1024 .bf16).view.loc (c : Thread nD τ) ↦[(Memref.whole cc0_scratch6 : Memref sig .tc .vmem S256x1024 .bf16).view.set]{fullShare.left} (xqv m ρ c 2) : sProp 𝕄) := rfl
theorem pay_yr2 (c : Dev nD) (d : Bool) : (sched m ρ).payload ((c : Thread nD τ), .dma (17 : DmaSem sig)) 0 d = ((Memref.whole cc0_scratch10 : Memref sig .tc .vmem S256x1024 .bf16).view.loc (c : Thread nD τ) ↦[(Memref.whole cc0_scratch10 : Memref sig .tc .vmem S256x1024 .bf16).view.set]{fullShare} (yqv m ρ c 2) : sProp 𝕄) := rfl
theorem pay_xs3 (c : Dev nD) (d : Bool) : (sched m ρ).payload ((c : Thread nD τ), .dma (6 : DmaSem sig)) 0 d = ((Memref.whole cc0_scratch3 : Memref sig .tc .vmem S256x1024 .bf16).view.loc (c : Thread nD τ) ↦[(Memref.whole cc0_scratch3 : Memref sig .tc .vmem S256x1024 .bf16).view.set]{fullShare} (sx m ρ c 3) : sProp 𝕄) := rfl
theorem pay_xr3 (c : Dev nD) (d : Bool) : (sched m ρ).payload ((c : Thread nD τ), .dma (10 : DmaSem sig)) 0 d = ((Memref.whole cc0_scratch7 : Memref sig .tc .vmem S256x1024 .bf16).view.loc (c : Thread nD τ) ↦[(Memref.whole cc0_scratch7 : Memref sig .tc .vmem S256x1024 .bf16).view.set]{fullShare} (xqv m ρ c 3) : sProp 𝕄) := rfl
theorem pay_ys3 (c : Dev nD) (d : Bool) : (sched m ρ).payload ((c : Thread nD τ), .dma (14 : DmaSem sig)) 0 d = ((Memref.whole cc0_scratch7 : Memref sig .tc .vmem S256x1024 .bf16).view.loc (c : Thread nD τ) ↦[(Memref.whole cc0_scratch7 : Memref sig .tc .vmem S256x1024 .bf16).view.set]{fullShare.left} (xqv m ρ c 3) : sProp 𝕄) := rfl
theorem pay_yr3 (c : Dev nD) (d : Bool) : (sched m ρ).payload ((c : Thread nD τ), .dma (18 : DmaSem sig)) 0 d = ((Memref.whole cc0_scratch11 : Memref sig .tc .vmem S256x1024 .bf16).view.loc (c : Thread nD τ) ↦[(Memref.whole cc0_scratch11 : Memref sig .tc .vmem S256x1024 .bf16).view.set]{fullShare} (yqv m ρ c 3) : sProp 𝕄) := rfl

theorem payX_peer (c : Dev nD) : (sched m ρ).payload (((xp c : Dev nD) : Thread nD τ), .reg barS) 0 false
    = (iprop((∃ f, ((Memref.whole cc0_scratch4 : Memref sig .tc .vmem S256x1024 .bf16).view.loc (c : Thread nD τ) ↦[(Memref.whole cc0_scratch4 : Memref sig .tc .vmem S256x1024 .bf16).view.set]{fullShare} f : sProp 𝕄)) ∗ (∃ f, ((Memref.whole cc0_scratch5 : Memref sig .tc .vmem S256x1024 .bf16).view.loc (c : Thread nD τ) ↦[(Memref.whole cc0_scratch5 : Memref sig .tc .vmem S256x1024 .bf16).view.set]{fullShare} f : sProp 𝕄)) ∗ (∃ f, ((Memref.whole cc0_scratch6 : Memref sig .tc .vmem S256x1024 .bf16).view.loc (c : Thread nD τ) ↦[(Memref.whole cc0_scratch6 : Memref sig .tc .vmem S256x1024 .bf16).view.set]{fullShare} f : sProp 𝕄)) ∗ (∃ f, ((Memref.whole cc0_scratch7 : Memref sig .tc .vmem S256x1024 .bf16).view.loc (c : Thread nD τ) ↦[(Memref.whole cc0_scratch7 : Memref sig .tc .vmem S256x1024 .bf16).view.set]{fullShare} f : sProp 𝕄))) : sProp 𝕄) := by
  show barPayX (F := F) (xp c) = _
  unfold barPayX; rw [xp_xp]
theorem payY_peer (c : Dev nD) : (sched m ρ).payload (((yp c : Dev nD) : Thread nD τ), .reg barS) 0 true
    = (iprop((∃ f, ((Memref.whole cc0_scratch8 : Memref sig .tc .vmem S256x1024 .bf16).view.loc (c : Thread nD τ) ↦[(Memref.whole cc0_scratch8 : Memref sig .tc .vmem S256x1024 .bf16).view.set]{fullShare} f : sProp 𝕄)) ∗ (∃ f, ((Memref.whole cc0_scratch9 : Memref sig .tc .vmem S256x1024 .bf16).view.loc (c : Thread nD τ) ↦[(Memref.whole cc0_scratch9 : Memref sig .tc .vmem S256x1024 .bf16).view.set]{fullShare} f : sProp 𝕄)) ∗ (∃ f, ((Memref.whole cc0_scratch10 : Memref sig .tc .vmem S256x1024 .bf16).view.loc (c : Thread nD τ) ↦[(Memref.whole cc0_scratch10 : Memref sig .tc .vmem S256x1024 .bf16).view.set]{fullShare} f : sProp 𝕄)) ∗ (∃ f, ((Memref.whole cc0_scratch11 : Memref sig .tc .vmem S256x1024 .bf16).view.loc (c : Thread nD τ) ↦[(Memref.whole cc0_scratch11 : Memref sig .tc .vmem S256x1024 .bf16).view.set]{fullShare} f : sProp 𝕄))) : sProp 𝕄) := by
  show barPayY (F := F) (yp c) = _
  unfold barPayY; rw [yp_yp]
theorem payX_own (c : Dev nD) : (sched m ρ).payload ((c : Thread nD τ), .reg barS) 0 false
    = (iprop((∃ f, ((Memref.whole cc0_scratch4 : Memref sig .tc .vmem S256x1024 .bf16).view.loc (xp c : Thread nD τ) ↦[(Memref.whole cc0_scratch4 : Memref sig .tc .vmem S256x1024 .bf16).view.set]{fullShare} f : sProp 𝕄)) ∗ (∃ f, ((Memref.whole cc0_scratch5 : Memref sig .tc .vmem S256x1024 .bf16).view.loc (xp c : Thread nD τ) ↦[(Memref.whole cc0_scratch5 : Memref sig .tc .vmem S256x1024 .bf16).view.set]{fullShare} f : sProp 𝕄)) ∗ (∃ f, ((Memref.whole cc0_scratch6 : Memref sig .tc .vmem S256x1024 .bf16).view.loc (xp c : Thread nD τ) ↦[(Memref.whole cc0_scratch6 : Memref sig .tc .vmem S256x1024 .bf16).view.set]{fullShare} f : sProp 𝕄)) ∗ (∃ f, ((Memref.whole cc0_scratch7 : Memref sig .tc .vmem S256x1024 .bf16).view.loc (xp c : Thread nD τ) ↦[(Memref.whole cc0_scratch7 : Memref sig .tc .vmem S256x1024 .bf16).view.set]{fullShare} f : sProp 𝕄))) : sProp 𝕄) := rfl
theorem payY_own (c : Dev nD) : (sched m ρ).payload ((c : Thread nD τ), .reg barS) 0 true
    = (iprop((∃ f, ((Memref.whole cc0_scratch8 : Memref sig .tc .vmem S256x1024 .bf16).view.loc (yp c : Thread nD τ) ↦[(Memref.whole cc0_scratch8 : Memref sig .tc .vmem S256x1024 .bf16).view.set]{fullShare} f : sProp 𝕄)) ∗ (∃ f, ((Memref.whole cc0_scratch9 : Memref sig .tc .vmem S256x1024 .bf16).view.loc (yp c : Thread nD τ) ↦[(Memref.whole cc0_scratch9 : Memref sig .tc .vmem S256x1024 .bf16).view.set]{fullShare} f : sProp 𝕄)) ∗ (∃ f, ((Memref.whole cc0_scratch10 : Memref sig .tc .vmem S256x1024 .bf16).view.loc (yp c : Thread nD τ) ↦[(Memref.whole cc0_scratch10 : Memref sig .tc .vmem S256x1024 .bf16).view.set]{fullShare} f : sProp 𝕄)) ∗ (∃ f, ((Memref.whole cc0_scratch11 : Memref sig .tc .vmem S256x1024 .bf16).view.loc (yp c : Thread nD τ) ↦[(Memref.whole cc0_scratch11 : Memref sig .tc .vmem S256x1024 .bf16).view.set]{fullShare} f : sProp 𝕄))) : sProp 𝕄) := rfl

theorem pay_xr0_peer (c : Dev nD) (d : Bool) : (sched m ρ).payload (((xp c : Dev nD) : Thread nD τ), .dma (7 : DmaSem sig)) 0 d = ((Memref.whole cc0_scratch4 : Memref sig .tc .vmem S256x1024 .bf16).view.loc (xp c : Thread nD τ) ↦[(Memref.whole cc0_scratch4 : Memref sig .tc .vmem S256x1024 .bf16).view.set]{fullShare} (sx m ρ c 0) : sProp 𝕄) := by
  show pts (Memref.whole cc0_scratch4 : Memref sig .tc .vmem S256x1024 .bf16) (xp c) fullShare (xqv m ρ (xp c) 0) = _
  unfold xqv pts; rw [xp_xp]
theorem pay_yr0_peer (c : Dev nD) (d : Bool) : (sched m ρ).payload (((yp c : Dev nD) : Thread nD τ), .dma (15 : DmaSem sig)) 0 d = ((Memref.whole cc0_scratch8 : Memref sig .tc .vmem S256x1024 .bf16).view.loc (yp c : Thread nD τ) ↦[(Memref.whole cc0_scratch8 : Memref sig .tc .vmem S256x1024 .bf16).view.set]{fullShare} (xqv m ρ c 0) : sProp 𝕄) := by
  show pts (Memref.whole cc0_scratch8 : Memref sig .tc .vmem S256x1024 .bf16) (yp c) fullShare (yqv m ρ (yp c) 0) = _
  unfold yqv xqv pts; rw [yp_yp]
theorem pay_xr1_peer (c : Dev nD) (d : Bool) : (sched m ρ).payload (((xp c : Dev nD) : Thread nD τ), .dma (8 : DmaSem sig)) 0 d = ((Memref.whole cc0_scratch5 : Memref sig .tc .vmem S256x1024 .bf16).view.loc (xp c : Thread nD τ) ↦[(Memref.whole cc0_scratch5 : Memref sig .tc .vmem S256x1024 .bf16).view.set]{fullShare} (sx m ρ c 1) : sProp 𝕄) := by
  show pts (Memref.whole cc0_scratch5 : Memref sig .tc .vmem S256x1024 .bf16) (xp c) fullShare (xqv m ρ (xp c) 1) = _
  unfold xqv pts; rw [xp_xp]
theorem pay_yr1_peer (c : Dev nD) (d : Bool) : (sched m ρ).payload (((yp c : Dev nD) : Thread nD τ), .dma (16 : DmaSem sig)) 0 d = ((Memref.whole cc0_scratch9 : Memref sig .tc .vmem S256x1024 .bf16).view.loc (yp c : Thread nD τ) ↦[(Memref.whole cc0_scratch9 : Memref sig .tc .vmem S256x1024 .bf16).view.set]{fullShare} (xqv m ρ c 1) : sProp 𝕄) := by
  show pts (Memref.whole cc0_scratch9 : Memref sig .tc .vmem S256x1024 .bf16) (yp c) fullShare (yqv m ρ (yp c) 1) = _
  unfold yqv xqv pts; rw [yp_yp]
theorem pay_xr2_peer (c : Dev nD) (d : Bool) : (sched m ρ).payload (((xp c : Dev nD) : Thread nD τ), .dma (9 : DmaSem sig)) 0 d = ((Memref.whole cc0_scratch6 : Memref sig .tc .vmem S256x1024 .bf16).view.loc (xp c : Thread nD τ) ↦[(Memref.whole cc0_scratch6 : Memref sig .tc .vmem S256x1024 .bf16).view.set]{fullShare} (sx m ρ c 2) : sProp 𝕄) := by
  show pts (Memref.whole cc0_scratch6 : Memref sig .tc .vmem S256x1024 .bf16) (xp c) fullShare (xqv m ρ (xp c) 2) = _
  unfold xqv pts; rw [xp_xp]
theorem pay_yr2_peer (c : Dev nD) (d : Bool) : (sched m ρ).payload (((yp c : Dev nD) : Thread nD τ), .dma (17 : DmaSem sig)) 0 d = ((Memref.whole cc0_scratch10 : Memref sig .tc .vmem S256x1024 .bf16).view.loc (yp c : Thread nD τ) ↦[(Memref.whole cc0_scratch10 : Memref sig .tc .vmem S256x1024 .bf16).view.set]{fullShare} (xqv m ρ c 2) : sProp 𝕄) := by
  show pts (Memref.whole cc0_scratch10 : Memref sig .tc .vmem S256x1024 .bf16) (yp c) fullShare (yqv m ρ (yp c) 2) = _
  unfold yqv xqv pts; rw [yp_yp]
theorem pay_xr3_peer (c : Dev nD) (d : Bool) : (sched m ρ).payload (((xp c : Dev nD) : Thread nD τ), .dma (10 : DmaSem sig)) 0 d = ((Memref.whole cc0_scratch7 : Memref sig .tc .vmem S256x1024 .bf16).view.loc (xp c : Thread nD τ) ↦[(Memref.whole cc0_scratch7 : Memref sig .tc .vmem S256x1024 .bf16).view.set]{fullShare} (sx m ρ c 3) : sProp 𝕄) := by
  show pts (Memref.whole cc0_scratch7 : Memref sig .tc .vmem S256x1024 .bf16) (xp c) fullShare (xqv m ρ (xp c) 3) = _
  unfold xqv pts; rw [xp_xp]
theorem pay_yr3_peer (c : Dev nD) (d : Bool) : (sched m ρ).payload (((yp c : Dev nD) : Thread nD τ), .dma (18 : DmaSem sig)) 0 d = ((Memref.whole cc0_scratch11 : Memref sig .tc .vmem S256x1024 .bf16).view.loc (yp c : Thread nD τ) ↦[(Memref.whole cc0_scratch11 : Memref sig .tc .vmem S256x1024 .bf16).view.set]{fullShare} (xqv m ρ c 3) : sProp 𝕄) := by
  show pts (Memref.whole cc0_scratch11 : Memref sig .tc .vmem S256x1024 .bf16) (yp c) fullShare (yqv m ρ (yp c) 3) = _
  unfold yqv xqv pts; rw [yp_yp]

theorem bar_pay_eq (c : Dev nD) :
    bigSep Finset.univ (fun d : Bool => (sched m ρ).payload (barCell c) 0 d) = iprop(barPayX (F := F) c ∗ barPayY c) := by
  rw [bigSep_univ_eq_bigSepL [false, true] (by decide) (by decide), bigSepL_cons_cons, bigSepL_singleton,
    payload_bar_false, payload_bar_true]
  rfl

/-! ## Buffers restated: staging buffers through their memrefs; a whole-buffer store leaves the stored vector -/

theorem hx_eq (c : Dev nD) (f : Buf (Elt F) ((c : Thread nD τ).loc cc0_stg0_0)) :
    (((c : Thread nD τ).loc cc0_stg0_0) ↦{fullShare} f : sProp 𝕄) = (xM.view.loc (c : Thread nD τ) ↦[xM.view.set]{fullShare} f : sProp 𝕄) := by
  rw [View.set_whole]
theorem hdy_eq (c : Dev nD) (f : Buf (Elt F) ((c : Thread nD τ).loc cc0_stg1_0)) :
    (((c : Thread nD τ).loc cc0_stg1_0) ↦{fullShare} f : sProp 𝕄) = (dyM.view.loc (c : Thread nD τ) ↦[dyM.view.set]{fullShare} f : sProp 𝕄) := by
  rw [View.set_whole]
theorem ho_eq (c : Dev nD) (f : Buf (Elt F) ((c : Thread nD τ).loc cc0_stg2_0)) :
    (((c : Thread nD τ).loc cc0_stg2_0) ↦{fullShare} f : sProp 𝕄) = (oM.view.loc (c : Thread nD τ) ↦[oM.view.set]{fullShare} f : sProp 𝕄) := by
  rw [View.set_whole]

omit [FloatOps F] in
theorem hz2 : (![0, 0] : Fin 2 → Nat) = fun _ => 0 := funext fun a => by fin_cases a <;> rfl

/-- A store of a whole buffer leaves the stored vector: product 0 as the device sends it. -/
theorem sx0_restate (c : Dev nD) (fs : Buf (Elt F) ((Memref.whole cc0_scratch0 : Memref sig .tc .vmem S256x1024 .bf16).view.loc (c : Thread nD τ))) (v : Vec F S256x1024 .bf16) (hv : v = sx m ρ c 0) :
    ((Memref.whole cc0_scratch0 : Memref sig .tc .vmem S256x1024 .bf16).view.loc (c : Thread nD τ) ↦[(Memref.whole cc0_scratch0 : Memref sig .tc .vmem S256x1024 .bf16).view.set]{fullShare} ((Memref.whole cc0_scratch0 : Memref sig .tc .vmem S256x1024 .bf16).view.writes (Elt F) fs [⟨Rect.unit (s := S256x1024) ![0, 0] S256x1024.size inb_S256x1024_S256x1024_0_0, v⟩]) : sProp 𝕄)
      = ((Memref.whole cc0_scratch0 : Memref sig .tc .vmem S256x1024 .bf16).view.loc (c : Thread nD τ) ↦[(Memref.whole cc0_scratch0 : Memref sig .tc .vmem S256x1024 .bf16).view.set]{fullShare} (sx m ρ c 0) : sProp 𝕄) := by
  subst hv
  rw [View.writes_singleton]
  congr 1
  exact Memref.write_access_unit_zero_univ (Elt F) cc0_scratch0 hz2 _ fs _

/-- The same for product 1, at the loads as the body makes them. -/
theorem sx1_restate (c : Dev nD) (fs : Buf (Elt F) ((Memref.whole cc0_scratch1 : Memref sig .tc .vmem S256x1024 .bf16).view.loc (c : Thread nD τ))) :
    ((Memref.whole cc0_scratch1 : Memref sig .tc .vmem S256x1024 .bf16).view.loc (c : Thread nD τ) ↦[(Memref.whole cc0_scratch1 : Memref sig .tc .vmem S256x1024 .bf16).view.set]{fullShare} ((Memref.whole cc0_scratch1 : Memref sig .tc .vmem S256x1024 .bf16).view.writes (Elt F) fs [⟨Rect.unit (s := S256x1024) ![0, 0] S256x1024.size inb_S256x1024_S256x1024_0_0, k0_pay4 (xM.view.readAt (Elt F) (Rect.unit (s := S1024x1024) (k0_off1 c) S1024x256.size (k0_off1_inb c)).toLoadRect (xstg m ρ c)) (dyM.view.readAt (Elt F) (Rect.unit (s := S1024x4096) ![0, 1024] S1024x1024.size inb_S1024x4096_S1024x1024_0_1024).toLoadRect (dystg m ρ c))⟩]) : sProp 𝕄)
      = ((Memref.whole cc0_scratch1 : Memref sig .tc .vmem S256x1024 .bf16).view.loc (c : Thread nD τ) ↦[(Memref.whole cc0_scratch1 : Memref sig .tc .vmem S256x1024 .bf16).view.set]{fullShare} (sx m ρ c 1) : sProp 𝕄) := by
  show ((Memref.whole cc0_scratch1 : Memref sig .tc .vmem S256x1024 .bf16).view.loc (c : Thread nD τ) ↦[(Memref.whole cc0_scratch1 : Memref sig .tc .vmem S256x1024 .bf16).view.set]{fullShare} ((Memref.whole cc0_scratch1 : Memref sig .tc .vmem S256x1024 .bf16).view.writes (Elt F) fs [⟨Rect.unit (s := S256x1024) ![0, 0] S256x1024.size inb_S256x1024_S256x1024_0_0, sx m ρ c 1⟩]) : sProp 𝕄) = _
  rw [View.writes_singleton]
  congr 1
  exact Memref.write_access_unit_zero_univ (Elt F) cc0_scratch1 hz2 _ fs _

/-- The same for product 2, at the loads as the body makes them. -/
theorem sx2_restate (c : Dev nD) (fs : Buf (Elt F) ((Memref.whole cc0_scratch2 : Memref sig .tc .vmem S256x1024 .bf16).view.loc (c : Thread nD τ))) :
    ((Memref.whole cc0_scratch2 : Memref sig .tc .vmem S256x1024 .bf16).view.loc (c : Thread nD τ) ↦[(Memref.whole cc0_scratch2 : Memref sig .tc .vmem S256x1024 .bf16).view.set]{fullShare} ((Memref.whole cc0_scratch2 : Memref sig .tc .vmem S256x1024 .bf16).view.writes (Elt F) fs [⟨Rect.unit (s := S256x1024) ![0, 0] S256x1024.size inb_S256x1024_S256x1024_0_0, k0_pay5 (xM.view.readAt (Elt F) (Rect.unit (s := S1024x1024) (k0_off1 c) S1024x256.size (k0_off1_inb c)).toLoadRect (xstg m ρ c)) (dyM.view.readAt (Elt F) (Rect.unit (s := S1024x4096) ![0, 2048] S1024x1024.size inb_S1024x4096_S1024x1024_0_2048).toLoadRect (dystg m ρ c))⟩]) : sProp 𝕄)
      = ((Memref.whole cc0_scratch2 : Memref sig .tc .vmem S256x1024 .bf16).view.loc (c : Thread nD τ) ↦[(Memref.whole cc0_scratch2 : Memref sig .tc .vmem S256x1024 .bf16).view.set]{fullShare} (sx m ρ c 2) : sProp 𝕄) := by
  show ((Memref.whole cc0_scratch2 : Memref sig .tc .vmem S256x1024 .bf16).view.loc (c : Thread nD τ) ↦[(Memref.whole cc0_scratch2 : Memref sig .tc .vmem S256x1024 .bf16).view.set]{fullShare} ((Memref.whole cc0_scratch2 : Memref sig .tc .vmem S256x1024 .bf16).view.writes (Elt F) fs [⟨Rect.unit (s := S256x1024) ![0, 0] S256x1024.size inb_S256x1024_S256x1024_0_0, sx m ρ c 2⟩]) : sProp 𝕄) = _
  rw [View.writes_singleton]
  congr 1
  exact Memref.write_access_unit_zero_univ (Elt F) cc0_scratch2 hz2 _ fs _

/-- The same for product 3, at the loads as the body makes them. -/
theorem sx3_restate (c : Dev nD) (fs : Buf (Elt F) ((Memref.whole cc0_scratch3 : Memref sig .tc .vmem S256x1024 .bf16).view.loc (c : Thread nD τ))) :
    ((Memref.whole cc0_scratch3 : Memref sig .tc .vmem S256x1024 .bf16).view.loc (c : Thread nD τ) ↦[(Memref.whole cc0_scratch3 : Memref sig .tc .vmem S256x1024 .bf16).view.set]{fullShare} ((Memref.whole cc0_scratch3 : Memref sig .tc .vmem S256x1024 .bf16).view.writes (Elt F) fs [⟨Rect.unit (s := S256x1024) ![0, 0] S256x1024.size inb_S256x1024_S256x1024_0_0, k0_pay6 (xM.view.readAt (Elt F) (Rect.unit (s := S1024x1024) (k0_off1 c) S1024x256.size (k0_off1_inb c)).toLoadRect (xstg m ρ c)) (dyM.view.readAt (Elt F) (Rect.unit (s := S1024x4096) ![0, 3072] S1024x1024.size inb_S1024x4096_S1024x1024_0_3072).toLoadRect (dystg m ρ c))⟩]) : sProp 𝕄)
      = ((Memref.whole cc0_scratch3 : Memref sig .tc .vmem S256x1024 .bf16).view.loc (c : Thread nD τ) ↦[(Memref.whole cc0_scratch3 : Memref sig .tc .vmem S256x1024 .bf16).view.set]{fullShare} (sx m ρ c 3) : sProp 𝕄) := by
  show ((Memref.whole cc0_scratch3 : Memref sig .tc .vmem S256x1024 .bf16).view.loc (c : Thread nD τ) ↦[(Memref.whole cc0_scratch3 : Memref sig .tc .vmem S256x1024 .bf16).view.set]{fullShare} ((Memref.whole cc0_scratch3 : Memref sig .tc .vmem S256x1024 .bf16).view.writes (Elt F) fs [⟨Rect.unit (s := S256x1024) ![0, 0] S256x1024.size inb_S256x1024_S256x1024_0_0, sx m ρ c 3⟩]) : sProp 𝕄) = _
  rw [View.writes_singleton]
  congr 1
  exact Memref.write_access_unit_zero_univ (Elt F) cc0_scratch3 hz2 _ fs _

/-- The word the body computes for the device's second mesh coordinate. -/
def cyW (c : Dev nD) : BitVec 32 := Scalar.remsi (Scalar.divsi (Dev.word c) 4#32) 2#32

theorem cond_facts : ∀ c : Dev nD,
    (cy c = 0 → Scalar.cmpi .ne (Scalar.extui (Scalar.cmpi .eq (cyW c) 0#32)) 0#32 = 1#1
        ∧ ¬ Scalar.cmpi .ne (Scalar.extui (Scalar.cmpi .eq (cyW c) 1#32)) 0#32 = 1#1)
      ∧ (cy c = 1 → ¬ Scalar.cmpi .ne (Scalar.extui (Scalar.cmpi .eq (cyW c) 0#32)) 0#32 = 1#1
        ∧ Scalar.cmpi .ne (Scalar.extui (Scalar.cmpi .eq (cyW c) 1#32)) 0#32 = 1#1) := by decide +kernel

theorem c0_pos (c : Dev nD) (h : cy c = 0) (w : BitVec 32) (hw : w = cyW c) :
    Scalar.cmpi .ne (Scalar.extui (Scalar.cmpi .eq w 0#32)) 0#32 = 1#1 := by subst hw; exact ((cond_facts c).1 h).1
theorem c0_neg (c : Dev nD) (h : cy c = 0) (w : BitVec 32) (hw : w = cyW c) :
    ¬ Scalar.cmpi .ne (Scalar.extui (Scalar.cmpi .eq w 1#32)) 0#32 = 1#1 := by subst hw; exact ((cond_facts c).1 h).2
theorem c1_neg (c : Dev nD) (h : cy c = 1) (w : BitVec 32) (hw : w = cyW c) :
    ¬ Scalar.cmpi .ne (Scalar.extui (Scalar.cmpi .eq w 0#32)) 0#32 = 1#1 := by subst hw; exact ((cond_facts c).2 h).1
theorem c1_pos (c : Dev nD) (h : cy c = 1) (w : BitVec 32) (hw : w = cyW c) :
    Scalar.cmpi .ne (Scalar.extui (Scalar.cmpi .eq w 1#32)) 0#32 = 1#1 := by subst hw; exact ((cond_facts c).2 h).2

theorem outAt_eq_assemble (c : Dev nD) : outAt m ρ c = assemble (topVal m ρ c) (botVal m ρ c) := rfl

end Cert.Kernel.Hand

end
-- ==== Proof.K.Body0.lean ====
/-
  One device's body, stepped once at a symbolic device whose second mesh coordinate is 0: two barrier signals, the four
  products stored and sent on the first hop (after the barrier wait), then chunk by chunk the first-hop landing awaited
  and forwarded on the second hop, the device's own product stored and the landing added to its TOP quarter; then the
  second-hop landings awaited and added to the BOTTOM quarter; then the eight send cells awaited.
-/
import proofs.«901047_g7700000000001048_dist_rsdw_v7x_xyz2x2x4_x_m1024_d1024_f4096_f32_1_alg».proof.Proof.K.BodyPre

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_canon] dev1_eq dev2_eq dev3_eq dev4_eq dev5_eq dev6_eq dev7_eq dev8_eq dev9_eq dev10_eq
  slice_xs0 slice_xs1 slice_xs2 slice_xs3 slice_xr0 slice_xr1 slice_xr2 slice_xr3 slice_ys0 slice_ys1 slice_ys2 slice_ys3 slice_yr0 slice_yr1 slice_yr2 slice_yr3
attribute [local sl_rounds] duties_bar duties_dma amount_bar amount_dma expect_bar expect_dma payX_own payY_own
  pay_xs0 pay_xs1 pay_xs2 pay_xs3 pay_xr0 pay_xr1 pay_xr2 pay_xr3 pay_ys0 pay_ys1 pay_ys2 pay_ys3 pay_yr0 pay_yr1 pay_yr2 pay_yr3
attribute [local sl_rounds high] payX_peer payY_peer pay_xr0_peer pay_yr0_peer pay_xr1_peer pay_yr1_peer pay_xr2_peer pay_yr2_peer pay_xr3_peer pay_yr3_peer
attribute [local irreducible] xp yp

set_option maxHeartbeats 4000000 in
/-- The body stepped once from `bodyPre` to `bodyPost`, for a device whose second mesh coordinate is 0. -/
theorem body_cy0
    (hWr : ∀ (A0 A1 A2 A3 : Vec F S512x1024 .f32) (PX0 PX1 PX2 PX3 PY0 PY1 PY2 PY3 : Vec F S256x1024 .f32 → Vec F S256x1024 .f32)
      (g : (cc0_stg2_0 : Ref sig .tc).ty.Contents (Elt F)),
      oM.view.writes (Elt F) g (LT12 A0 A1 A2 A3 PX0 PX1 PX2 PX3 PY0 PY1 PY2 PY3)
        = assemble (fun k => match k with | 0 => PX0 (topOf A0) | 1 => PX1 (topOf A1) | 2 => PX2 (topOf A2) | 3 => PX3 (topOf A3))
            (fun k => match k with | 0 => PY0 (botOf A0) | 1 => PY1 (botOf A1) | 2 => PY2 (botOf A2) | 3 => PY3 (botOf A3)))
    (K : Dev nD × Fin 17 → ℕ) (c : Dev nD) (hcy : cy c = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  unfold bodyPre ghost invs poss reacheds payToks creds scr pts
  iintro ⟨⟨⟨⟨⟨#HIb, ⟨#HIxs0, #HIxs1, #HIxs2, #HIxs3⟩, ⟨#HIxr0, #HIxr1, #HIxr2, #HIxr3⟩, ⟨#HIys0, #HIys1, #HIys2, #HIys3⟩, ⟨#HIyr0, #HIyr1, #HIyr2, #HIyr3⟩, #HIbX, #HIbY, ⟨#HIxrP0, #HIxrP1, #HIxrP2, #HIxrP3⟩, ⟨#HIyrP0, #HIyrP1, #HIyrP2, #HIyrP3⟩⟩,
      ⟨HaB, ⟨HaXs0, HaXs1, HaXs2, HaXs3⟩, ⟨HaXr0, HaXr1, HaXr2, HaXr3⟩, ⟨HaYs0, HaYs1, HaYs2, HaYs3⟩, ⟨HaYr0, HaYr1, HaYr2, HaYr3⟩⟩,
      ⟨#HrBX, #HrBY, ⟨#HrXs0, #HrXs1, #HrXs2, #HrXs3⟩, ⟨#HrYs0, #HrYs1, #HrYs2, #HrYs3⟩, ⟨#HrXrP0, #HrXrP1, #HrXrP2, #HrXrP3⟩, ⟨#HrYrP0, #HrYrP1, #HrYrP2, #HrYrP3⟩⟩,
      ⟨HtBX, HtBY, HtXs, HtYs, ⟨HtXrP0, HtXrP1, HtXrP2, HtXrP3⟩, ⟨HtYrP0, HtYrP1, HtYrP2, HtYrP3⟩⟩⟩,
     ⟨HcB, ⟨HcXr0, HcXr1, HcXr2, HcXr3⟩, ⟨HcYr0, HcYr1, HcYr2, HcYr3⟩⟩, #Hlev,
     ⟨⟨%fs0, Hsx0⟩, ⟨%fs1, Hsx1⟩, ⟨%fs2, Hsx2⟩, ⟨%fs3, Hsx3⟩, ⟨%fx0, Hxq0⟩, ⟨%fx1, Hxq1⟩, ⟨%fx2, Hxq2⟩, ⟨%fx3, Hxq3⟩, ⟨%fy0, Hyq0⟩, ⟨%fy1, Hyq1⟩, ⟨%fy2, Hyq2⟩, ⟨%fy3, Hyq3⟩⟩⟩,
    Ho, ⟨%d0, %g0, %hg0, Hx⟩, ⟨%d1, %g1, %hg1, Hdy⟩, ⟨%d2, %g2, %hg2, Hout⟩⟩, Hk⟩
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (hx_eq c _)) $$ Hx
  ihave Hdy := (Entails.of_eq (hdy_eq c _)) $$ Hdy
  ihave Hout := (Entails.of_eq (ho_eq c _)) $$ Hout
  unfold Dat.owesAt Pipeline.owesWithin
  icases Ho with ⟨%W, %hW, HO⟩
  rw [show (dats m ρ 0 c).owed t₀.castSucc = O₀ c from rfl]
  unfold O₀ O₁ OX0 OX1 OX2 OX3 OY0 OY1 OY2 OY3
  have hmB : (levAts L lv : sProp 𝕄) ⊢ MayWait (c : Thread nD τ) (.reg barS) () (tY c 3 + tY c 2 + tY c 1 + tY c 0 + tX c 3 + tX c 2 + tX c 1 + tX c 0) := mayWait_bar c
  have hm0 : (levAts L lv : sProp 𝕄) ⊢ MayWait (c : Thread nD τ) (.dma (7 : DmaSem sig)) () (tY c 3 + tY c 2 + tY c 1 + tY c 0) := mayWait_xr0 c
  have hm1 : (levAts L lv : sProp 𝕄) ⊢ MayWait (c : Thread nD τ) (.dma (8 : DmaSem sig)) () (tY c 3 + tY c 2 + tY c 1) := mayWait_xr1 c
  have hm2 : (levAts L lv : sProp 𝕄) ⊢ MayWait (c : Thread nD τ) (.dma (9 : DmaSem sig)) () (tY c 3 + tY c 2) := mayWait_xr2 c
  have hm3 : (levAts L lv : sProp 𝕄) ⊢ MayWait (c : Thread nD τ) (.dma (10 : DmaSem sig)) () (tY c 3) := mayWait_xr3 c
  have hc0 : Scalar.cmpi .ne (Scalar.extui (Scalar.cmpi .eq (cyW c) 0#32)) 0#32 = 1#1 := ((cond_facts c).1 hcy).1
  have hc1 : ¬ Scalar.cmpi .ne (Scalar.extui (Scalar.cmpi .eq (cyW c) 1#32)) 0#32 = 1#1 := ((cond_facts c).1 hcy).2
  sl_unfold [cc0_body]
  -- the two barrier signals, the first product stored, the barrier wait
  sl_exec (disch := simp only [dev1_eq, dev2_eq, dev3_eq, dev4_eq, dev5_eq, dev6_eq, dev7_eq, dev8_eq, dev9_eq, dev10_eq])
  -- what the two peers' signals handed over: their landing buffers
  ihave Hp := (Entails.of_eq (bar_pay_eq m ρ c)) $$ HaB_pay1
  unfold barPayX barPayY pts
  icases Hp with ⟨⟨⟨%px0, Hpx0⟩, ⟨%px1, Hpx1⟩, ⟨%px2, Hpx2⟩, ⟨%px3, Hpx3⟩⟩, ⟨%py0, Hpy0⟩, ⟨%py1, Hpy1⟩, ⟨%py2, Hpy2⟩, ⟨%py3, Hpy3⟩⟩
  ihave Hsx0 := (Entails.of_eq (sx0_restate m ρ c fs0 (k0_pay3 (body_cy0.sl.r m ρ c) (body_cy0.sl.r_1 m ρ c)) rfl)) $$ Hsx0
  icases HtXs with ⟨HtXs0, HtXs⟩
  sl_exec (disch := simp only [dev1_eq, dev2_eq, dev3_eq, dev4_eq, dev5_eq, dev6_eq, dev7_eq, dev8_eq, dev9_eq, dev10_eq])
  ihave Hsx1 := (Entails.of_eq (sx1_restate m ρ c fs1)) $$ Hsx1
  icases HtXs with ⟨HtXs1, HtXs⟩
  sl_exec (disch := simp only [dev1_eq, dev2_eq, dev3_eq, dev4_eq, dev5_eq, dev6_eq, dev7_eq, dev8_eq, dev9_eq, dev10_eq])
  ihave Hsx2 := (Entails.of_eq (sx2_restate m ρ c fs2)) $$ Hsx2
  icases HtXs with ⟨HtXs2, HtXs3⟩
  set_option sl_exec.maxSteps 8 in sl_exec (disch := simp only [dev1_eq, dev2_eq, dev3_eq, dev4_eq, dev5_eq, dev6_eq, dev7_eq, dev8_eq, dev9_eq, dev10_eq])
  ihave Hsx3 := (Entails.of_eq (sx3_restate m ρ c fs3)) $$ Hsx3
  sl_exec (disch := simp only [dev1_eq, dev2_eq, dev3_eq, dev4_eq, dev5_eq, dev6_eq, dev7_eq, dev8_eq, dev9_eq, dev10_eq])
  -- chunk by chunk: the landing's share split (the transfer holds one half, the body reads the other), forwarded, added
  ihave Hh := (pointsTo_share (PosShare.mem_left_op_right fullShare)).1 $$ HaXr0_pay1
  icases Hh with ⟨HxqL0, HxqR0⟩
  icases HtYs with ⟨HtYs0, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr1_pay1
  icases Hh with ⟨HxqL1, HxqR1⟩
  icases HtYs with ⟨HtYs1, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr2_pay1
  icases Hh with ⟨HxqL2, HxqR2⟩
  icases HtYs with ⟨HtYs2, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr3_pay1
  icases Hh with ⟨HxqL3, HxqR3⟩
  sl_exec (disch := simp only [dev1_eq, dev2_eq, dev3_eq, dev4_eq, dev5_eq, dev6_eq, dev7_eq, dev8_eq, dev9_eq, dev10_eq])
  -- the sixteen own cells close: their counters at zero are the core's again
  imod (Rounds.cell_close ER (sched m ρ) (Set.mem_univ (K (c, 1))) (fun h => h) (R := 0 + 1) (duties_later m ρ (xsCell c 0))) $$ [HaXs0] with HzXs0
  · isplitr; · iexact HIxs0
    iexact HaXs0
  imod (Rounds.cell_close ER (sched m ρ) (Set.mem_univ (K (c, 2))) (fun h => h) (R := 0 + 1) (duties_later m ρ (xsCell c 1))) $$ [HaXs1] with HzXs1
  · isplitr; · iexact HIxs1
    iexact HaXs1
  imod (Rounds.cell_close ER (sched m ρ) (Set.mem_univ (K (c, 3))) (fun h => h) (R := 0 + 1) (duties_later m ρ (xsCell c 2))) $$ [HaXs2] with HzXs2
  · isplitr; · iexact HIxs2
    iexact HaXs2
  imod (Rounds.cell_close ER (sched m ρ) (Set.mem_univ (K (c, 4))) (fun h => h) (R := 0 + 1) (duties_later m ρ (xsCell c 3))) $$ [HaXs3] with HzXs3
  · isplitr; · iexact HIxs3
    iexact HaXs3
  imod (Rounds.cell_close ER (sched m ρ) (Set.mem_univ (K (c, 5))) (fun h => h) (R := 0 + 1) (duties_later m ρ (xrCell c 0))) $$ [HaXr0] with HzXr0
  · isplitr; · iexact HIxr0
    iexact HaXr0
  imod (Rounds.cell_close ER (sched m ρ) (Set.mem_univ (K (c, 6))) (fun h => h) (R := 0 + 1) (duties_later m ρ (xrCell c 1))) $$ [HaXr1] with HzXr1
  · isplitr; · iexact HIxr1
    iexact HaXr1
  imod (Rounds.cell_close ER (sched m ρ) (Set.mem_univ (K (c, 7))) (fun h => h) (R := 0 + 1) (duties_later m ρ (xrCell c 2))) $$ [HaXr2] with HzXr2
  · isplitr; · iexact HIxr2
    iexact HaXr2
  imod (Rounds.cell_close ER (sched m ρ) (Set.mem_univ (K (c, 8))) (fun h => h) (R := 0 + 1) (duties_later m ρ (xrCell c 3))) $$ [HaXr3] with HzXr3
  · isplitr; · iexact HIxr3
    iexact HaXr3
  imod (Rounds.cell_close ER (sched m ρ) (Set.mem_univ (K (c, 9))) (fun h => h) (R := 0 + 1) (duties_later m ρ (ysCell c 0))) $$ [HaYs0] with HzYs0
  · isplitr; · iexact HIys0
    iexact HaYs0
  imod (Rounds.cell_close ER (sched m ρ) (Set.mem_univ (K (c, 10))) (fun h => h) (R := 0 + 1) (duties_later m ρ (ysCell c 1))) $$ [HaYs1] with HzYs1
  · isplitr; · iexact HIys1
    iexact HaYs1
  imod (Rounds.cell_close ER (sched m ρ) (Set.mem_univ (K (c, 11))) (fun h => h) (R := 0 + 1) (duties_later m ρ (ysCell c 2))) $$ [HaYs2] with HzYs2
  · isplitr; · iexact HIys2
    iexact HaYs2
  imod (Rounds.cell_close ER (sched m ρ) (Set.mem_univ (K (c, 12))) (fun h => h) (R := 0 + 1) (duties_later m ρ (ysCell c 3))) $$ [HaYs3] with HzYs3
  · isplitr; · iexact HIys3
    iexact HaYs3
  imod (Rounds.cell_close ER (sched m ρ) (Set.mem_univ (K (c, 13))) (fun h => h) (R := 0 + 1) (duties_later m ρ (yrCell c 0))) $$ [HaYr0] with HzYr0
  · isplitr; · iexact HIyr0
    iexact HaYr0
  imod (Rounds.cell_close ER (sched m ρ) (Set.mem_univ (K (c, 14))) (fun h => h) (R := 0 + 1) (duties_later m ρ (yrCell c 1))) $$ [HaYr1] with HzYr1
  · isplitr; · iexact HIyr1
    iexact HaYr1
  imod (Rounds.cell_close ER (sched m ρ) (Set.mem_univ (K (c, 15))) (fun h => h) (R := 0 + 1) (duties_later m ρ (yrCell c 2))) $$ [HaYr2] with HzYr2
  · isplitr; · iexact HIyr2
    iexact HaYr2
  imod (Rounds.cell_close ER (sched m ρ) (Set.mem_univ (K (c, 16))) (fun h => h) (R := 0 + 1) (duties_later m ρ (yrCell c 3))) $$ [HaYr3] with HzYr3
  · isplitr; · iexact HIyr3
    iexact HaYr3
  -- the two halves of each first-hop landing buffer joined again
  ihave Hxq0 := (pointsTo_share (PosShare.mem_left_op_right fullShare)).2 $$ [HaYs0_pay1 HxqR0]
  · isplitl [HaYs0_pay1] <;> iassumption
  ihave Hxq1 := (pointsTo_share (PosShare.mem_left_op_right fullShare)).2 $$ [HaYs1_pay1 HxqR1]
  · isplitl [HaYs1_pay1] <;> iassumption
  ihave Hxq2 := (pointsTo_share (PosShare.mem_left_op_right fullShare)).2 $$ [HaYs2_pay1 HxqR2]
  · isplitl [HaYs2_pay1] <;> iassumption
  ihave Hxq3 := (pointsTo_share (PosShare.mem_left_op_right fullShare)).2 $$ [HaYs3_pay1 HxqR3]
  · isplitl [HaYs3_pay1] <;> iassumption
  sl_step
  iapply Hk
  unfold bodyPost Φ₁ scr semsZero pts Dat.owesAt Pipeline.owesWithin
  rw [show (dats m ρ 0 c).owed t₀.succ = 0 from rfl]
  ihave Hx := (Entails.of_eq (hx_eq c _).symm) $$ Hx
  ihave Hdy := (Entails.of_eq (hdy_eq c _).symm) $$ Hdy
  ihave Hout := (Entails.of_eq (ho_eq c _).symm) $$ Hout
  isplitl [HaXs0_pay1 HaXs1_pay1 HaXs2_pay1 HaXs3_pay1 Hxq0 Hxq1 Hxq2 Hxq3 HaYr0_pay1 HaYr1_pay1 HaYr2_pay1 HaYr3_pay1 HzXs0 HzXs1 HzXs2 HzXs3 HzXr0 HzXr1 HzXr2 HzXr3 HzYs0 HzYs1 HzYs2 HzYs3 HzYr0 HzYr1 HzYr2 HzYr3]
  · isplitl [HaXs0_pay1 HaXs1_pay1 HaXs2_pay1 HaXs3_pay1 Hxq0 Hxq1 Hxq2 Hxq3 HaYr0_pay1 HaYr1_pay1 HaYr2_pay1 HaYr3_pay1]
    · -- the twelve scratch buffers, at whatever they hold now
      isplitl [HaXs0_pay1]; · iexists _; iexact HaXs0_pay1
      isplitl [HaXs1_pay1]; · iexists _; iexact HaXs1_pay1
      isplitl [HaXs2_pay1]; · iexists _; iexact HaXs2_pay1
      isplitl [HaXs3_pay1]; · iexists _; iexact HaXs3_pay1
      isplitl [Hxq0]; · iexists _; iexact Hxq0
      isplitl [Hxq1]; · iexists _; iexact Hxq1
      isplitl [Hxq2]; · iexists _; iexact Hxq2
      isplitl [Hxq3]; · iexists _; iexact Hxq3
      isplitl [HaYr0_pay1]; · iexists _; iexact HaYr0_pay1
      isplitl [HaYr1_pay1]; · iexists _; iexact HaYr1_pay1
      isplitl [HaYr2_pay1]; · iexists _; iexact HaYr2_pay1
      iexists _; iexact HaYr3_pay1
    · -- the sixteen own cells, closed at zero
      isplitl [HzXs0 HzXs1 HzXs2 HzXs3]
      ·
        isplitl [HzXs0]; · iexact HzXs0
        isplitl [HzXs1]; · iexact HzXs1
        isplitl [HzXs2]; · iexact HzXs2
        iexact HzXs3
      isplitl [HzXr0 HzXr1 HzXr2 HzXr3]
      ·
        isplitl [HzXr0]; · iexact HzXr0
        isplitl [HzXr1]; · iexact HzXr1
        isplitl [HzXr2]; · iexact HzXr2
        iexact HzXr3
      isplitl [HzYs0 HzYs1 HzYs2 HzYs3]
      ·
        isplitl [HzYs0]; · iexact HzYs0
        isplitl [HzYs1]; · iexact HzYs1
        isplitl [HzYs2]; · iexact HzYs2
        iexact HzYs3
      isplitl [HzYr0]; · iexact HzYr0
      isplitl [HzYr1]; · iexact HzYr1
      isplitl [HzYr2]; · iexact HzYr2
      iexact HzYr3
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _
  isplitr
  on_goal 2 => iexact Hout
  ipureintro
  refine (show _ = oM.view.writes (Elt F) g2 (LT12 (own m ρ c 0) (own m ρ c 1) (own m ρ c 2) (own m ρ c 3)
      (fun t => k0_pay10 t (View.readAt (Elt F) (Memref.whole cc0_scratch4 : Memref sig .tc .vmem S256x1024 .bf16).view (Rect.unit (s := S256x1024) ![0, 0] S256x1024.size inb_S256x1024_S256x1024_0_0).toLoadRect (xqv m ρ c 0)))
      (fun t => k0_pay15 t (View.readAt (Elt F) (Memref.whole cc0_scratch5 : Memref sig .tc .vmem S256x1024 .bf16).view (Rect.unit (s := S256x1024) ![0, 0] S256x1024.size inb_S256x1024_S256x1024_0_0).toLoadRect (xqv m ρ c 1)))
      (fun t => k0_pay20 t (View.readAt (Elt F) (Memref.whole cc0_scratch6 : Memref sig .tc .vmem S256x1024 .bf16).view (Rect.unit (s := S256x1024) ![0, 0] S256x1024.size inb_S256x1024_S256x1024_0_0).toLoadRect (xqv m ρ c 2)))
      (fun t => k0_pay25 t (View.readAt (Elt F) (Memref.whole cc0_scratch7 : Memref sig .tc .vmem S256x1024 .bf16).view (Rect.unit (s := S256x1024) ![0, 0] S256x1024.size inb_S256x1024_S256x1024_0_0).toLoadRect (xqv m ρ c 3)))
      (fun t => k0_pay27 t (View.readAt (Elt F) (Memref.whole cc0_scratch8 : Memref sig .tc .vmem S256x1024 .bf16).view (Rect.unit (s := S256x1024) ![0, 0] S256x1024.size inb_S256x1024_S256x1024_0_0).toLoadRect (yqv m ρ c 0)))
      (fun t => k0_pay29 t (View.readAt (Elt F) (Memref.whole cc0_scratch9 : Memref sig .tc .vmem S256x1024 .bf16).view (Rect.unit (s := S256x1024) ![0, 0] S256x1024.size inb_S256x1024_S256x1024_0_0).toLoadRect (yqv m ρ c 1)))
      (fun t => k0_pay31 t (View.readAt (Elt F) (Memref.whole cc0_scratch10 : Memref sig .tc .vmem S256x1024 .bf16).view (Rect.unit (s := S256x1024) ![0, 0] S256x1024.size inb_S256x1024_S256x1024_0_0).toLoadRect (yqv m ρ c 2)))
      (fun t => k0_pay33 t (View.readAt (Elt F) (Memref.whole cc0_scratch11 : Memref sig .tc .vmem S256x1024 .bf16).view (Rect.unit (s := S256x1024) ![0, 0] S256x1024.size inb_S256x1024_S256x1024_0_0).toLoadRect (yqv m ρ c 3)))) from rfl).trans ?_
  rw [hWr, outAt_eq_assemble]
  congr 1
  · funext k
    fin_cases k
    · show k0_pay10 (topOf (own m ρ c 0)) _ = (if cy c = 0 then _ else _); rw [if_pos hcy]; exact congrArg (k0_pay10 (topOf (own m ρ c 0))) (Memref.readAt_unit_zero (Elt F) cc0_scratch4 hz2 _ _)
    · show k0_pay15 (topOf (own m ρ c 1)) _ = (if cy c = 0 then _ else _); rw [if_pos hcy]; exact congrArg (k0_pay15 (topOf (own m ρ c 1))) (Memref.readAt_unit_zero (Elt F) cc0_scratch5 hz2 _ _)
    · show k0_pay20 (topOf (own m ρ c 2)) _ = (if cy c = 0 then _ else _); rw [if_pos hcy]; exact congrArg (k0_pay20 (topOf (own m ρ c 2))) (Memref.readAt_unit_zero (Elt F) cc0_scratch6 hz2 _ _)
    · show k0_pay25 (topOf (own m ρ c 3)) _ = (if cy c = 0 then _ else _); rw [if_pos hcy]; exact congrArg (k0_pay25 (topOf (own m ρ c 3))) (Memref.readAt_unit_zero (Elt F) cc0_scratch7 hz2 _ _)
  · funext k
    fin_cases k
    · show k0_pay27 (botOf (own m ρ c 0)) _ = (if cy c = 0 then _ else _); rw [if_pos hcy]; exact congrArg (k0_pay27 (botOf (own m ρ c 0))) (Memref.readAt_unit_zero (Elt F) cc0_scratch8 hz2 _ _)
    · show k0_pay29 (botOf (own m ρ c 1)) _ = (if cy c = 0 then _ else _); rw [if_pos hcy]; exact congrArg (k0_pay29 (botOf (own m ρ c 1))) (Memref.readAt_unit_zero (Elt F) cc0_scratch9 hz2 _ _)
    · show k0_pay31 (botOf (own m ρ c 2)) _ = (if cy c = 0 then _ else _); rw [if_pos hcy]; exact congrArg (k0_pay31 (botOf (own m ρ c 2))) (Memref.readAt_unit_zero (Elt F) cc0_scratch10 hz2 _ _)
    · show k0_pay33 (botOf (own m ρ c 3)) _ = (if cy c = 0 then _ else _); rw [if_pos hcy]; exact congrArg (k0_pay33 (botOf (own m ρ c 3))) (Memref.readAt_unit_zero (Elt F) cc0_scratch11 hz2 _ _)

end Cert.Kernel.Hand

end
-- ==== Proof.K.Body1.lean ====
/-
  The same body at a device whose second mesh coordinate is 1: the first-hop landings are added to the BOTTOM quarter,
  the second-hop landings to the TOP quarter; everything else is as in the other case.
-/
import proofs.«901047_g7700000000001048_dist_rsdw_v7x_xyz2x2x4_x_m1024_d1024_f4096_f32_1_alg».proof.Proof.K.BodyPre

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_canon] dev1_eq dev2_eq dev3_eq dev4_eq dev5_eq dev6_eq dev7_eq dev8_eq dev9_eq dev10_eq
  slice_xs0 slice_xs1 slice_xs2 slice_xs3 slice_xr0 slice_xr1 slice_xr2 slice_xr3 slice_ys0 slice_ys1 slice_ys2 slice_ys3 slice_yr0 slice_yr1 slice_yr2 slice_yr3
attribute [local sl_rounds] duties_bar duties_dma amount_bar amount_dma expect_bar expect_dma payX_own payY_own
  pay_xs0 pay_xs1 pay_xs2 pay_xs3 pay_xr0 pay_xr1 pay_xr2 pay_xr3 pay_ys0 pay_ys1 pay_ys2 pay_ys3 pay_yr0 pay_yr1 pay_yr2 pay_yr3
attribute [local sl_rounds high] payX_peer payY_peer pay_xr0_peer pay_yr0_peer pay_xr1_peer pay_yr1_peer pay_xr2_peer pay_yr2_peer pay_xr3_peer pay_yr3_peer
attribute [local irreducible] xp yp

set_option maxHeartbeats 4000000 in
/-- The body stepped once from `bodyPre` to `bodyPost`, for a device whose second mesh coordinate is 1. -/
theorem body_cy1
    (hWr : ∀ (A0 A1 A2 A3 : Vec F S512x1024 .f32) (PX0 PX1 PX2 PX3 PY0 PY1 PY2 PY3 : Vec F S256x1024 .f32 → Vec F S256x1024 .f32)
      (g : (cc0_stg2_0 : Ref sig .tc).ty.Contents (Elt F)),
      oM.view.writes (Elt F) g (LB12 A0 A1 A2 A3 PX0 PX1 PX2 PX3 PY0 PY1 PY2 PY3)
        = assemble (fun k => match k with | 0 => PY0 (topOf A0) | 1 => PY1 (topOf A1) | 2 => PY2 (topOf A2) | 3 => PY3 (topOf A3))
            (fun k => match k with | 0 => PX0 (botOf A0) | 1 => PX1 (botOf A1) | 2 => PX2 (botOf A2) | 3 => PX3 (botOf A3)))
    (K : Dev nD × Fin 17 → ℕ) (c : Dev nD) (hcy : cy c = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  unfold bodyPre ghost invs poss reacheds payToks creds scr pts
  iintro ⟨⟨⟨⟨⟨#HIb, ⟨#HIxs0, #HIxs1, #HIxs2, #HIxs3⟩, ⟨#HIxr0, #HIxr1, #HIxr2, #HIxr3⟩, ⟨#HIys0, #HIys1, #HIys2, #HIys3⟩, ⟨#HIyr0, #HIyr1, #HIyr2, #HIyr3⟩, #HIbX, #HIbY, ⟨#HIxrP0, #HIxrP1, #HIxrP2, #HIxrP3⟩, ⟨#HIyrP0, #HIyrP1, #HIyrP2, #HIyrP3⟩⟩,
      ⟨HaB, ⟨HaXs0, HaXs1, HaXs2, HaXs3⟩, ⟨HaXr0, HaXr1, HaXr2, HaXr3⟩, ⟨HaYs0, HaYs1, HaYs2, HaYs3⟩, ⟨HaYr0, HaYr1, HaYr2, HaYr3⟩⟩,
      ⟨#HrBX, #HrBY, ⟨#HrXs0, #HrXs1, #HrXs2, #HrXs3⟩, ⟨#HrYs0, #HrYs1, #HrYs2, #HrYs3⟩, ⟨#HrXrP0, #HrXrP1, #HrXrP2, #HrXrP3⟩, ⟨#HrYrP0, #HrYrP1, #HrYrP2, #HrYrP3⟩⟩,
      ⟨HtBX, HtBY, HtXs, HtYs, ⟨HtXrP0, HtXrP1, HtXrP2, HtXrP3⟩, ⟨HtYrP0, HtYrP1, HtYrP2, HtYrP3⟩⟩⟩,
     ⟨HcB, ⟨HcXr0, HcXr1, HcXr2, HcXr3⟩, ⟨HcYr0, HcYr1, HcYr2, HcYr3⟩⟩, #Hlev,
     ⟨⟨%fs0, Hsx0⟩, ⟨%fs1, Hsx1⟩, ⟨%fs2, Hsx2⟩, ⟨%fs3, Hsx3⟩, ⟨%fx0, Hxq0⟩, ⟨%fx1, Hxq1⟩, ⟨%fx2, Hxq2⟩, ⟨%fx3, Hxq3⟩, ⟨%fy0, Hyq0⟩, ⟨%fy1, Hyq1⟩, ⟨%fy2, Hyq2⟩, ⟨%fy3, Hyq3⟩⟩⟩,
    Ho, ⟨%d0, %g0, %hg0, Hx⟩, ⟨%d1, %g1, %hg1, Hdy⟩, ⟨%d2, %g2, %hg2, Hout⟩⟩, Hk⟩
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (hx_eq c _)) $$ Hx
  ihave Hdy := (Entails.of_eq (hdy_eq c _)) $$ Hdy
  ihave Hout := (Entails.of_eq (ho_eq c _)) $$ Hout
  unfold Dat.owesAt Pipeline.owesWithin
  icases Ho with ⟨%W, %hW, HO⟩
  rw [show (dats m ρ 0 c).owed t₀.castSucc = O₀ c from rfl]
  unfold O₀ O₁ OX0 OX1 OX2 OX3 OY0 OY1 OY2 OY3
  have hmB : (levAts L lv : sProp 𝕄) ⊢ MayWait (c : Thread nD τ) (.reg barS) () (tY c 3 + tY c 2 + tY c 1 + tY c 0 + tX c 3 + tX c 2 + tX c 1 + tX c 0) := mayWait_bar c
  have hm0 : (levAts L lv : sProp 𝕄) ⊢ MayWait (c : Thread nD τ) (.dma (7 : DmaSem sig)) () (tY c 3 + tY c 2 + tY c 1 + tY c 0) := mayWait_xr0 c
  have hm1 : (levAts L lv : sProp 𝕄) ⊢ MayWait (c : Thread nD τ) (.dma (8 : DmaSem sig)) () (tY c 3 + tY c 2 + tY c 1) := mayWait_xr1 c
  have hm2 : (levAts L lv : sProp 𝕄) ⊢ MayWait (c : Thread nD τ) (.dma (9 : DmaSem sig)) () (tY c 3 + tY c 2) := mayWait_xr2 c
  have hm3 : (levAts L lv : sProp 𝕄) ⊢ MayWait (c : Thread nD τ) (.dma (10 : DmaSem sig)) () (tY c 3) := mayWait_xr3 c
  have hc0 : ¬ Scalar.cmpi .ne (Scalar.extui (Scalar.cmpi .eq (cyW c) 0#32)) 0#32 = 1#1 := ((cond_facts c).2 hcy).1
  have hc1 : Scalar.cmpi .ne (Scalar.extui (Scalar.cmpi .eq (cyW c) 1#32)) 0#32 = 1#1 := ((cond_facts c).2 hcy).2
  sl_unfold [cc0_body]
  -- the two barrier signals, the first product stored, the barrier wait
  sl_exec (disch := simp only [dev1_eq, dev2_eq, dev3_eq, dev4_eq, dev5_eq, dev6_eq, dev7_eq, dev8_eq, dev9_eq, dev10_eq])
  -- what the two peers' signals handed over: their landing buffers
  ihave Hp := (Entails.of_eq (bar_pay_eq m ρ c)) $$ HaB_pay1
  unfold barPayX barPayY pts
  icases Hp with ⟨⟨⟨%px0, Hpx0⟩, ⟨%px1, Hpx1⟩, ⟨%px2, Hpx2⟩, ⟨%px3, Hpx3⟩⟩, ⟨%py0, Hpy0⟩, ⟨%py1, Hpy1⟩, ⟨%py2, Hpy2⟩, ⟨%py3, Hpy3⟩⟩
  ihave Hsx0 := (Entails.of_eq (sx0_restate m ρ c fs0 (k0_pay3 (body_cy1.sl.r m ρ c) (body_cy1.sl.r_1 m ρ c)) rfl)) $$ Hsx0
  icases HtXs with ⟨HtXs0, HtXs⟩
  sl_exec (disch := simp only [dev1_eq, dev2_eq, dev3_eq, dev4_eq, dev5_eq, dev6_eq, dev7_eq, dev8_eq, dev9_eq, dev10_eq])
  ihave Hsx1 := (Entails.of_eq (sx1_restate m ρ c fs1)) $$ Hsx1
  icases HtXs with ⟨HtXs1, HtXs⟩
  sl_exec (disch := simp only [dev1_eq, dev2_eq, dev3_eq, dev4_eq, dev5_eq, dev6_eq, dev7_eq, dev8_eq, dev9_eq, dev10_eq])
  ihave Hsx2 := (Entails.of_eq (sx2_restate m ρ c fs2)) $$ Hsx2
  icases HtXs with ⟨HtXs2, HtXs3⟩
  set_option sl_exec.maxSteps 8 in sl_exec (disch := simp only [dev1_eq, dev2_eq, dev3_eq, dev4_eq, dev5_eq, dev6_eq, dev7_eq, dev8_eq, dev9_eq, dev10_eq])
  ihave Hsx3 := (Entails.of_eq (sx3_restate m ρ c fs3)) $$ Hsx3
  sl_exec (disch := simp only [dev1_eq, dev2_eq, dev3_eq, dev4_eq, dev5_eq, dev6_eq, dev7_eq, dev8_eq, dev9_eq, dev10_eq])
  -- chunk by chunk: the landing's share split (the transfer holds one half, the body reads the other), forwarded, added
  ihave Hh := (pointsTo_share (PosShare.mem_left_op_right fullShare)).1 $$ HaXr0_pay1
  icases Hh with ⟨HxqL0, HxqR0⟩
  icases HtYs with ⟨HtYs0, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr1_pay1
  icases Hh with ⟨HxqL1, HxqR1⟩
  icases HtYs with ⟨HtYs1, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr2_pay1
  icases Hh with ⟨HxqL2, HxqR2⟩
  icases HtYs with ⟨HtYs2, HtYs⟩
  sl_exec (disch := simp only [dev1_eq, dev2_eq, dev3_eq, dev4_eq, dev5_eq, dev6_eq, dev7_eq, dev8_eq, dev9_eq, dev10_eq])
  ihave Hh := (pointsTo_share (PosShare.mem_left_op_right fullShare)).1 $$ HaXr3_pay1
  icases Hh with ⟨HxqL3, HxqR3⟩
  sl_exec (disch := simp only [dev1_eq, dev2_eq, dev3_eq, dev4_eq, dev5_eq, dev6_eq, dev7_eq, dev8_eq, dev9_eq, dev10_eq])
  -- the sixteen own cells close: their counters at zero are the core's again
  imod (Rounds.cell_close ER (sched m ρ) (Set.mem_univ (K (c, 1))) (fun h => h) (R := 0 + 1) (duties_later m ρ (xsCell c 0))) $$ [HaXs0] with HzXs0
  · isplitr; · iexact HIxs0
    iexact HaXs0
  imod (Rounds.cell_close ER (sched m ρ) (Set.mem_univ (K (c, 2))) (fun h => h) (R := 0 + 1) (duties_later m ρ (xsCell c 1))) $$ [HaXs1] with HzXs1
  · isplitr; · iexact HIxs1
    iexact HaXs1
  imod (Rounds.cell_close ER (sched m ρ) (Set.mem_univ (K (c, 3))) (fun h => h) (R := 0 + 1) (duties_later m ρ (xsCell c 2))) $$ [HaXs2] with HzXs2
  · isplitr; · iexact HIxs2
    iexact HaXs2
  imod (Rounds.cell_close ER (sched m ρ) (Set.mem_univ (K (c, 4))) (fun h => h) (R := 0 + 1) (duties_later m ρ (xsCell c 3))) $$ [HaXs3] with HzXs3
  · isplitr; · iexact HIxs3
    iexact HaXs3
  imod (Rounds.cell_close ER (sched m ρ) (Set.mem_univ (K (c, 5))) (fun h => h) (R := 0 + 1) (duties_later m ρ (xrCell c 0))) $$ [HaXr0] with HzXr0
  · isplitr; · iexact HIxr0
    iexact HaXr0
  imod (Rounds.cell_close ER (sched m ρ) (Set.mem_univ (K (c, 6))) (fun h => h) (R := 0 + 1) (duties_later m ρ (xrCell c 1))) $$ [HaXr1] with HzXr1
  · isplitr; · iexact HIxr1
    iexact HaXr1
  imod (Rounds.cell_close ER (sched m ρ) (Set.mem_univ (K (c, 7))) (fun h => h) (R := 0 + 1) (duties_later m ρ (xrCell c 2))) $$ [HaXr2] with HzXr2
  · isplitr; · iexact HIxr2
    iexact HaXr2
  imod (Rounds.cell_close ER (sched m ρ) (Set.mem_univ (K (c, 8))) (fun h => h) (R := 0 + 1) (duties_later m ρ (xrCell c 3))) $$ [HaXr3] with HzXr3
  · isplitr; · iexact HIxr3
    iexact HaXr3
  imod (Rounds.cell_close ER (sched m ρ) (Set.mem_univ (K (c, 9))) (fun h => h) (R := 0 + 1) (duties_later m ρ (ysCell c 0))) $$ [HaYs0] with HzYs0
  · isplitr; · iexact HIys0
    iexact HaYs0
  imod (Rounds.cell_close ER (sched m ρ) (Set.mem_univ (K (c, 10))) (fun h => h) (R := 0 + 1) (duties_later m ρ (ysCell c 1))) $$ [HaYs1] with HzYs1
  · isplitr; · iexact HIys1
    iexact HaYs1
  imod (Rounds.cell_close ER (sched m ρ) (Set.mem_univ (K (c, 11))) (fun h => h) (R := 0 + 1) (duties_later m ρ (ysCell c 2))) $$ [HaYs2] with HzYs2
  · isplitr; · iexact HIys2
    iexact HaYs2
  imod (Rounds.cell_close ER (sched m ρ) (Set.mem_univ (K (c, 12))) (fun h => h) (R := 0 + 1) (duties_later m ρ (ysCell c 3))) $$ [HaYs3] with HzYs3
  · isplitr; · iexact HIys3
    iexact HaYs3
  imod (Rounds.cell_close ER (sched m ρ) (Set.mem_univ (K (c, 13))) (fun h => h) (R := 0 + 1) (duties_later m ρ (yrCell c 0))) $$ [HaYr0] with HzYr0
  · isplitr; · iexact HIyr0
    iexact HaYr0
  imod (Rounds.cell_close ER (sched m ρ) (Set.mem_univ (K (c, 14))) (fun h => h) (R := 0 + 1) (duties_later m ρ (yrCell c 1))) $$ [HaYr1] with HzYr1
  · isplitr; · iexact HIyr1
    iexact HaYr1
  imod (Rounds.cell_close ER (sched m ρ) (Set.mem_univ (K (c, 15))) (fun h => h) (R := 0 + 1) (duties_later m ρ (yrCell c 2))) $$ [HaYr2] with HzYr2
  · isplitr; · iexact HIyr2
    iexact HaYr2
  imod (Rounds.cell_close ER (sched m ρ) (Set.mem_univ (K (c, 16))) (fun h => h) (R := 0 + 1) (duties_later m ρ (yrCell c 3))) $$ [HaYr3] with HzYr3
  · isplitr; · iexact HIyr3
    iexact HaYr3
  -- the two halves of each first-hop landing buffer joined again
  ihave Hxq0 := (pointsTo_share (PosShare.mem_left_op_right fullShare)).2 $$ [HaYs0_pay1 HxqR0]
  · isplitl [HaYs0_pay1] <;> iassumption
  ihave Hxq1 := (pointsTo_share (PosShare.mem_left_op_right fullShare)).2 $$ [HaYs1_pay1 HxqR1]
  · isplitl [HaYs1_pay1] <;> iassumption
  ihave Hxq2 := (pointsTo_share (PosShare.mem_left_op_right fullShare)).2 $$ [HaYs2_pay1 HxqR2]
  · isplitl [HaYs2_pay1] <;> iassumption
  ihave Hxq3 := (pointsTo_share (PosShare.mem_left_op_right fullShare)).2 $$ [HaYs3_pay1 HxqR3]
  · isplitl [HaYs3_pay1] <;> iassumption
  sl_step
  iapply Hk
  unfold bodyPost Φ₁ scr semsZero pts Dat.owesAt Pipeline.owesWithin
  rw [show (dats m ρ 0 c).owed t₀.succ = 0 from rfl]
  ihave Hx := (Entails.of_eq (hx_eq c _).symm) $$ Hx
  ihave Hdy := (Entails.of_eq (hdy_eq c _).symm) $$ Hdy
  ihave Hout := (Entails.of_eq (ho_eq c _).symm) $$ Hout
  isplitl [HaXs0_pay1 HaXs1_pay1 HaXs2_pay1 HaXs3_pay1 Hxq0 Hxq1 Hxq2 Hxq3 HaYr0_pay1 HaYr1_pay1 HaYr2_pay1 HaYr3_pay1 HzXs0 HzXs1 HzXs2 HzXs3 HzXr0 HzXr1 HzXr2 HzXr3 HzYs0 HzYs1 HzYs2 HzYs3 HzYr0 HzYr1 HzYr2 HzYr3]
  · isplitl [HaXs0_pay1 HaXs1_pay1 HaXs2_pay1 HaXs3_pay1 Hxq0 Hxq1 Hxq2 Hxq3 HaYr0_pay1 HaYr1_pay1 HaYr2_pay1 HaYr3_pay1]
    · -- the twelve scratch buffers, at whatever they hold now
      isplitl [HaXs0_pay1]; · iexists _; iexact HaXs0_pay1
      isplitl [HaXs1_pay1]; · iexists _; iexact HaXs1_pay1
      isplitl [HaXs2_pay1]; · iexists _; iexact HaXs2_pay1
      isplitl [HaXs3_pay1]; · iexists _; iexact HaXs3_pay1
      isplitl [Hxq0]; · iexists _; iexact Hxq0
      isplitl [Hxq1]; · iexists _; iexact Hxq1
      isplitl [Hxq2]; · iexists _; iexact Hxq2
      isplitl [Hxq3]; · iexists _; iexact Hxq3
      isplitl [HaYr0_pay1]; · iexists _; iexact HaYr0_pay1
      isplitl [HaYr1_pay1]; · iexists _; iexact HaYr1_pay1
      isplitl [HaYr2_pay1]; · iexists _; iexact HaYr2_pay1
      iexists _; iexact HaYr3_pay1
    · -- the sixteen own cells, closed at zero
      isplitl [HzXs0 HzXs1 HzXs2 HzXs3]
      ·
        isplitl [HzXs0]; · iexact HzXs0
        isplitl [HzXs1]; · iexact HzXs1
        isplitl [HzXs2]; · iexact HzXs2
        iexact HzXs3
      isplitl [HzXr0 HzXr1 HzXr2 HzXr3]
      ·
        isplitl [HzXr0]; · iexact HzXr0
        isplitl [HzXr1]; · iexact HzXr1
        isplitl [HzXr2]; · iexact HzXr2
        iexact HzXr3
      isplitl [HzYs0 HzYs1 HzYs2 HzYs3]
      ·
        isplitl [HzYs0]; · iexact HzYs0
        isplitl [HzYs1]; · iexact HzYs1
        isplitl [HzYs2]; · iexact HzYs2
        iexact HzYs3
      isplitl [HzYr0]; · iexact HzYr0
      isplitl [HzYr1]; · iexact HzYr1
      isplitl [HzYr2]; · iexact HzYr2
      iexact HzYr3
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _
  isplitr
  on_goal 2 => iexact Hout
  ipureintro
  refine (show _ = oM.view.writes (Elt F) g2 (LB12 (own m ρ c 0) (own m ρ c 1) (own m ρ c 2) (own m ρ c 3)
      (fun t => k0_pay11 t (View.readAt (Elt F) (Memref.whole cc0_scratch4 : Memref sig .tc .vmem S256x1024 .bf16).view (Rect.unit (s := S256x1024) ![0, 0] S256x1024.size inb_S256x1024_S256x1024_0_0).toLoadRect (xqv m ρ c 0)))
      (fun t => k0_pay16 t (View.readAt (Elt F) (Memref.whole cc0_scratch5 : Memref sig .tc .vmem S256x1024 .bf16).view (Rect.unit (s := S256x1024) ![0, 0] S256x1024.size inb_S256x1024_S256x1024_0_0).toLoadRect (xqv m ρ c 1)))
      (fun t => k0_pay21 t (View.readAt (Elt F) (Memref.whole cc0_scratch6 : Memref sig .tc .vmem S256x1024 .bf16).view (Rect.unit (s := S256x1024) ![0, 0] S256x1024.size inb_S256x1024_S256x1024_0_0).toLoadRect (xqv m ρ c 2)))
      (fun t => k0_pay26 t (View.readAt (Elt F) (Memref.whole cc0_scratch7 : Memref sig .tc .vmem S256x1024 .bf16).view (Rect.unit (s := S256x1024) ![0, 0] S256x1024.size inb_S256x1024_S256x1024_0_0).toLoadRect (xqv m ρ c 3)))
      (fun t => k0_pay28 t (View.readAt (Elt F) (Memref.whole cc0_scratch8 : Memref sig .tc .vmem S256x1024 .bf16).view (Rect.unit (s := S256x1024) ![0, 0] S256x1024.size inb_S256x1024_S256x1024_0_0).toLoadRect (yqv m ρ c 0)))
      (fun t => k0_pay30 t (View.readAt (Elt F) (Memref.whole cc0_scratch9 : Memref sig .tc .vmem S256x1024 .bf16).view (Rect.unit (s := S256x1024) ![0, 0] S256x1024.size inb_S256x1024_S256x1024_0_0).toLoadRect (yqv m ρ c 1)))
      (fun t => k0_pay32 t (View.readAt (Elt F) (Memref.whole cc0_scratch10 : Memref sig .tc .vmem S256x1024 .bf16).view (Rect.unit (s := S256x1024) ![0, 0] S256x1024.size inb_S256x1024_S256x1024_0_0).toLoadRect (yqv m ρ c 2)))
      (fun t => k0_pay34 t (View.readAt (Elt F) (Memref.whole cc0_scratch11 : Memref sig .tc .vmem S256x1024 .bf16).view (Rect.unit (s := S256x1024) ![0, 0] S256x1024.size inb_S256x1024_S256x1024_0_0).toLoadRect (yqv m ρ c 3)))) from rfl).trans ?_
  rw [hWr, outAt_eq_assemble]
  congr 1
  · funext k
    fin_cases k
    · show k0_pay28 (topOf (own m ρ c 0)) _ = (if cy c = 0 then _ else _); rw [if_neg (by rw [hcy]; decide)]; exact congrArg (k0_pay28 (topOf (own m ρ c 0))) (Memref.readAt_unit_zero (Elt F) cc0_scratch8 hz2 _ _)
    · show k0_pay30 (topOf (own m ρ c 1)) _ = (if cy c = 0 then _ else _); rw [if_neg (by rw [hcy]; decide)]; exact congrArg (k0_pay30 (topOf (own m ρ c 1))) (Memref.readAt_unit_zero (Elt F) cc0_scratch9 hz2 _ _)
    · show k0_pay32 (topOf (own m ρ c 2)) _ = (if cy c = 0 then _ else _); rw [if_neg (by rw [hcy]; decide)]; exact congrArg (k0_pay32 (topOf (own m ρ c 2))) (Memref.readAt_unit_zero (Elt F) cc0_scratch10 hz2 _ _)
    · show k0_pay34 (topOf (own m ρ c 3)) _ = (if cy c = 0 then _ else _); rw [if_neg (by rw [hcy]; decide)]; exact congrArg (k0_pay34 (topOf (own m ρ c 3))) (Memref.readAt_unit_zero (Elt F) cc0_scratch11 hz2 _ _)
  · funext k
    fin_cases k
    · show k0_pay11 (botOf (own m ρ c 0)) _ = (if cy c = 0 then _ else _); rw [if_neg (by rw [hcy]; decide)]; exact congrArg (k0_pay11 (botOf (own m ρ c 0))) (Memref.readAt_unit_zero (Elt F) cc0_scratch4 hz2 _ _)
    · show k0_pay16 (botOf (own m ρ c 1)) _ = (if cy c = 0 then _ else _); rw [if_neg (by rw [hcy]; decide)]; exact congrArg (k0_pay16 (botOf (own m ρ c 1))) (Memref.readAt_unit_zero (Elt F) cc0_scratch5 hz2 _ _)
    · show k0_pay21 (botOf (own m ρ c 2)) _ = (if cy c = 0 then _ else _); rw [if_neg (by rw [hcy]; decide)]; exact congrArg (k0_pay21 (botOf (own m ρ c 2))) (Memref.readAt_unit_zero (Elt F) cc0_scratch6 hz2 _ _)
    · show k0_pay26 (botOf (own m ρ c 3)) _ = (if cy c = 0 then _ else _); rw [if_neg (by rw [hcy]; decide)]; exact congrArg (k0_pay26 (botOf (own m ρ c 3))) (Memref.readAt_unit_zero (Elt F) cc0_scratch7 hz2 _ _)

end Cert.Kernel.Hand

end
-- ==== Proof.K.OutWrites.lean ====
/-
  What a run of twelve stores leaves in the 512 × 4096 result buffer, whatever it held before: a half read back after
  its chunk's whole store is that half of the chunk, and the twelve stores cover every entry.
-/
import proofs.«901047_g7700000000001048_dist_rsdw_v7x_xyz2x2x4_x_m1024_d1024_f4096_f32_1_alg».proof.Proof.K.OutDefs

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One index read after a list of stores through unit-stride rectangles -/

section ReadWrites
variable {sig' : RefSig} {κ' : Kind} {sp' : Space} {S : Shape} {e' : EltTy} {Val : EltTy → Type}
  (v : View sig' κ' sp' S e') (f : v.ty.Contents Val)

/-- A store whose box misses the index on one axis is not seen there. -/
theorem read_writes_unit_skip {off size : Fin S.rank → Nat} {inb : ∀ a, off a + size a ≤ S.size a}
    (w : (Rect.unit off size inb).shape.Idx → Val e') (L : List (View.Piece Val S e')) (y : S.Idx) (a : Fin S.rank)
    (h : (y a).val < off a ∨ off a + size a ≤ (y a).val) :
    v.read Val (v.writes Val f (⟨Rect.unit off size inb, w⟩ :: L)) y = v.read Val (v.writes Val f L) y := by
  have hy : y ∉ (Finset.univ : Finset (Rect.unit off size inb).shape.Idx).map (Rect.unit off size inb).emb := by
    rw [Rect.map_emb_univ]
    intro hm
    have h2 := (Rect.mem_set_unit.mp hm) a
    omega
  rw [View.writes_cons]
  exact View.read_slice_write_of_not_mem (Rect.unit off size inb) _ w _ hy

/-- A store whose box holds the index is read at the index's place in the box. -/
theorem read_writes_unit_hit {off size : Fin S.rank → Nat} {inb : ∀ a, off a + size a ≤ S.size a}
    (w : (Rect.unit off size inb).shape.Idx → Val e') (L : List (View.Piece Val S e')) (y : S.Idx)
    (x : (Rect.unit off size inb).shape.Idx) (h : ∀ a, (y a).val = off a + (x a).val) :
    v.read Val (v.writes Val f (⟨Rect.unit off size inb, w⟩ :: L)) y = w x := by
  have hy : y = (Rect.unit off size inb).emb x := funext fun a => Fin.ext (by
    rw [Rect.emb_apply, h a]
    show off a + (x a).val = off a + 1 * (x a).val
    rw [Nat.one_mul])
  rw [hy]
  exact View.read_writes_cons_emb v f _ w L x

end ReadWrites

section ReadWrites2
variable {sig' : RefSig} {κ' : Kind} {sp' : Space} {S : Shape} {e' : EltTy} {Val : EltTy → Type}
  (v : View sig' κ' sp' S e') (f : v.ty.Contents Val)

/-- The same with the box's span on the axis named by two numbers. -/
theorem read_writes_unit_skip' {off size : Fin S.rank → Nat} {inb : ∀ a, off a + size a ≤ S.size a}
    (w : (Rect.unit off size inb).shape.Idx → Val e') (L : List (View.Piece Val S e')) (y : S.Idx) (a : Fin S.rank)
    (o n : Nat) (ho : off a = o) (hn : size a = n) (h : (y a).val < o ∨ o + n ≤ (y a).val) :
    v.read Val (v.writes Val f (⟨Rect.unit off size inb, w⟩ :: L)) y = v.read Val (v.writes Val f L) y := by
  subst ho hn
  exact read_writes_unit_skip v f w L y a h

end ReadWrites2

/-! ## The result buffer: stores through a top half, a bottom half and a whole chunk, read at one entry -/

section Buf
variable (f : (cc0_stg2_0 : Ref sig .tc).ty.Contents (Elt F)) (L : List (View.Piece (Elt F) S512x4096 .f32)) (y : S512x4096.Idx)

theorem skipT (c : Nat) (inb : ∀ a, (![0, c] : Fin 2 → Nat) a + S256x1024.size a ≤ S512x4096.size a) (w : Vec F S256x1024 .f32)
    (h : 256 ≤ (y 0).val ∨ (y 1).val < c ∨ c + 1024 ≤ (y 1).val) :
    oM.view.read (Elt F) (oM.view.writes (Elt F) f (⟨Rect.unit (s := S512x4096) ![0, c] S256x1024.size inb, w⟩ :: L)) y
      = oM.view.read (Elt F) (oM.view.writes (Elt F) f L) y := by
  rcases h with h | h
  · exact read_writes_unit_skip' oM.view f w L y 0 0 256 rfl rfl (by omega)
  · exact read_writes_unit_skip' oM.view f w L y 1 c 1024 rfl rfl (by omega)

theorem skipB (c : Nat) (inb : ∀ a, (![256, c] : Fin 2 → Nat) a + S256x1024.size a ≤ S512x4096.size a) (w : Vec F S256x1024 .f32)
    (h : (y 0).val < 256 ∨ (y 1).val < c ∨ c + 1024 ≤ (y 1).val) :
    oM.view.read (Elt F) (oM.view.writes (Elt F) f (⟨Rect.unit (s := S512x4096) ![256, c] S256x1024.size inb, w⟩ :: L)) y
      = oM.view.read (Elt F) (oM.view.writes (Elt F) f L) y := by
  rcases h with h | h
  · exact read_writes_unit_skip' oM.view f w L y 0 256 256 rfl rfl (by omega)
  · exact read_writes_unit_skip' oM.view f w L y 1 c 1024 rfl rfl (by omega)

theorem skipF (c : Nat) (inb : ∀ a, (![0, c] : Fin 2 → Nat) a + S512x1024.size a ≤ S512x4096.size a) (w : Vec F S512x1024 .f32)
    (h : (y 1).val < c ∨ c + 1024 ≤ (y 1).val) :
    oM.view.read (Elt F) (oM.view.writes (Elt F) f (⟨Rect.unit (s := S512x4096) ![0, c] S512x1024.size inb, w⟩ :: L)) y
      = oM.view.read (Elt F) (oM.view.writes (Elt F) f L) y :=
  read_writes_unit_skip' oM.view f w L y 1 c 1024 rfl rfl h

theorem hitT (c : Nat) (inb : ∀ a, (![0, c] : Fin 2 → Nat) a + S256x1024.size a ≤ S512x4096.size a) (w : Vec F S256x1024 .f32)
    (h0 : (y 0).val < 256) (h1 : c ≤ (y 1).val) (h2 : (y 1).val < c + 1024) :
    oM.view.read (Elt F) (oM.view.writes (Elt F) f (⟨Rect.unit (s := S512x4096) ![0, c] S256x1024.size inb, w⟩ :: L)) y
      = w (ValueIdx.ix2 (⟨(y 0).val, h0⟩ : Fin 256) (⟨(y 1).val - c, by omega⟩ : Fin 1024)) :=
  read_writes_unit_hit oM.view f w L y (ValueIdx.ix2 (⟨(y 0).val, h0⟩ : Fin 256) (⟨(y 1).val - c, by omega⟩ : Fin 1024))
    (Fin.forall_fin_two.mpr ⟨by show (y 0).val = 0 + (y 0).val; omega, by show (y 1).val = c + ((y 1).val - c); omega⟩)

theorem hitB (c : Nat) (inb : ∀ a, (![256, c] : Fin 2 → Nat) a + S256x1024.size a ≤ S512x4096.size a) (w : Vec F S256x1024 .f32)
    (h0 : 256 ≤ (y 0).val) (h1 : c ≤ (y 1).val) (h2 : (y 1).val < c + 1024) :
    oM.view.read (Elt F) (oM.view.writes (Elt F) f (⟨Rect.unit (s := S512x4096) ![256, c] S256x1024.size inb, w⟩ :: L)) y
      = w (ValueIdx.ix2 (⟨(y 0).val - 256, by have h' : (y 0).val < 512 := (y 0).isLt; omega⟩ : Fin 256) (⟨(y 1).val - c, by omega⟩ : Fin 1024)) :=
  read_writes_unit_hit oM.view f w L y (ValueIdx.ix2 (⟨(y 0).val - 256, by have h' : (y 0).val < 512 := (y 0).isLt; omega⟩ : Fin 256) (⟨(y 1).val - c, by omega⟩ : Fin 1024))
    (Fin.forall_fin_two.mpr ⟨by show (y 0).val = 256 + ((y 0).val - 256); omega, by show (y 1).val = c + ((y 1).val - c); omega⟩)

theorem hitF (c : Nat) (inb : ∀ a, (![0, c] : Fin 2 → Nat) a + S512x1024.size a ≤ S512x4096.size a) (w : Vec F S512x1024 .f32)
    (h1 : c ≤ (y 1).val) (h2 : (y 1).val < c + 1024) :
    oM.view.read (Elt F) (oM.view.writes (Elt F) f (⟨Rect.unit (s := S512x4096) ![0, c] S512x1024.size inb, w⟩ :: L)) y
      = w (ValueIdx.ix2 (⟨(y 0).val, (y 0).isLt⟩ : Fin 512) (⟨(y 1).val - c, by omega⟩ : Fin 1024)) :=
  read_writes_unit_hit oM.view f w L y (ValueIdx.ix2 (⟨(y 0).val, (y 0).isLt⟩ : Fin 512) (⟨(y 1).val - c, by omega⟩ : Fin 1024))
    (Fin.forall_fin_two.mpr ⟨by show (y 0).val = 0 + (y 0).val; omega, by show (y 1).val = c + ((y 1).val - c); omega⟩)

end Buf

/-! ## Reading a half of a chunk back from the whole-chunk store -/

theorem ix2_congr {n0 n1 : Nat} {a a' : Fin n0} {b b' : Fin n1} (ha : a.val = a'.val) (hb : b.val = b'.val) :
    ValueIdx.ix2 a b = ValueIdx.ix2 a' b' := by
  obtain rfl := Fin.ext ha
  obtain rfl := Fin.ext hb
  rfl

section Half
variable (f : (cc0_stg2_0 : Ref sig .tc).ty.Contents (Elt F)) (L : List (View.Piece (Elt F) S512x4096 .f32)) (y : S512x4096.Idx)

/-- The entry at row `j 0`, column `c + j 1` under the whole-chunk store at column `c` is the top half's entry `j`. -/
theorem read_top_y (c : Nat) (inb : ∀ a, (![0, c] : Fin 2 → Nat) a + S512x1024.size a ≤ S512x4096.size a) (A : Vec F S512x1024 .f32)
    (j : S256x1024.Idx) (e0 : (y 0).val = (j 0).val) (e1 : (y 1).val = c + (j 1).val) :
    oM.view.read (Elt F) (oM.view.writes (Elt F) f (⟨Rect.unit (s := S512x4096) ![0, c] S512x1024.size inb, A⟩ :: L)) y = topOf A j := by
  have hj1 : (j 1).val < 1024 := (j 1).isLt
  rw [hitF f L y c inb A (by omega) (by omega)]
  exact congrArg A (ix2_congr e0 (show (y 1).val - c = (j 1).val by omega))

/-- The entry at row `256 + j 0`, column `c + j 1` under it is the bottom half's entry `j`. -/
theorem read_bot_y (c : Nat) (inb : ∀ a, (![0, c] : Fin 2 → Nat) a + S512x1024.size a ≤ S512x4096.size a) (A : Vec F S512x1024 .f32)
    (j : S256x1024.Idx) (e0 : (y 0).val = 256 + (j 0).val) (e1 : (y 1).val = c + (j 1).val) :
    oM.view.read (Elt F) (oM.view.writes (Elt F) f (⟨Rect.unit (s := S512x4096) ![0, c] S512x1024.size inb, A⟩ :: L)) y = botOf A j := by
  have hj1 : (j 1).val < 1024 := (j 1).isLt
  rw [hitF f L y c inb A (by omega) (by omega)]
  exact congrArg A (ix2_congr (show (y 0).val = (j 0).val + 256 by omega) (show (y 1).val - c = (j 1).val by omega))

end Half

/-- A covered load of the top half at column `c`, the whole-chunk store at column `c` being the last store. -/
theorem readCov_top_head (c : Nat) (inbF : ∀ a, (![0, c] : Fin 2 → Nat) a + S512x1024.size a ≤ S512x4096.size a)
    (inbT : ∀ a, (![0, c] : Fin 2 → Nat) a + S256x1024.size a ≤ S512x4096.size a)
    (A : Vec F S512x1024 .f32) (L : List (View.Piece (Elt F) S512x4096 .f32)) :
    oM.view.readCov (⟨Rect.unit (s := S512x4096) ![0, c] S512x1024.size inbF, A⟩ :: L)
        (Rect.unit (s := S512x4096) ![0, c] S256x1024.size inbT).toLoadRect = topOf A := by
  funext j
  rw [View.readCov, View.readAt_apply]
  exact read_top_y oM.view.junk L ((Rect.unit (s := S512x4096) ![0, c] S256x1024.size inbT).toLoadRect.idx j) c inbF A j
    (show 0 + 1 * (j 0).val = (j 0).val by omega) (show c + 1 * (j 1).val = c + (j 1).val by omega)

/-- The same of the bottom half. -/
theorem readCov_bot_head (c : Nat) (inbF : ∀ a, (![0, c] : Fin 2 → Nat) a + S512x1024.size a ≤ S512x4096.size a)
    (inbB : ∀ a, (![256, c] : Fin 2 → Nat) a + S256x1024.size a ≤ S512x4096.size a)
    (A : Vec F S512x1024 .f32) (L : List (View.Piece (Elt F) S512x4096 .f32)) :
    oM.view.readCov (⟨Rect.unit (s := S512x4096) ![0, c] S512x1024.size inbF, A⟩ :: L)
        (Rect.unit (s := S512x4096) ![256, c] S256x1024.size inbB).toLoadRect = botOf A := by
  funext j
  rw [View.readCov, View.readAt_apply]
  exact read_bot_y oM.view.junk L ((Rect.unit (s := S512x4096) ![256, c] S256x1024.size inbB).toLoadRect.idx j) c inbF A j
    (show 256 + 1 * (j 0).val = 256 + (j 0).val by omega) (show c + 1 * (j 1).val = c + (j 1).val by omega)

/-- A store through a unit rectangle separated on one axis from the load's rectangle is not read by the load. -/
theorem readCov_skip {off size off' size' : Fin 2 → Nat} {inb : ∀ a, off a + size a ≤ S512x4096.size a}
    {inb' : ∀ a, off' a + size' a ≤ S512x4096.size a}
    {w : (Rect.unit (s := S512x4096) off size inb).shape.Idx → Elt F .f32} {L : List (View.Piece (Elt F) S512x4096 .f32)} (a : Fin 2)
    (h : off a + size a ≤ off' a ∨ off' a + size' a ≤ off a) :
    oM.view.readCov (⟨Rect.unit (s := S512x4096) off size inb, w⟩ :: L) (Rect.unit (s := S512x4096) off' size' inb').toLoadRect
      = oM.view.readCov L (Rect.unit (s := S512x4096) off' size' inb').toLoadRect :=
  View.readCov_cons_of_disjoint oM.view _ L _ (Rect.unit_disjoint (inb := inb) (inb' := inb') a h)

/-! ## The assembled contents at one entry -/

theorem T_congr (T : Fin 4 → Vec F S256x1024 .f32) {k k' : Fin 4} {a a' : Fin 256} {b b' : Fin 1024}
    (hk : k.val = k'.val) (ha : a.val = a'.val) (hb : b.val = b'.val) :
    T k (ValueIdx.ix2 a b) = T k' (ValueIdx.ix2 a' b') := by
  obtain rfl := Fin.ext hk
  obtain rfl := Fin.ext ha
  obtain rfl := Fin.ext hb
  rfl

theorem assemble_top (T B : Fin 4 → Vec F S256x1024 .f32) (y : S512x4096.Idx) (k : Fin 4) (c : Nat) (hc : c = 1024 * k.val)
    (h0 : (y 0).val < 256) (h1 : c ≤ (y 1).val) (h2 : (y 1).val < c + 1024) :
    assemble T B y = T k (ValueIdx.ix2 (⟨(y 0).val, h0⟩ : Fin 256) (⟨(y 1).val - c, by omega⟩ : Fin 1024)) := by
  have hk : (y 1).val / 1024 = k.val := by omega
  have hj : (y 1).val % 1024 = (y 1).val - c := by omega
  unfold assemble
  simp only [dif_pos h0]
  exact T_congr T hk rfl hj

theorem assemble_bot (T B : Fin 4 → Vec F S256x1024 .f32) (y : S512x4096.Idx) (k : Fin 4) (c : Nat) (hc : c = 1024 * k.val)
    (h0 : 256 ≤ (y 0).val) (h1 : c ≤ (y 1).val) (h2 : (y 1).val < c + 1024) :
    assemble T B y = B k (ValueIdx.ix2 (⟨(y 0).val - 256, by have h' : (y 0).val < 512 := (y 0).isLt; omega⟩ : Fin 256)
      (⟨(y 1).val - c, by omega⟩ : Fin 1024)) := by
  have hk : (y 1).val / 1024 = k.val := by omega
  have hj : (y 1).val % 1024 = (y 1).val - c := by omega
  have hn : ¬ (y 0).val < 256 := by omega
  unfold assemble
  simp only [dif_neg hn]
  exact T_congr B hk rfl hj

/-- Contents of the whole buffer are equal when they read the same at every entry. -/
theorem eq_of_read (g G : (cc0_stg2_0 : Ref sig .tc).ty.Contents (Elt F)) (M : List (View.Piece (Elt F) S512x4096 .f32))
    (h : ∀ y : S512x4096.Idx, oM.view.read (Elt F) (oM.view.writes (Elt F) g M) y = G y) :
    oM.view.writes (Elt F) g M = G :=
  funext fun y => h y

section Lists
variable (A0 A1 A2 A3 : Vec F S512x1024 .f32)
  (PX0 PX1 PX2 PX3 PY0 PY1 PY2 PY3 : Vec F S256x1024 .f32 → Vec F S256x1024 .f32)

/-! ## The top-first run in closed form -/

/-- The first eight stores of the top-first run, the covered loads evaluated. -/
def CT8 : List (View.Piece (Elt F) S512x4096 .f32) :=
  [⟨rT3, PX3 (topOf A3)⟩, ⟨rF3, A3⟩, ⟨rT2, PX2 (topOf A2)⟩, ⟨rF2, A2⟩, ⟨rT1, PX1 (topOf A1)⟩, ⟨rF1, A1⟩, ⟨rT0, PX0 (topOf A0)⟩, ⟨rF0, A0⟩]

theorem LT8_eq : LT8 A0 A1 A2 A3 PX0 PX1 PX2 PX3 = CT8 A0 A1 A2 A3 PX0 PX1 PX2 PX3 := by
  rw [LT8, LT7, readCov_top_head, LT6, LT5, readCov_top_head, LT4, LT3, readCov_top_head, LT2, LT1, readCov_top_head, CT8]

theorem rcT8 : oM.view.readCov (LT8 A0 A1 A2 A3 PX0 PX1 PX2 PX3) rB0.toLoadRect = botOf A0 := by
  rw [LT8_eq, CT8, readCov_skip 0 ?_, readCov_skip 1 ?_, readCov_skip 0 ?_, readCov_skip 1 ?_, readCov_skip 0 ?_, readCov_skip 1 ?_,
    readCov_skip 0 ?_, readCov_bot_head]
  all_goals decide

theorem LT9_eq : LT9 A0 A1 A2 A3 PX0 PX1 PX2 PX3 PY0 = ⟨rB0, PY0 (botOf A0)⟩ :: CT8 A0 A1 A2 A3 PX0 PX1 PX2 PX3 := by
  rw [LT9, rcT8, LT8_eq]

theorem rcT9 : oM.view.readCov (LT9 A0 A1 A2 A3 PX0 PX1 PX2 PX3 PY0) rB1.toLoadRect = botOf A1 := by
  rw [LT9_eq, CT8, readCov_skip 1 ?_, readCov_skip 0 ?_, readCov_skip 1 ?_, readCov_skip 0 ?_, readCov_skip 1 ?_, readCov_skip 0 ?_,
    readCov_bot_head]
  all_goals decide

theorem LT10_eq : LT10 A0 A1 A2 A3 PX0 PX1 PX2 PX3 PY0 PY1
    = ⟨rB1, PY1 (botOf A1)⟩ :: ⟨rB0, PY0 (botOf A0)⟩ :: CT8 A0 A1 A2 A3 PX0 PX1 PX2 PX3 := by
  rw [LT10, rcT9, LT9_eq]

theorem rcT10 : oM.view.readCov (LT10 A0 A1 A2 A3 PX0 PX1 PX2 PX3 PY0 PY1) rB2.toLoadRect = botOf A2 := by
  rw [LT10_eq, CT8, readCov_skip 1 ?_, readCov_skip 1 ?_, readCov_skip 0 ?_, readCov_skip 1 ?_, readCov_skip 0 ?_, readCov_bot_head]
  all_goals decide

theorem LT11_eq : LT11 A0 A1 A2 A3 PX0 PX1 PX2 PX3 PY0 PY1 PY2
    = ⟨rB2, PY2 (botOf A2)⟩ :: ⟨rB1, PY1 (botOf A1)⟩ :: ⟨rB0, PY0 (botOf A0)⟩ :: CT8 A0 A1 A2 A3 PX0 PX1 PX2 PX3 := by
  rw [LT11, rcT10, LT10_eq]

theorem rcT11 : oM.view.readCov (LT11 A0 A1 A2 A3 PX0 PX1 PX2 PX3 PY0 PY1 PY2) rB3.toLoadRect = botOf A3 := by
  rw [LT11_eq, CT8, readCov_skip 1 ?_, readCov_skip 1 ?_, readCov_skip 1 ?_, readCov_skip 0 ?_, readCov_bot_head]
  all_goals decide

theorem LT12_eq : LT12 A0 A1 A2 A3 PX0 PX1 PX2 PX3 PY0 PY1 PY2 PY3
    = ⟨rB3, PY3 (botOf A3)⟩ :: ⟨rB2, PY2 (botOf A2)⟩ :: ⟨rB1, PY1 (botOf A1)⟩ :: ⟨rB0, PY0 (botOf A0)⟩
        :: CT8 A0 A1 A2 A3 PX0 PX1 PX2 PX3 := by
  rw [LT12, rcT11, LT11_eq]

/-- The run with the first landing on the top halves: whatever the buffer held (`g`), it ends with chunk `k` holding
    `PX k (top of A k)` over `PY k (bottom of A k)`. -/
theorem writes_top_first (g : (cc0_stg2_0 : Ref sig .tc).ty.Contents (Elt F)) :
    oM.view.writes (Elt F) g (LT12 A0 A1 A2 A3 PX0 PX1 PX2 PX3 PY0 PY1 PY2 PY3)
      = assemble (fun k => match k with | 0 => PX0 (topOf A0) | 1 => PX1 (topOf A1) | 2 => PX2 (topOf A2) | 3 => PX3 (topOf A3))
          (fun k => match k with | 0 => PY0 (botOf A0) | 1 => PY1 (botOf A1) | 2 => PY2 (botOf A2) | 3 => PY3 (botOf A3)) := by
  rw [LT12_eq, CT8]
  refine eq_of_read g _ _ fun y => ?_
  have hy1 : (y 1).val < 4096 := (y 1).isLt
  by_cases h0 : (y 0).val < 256
  · by_cases c3 : 3072 ≤ (y 1).val
    · rw [skipB g _ y 3072 _ _ (Or.inl h0), skipB g _ y 2048 _ _ (Or.inl h0), skipB g _ y 1024 _ _ (Or.inl h0),
        skipB g _ y 0 _ _ (Or.inl h0), hitT g _ y 3072 _ _ h0 c3 (by omega), assemble_top _ _ y 3 3072 (by decide) h0 c3 (by omega)] <;> rfl
    · by_cases c2 : 2048 ≤ (y 1).val
      · rw [skipB g _ y 3072 _ _ (Or.inl h0), skipB g _ y 2048 _ _ (Or.inl h0), skipB g _ y 1024 _ _ (Or.inl h0),
          skipB g _ y 0 _ _ (Or.inl h0), skipT g _ y 3072 _ _ (by omega), skipF g _ y 3072 _ _ (by omega),
          hitT g _ y 2048 _ _ h0 c2 (by omega), assemble_top _ _ y 2 2048 (by decide) h0 c2 (by omega)] <;> rfl
      · by_cases c1 : 1024 ≤ (y 1).val
        · rw [skipB g _ y 3072 _ _ (Or.inl h0), skipB g _ y 2048 _ _ (Or.inl h0), skipB g _ y 1024 _ _ (Or.inl h0),
            skipB g _ y 0 _ _ (Or.inl h0), skipT g _ y 3072 _ _ (by omega), skipF g _ y 3072 _ _ (by omega),
            skipT g _ y 2048 _ _ (by omega), skipF g _ y 2048 _ _ (by omega),
            hitT g _ y 1024 _ _ h0 c1 (by omega), assemble_top _ _ y 1 1024 (by decide) h0 c1 (by omega)] <;> rfl
        · rw [skipB g _ y 3072 _ _ (Or.inl h0), skipB g _ y 2048 _ _ (Or.inl h0), skipB g _ y 1024 _ _ (Or.inl h0),
            skipB g _ y 0 _ _ (Or.inl h0), skipT g _ y 3072 _ _ (by omega), skipF g _ y 3072 _ _ (by omega),
            skipT g _ y 2048 _ _ (by omega), skipF g _ y 2048 _ _ (by omega),
            skipT g _ y 1024 _ _ (by omega), skipF g _ y 1024 _ _ (by omega),
            hitT g _ y 0 _ _ h0 (by omega) (by omega), assemble_top _ _ y 0 0 (by decide) h0 (by omega) (by omega)] <;> rfl
  · have h0' : 256 ≤ (y 0).val := by omega
    by_cases c3 : 3072 ≤ (y 1).val
    · rw [hitB g _ y 3072 _ _ h0' c3 (by omega), assemble_bot _ _ y 3 3072 (by decide) h0' c3 (by omega)] <;> rfl
    · by_cases c2 : 2048 ≤ (y 1).val
      · rw [skipB g _ y 3072 _ _ (by omega), hitB g _ y 2048 _ _ h0' c2 (by omega),
          assemble_bot _ _ y 2 2048 (by decide) h0' c2 (by omega)] <;> rfl
      · by_cases c1 : 1024 ≤ (y 1).val
        · rw [skipB g _ y 3072 _ _ (by omega), skipB g _ y 2048 _ _ (by omega), hitB g _ y 1024 _ _ h0' c1 (by omega),
            assemble_bot _ _ y 1 1024 (by decide) h0' c1 (by omega)] <;> rfl
        · rw [skipB g _ y 3072 _ _ (by omega), skipB g _ y 2048 _ _ (by omega), skipB g _ y 1024 _ _ (by omega),
            hitB g _ y 0 _ _ h0' (by omega) (by omega), assemble_bot _ _ y 0 0 (by decide) h0' (by omega) (by omega)] <;> rfl

/-! ## The bottom-first run in closed form -/

/-- The first eight stores of the bottom-first run, the covered loads evaluated. -/
def CB8 : List (View.Piece (Elt F) S512x4096 .f32) :=
  [⟨rB3, PX3 (botOf A3)⟩, ⟨rF3, A3⟩, ⟨rB2, PX2 (botOf A2)⟩, ⟨rF2, A2⟩, ⟨rB1, PX1 (botOf A1)⟩, ⟨rF1, A1⟩, ⟨rB0, PX0 (botOf A0)⟩, ⟨rF0, A0⟩]

theorem LB8_eq : LB8 A0 A1 A2 A3 PX0 PX1 PX2 PX3 = CB8 A0 A1 A2 A3 PX0 PX1 PX2 PX3 := by
  rw [LB8, LB7, readCov_bot_head, LB6, LB5, readCov_bot_head, LB4, LB3, readCov_bot_head, LB2, LB1, readCov_bot_head, CB8]

theorem rcB8 : oM.view.readCov (LB8 A0 A1 A2 A3 PX0 PX1 PX2 PX3) rT0.toLoadRect = topOf A0 := by
  rw [LB8_eq, CB8, readCov_skip 0 ?_, readCov_skip 1 ?_, readCov_skip 0 ?_, readCov_skip 1 ?_, readCov_skip 0 ?_, readCov_skip 1 ?_,
    readCov_skip 0 ?_, readCov_top_head]
  all_goals decide

theorem LB9_eq : LB9 A0 A1 A2 A3 PX0 PX1 PX2 PX3 PY0 = ⟨rT0, PY0 (topOf A0)⟩ :: CB8 A0 A1 A2 A3 PX0 PX1 PX2 PX3 := by
  rw [LB9, rcB8, LB8_eq]

theorem rcB9 : oM.view.readCov (LB9 A0 A1 A2 A3 PX0 PX1 PX2 PX3 PY0) rT1.toLoadRect = topOf A1 := by
  rw [LB9_eq, CB8, readCov_skip 1 ?_, readCov_skip 0 ?_, readCov_skip 1 ?_, readCov_skip 0 ?_, readCov_skip 1 ?_, readCov_skip 0 ?_,
    readCov_top_head]
  all_goals decide

theorem LB10_eq : LB10 A0 A1 A2 A3 PX0 PX1 PX2 PX3 PY0 PY1
    = ⟨rT1, PY1 (topOf A1)⟩ :: ⟨rT0, PY0 (topOf A0)⟩ :: CB8 A0 A1 A2 A3 PX0 PX1 PX2 PX3 := by
  rw [LB10, rcB9, LB9_eq]

theorem rcB10 : oM.view.readCov (LB10 A0 A1 A2 A3 PX0 PX1 PX2 PX3 PY0 PY1) rT2.toLoadRect = topOf A2 := by
  rw [LB10_eq, CB8, readCov_skip 1 ?_, readCov_skip 1 ?_, readCov_skip 0 ?_, readCov_skip 1 ?_, readCov_skip 0 ?_, readCov_top_head]
  all_goals decide

theorem LB11_eq : LB11 A0 A1 A2 A3 PX0 PX1 PX2 PX3 PY0 PY1 PY2
    = ⟨rT2, PY2 (topOf A2)⟩ :: ⟨rT1, PY1 (topOf A1)⟩ :: ⟨rT0, PY0 (topOf A0)⟩ :: CB8 A0 A1 A2 A3 PX0 PX1 PX2 PX3 := by
  rw [LB11, rcB10, LB10_eq]

theorem rcB11 : oM.view.readCov (LB11 A0 A1 A2 A3 PX0 PX1 PX2 PX3 PY0 PY1 PY2) rT3.toLoadRect = topOf A3 := by
  rw [LB11_eq, CB8, readCov_skip 1 ?_, readCov_skip 1 ?_, readCov_skip 1 ?_, readCov_skip 0 ?_, readCov_top_head]
  all_goals decide

theorem LB12_eq : LB12 A0 A1 A2 A3 PX0 PX1 PX2 PX3 PY0 PY1 PY2 PY3
    = ⟨rT3, PY3 (topOf A3)⟩ :: ⟨rT2, PY2 (topOf A2)⟩ :: ⟨rT1, PY1 (topOf A1)⟩ :: ⟨rT0, PY0 (topOf A0)⟩
        :: CB8 A0 A1 A2 A3 PX0 PX1 PX2 PX3 := by
  rw [LB12, rcB11, LB11_eq]

/-- The run with the first landing on the bottom halves: chunk `k` ends holding `PY k (top of A k)` over `PX k (bottom of A k)`. -/
theorem writes_bot_first (g : (cc0_stg2_0 : Ref sig .tc).ty.Contents (Elt F)) :
    oM.view.writes (Elt F) g (LB12 A0 A1 A2 A3 PX0 PX1 PX2 PX3 PY0 PY1 PY2 PY3)
      = assemble (fun k => match k with | 0 => PY0 (topOf A0) | 1 => PY1 (topOf A1) | 2 => PY2 (topOf A2) | 3 => PY3 (topOf A3))
          (fun k => match k with | 0 => PX0 (botOf A0) | 1 => PX1 (botOf A1) | 2 => PX2 (botOf A2) | 3 => PX3 (botOf A3)) := by
  rw [LB12_eq, CB8]
  refine eq_of_read g _ _ fun y => ?_
  have hy1 : (y 1).val < 4096 := (y 1).isLt
  by_cases h0 : (y 0).val < 256
  · by_cases c3 : 3072 ≤ (y 1).val
    · rw [hitT g _ y 3072 _ _ h0 c3 (by omega), assemble_top _ _ y 3 3072 (by decide) h0 c3 (by omega)] <;> rfl
    · by_cases c2 : 2048 ≤ (y 1).val
      · rw [skipT g _ y 3072 _ _ (by omega), hitT g _ y 2048 _ _ h0 c2 (by omega),
          assemble_top _ _ y 2 2048 (by decide) h0 c2 (by omega)] <;> rfl
      · by_cases c1 : 1024 ≤ (y 1).val
        · rw [skipT g _ y 3072 _ _ (by omega), skipT g _ y 2048 _ _ (by omega), hitT g _ y 1024 _ _ h0 c1 (by omega),
            assemble_top _ _ y 1 1024 (by decide) h0 c1 (by omega)] <;> rfl
        · rw [skipT g _ y 3072 _ _ (by omega), skipT g _ y 2048 _ _ (by omega), skipT g _ y 1024 _ _ (by omega),
            hitT g _ y 0 _ _ h0 (by omega) (by omega), assemble_top _ _ y 0 0 (by decide) h0 (by omega) (by omega)] <;> rfl
  · have h0' : 256 ≤ (y 0).val := by omega
    by_cases c3 : 3072 ≤ (y 1).val
    · rw [skipT g _ y 3072 _ _ (Or.inl h0'), skipT g _ y 2048 _ _ (Or.inl h0'), skipT g _ y 1024 _ _ (Or.inl h0'),
        skipT g _ y 0 _ _ (Or.inl h0'), hitB g _ y 3072 _ _ h0' c3 (by omega), assemble_bot _ _ y 3 3072 (by decide) h0' c3 (by omega)] <;> rfl
    · by_cases c2 : 2048 ≤ (y 1).val
      · rw [skipT g _ y 3072 _ _ (Or.inl h0'), skipT g _ y 2048 _ _ (Or.inl h0'), skipT g _ y 1024 _ _ (Or.inl h0'),
          skipT g _ y 0 _ _ (Or.inl h0'), skipB g _ y 3072 _ _ (by omega), skipF g _ y 3072 _ _ (by omega),
          hitB g _ y 2048 _ _ h0' c2 (by omega), assemble_bot _ _ y 2 2048 (by decide) h0' c2 (by omega)] <;> rfl
      · by_cases c1 : 1024 ≤ (y 1).val
        · rw [skipT g _ y 3072 _ _ (Or.inl h0'), skipT g _ y 2048 _ _ (Or.inl h0'), skipT g _ y 1024 _ _ (Or.inl h0'),
            skipT g _ y 0 _ _ (Or.inl h0'), skipB g _ y 3072 _ _ (by omega), skipF g _ y 3072 _ _ (by omega),
            skipB g _ y 2048 _ _ (by omega), skipF g _ y 2048 _ _ (by omega),
            hitB g _ y 1024 _ _ h0' c1 (by omega), assemble_bot _ _ y 1 1024 (by decide) h0' c1 (by omega)] <;> rfl
        · rw [skipT g _ y 3072 _ _ (Or.inl h0'), skipT g _ y 2048 _ _ (Or.inl h0'), skipT g _ y 1024 _ _ (Or.inl h0'),
            skipT g _ y 0 _ _ (Or.inl h0'), skipB g _ y 3072 _ _ (by omega), skipF g _ y 3072 _ _ (by omega),
            skipB g _ y 2048 _ _ (by omega), skipF g _ y 2048 _ _ (by omega),
            skipB g _ y 1024 _ _ (by omega), skipF g _ y 1024 _ _ (by omega),
            hitB g _ y 0 _ _ h0' (by omega) (by omega), assemble_bot _ _ y 0 0 (by decide) h0' (by omega) (by omega)] <;> rfl

end Lists

end Cert.Kernel.Hand

end
-- ==== Proof.K.Body.lean ====
/-
  The body at any device (by its second mesh coordinate), and the pipeline's body obligation.
-/
import proofs.«901047_g7700000000001048_dist_rsdw_v7x_xyz2x2x4_x_m1024_d1024_f4096_f32_1_alg».proof.Proof.K.Body0
import proofs.«901047_g7700000000001048_dist_rsdw_v7x_xyz2x2x4_x_m1024_d1024_f4096_f32_1_alg».proof.Proof.K.Body1
import proofs.«901047_g7700000000001048_dist_rsdw_v7x_xyz2x2x4_x_m1024_d1024_f4096_f32_1_alg».proof.Proof.K.OutWrites

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body at any device. -/
theorem sound_body (K : Dev nD × Fin 17 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) Kt := by
  rcases cy_lt c with h | h
  · exact body_cy0 m ρ (fun A0 A1 A2 A3 PX0 PX1 PX2 PX3 PY0 PY1 PY2 PY3 g => writes_top_first A0 A1 A2 A3 PX0 PX1 PX2 PX3 PY0 PY1 PY2 PY3 g) K c h Kt
  · exact body_cy1 m ρ (fun A0 A1 A2 A3 PX0 PX1 PX2 PX3 PY0 PY1 PY2 PY3 g => writes_bot_first A0 A1 A2 A3 PX0 PX1 PX2 PX3 PY0 PY1 PY2 PY3 g) K c h Kt

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            cc0_scratch12 cc0_scratch13 cc0_scratch14 cc0_scratch15) (fun _ => bodyPost m ρ c)
  unfold bodyPre' Φ₀ start
  iintro ⟨⟨⟨⟨%K, Hg⟩, Hcr, Hlev⟩, Hscr⟩, Ho, Hx, Hdy, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

end Cert.Kernel.Hand

end
-- ==== Proof.K.Launch.lean ====
/-
  The launch: every weakly fair execution of the sixteen devices' kernels terminates, nothing faulting, with each
  windowed array at the contents the proof data computes: the two arguments unchanged, the result at `outAt`.
  The launch credit of a cell is the sum over all devices of what each owes it at launch: a barrier cell is owed one
  unit by the owner's x-peer and one by its y-peer; first-hop receive cell `k` the buffer's credit by the x-peer,
  second-hop receive cell `k` the buffer's credit by the y-peer.
-/
import proofs.«901047_g7700000000001048_dist_rsdw_v7x_xyz2x2x4_x_m1024_d1024_f4096_f32_1_alg».proof.Proof.K.Alloc
import proofs.«901047_g7700000000001048_dist_rsdw_v7x_xyz2x2x4_x_m1024_d1024_f4096_f32_1_alg».proof.Proof.K.Body

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout of the own semaphores; the arrays' shares -/

theorem ownSemFacts : Pipeline.OwnSemFacts cfg0.spec osem := by decide

theorem share_eq (c : Dev nD) (w : Fin cfg0.W) : (dats m ρ 0 c).share w = fullShare := by unfold Dat.share; split <;> rfl

/-! ## The launch credit -/

omit [FloatOps F] in
/-- Two units of credit on one barrier cell are the cell's credit of two. -/
theorem cred_bar_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add (barCell c) () 1 1).symm]
  exact (cred_add _ _).2

omit [FloatOps F] in
/-- Summed over the devices that owe them, the launch's dues are each device's own credits: its barrier cell is owed a
    unit by its x-peer and a unit by its y-peer, its first-hop receive cells the buffer's credit by its x-peer, its
    second-hop receive cells the buffer's credit by its y-peer (the peers are involutions). -/
theorem creds_intro (c : Dev nD) : (Pipeline.launchCred O₀ c : sProp 𝕄) ⊢ creds c := by
  have hBx : (Pipeline.launchCred (fun d => tBx d) c : sProp 𝕄) ⊢ cred (tallyAt (barCell c) () 1) :=
    Pipeline.launchCred_tallyAt (.reg barS) xp xp xp_xp xp_xp () 1 c
  have hBy : (Pipeline.launchCred (fun d => tBy d) c : sProp 𝕄) ⊢ cred (tallyAt (barCell c) () 1) :=
    Pipeline.launchCred_tallyAt (.reg barS) yp yp yp_yp yp_yp () 1 c
  have hX (k : Fin 4) : (Pipeline.launchCred (fun d => tX d k) c : sProp 𝕄) ⊢ cred (tallyAt (xrCell c k) () N) :=
    Pipeline.launchCred_tallyAt (.dma (xrS k)) xp xp xp_xp xp_xp () N c
  have hY (k : Fin 4) : (Pipeline.launchCred (fun d => tY d k) c : sProp 𝕄) ⊢ cred (tallyAt (yrCell c k) () N) :=
    Pipeline.launchCred_tallyAt (.dma (yrS k)) yp yp yp_yp yp_yp () N c
  have e0 : (Pipeline.launchCred O₀ c : sProp 𝕄) = iprop(Pipeline.launchCred O₁ c ∗ Pipeline.launchCred (fun d => tBx d) c) := Pipeline.launchCred_add O₁ (fun d => tBx d) c
  have e1 : (Pipeline.launchCred O₁ c : sProp 𝕄) = iprop(Pipeline.launchCred OX0 c ∗ Pipeline.launchCred (fun d => tBy d) c) := Pipeline.launchCred_add OX0 (fun d => tBy d) c
  have e2 : (Pipeline.launchCred OX0 c : sProp 𝕄) = iprop(Pipeline.launchCred OX1 c ∗ Pipeline.launchCred (fun d => tX d 0) c) := Pipeline.launchCred_add OX1 (fun d => tX d 0) c
  have e3 : (Pipeline.launchCred OX1 c : sProp 𝕄) = iprop(Pipeline.launchCred OX2 c ∗ Pipeline.launchCred (fun d => tX d 1) c) := Pipeline.launchCred_add OX2 (fun d => tX d 1) c
  have e4 : (Pipeline.launchCred OX2 c : sProp 𝕄) = iprop(Pipeline.launchCred OX3 c ∗ Pipeline.launchCred (fun d => tX d 2) c) := Pipeline.launchCred_add OX3 (fun d => tX d 2) c
  have e5 : (Pipeline.launchCred OX3 c : sProp 𝕄) = iprop(Pipeline.launchCred OY0 c ∗ Pipeline.launchCred (fun d => tX d 3) c) := Pipeline.launchCred_add OY0 (fun d => tX d 3) c
  have e6 : (Pipeline.launchCred OY0 c : sProp 𝕄) = iprop(Pipeline.launchCred OY1 c ∗ Pipeline.launchCred (fun d => tY d 0) c) := Pipeline.launchCred_add OY1 (fun d => tY d 0) c
  have e7 : (Pipeline.launchCred OY1 c : sProp 𝕄) = iprop(Pipeline.launchCred OY2 c ∗ Pipeline.launchCred (fun d => tY d 1) c) := Pipeline.launchCred_add OY2 (fun d => tY d 1) c
  have e8 : (Pipeline.launchCred OY2 c : sProp 𝕄) = iprop(Pipeline.launchCred (fun d => tY d 3) c ∗ Pipeline.launchCred (fun d => tY d 2) c) := Pipeline.launchCred_add (fun d => tY d 3) (fun d => tY d 2) c
  rw [e0, e1, e2, e3, e4, e5, e6, e7, e8]
  refine (BIClass.sep_mono (BIClass.sep_mono (BIClass.sep_mono (BIClass.sep_mono (BIClass.sep_mono (BIClass.sep_mono (BIClass.sep_mono (BIClass.sep_mono (BIClass.sep_mono (hY 3) (hY 2)) (hY 1)) (hY 0)) (hX 3)) (hX 2)) (hX 1)) (hX 0)) hBy) hBx).trans ?_
  unfold creds
  iintro ⟨⟨⟨⟨⟨⟨⟨⟨⟨HY3, HY2⟩, HY1⟩, HY0⟩, HX3⟩, HX2⟩, HX1⟩, HX0⟩, HBy⟩, HBx⟩
  isplitl [HBy HBx]
  · iapply (cred_bar_two c)
    isplitl [HBy] <;> iassumption
  isplitl [HX0 HX1 HX2 HX3]
  · isplitl [HX0]; · iexact HX0
    isplitl [HX1]; · iexact HX1
    isplitl [HX2]; · iexact HX2
    iexact HX3
  · isplitl [HY0]; · iexact HY0
    isplitl [HY1]; · iexact HY1
    isplitl [HY2]; · iexact HY2
    iexact HY3

/-! ## The theorem's side conditions -/

omit [FloatOps F] in
/-- A buffer held whole through a memref whose view covers it is the buffer held whole. -/
theorem ex_pts_eq {s : Shape} {e : EltTy} (M : Memref sig .tc .vmem s e) (c : Dev nD) (h : M.view.set = Finset.univ) :
    (iprop(∃ f, pts M c fullShare f) : sProp 𝕄)
      = iprop(∃ f : Buf (Elt F) (M.view.loc (c : Thread nD τ)), (M.view.loc (c : Thread nD τ)) ↦{fullShare} f) := by
  unfold pts; rw [h]

omit [FloatOps F] in
theorem scratch0_pts (c : Dev nD) :
    (iprop(∃ f, pts (Memref.whole cc0_scratch0 : Memref sig .tc .vmem S256x1024 .bf16) c fullShare f) : sProp 𝕄)
      = iprop(∃ f : Buf (Elt F) ((c : Thread nD τ).loc cc0_scratch0), ((c : Thread nD τ).loc cc0_scratch0) ↦{fullShare} f) :=
  ex_pts_eq _ c (View.set_whole cc0_scratch0)
omit [FloatOps F] in
theorem scratch1_pts (c : Dev nD) :
    (iprop(∃ f, pts (Memref.whole cc0_scratch1 : Memref sig .tc .vmem S256x1024 .bf16) c fullShare f) : sProp 𝕄)
      = iprop(∃ f : Buf (Elt F) ((c : Thread nD τ).loc cc0_scratch1), ((c : Thread nD τ).loc cc0_scratch1) ↦{fullShare} f) :=
  ex_pts_eq _ c (View.set_whole cc0_scratch1)
omit [FloatOps F] in
theorem scratch2_pts (c : Dev nD) :
    (iprop(∃ f, pts (Memref.whole cc0_scratch2 : Memref sig .tc .vmem S256x1024 .bf16) c fullShare f) : sProp 𝕄)
      = iprop(∃ f : Buf (Elt F) ((c : Thread nD τ).loc cc0_scratch2), ((c : Thread nD τ).loc cc0_scratch2) ↦{fullShare} f) :=
  ex_pts_eq _ c (View.set_whole cc0_scratch2)
omit [FloatOps F] in
theorem scratch3_pts (c : Dev nD) :
    (iprop(∃ f, pts (Memref.whole cc0_scratch3 : Memref sig .tc .vmem S256x1024 .bf16) c fullShare f) : sProp 𝕄)
      = iprop(∃ f : Buf (Elt F) ((c : Thread nD τ).loc cc0_scratch3), ((c : Thread nD τ).loc cc0_scratch3) ↦{fullShare} f) :=
  ex_pts_eq _ c (View.set_whole cc0_scratch3)
omit [FloatOps F] in
theorem scratch4_pts (c : Dev nD) :
    (iprop(∃ f, pts (Memref.whole cc0_scratch4 : Memref sig .tc .vmem S256x1024 .bf16) c fullShare f) : sProp 𝕄)
      = iprop(∃ f : Buf (Elt F) ((c : Thread nD τ).loc cc0_scratch4), ((c : Thread nD τ).loc cc0_scratch4) ↦{fullShare} f) :=
  ex_pts_eq _ c (View.set_whole cc0_scratch4)
omit [FloatOps F] in
theorem scratch5_pts (c : Dev nD) :
    (iprop(∃ f, pts (Memref.whole cc0_scratch5 : Memref sig .tc .vmem S256x1024 .bf16) c fullShare f) : sProp 𝕄)
      = iprop(∃ f : Buf (Elt F) ((c : Thread nD τ).loc cc0_scratch5), ((c : Thread nD τ).loc cc0_scratch5) ↦{fullShare} f) :=
  ex_pts_eq _ c (View.set_whole cc0_scratch5)
omit [FloatOps F] in
theorem scratch6_pts (c : Dev nD) :
    (iprop(∃ f, pts (Memref.whole cc0_scratch6 : Memref sig .tc .vmem S256x1024 .bf16) c fullShare f) : sProp 𝕄)
      = iprop(∃ f : Buf (Elt F) ((c : Thread nD τ).loc cc0_scratch6), ((c : Thread nD τ).loc cc0_scratch6) ↦{fullShare} f) :=
  ex_pts_eq _ c (View.set_whole cc0_scratch6)
omit [FloatOps F] in
theorem scratch7_pts (c : Dev nD) :
    (iprop(∃ f, pts (Memref.whole cc0_scratch7 : Memref sig .tc .vmem S256x1024 .bf16) c fullShare f) : sProp 𝕄)
      = iprop(∃ f : Buf (Elt F) ((c : Thread nD τ).loc cc0_scratch7), ((c : Thread nD τ).loc cc0_scratch7) ↦{fullShare} f) :=
  ex_pts_eq _ c (View.set_whole cc0_scratch7)
omit [FloatOps F] in
theorem scratch8_pts (c : Dev nD) :
    (iprop(∃ f, pts (Memref.whole cc0_scratch8 : Memref sig .tc .vmem S256x1024 .bf16) c fullShare f) : sProp 𝕄)
      = iprop(∃ f : Buf (Elt F) ((c : Thread nD τ).loc cc0_scratch8), ((c : Thread nD τ).loc cc0_scratch8) ↦{fullShare} f) :=
  ex_pts_eq _ c (View.set_whole cc0_scratch8)
omit [FloatOps F] in
theorem scratch9_pts (c : Dev nD) :
    (iprop(∃ f, pts (Memref.whole cc0_scratch9 : Memref sig .tc .vmem S256x1024 .bf16) c fullShare f) : sProp 𝕄)
      = iprop(∃ f : Buf (Elt F) ((c : Thread nD τ).loc cc0_scratch9), ((c : Thread nD τ).loc cc0_scratch9) ↦{fullShare} f) :=
  ex_pts_eq _ c (View.set_whole cc0_scratch9)
omit [FloatOps F] in
theorem scratch10_pts (c : Dev nD) :
    (iprop(∃ f, pts (Memref.whole cc0_scratch10 : Memref sig .tc .vmem S256x1024 .bf16) c fullShare f) : sProp 𝕄)
      = iprop(∃ f : Buf (Elt F) ((c : Thread nD τ).loc cc0_scratch10), ((c : Thread nD τ).loc cc0_scratch10) ↦{fullShare} f) :=
  ex_pts_eq _ c (View.set_whole cc0_scratch10)
omit [FloatOps F] in
theorem scratch11_pts (c : Dev nD) :
    (iprop(∃ f, pts (Memref.whole cc0_scratch11 : Memref sig .tc .vmem S256x1024 .bf16) c fullShare f) : sProp 𝕄)
      = iprop(∃ f : Buf (Elt F) ((c : Thread nD τ).loc cc0_scratch11), ((c : Thread nD τ).loc cc0_scratch11) ↦{fullShare} f) :=
  ex_pts_eq _ c (View.set_whole cc0_scratch11)

omit [FloatOps F] in
theorem sep_eq {P P' Q Q' : sProp 𝕄} (h1 : P = P') (h2 : Q = Q') : (iprop(P ∗ Q) : sProp 𝕄) = iprop(P' ∗ Q') := h1 ▸ h2 ▸ rfl

omit [FloatOps F] in
/-- The twelve scratch buffers at some contents are the region's scoped buffers that are no staging buffer. -/
theorem scr_eq (c : Dev nD) : (scr c : sProp 𝕄) = Pipeline.scopedRest cfg0.spec c :=
  (sep_eq (scratch0_pts c) (sep_eq (scratch1_pts c) (sep_eq (scratch2_pts c) (sep_eq (scratch3_pts c) (sep_eq (scratch4_pts c) (sep_eq (scratch5_pts c)
    (sep_eq (scratch6_pts c) (sep_eq (scratch7_pts c) (sep_eq (scratch8_pts c) (sep_eq (scratch9_pts c) (sep_eq (scratch10_pts c) (scratch11_pts c)))))))))))).trans
    (scopedRest0_eq c).symm

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ← scr_eq, ownSems0_eq]
  unfold Φ₁
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, and every final state has each windowed array at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held; the result array holds the device's result block. -/
theorem finalA_x (c : Dev nD) : finalA m ρ c (0 : Fin 3) = (st0 m ρ).mem (win0_0.arr.view.loc (c : Thread nD τ)) :=
  (dats (F := F) m ρ 0 c).arrAt_in (0 : Fin 3) rfl _
theorem finalA_dy (c : Dev nD) : finalA m ρ c (1 : Fin 3) = (st0 m ρ).mem (win0_1.arr.view.loc (c : Thread nD τ)) :=
  (dats (F := F) m ρ 0 c).arrAt_in (1 : Fin 3) rfl _
theorem finalA_out (c : Dev nD) : finalA m ρ c (2 : Fin 3) = (outAt m ρ c : Buf (Elt F) (win0_2.arr.view.loc (c : Thread nD τ))) := by
  have ho : ((cfg0.win (2 : Fin 3)).blk t₀).view.read (Elt F) ((dats m ρ 0 c).arrAt (2 : Fin 3) cfg0.N) = (dats m ρ 0 c).flushed (2 : Fin 3) t₀ := by
    rw [show cfg0.N = (t₀ : Fin cfg0.N).val + 1 from rfl, (dats m ρ 0 c).arrAt_succ (2 : Fin 3) t₀, if_pos (flush0_2 t₀)]
    exact View.read_write_univ _ _
  have hz : (fun a => (win0_2.index t₀) a * main_v1.ty.shape.size a) = fun _ => 0 := funext fun a => by fin_cases a <;> decide
  have hr := fun f => Memref.read_access_unit_zero (Elt F) main_v1 hz (fun a => by fin_cases a <;> decide) f
  rw [hr] at ho
  exact ho

end Cert.Kernel.Hand

end
-- ==== Proof.RefRun.lean ====
/-
  The reference, run: on one device over the whole arrays it transposes `x` and contracts the 2048 rows against `dy`,
  so entry (i, j) of its result is the sum over all 2048 rows `k` of `x[k, i] · dy[k, j]` on the extended reals.
-/
import proofs.«901047_g7700000000001048_dist_rsdw_v7x_xyz2x2x4_x_m1024_d1024_f4096_f32_1_alg».proof.Defs
import proofs.«901047_g7700000000001048_dist_rsdw_v7x_xyz2x2x4_x_m1024_d1024_f4096_f32_1_alg».proof.Proof.Gen.ReferenceIdeal
import proofs.«901047_g7700000000001048_dist_rsdw_v7x_xyz2x2x4_x_m1024_d1024_f4096_f32_1_alg».proof.Proof.Gen.Pre_finite_inputs_ReferenceIdeal
import proofs.«901047_g7700000000001048_dist_rsdw_v7x_xyz2x2x4_x_m1024_d1024_f4096_f32_1_alg».proof.Proof.Gen.ReferenceIdeal.Run
import proofs.«901047_g7700000000001048_dist_rsdw_v7x_xyz2x2x4_x_m1024_d1024_f4096_f32_1_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen

/-- The whole-array result: entry (i, j) is the sum over the 2048 rows `k` of `x[k, i] · dy[k, j]`. -/
def refG (X : Vec Ideal S2048x1024 .f32) (DY : Vec Ideal S2048x4096 .f32) : Vec Ideal S1024x4096 .f32 :=
  fun i => ∑ k : Fin 2048, (show EReal from X (ValueIdx.ix2 k (i 0))) * (show EReal from DY (ValueIdx.ix2 k (i 1)))

/-- Every weakly fair execution of the reference terminates with its result array at `refG` of its arguments, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r =>
      r.2.mem (((0 : Dev nD).tc : Thread nD τ).loc main_v1) = refG (m' (((0 : Dev nD).tc : Thread nD τ).loc main_arg0)) (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) :=
  (θ_run defs _ _).mono (fun _ h => ⟨(h 0).1.trans (by
      rw [Read.val_main_v1_eq]
      funext i
      rw [Read.val_main_v1_apply]
      refine Finset.sum_congr rfl fun k _ => ?_
      rw [Read.val_main_v0_apply]
      have e0 : Read.idx_main_v0 (Read.lidx_main_v1 i k) = ValueIdx.ix2 k (i 0) :=
        funext fun a => Fin.ext (by match a with | ⟨0, _⟩ => rfl | ⟨1, _⟩ => rfl)
      have e1 : Read.ridx_main_v1 i k = ValueIdx.ix2 k (i 1) :=
        funext fun a => Fin.ext (by match a with | ⟨0, _⟩ => rfl | ⟨1, _⟩ => rfl)
      rw [e0, e1]
      rfl), (h 0).2.1, (h 0).2.2⟩)
    (Cert.ReferenceIdeal.Value.run (F := Ideal) m' ρ')

theorem frame_ri : Cert.frame_ReferenceIdeal :=
  fun m ρ _ => (θ_run Cert.ReferenceIdeal.defs _ _).mono (fun _ h c => (h c).2)
    (Cert.ReferenceIdeal.Value.run (F := Ideal) m ρ)

/-- info: 'Cert.ReferenceIdeal.RefValue.ref_run' depends on axioms: [propext, Classical.choice, Quot.sound] -/
#guard_msgs in #print axioms ref_run

end Cert.ReferenceIdeal.RefValue

end
-- ==== Proof.Bridge.lean ====
/-
  The result block of each device is its block of the reference's result.

  On the extended reals a change of float format is the identity and a matrix product into a zero accumulator is the plain
  sum over the contracted axis. Device `c` with first mesh coordinate `cx` holds rows `1024·cx …` of `x` and `dy`. Entry
  (r, j) of its result block is its own product `∑ k < 1024, x_c[k, 512·cx + r] · dy_c[k, j]` plus the x-peer's product
  `∑ k < 1024, x_p[k, 512·cx + r] · dy_p[k, j]` (arriving directly for one quarter of the rows, relayed by the y-peer for
  the other): together the sum over all 2048 rows, which is entry (512·cx + r, j) of the reference's result. Only
  commutativity and associativity of + on the extended reals are used.
-/
import proofs.«901047_g7700000000001048_dist_rsdw_v7x_xyz2x2x4_x_m1024_d1024_f4096_f32_1_alg».proof.Proof.KI.Sched
import proofs.«901047_g7700000000001048_dist_rsdw_v7x_xyz2x2x4_x_m1024_d1024_f4096_f32_1_alg».proof.Proof.RefRun
import Idealize.ShloMosaic.Lib.Layout
import Idealize.ShloMosaic.Lib.ValueIdx
import Idealize.ShloMosaic.Lib.Pipeline.Value
import Idealize.ShloMosaic.PureOps.Ideal.Laws

noncomputable section

namespace Cert.Proof.Bridge

open Idealize.ShloMosaic Idealize.ShloMosaic.TcCoe Idealize.SL.Sem
open Cert.KernelIdeal Cert.KernelIdeal.Gen Cert.KernelIdeal.Hand

open Idealize.ShloMosaic.ValueIdx

/-! ## A product into a zero accumulator, at an entry

  Both of the kernel's products contract axis 0 of both operands: entry (p, q) of the result is the sum over the 1024
  rows `t` of `l[t, p] · r[t, q]`. -/

theorem lhsA_0 (i : S256x1024.Idx) (q : dot_S1024x256_S1024x1024_S256x1024_0_0_1_1_n_n.contr.Idx) :
    (dot_S1024x256_S1024x1024_S256x1024_0_0_1_1_n_n.lhsIdx i q 0).val = (q ⟨0, by decide⟩).val :=
  dot_S1024x256_S1024x1024_S256x1024_0_0_1_1_n_n.lhsIdx_val_of_single rfl i q
theorem lhsA_1 (i : S256x1024.Idx) (q : dot_S1024x256_S1024x1024_S256x1024_0_0_1_1_n_n.contr.Idx) :
    (dot_S1024x256_S1024x1024_S256x1024_0_0_1_1_n_n.lhsIdx i q 1).val = (i 0).val := by
  unfold DotDims.lhsIdx
  rw [dif_neg (show ¬(1 : Fin S1024x256.rank) ∈ dot_S1024x256_S1024x1024_S256x1024_0_0_1_1_n_n.lhsBatch by decide), dif_pos (show (1 : Fin S1024x256.rank) ∈ dot_S1024x256_S1024x1024_S256x1024_0_0_1_1_n_n.lhsNonContracting by decide)]
  rfl
theorem rhsA_0 (i : S256x1024.Idx) (q : dot_S1024x256_S1024x1024_S256x1024_0_0_1_1_n_n.contr.Idx) :
    (dot_S1024x256_S1024x1024_S256x1024_0_0_1_1_n_n.rhsIdx i q 0).val = (q ⟨0, by decide⟩).val :=
  dot_S1024x256_S1024x1024_S256x1024_0_0_1_1_n_n.rhsIdx_val_of_single rfl i q
theorem rhsA_1 (i : S256x1024.Idx) (q : dot_S1024x256_S1024x1024_S256x1024_0_0_1_1_n_n.contr.Idx) :
    (dot_S1024x256_S1024x1024_S256x1024_0_0_1_1_n_n.rhsIdx i q 1).val = (i 1).val := by
  unfold DotDims.rhsIdx
  rw [dif_neg (show ¬(1 : Fin S1024x1024.rank) ∈ dot_S1024x256_S1024x1024_S256x1024_0_0_1_1_n_n.rhsBatch by decide), dif_pos (show (1 : Fin S1024x1024.rank) ∈ dot_S1024x256_S1024x1024_S256x1024_0_0_1_1_n_n.rhsNonContracting by decide)]
  rfl

/-- The 256-column product, entry (p, q). -/
theorem matmulA_apply {φ₁ φ₂ : FTy} (l : FVec Ideal S1024x256 φ₁) (r : FVec Ideal S1024x1024 φ₂) (p : Fin 256) (q : Fin 1024) :
    matmul dot_S1024x256_S1024x1024_S256x1024_0_0_1_1_n_n none l r (constant S256x1024 .f32 0x00000000#32) (ix2 p q)
      = ∑ t : Fin 1024, (show EReal from l (ix2 t p)) * (show EReal from r (ix2 t q)) := by
  simp only [matmul]
  rw [Ideal.matmul_constant_zero_apply, ← Equiv.sum_comp (contrEquiv1 dot_S1024x256_S1024x1024_S256x1024_0_0_1_1_n_n 1024 rfl rfl).symm]
  refine Finset.sum_congr rfl fun k _ => ?_
  have hk := contrEquiv1_symm_val dot_S1024x256_S1024x1024_S256x1024_0_0_1_1_n_n 1024 rfl rfl k
  have el : dot_S1024x256_S1024x1024_S256x1024_0_0_1_1_n_n.lhsIdx (ix2 p q) ((contrEquiv1 dot_S1024x256_S1024x1024_S256x1024_0_0_1_1_n_n 1024 rfl rfl).symm k) = ix2 k p := funext fun a => Fin.ext (by
    match a with
    | ⟨0, _⟩ => exact (lhsA_0 _ _).trans hk
    | ⟨1, _⟩ => exact lhsA_1 _ _)
  have er : dot_S1024x256_S1024x1024_S256x1024_0_0_1_1_n_n.rhsIdx (ix2 p q) ((contrEquiv1 dot_S1024x256_S1024x1024_S256x1024_0_0_1_1_n_n 1024 rfl rfl).symm k) = ix2 k q := funext fun a => Fin.ext (by
    match a with
    | ⟨0, _⟩ => exact (rhsA_0 _ _).trans hk
    | ⟨1, _⟩ => exact rhsA_1 _ _)
  rw [el, er]

theorem lhsB_0 (i : S512x1024.Idx) (q : dot_S1024x512_S1024x1024_S512x1024_0_0_1_1_n_n.contr.Idx) :
    (dot_S1024x512_S1024x1024_S512x1024_0_0_1_1_n_n.lhsIdx i q 0).val = (q ⟨0, by decide⟩).val :=
  dot_S1024x512_S1024x1024_S512x1024_0_0_1_1_n_n.lhsIdx_val_of_single rfl i q
theorem lhsB_1 (i : S512x1024.Idx) (q : dot_S1024x512_S1024x1024_S512x1024_0_0_1_1_n_n.contr.Idx) :
    (dot_S1024x512_S1024x1024_S512x1024_0_0_1_1_n_n.lhsIdx i q 1).val = (i 0).val := by
  unfold DotDims.lhsIdx
  rw [dif_neg (show ¬(1 : Fin S1024x512.rank) ∈ dot_S1024x512_S1024x1024_S512x1024_0_0_1_1_n_n.lhsBatch by decide), dif_pos (show (1 : Fin S1024x512.rank) ∈ dot_S1024x512_S1024x1024_S512x1024_0_0_1_1_n_n.lhsNonContracting by decide)]
  rfl
theorem rhsB_0 (i : S512x1024.Idx) (q : dot_S1024x512_S1024x1024_S512x1024_0_0_1_1_n_n.contr.Idx) :
    (dot_S1024x512_S1024x1024_S512x1024_0_0_1_1_n_n.rhsIdx i q 0).val = (q ⟨0, by decide⟩).val :=
  dot_S1024x512_S1024x1024_S512x1024_0_0_1_1_n_n.rhsIdx_val_of_single rfl i q
theorem rhsB_1 (i : S512x1024.Idx) (q : dot_S1024x512_S1024x1024_S512x1024_0_0_1_1_n_n.contr.Idx) :
    (dot_S1024x512_S1024x1024_S512x1024_0_0_1_1_n_n.rhsIdx i q 1).val = (i 1).val := by
  unfold DotDims.rhsIdx
  rw [dif_neg (show ¬(1 : Fin S1024x1024.rank) ∈ dot_S1024x512_S1024x1024_S512x1024_0_0_1_1_n_n.rhsBatch by decide), dif_pos (show (1 : Fin S1024x1024.rank) ∈ dot_S1024x512_S1024x1024_S512x1024_0_0_1_1_n_n.rhsNonContracting by decide)]
  rfl

/-- The 512-column product, entry (p, q). -/
theorem matmulB_apply {φ₁ φ₂ : FTy} (l : FVec Ideal S1024x512 φ₁) (r : FVec Ideal S1024x1024 φ₂) (p : Fin 512) (q : Fin 1024) :
    matmul dot_S1024x512_S1024x1024_S512x1024_0_0_1_1_n_n none l r (constant S512x1024 .f32 0x00000000#32) (ix2 p q)
      = ∑ t : Fin 1024, (show EReal from l (ix2 t p)) * (show EReal from r (ix2 t q)) := by
  simp only [matmul]
  rw [Ideal.matmul_constant_zero_apply, ← Equiv.sum_comp (contrEquiv1 dot_S1024x512_S1024x1024_S512x1024_0_0_1_1_n_n 1024 rfl rfl).symm]
  refine Finset.sum_congr rfl fun k _ => ?_
  have hk := contrEquiv1_symm_val dot_S1024x512_S1024x1024_S512x1024_0_0_1_1_n_n 1024 rfl rfl k
  have el : dot_S1024x512_S1024x1024_S512x1024_0_0_1_1_n_n.lhsIdx (ix2 p q) ((contrEquiv1 dot_S1024x512_S1024x1024_S512x1024_0_0_1_1_n_n 1024 rfl rfl).symm k) = ix2 k p := funext fun a => Fin.ext (by
    match a with
    | ⟨0, _⟩ => exact (lhsB_0 _ _).trans hk
    | ⟨1, _⟩ => exact lhsB_1 _ _)
  have er : dot_S1024x512_S1024x1024_S512x1024_0_0_1_1_n_n.rhsIdx (ix2 p q) ((contrEquiv1 dot_S1024x512_S1024x1024_S512x1024_0_0_1_1_n_n 1024 rfl rfl).symm k) = ix2 k q := funext fun a => Fin.ext (by
    match a with
    | ⟨0, _⟩ => exact (rhsB_0 _ _).trans hk
    | ⟨1, _⟩ => exact rhsB_1 _ _)
  rw [el, er]

/-! ## The loads at an entry

  The staged blocks are the devices' argument buffers (the call has no grid: a window's one block is the whole array),
  and a load at an offset reads the entry that far along each axis. -/

variable (m : (ℓ : Loc nD τ sig) → Buf (Elt Ideal) ℓ) (ρ : Dev nD → PrngReg)

theorem xstg_eq (c : Dev nD) : xstg (F := Ideal) m ρ c = m ((c.tc : Thread nD τ).loc main_arg0) := by
  unfold xstg st0
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem dystg_eq (c : Dev nD) : dystg (F := Ideal) m ρ c = m ((c.tc : Thread nD τ).loc main_arg1) := by
  unfold dystg st0
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- A load of `n` columns of the staged block of `x` at column offset `off 1`, entry (t, p): the block's entry (t, off 1 + p). -/
theorem load_x_apply (n : ℕ) (f : (cc0_stg0_0 : Ref sig .tc).ty.Contents (Elt Ideal)) (off : Fin 2 → ℕ)
    (inb : ∀ a, off a + (⟨2, ![1024, n]⟩ : Shape).size a ≤ S1024x1024.size a)
    (t : Fin 1024) (p : Fin n) (col : Fin 1024) (h0 : off 0 = 0) (hcol : col.val = off 1 + p.val) :
    xM.view.readAt (Elt Ideal) (Rect.unit (s := S1024x1024) off (⟨2, ![1024, n]⟩ : Shape).size inb).toLoadRect f (ix2 t p) = f (ix2 t col) := by
  rw [View.readAt_apply]
  show f _ = f _
  congr 1
  funext a
  apply Fin.ext
  match a with
  | ⟨0, _⟩ => show off 0 + 1 * t.val = t.val; omega
  | ⟨1, _⟩ => show off 1 + 1 * p.val = col.val; omega

/-- A load of 1024 columns of the staged block of `dy` at column offset `off 1`, entry (t, q). -/
theorem load_dy_apply (f : (cc0_stg1_0 : Ref sig .tc).ty.Contents (Elt Ideal)) (off : Fin 2 → ℕ)
    (inb : ∀ a, off a + S1024x1024.size a ≤ S1024x4096.size a)
    (t : Fin 1024) (q : Fin 1024) (j : Fin 4096) (h0 : off 0 = 0) (hj : j.val = off 1 + q.val) :
    dyM.view.readAt (Elt Ideal) (Rect.unit (s := S1024x4096) off S1024x1024.size inb).toLoadRect f (ix2 t q) = f (ix2 t j) := by
  rw [View.readAt_apply]
  show f _ = f _
  congr 1
  funext a
  apply Fin.ext
  match a with
  | ⟨0, _⟩ => show off 0 + 1 * t.val = t.val; omega
  | ⟨1, _⟩ => show off 1 + 1 * q.val = j.val; omega

/-- The product of column `col` of device `c`'s block of `x` with column `j` of its block of `dy`. -/
def colProd (c : Dev nD) (col : Fin 1024) (j : Fin 4096) : EReal :=
  ∑ t : Fin 1024, (show EReal from xstg (F := Ideal) m ρ c (ix2 t col)) * (show EReal from dystg (F := Ideal) m ρ c (ix2 t j))

theorem xQuarter_apply (c : Dev nD) (t : Fin 1024) (p : Fin 256) (col : Fin 1024) (hcol : col.val = k0_off1 c 1 + p.val) :
    xQuarter (F := Ideal) m ρ c (ix2 t p) = xstg (F := Ideal) m ρ c (ix2 t col) := by
  unfold xQuarter
  exact load_x_apply 256 _ _ _ t p col (by rw [k0_off1_eq]; rfl) hcol

theorem xHalf_apply (c : Dev nD) (t : Fin 1024) (p : Fin 512) (col : Fin 1024) (hcol : col.val = k0_off2 c 1 + p.val) :
    xHalf (F := Ideal) m ρ c (ix2 t p) = xstg (F := Ideal) m ρ c (ix2 t col) := by
  unfold xHalf
  exact load_x_apply 512 _ _ _ t p col (by rw [k0_off2_eq]; rfl) hcol

theorem dyChunk_apply (c : Dev nD) (k : Fin 4) (t : Fin 1024) (q : Fin 1024) (j : Fin 4096) (hj : j.val = 1024 * k.val + q.val) :
    dyChunk (F := Ideal) m ρ c k (ix2 t q) = dystg (F := Ideal) m ρ c (ix2 t j) := by
  match k with
  | ⟨0, _⟩ => exact load_dy_apply _ _ _ t q j rfl (by simpa using hj)
  | ⟨1, _⟩ => exact load_dy_apply _ _ _ t q j rfl (by simpa using hj)
  | ⟨2, _⟩ => exact load_dy_apply _ _ _ t q j rfl (by simpa using hj)
  | ⟨3, _⟩ => exact load_dy_apply _ _ _ t q j rfl (by simpa using hj)

/-- The product a device sends for chunk `k`, entry (p, q). -/
theorem sx_apply (c : Dev nD) (k : Fin 4) (p : Fin 256) (q : Fin 1024) (col : Fin 1024) (j : Fin 4096)
    (hcol : col.val = k0_off1 c 1 + p.val) (hj : j.val = 1024 * k.val + q.val) :
    (show EReal from sx (F := Ideal) m ρ c k (ix2 p q)) = colProd m ρ c col j := by
  have key : ∀ (l : FVec Ideal S1024x256 .bf16) (r : FVec Ideal S1024x1024 .bf16),
      (∀ t, l (ix2 t p) = xstg (F := Ideal) m ρ c (ix2 t col)) → (∀ t, r (ix2 t q) = dystg (F := Ideal) m ρ c (ix2 t j)) →
      (show EReal from matmul dot_S1024x256_S1024x1024_S256x1024_0_0_1_1_n_n none l r (constant S256x1024 .f32 0x00000000#32) (ix2 p q)) = colProd m ρ c col j := by
    intro l r hl hr
    show matmul dot_S1024x256_S1024x1024_S256x1024_0_0_1_1_n_n none l r (constant S256x1024 .f32 0x00000000#32) (ix2 p q) = _
    rw [matmulA_apply]
    unfold colProd
    exact Finset.sum_congr rfl fun t _ => by rw [hl t, hr t]
  match k with
  | ⟨0, _⟩ =>
    show (show EReal from k0_pay3 (k0_pay1 (xQuarter m ρ c)) (k0_pay2 (dyChunk m ρ c 0)) (ix2 p q)) = _
    unfold k0_pay3 k0_pay1 k0_pay2
    simp only [shapeCast_self]
    exact key _ _ (fun t => xQuarter_apply m ρ c t p col hcol) (fun t => dyChunk_apply m ρ c 0 t q j hj)
  | ⟨1, _⟩ =>
    show (show EReal from k0_pay4 (xQuarter m ρ c) (dyChunk m ρ c 1) (ix2 p q)) = _
    unfold k0_pay4
    simp only [shapeCast_self]
    exact key _ _ (fun t => xQuarter_apply m ρ c t p col hcol) (fun t => dyChunk_apply m ρ c 1 t q j hj)
  | ⟨2, _⟩ =>
    show (show EReal from k0_pay5 (xQuarter m ρ c) (dyChunk m ρ c 2) (ix2 p q)) = _
    unfold k0_pay5
    simp only [shapeCast_self]
    exact key _ _ (fun t => xQuarter_apply m ρ c t p col hcol) (fun t => dyChunk_apply m ρ c 2 t q j hj)
  | ⟨3, _⟩ =>
    show (show EReal from k0_pay6 (xQuarter m ρ c) (dyChunk m ρ c 3) (ix2 p q)) = _
    unfold k0_pay6
    simp only [shapeCast_self]
    exact key _ _ (fun t => xQuarter_apply m ρ c t p col hcol) (fun t => dyChunk_apply m ρ c 3 t q j hj)

/-- The device's own product for chunk `k`, entry (p, q). -/
theorem own_apply (c : Dev nD) (k : Fin 4) (p : Fin 512) (q : Fin 1024) (col : Fin 1024) (j : Fin 4096)
    (hcol : col.val = k0_off2 c 1 + p.val) (hj : j.val = 1024 * k.val + q.val) :
    (show EReal from own (F := Ideal) m ρ c k (ix2 p q)) = colProd m ρ c col j := by
  have key : ∀ (l : FVec Ideal S1024x512 .f32) (r : FVec Ideal S1024x1024 .f32),
      (∀ t, l (ix2 t p) = xstg (F := Ideal) m ρ c (ix2 t col)) → (∀ t, r (ix2 t q) = dystg (F := Ideal) m ρ c (ix2 t j)) →
      (show EReal from matmul dot_S1024x512_S1024x1024_S512x1024_0_0_1_1_n_n none l r (constant S512x1024 .f32 0x00000000#32) (ix2 p q)) = colProd m ρ c col j := by
    intro l r hl hr
    show matmul dot_S1024x512_S1024x1024_S512x1024_0_0_1_1_n_n none l r (constant S512x1024 .f32 0x00000000#32) (ix2 p q) = _
    rw [matmulB_apply]
    unfold colProd
    exact Finset.sum_congr rfl fun t _ => by rw [hl t, hr t]
  match k with
  | ⟨0, _⟩ =>
    show (show EReal from k0_pay9 (k0_pay7 (xHalf m ρ c)) (k0_pay8 (dyChunk m ρ c 0)) (constant S512x1024 .f32 0x00000000#32) (ix2 p q)) = _
    unfold k0_pay9 k0_pay7 k0_pay8
    simp only [shapeCast_self]
    exact key _ _ (fun t => xHalf_apply m ρ c t p col hcol) (fun t => dyChunk_apply m ρ c 0 t q j hj)
  | ⟨1, _⟩ =>
    show (show EReal from k0_pay14 (k0_pay12 (xHalf m ρ c)) (k0_pay13 (dyChunk m ρ c 1)) (constant S512x1024 .f32 0x00000000#32) (ix2 p q)) = _
    unfold k0_pay14 k0_pay12 k0_pay13
    simp only [shapeCast_self]
    exact key _ _ (fun t => xHalf_apply m ρ c t p col hcol) (fun t => dyChunk_apply m ρ c 1 t q j hj)
  | ⟨2, _⟩ =>
    show (show EReal from k0_pay19 (k0_pay17 (xHalf m ρ c)) (k0_pay18 (dyChunk m ρ c 2)) (constant S512x1024 .f32 0x00000000#32) (ix2 p q)) = _
    unfold k0_pay19 k0_pay17 k0_pay18
    simp only [shapeCast_self]
    exact key _ _ (fun t => xHalf_apply m ρ c t p col hcol) (fun t => dyChunk_apply m ρ c 2 t q j hj)
  | ⟨3, _⟩ =>
    show (show EReal from k0_pay24 (k0_pay22 (xHalf m ρ c)) (k0_pay23 (dyChunk m ρ c 3)) (constant S512x1024 .f32 0x00000000#32) (ix2 p q)) = _
    unfold k0_pay24 k0_pay22 k0_pay23
    simp only [shapeCast_self]
    exact key _ _ (fun t => xHalf_apply m ρ c t p col hcol) (fun t => dyChunk_apply m ρ c 3 t q j hj)

/-! ## The two quarters of a chunk

  The top quarter of device `c`'s rows gets the product of `topSrc c` added, the bottom quarter that of `botSrc c`:
  the x-peer's directly and the x-peer of the y-peer's forwarded, which is which by `cy c`. Both sources hold the
  other block of rows of `x` and `dy`, and their quarter of the columns of `x` is the one the quarter of rows needs. -/

def topSrc (c : Dev nD) : Dev nD := if cy c = 0 then xp c else xp (yp c)
def botSrc (c : Dev nD) : Dev nD := if cy c = 0 then xp (yp c) else xp c

theorem src_facts : ∀ c : Dev nD,
    k0_off2 c 1 = 512 * (c.val / 8) ∧ k0_off1 (topSrc c) 1 = 512 * (c.val / 8) ∧ k0_off1 (botSrc c) 1 = 512 * (c.val / 8) + 256
    ∧ (topSrc c).val / 8 = 1 - c.val / 8 ∧ (botSrc c).val / 8 = 1 - c.val / 8 ∧ c.val / 8 < 2 := by decide +kernel

theorem topVal_apply (c : Dev nD) (k : Fin 4) (p : Fin 256) (q : Fin 1024) :
    (show EReal from topVal (F := Ideal) m ρ c k (ix2 p q))
      = (show EReal from own (F := Ideal) m ρ c k (ix2 (⟨p.val, by have := p.isLt; omega⟩ : Fin 512) q))
        + (show EReal from sx (F := Ideal) m ρ (topSrc c) k (ix2 p q)) := by
  unfold topSrc
  by_cases hc : cy c = 0
  · match k with
    | ⟨0, _⟩ =>
      show (show EReal from (if cy c = 0 then k0_pay10 (topOf (own m ρ c 0)) (xqv m ρ c 0) else k0_pay28 (topOf (own m ρ c 0)) (yqv m ρ c 0)) (ix2 p q)) = _
      simp only [if_pos hc]; unfold k0_pay10; simp only [shapeCast_self]; rfl
    | ⟨1, _⟩ =>
      show (show EReal from (if cy c = 0 then k0_pay15 (topOf (own m ρ c 1)) (xqv m ρ c 1) else k0_pay30 (topOf (own m ρ c 1)) (yqv m ρ c 1)) (ix2 p q)) = _
      simp only [if_pos hc]; unfold k0_pay15; simp only [shapeCast_self]; rfl
    | ⟨2, _⟩ =>
      show (show EReal from (if cy c = 0 then k0_pay20 (topOf (own m ρ c 2)) (xqv m ρ c 2) else k0_pay32 (topOf (own m ρ c 2)) (yqv m ρ c 2)) (ix2 p q)) = _
      simp only [if_pos hc]; unfold k0_pay20; simp only [shapeCast_self]; rfl
    | ⟨3, _⟩ =>
      show (show EReal from (if cy c = 0 then k0_pay25 (topOf (own m ρ c 3)) (xqv m ρ c 3) else k0_pay34 (topOf (own m ρ c 3)) (yqv m ρ c 3)) (ix2 p q)) = _
      simp only [if_pos hc]; unfold k0_pay25; simp only [shapeCast_self]; rfl
  · match k with
    | ⟨0, _⟩ =>
      show (show EReal from (if cy c = 0 then k0_pay10 (topOf (own m ρ c 0)) (xqv m ρ c 0) else k0_pay28 (topOf (own m ρ c 0)) (yqv m ρ c 0)) (ix2 p q)) = _
      simp only [if_neg hc]; unfold k0_pay28; simp only [shapeCast_self]; rfl
    | ⟨1, _⟩ =>
      show (show EReal from (if cy c = 0 then k0_pay15 (topOf (own m ρ c 1)) (xqv m ρ c 1) else k0_pay30 (topOf (own m ρ c 1)) (yqv m ρ c 1)) (ix2 p q)) = _
      simp only [if_neg hc]; unfold k0_pay30; simp only [shapeCast_self]; rfl
    | ⟨2, _⟩ =>
      show (show EReal from (if cy c = 0 then k0_pay20 (topOf (own m ρ c 2)) (xqv m ρ c 2) else k0_pay32 (topOf (own m ρ c 2)) (yqv m ρ c 2)) (ix2 p q)) = _
      simp only [if_neg hc]; unfold k0_pay32; simp only [shapeCast_self]; rfl
    | ⟨3, _⟩ =>
      show (show EReal from (if cy c = 0 then k0_pay25 (topOf (own m ρ c 3)) (xqv m ρ c 3) else k0_pay34 (topOf (own m ρ c 3)) (yqv m ρ c 3)) (ix2 p q)) = _
      simp only [if_neg hc]; unfold k0_pay34; simp only [shapeCast_self]; rfl

theorem botVal_apply (c : Dev nD) (k : Fin 4) (p : Fin 256) (q : Fin 1024) :
    (show EReal from botVal (F := Ideal) m ρ c k (ix2 p q))
      = (show EReal from own (F := Ideal) m ρ c k (ix2 (⟨p.val + 256, by have := p.isLt; omega⟩ : Fin 512) q))
        + (show EReal from sx (F := Ideal) m ρ (botSrc c) k (ix2 p q)) := by
  unfold botSrc
  by_cases hc : cy c = 0
  · match k with
    | ⟨0, _⟩ =>
      show (show EReal from (if cy c = 0 then k0_pay27 (botOf (own m ρ c 0)) (yqv m ρ c 0) else k0_pay11 (botOf (own m ρ c 0)) (xqv m ρ c 0)) (ix2 p q)) = _
      simp only [if_pos hc]; unfold k0_pay27; simp only [shapeCast_self]; rfl
    | ⟨1, _⟩ =>
      show (show EReal from (if cy c = 0 then k0_pay29 (botOf (own m ρ c 1)) (yqv m ρ c 1) else k0_pay16 (botOf (own m ρ c 1)) (xqv m ρ c 1)) (ix2 p q)) = _
      simp only [if_pos hc]; unfold k0_pay29; simp only [shapeCast_self]; rfl
    | ⟨2, _⟩ =>
      show (show EReal from (if cy c = 0 then k0_pay31 (botOf (own m ρ c 2)) (yqv m ρ c 2) else k0_pay21 (botOf (own m ρ c 2)) (xqv m ρ c 2)) (ix2 p q)) = _
      simp only [if_pos hc]; unfold k0_pay31; simp only [shapeCast_self]; rfl
    | ⟨3, _⟩ =>
      show (show EReal from (if cy c = 0 then k0_pay33 (botOf (own m ρ c 3)) (yqv m ρ c 3) else k0_pay26 (botOf (own m ρ c 3)) (xqv m ρ c 3)) (ix2 p q)) = _
      simp only [if_pos hc]; unfold k0_pay33; simp only [shapeCast_self]; rfl
  · match k with
    | ⟨0, _⟩ =>
      show (show EReal from (if cy c = 0 then k0_pay27 (botOf (own m ρ c 0)) (yqv m ρ c 0) else k0_pay11 (botOf (own m ρ c 0)) (xqv m ρ c 0)) (ix2 p q)) = _
      simp only [if_neg hc]; unfold k0_pay11; simp only [shapeCast_self]; rfl
    | ⟨1, _⟩ =>
      show (show EReal from (if cy c = 0 then k0_pay29 (botOf (own m ρ c 1)) (yqv m ρ c 1) else k0_pay16 (botOf (own m ρ c 1)) (xqv m ρ c 1)) (ix2 p q)) = _
      simp only [if_neg hc]; unfold k0_pay16; simp only [shapeCast_self]; rfl
    | ⟨2, _⟩ =>
      show (show EReal from (if cy c = 0 then k0_pay31 (botOf (own m ρ c 2)) (yqv m ρ c 2) else k0_pay21 (botOf (own m ρ c 2)) (xqv m ρ c 2)) (ix2 p q)) = _
      simp only [if_neg hc]; unfold k0_pay21; simp only [shapeCast_self]; rfl
    | ⟨3, _⟩ =>
      show (show EReal from (if cy c = 0 then k0_pay33 (botOf (own m ρ c 3)) (yqv m ρ c 3) else k0_pay26 (botOf (own m ρ c 3)) (xqv m ρ c 3)) (ix2 p q)) = _
      simp only [if_neg hc]; unfold k0_pay26; simp only [shapeCast_self]; rfl

/-- Entry (r, j) of a device's result block: its own product of column `512·cx + r` of `x` with column `j` of `dy`,
    plus that of a device that holds the other block of rows. -/
theorem outAt_apply (c : Dev nD) (r : Fin 512) (j : Fin 4096) (col : Fin 1024) (hcol : col.val = 512 * (c.val / 8) + r.val) :
    ∃ d : Dev nD, d.val / 8 = 1 - c.val / 8 ∧
      (show EReal from outAt (F := Ideal) m ρ c (ix2 r j)) = colProd m ρ c col j + colProd m ρ d col j := by
  obtain ⟨h2, hT, hB, hTd, hBd, _⟩ := src_facts c
  have hj : j.val = 1024 * (j.val / 1024) + j.val % 1024 := by omega
  by_cases hr : r.val < 256
  · refine ⟨topSrc c, hTd, ?_⟩
    have e : outAt (F := Ideal) m ρ c (ix2 r j)
        = topVal (F := Ideal) m ρ c ⟨j.val / 1024, by have := j.isLt; omega⟩ (ix2 (⟨r.val, hr⟩ : Fin 256) (⟨j.val % 1024, Nat.mod_lt _ (by decide)⟩ : Fin 1024)) := by
      unfold outAt
      exact dif_pos hr
    rw [e, topVal_apply, own_apply m ρ c _ _ _ col j (by rw [h2]; exact hcol) hj, sx_apply m ρ (topSrc c) _ _ _ col j (by rw [hT]; exact hcol) hj]
  · refine ⟨botSrc c, hBd, ?_⟩
    have e : outAt (F := Ideal) m ρ c (ix2 r j)
        = botVal (F := Ideal) m ρ c ⟨j.val / 1024, by have := j.isLt; omega⟩ (ix2 (⟨r.val - 256, by have := r.isLt; omega⟩ : Fin 256) (⟨j.val % 1024, Nat.mod_lt _ (by decide)⟩ : Fin 1024)) := by
      unfold outAt
      exact dif_neg hr
    rw [e, botVal_apply, own_apply m ρ c _ _ _ col j (by rw [h2]; show col.val = _ + (r.val - 256 + 256); omega) hj,
      sx_apply m ρ (botSrc c) _ _ _ col j (by rw [hB]; show col.val = _ + (r.val - 256); omega) hj]

/-! ## Blocks of the whole arrays

  The mesh's first axis cuts the rows in two: device `c` holds block `cx = c / 8`. -/

theorem blk_row (c : Dev nD) : Layout.meshLin [2, 2, 4] c.val [0] = c.val / 8 := by revert c; decide

theorem blockX_apply {α : Type} (X : (⟨2, ![2048, 1024]⟩ : Shape).Idx → α) (c : Dev nD) (t : Fin 1024) (col : Fin 1024) (T : Fin 2048)
    (hT : T.val = 1024 * (c.val / 8) + t.val) :
    (Layout.blockN ⟨2, ![1024, 1024]⟩ ⟨2, ![2048, 1024]⟩ (Layout.meshBlock [2, 2, 4] ![[0], []] c) X) (ix2 t col) = X (ix2 T col) := by
  rw [Layout.blockN_apply]
  congr 1
  funext a
  apply Fin.ext
  match a with
  | ⟨0, _⟩ => show Layout.meshLin [2, 2, 4] c.val [0] * 1024 + t.val = T.val; rw [blk_row]; omega
  | ⟨1, _⟩ => show 0 * 1024 + col.val = col.val; omega

theorem blockDY_apply {α : Type} (DY : (⟨2, ![2048, 4096]⟩ : Shape).Idx → α) (c : Dev nD) (t : Fin 1024) (j : Fin 4096) (T : Fin 2048)
    (hT : T.val = 1024 * (c.val / 8) + t.val) :
    (Layout.blockN ⟨2, ![1024, 4096]⟩ ⟨2, ![2048, 4096]⟩ (Layout.meshBlock [2, 2, 4] ![[0], []] c) DY) (ix2 t j) = DY (ix2 T j) := by
  rw [Layout.blockN_apply]
  congr 1
  funext a
  apply Fin.ext
  match a with
  | ⟨0, _⟩ => show Layout.meshLin [2, 2, 4] c.val [0] * 1024 + t.val = T.val; rw [blk_row]; omega
  | ⟨1, _⟩ => show 0 * 4096 + j.val = j.val; omega

theorem blockOut_apply {α : Type} (G : (⟨2, ![1024, 4096]⟩ : Shape).Idx → α) (c : Dev nD) (r : Fin 512) (j : Fin 4096) (col : Fin 1024)
    (hcol : col.val = 512 * (c.val / 8) + r.val) :
    (Layout.blockN ⟨2, ![512, 4096]⟩ ⟨2, ![1024, 4096]⟩ (Layout.meshBlock [2, 2, 4] ![[0], []] c) G) (ix2 r j) = G (ix2 col j) := by
  rw [Layout.blockN_apply]
  congr 1
  funext a
  apply Fin.ext
  match a with
  | ⟨0, _⟩ => show Layout.meshLin [2, 2, 4] c.val [0] * 512 + r.val = col.val; rw [blk_row]; omega
  | ⟨1, _⟩ => show 0 * 4096 + j.val = j.val; omega

/-! ## The two blocks of rows together are all the rows -/

/-- What block `b` of the 2048 rows contributes to entry (col, j) of the whole product. -/
def half (X : Vec Ideal Cert.ReferenceIdeal.S2048x1024 .f32) (DY : Vec Ideal Cert.ReferenceIdeal.S2048x4096 .f32) (b : Fin 2)
    (col : Fin 1024) (j : Fin 4096) : EReal :=
  ∑ t : Fin 1024, (show EReal from X (ix2 (⟨1024 * b.val + t.val, by have := b.isLt; have := t.isLt; omega⟩ : Fin 2048) col))
    * (show EReal from DY (ix2 (⟨1024 * b.val + t.val, by have := b.isLt; have := t.isLt; omega⟩ : Fin 2048) j))

theorem half_add (X : Vec Ideal Cert.ReferenceIdeal.S2048x1024 .f32) (DY : Vec Ideal Cert.ReferenceIdeal.S2048x4096 .f32)
    (col : Fin 1024) (j : Fin 4096) :
    half X DY 0 col j + half X DY 1 col j = Cert.ReferenceIdeal.RefValue.refG X DY (ix2 col j) := by
  unfold half Cert.ReferenceIdeal.RefValue.refG
  refine Eq.trans ?_ (Fin.sum_univ_add (M := EReal) (a := 1024) (b := 1024)
    (fun k : Fin 2048 => (show EReal from X (ix2 k col)) * (show EReal from DY (ix2 k j)))).symm
  congr 1

/-- A device's column product, over the whole arrays: the contribution of its block of rows. -/
theorem colProd_eq (X : Vec Ideal Cert.ReferenceIdeal.S2048x1024 .f32) (DY : Vec Ideal Cert.ReferenceIdeal.S2048x4096 .f32) (c : Dev nD)
    (hx : m ((c.tc : Thread nD τ).loc main_arg0) = Layout.blockN ⟨2, ![1024, 1024]⟩ ⟨2, ![2048, 1024]⟩ (Layout.meshBlock [2, 2, 4] ![[0], []] c) X)
    (hdy : m ((c.tc : Thread nD τ).loc main_arg1) = Layout.blockN ⟨2, ![1024, 4096]⟩ ⟨2, ![2048, 4096]⟩ (Layout.meshBlock [2, 2, 4] ![[0], []] c) DY)
    (b : Fin 2) (hb : b.val = c.val / 8) (col : Fin 1024) (j : Fin 4096) :
    colProd m ρ c col j = half X DY b col j := by
  unfold colProd half
  refine Finset.sum_congr rfl fun t _ => ?_
  rw [xstg_eq, dystg_eq, hx, hdy, blockX_apply X c t col ⟨1024 * b.val + t.val, by have := b.isLt; have := t.isLt; omega⟩ (by show 1024 * b.val + t.val = 1024 * (c.val / 8) + t.val; omega),
    blockDY_apply DY c t j ⟨1024 * b.val + t.val, by have := b.isLt; have := t.isLt; omega⟩ (by show 1024 * b.val + t.val = 1024 * (c.val / 8) + t.val; omega)]

end Cert.Proof.Bridge

namespace Cert.Proof.Bridge

open Idealize.ShloMosaic Idealize.ShloMosaic.TcCoe Idealize.SL.Sem
open Cert.KernelIdeal.Hand
open Idealize.ShloMosaic.ValueIdx

/-- Each device's result block (as the body leaves it in the result's staging buffer) is block `c` of the reference's
    result over the whole arrays, when each device's argument buffers hold block `c` of the whole arguments. -/
theorem out_block
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 4] ![[0], []] c) (m' (((0 : Dev Cert.ReferenceIdeal.nD).tc : Thread Cert.ReferenceIdeal.nD Cert.ReferenceIdeal.τ).loc Cert.ReferenceIdeal.main_arg1)))
    (c : Dev Cert.KernelIdeal.nD) :
    (outAt (F := Ideal) m ρ c : (⟨2, ![512, 4096]⟩ : Shape).Idx → EReal)
      = Layout.blockN ⟨2, ![512, 4096]⟩ ⟨2, ![1024, 4096]⟩ (Layout.meshBlock [2, 2, 4] ![[0], []] c)
          (Cert.ReferenceIdeal.RefValue.refG (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  funext i
  obtain ⟨r, j, rfl⟩ : ∃ (r : Fin 512) (j : Fin 4096), i = ix2 r j := ⟨i 0, i 1, eq_ix2 i⟩
  have hc16 : c.val < 16 := c.isLt
  obtain ⟨col, hcol⟩ : ∃ col : Fin 1024, col.val = 512 * (c.val / 8) + r.val :=
    ⟨⟨512 * (c.val / 8) + r.val, by have := r.isLt; omega⟩, rfl⟩
  obtain ⟨d, hd, e⟩ := outAt_apply m ρ c r j col hcol
  have hd16 : d.val < 16 := d.isLt
  obtain ⟨b, hb⟩ : ∃ b : Fin 2, b.val = c.val / 8 := ⟨⟨c.val / 8, by omega⟩, rfl⟩
  obtain ⟨b', hb'⟩ : ∃ b' : Fin 2, b'.val = d.val / 8 := ⟨⟨d.val / 8, by omega⟩, rfl⟩
  rw [blockOut_apply _ c r j col hcol]
  refine e.trans ?_
  rw [colProd_eq m ρ _ _ c (hagree c).1 (hagree c).2 b hb, colProd_eq m ρ _ _ d (hagree d).1 (hagree d).2 b' hb']
  have hbb : (b = 0 ∧ b' = 1) ∨ (b = 1 ∧ b' = 0) := by
    have h0 : (0 : Fin 2).val = 0 := rfl
    have h1 : (1 : Fin 2).val = 1 := rfl
    have := b.isLt
    by_cases hz : b.val = 0
    · exact Or.inl ⟨Fin.ext (by omega), Fin.ext (by omega)⟩
    · exact Or.inr ⟨Fin.ext (by omega), Fin.ext (by omega)⟩
  rcases hbb with ⟨h0, h1⟩ | ⟨h0, h1⟩
  · rw [h0, h1]; exact half_add _ _ col j
  · rw [h0, h1, add_comm (G := EReal)]; exact half_add _ _ col j

/-- info: 'Cert.Proof.Bridge.out_block' depends on axioms: [propext, Classical.choice, Quot.sound] -/
#guard_msgs in #print axioms out_block

end Cert.Proof.Bridge

end
-- ==== Proof.lean ====
/-
  The certificate's five claims, assembled.

  The kernel on sixteen devices: every weakly fair execution terminates, nothing faulting, with each device's argument
  blocks unchanged and its result block holding its own product plus its x-peer's (one half of the rows received
  directly, the other relayed by the y-peer). The reference on one device: its result is the full contraction over all
  2048 rows. On the extended reals the two agree: device `c`'s result block is block `c` of the reference's result.
  The word-level kernel's frame is the same run read at the word-level instance.
-/
import proofs.«901047_g7700000000001048_dist_rsdw_v7x_xyz2x2x4_x_m1024_d1024_f4096_f32_1_alg».proof.Defs
import proofs.«901047_g7700000000001048_dist_rsdw_v7x_xyz2x2x4_x_m1024_d1024_f4096_f32_1_alg».proof.Proof.Gen.Kernel
import proofs.«901047_g7700000000001048_dist_rsdw_v7x_xyz2x2x4_x_m1024_d1024_f4096_f32_1_alg».proof.Proof.Gen.KernelIdeal
import proofs.«901047_g7700000000001048_dist_rsdw_v7x_xyz2x2x4_x_m1024_d1024_f4096_f32_1_alg».proof.Proof.Gen.ReferenceIdeal
import proofs.«901047_g7700000000001048_dist_rsdw_v7x_xyz2x2x4_x_m1024_d1024_f4096_f32_1_alg».proof.Proof.Gen.Pre_finite_inputs_Kernel
import proofs.«901047_g7700000000001048_dist_rsdw_v7x_xyz2x2x4_x_m1024_d1024_f4096_f32_1_alg».proof.Proof.Gen.Pre_finite_inputs_ReferenceIdeal
import proofs.«901047_g7700000000001048_dist_rsdw_v7x_xyz2x2x4_x_m1024_d1024_f4096_f32_1_alg».proof.Proof.KI.Launch
import proofs.«901047_g7700000000001048_dist_rsdw_v7x_xyz2x2x4_x_m1024_d1024_f4096_f32_1_alg».proof.Proof.K.Launch
import proofs.«901047_g7700000000001048_dist_rsdw_v7x_xyz2x2x4_x_m1024_d1024_f4096_f32_1_alg».proof.Proof.Bridge
import proofs.«901047_g7700000000001048_dist_rsdw_v7x_xyz2x2x4_x_m1024_d1024_f4096_f32_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its argument blocks unchanged. -/
theorem frame_p : Cert.frame_Kernel := fun m ρ _ =>
  (θ_run Cert.Kernel.defs _ _).mono
    (fun _ h c => ⟨(h c 0).trans (Cert.Kernel.Hand.finalA_x m ρ c), (h c 1).trans (Cert.Kernel.Hand.finalA_dy m ρ c)⟩)
    (Cert.Kernel.Hand.run_main (F := Bits) m ρ)

/-- The idealized kernel runs and leaves its argument blocks unchanged. -/
theorem frame_pi : Cert.frame_KernelIdeal := fun m ρ _ =>
  (θ_run Cert.KernelIdeal.defs _ _).mono
    (fun _ h c => ⟨(h c 0).trans (Cert.KernelIdeal.Hand.finalA_x m ρ c), (h c 1).trans (Cert.KernelIdeal.Hand.finalA_dy m ρ c)⟩)
    (Cert.KernelIdeal.Hand.run_main (F := Ideal) m ρ)

/-- The idealization rewrote nothing: there is nothing to preserve. -/
theorem preserves : Cert.preserves_Kernel_KernelIdeal := trivial

/-- On the extended reals each device's result block is its block of the reference's result. -/
theorem algebraic : Cert.algebraic_KernelIdeal_ReferenceIdeal := by
  intro m ρ m' ρ' _ hagree
  refine ⟨Cert.ReferenceIdeal.RefValue.refG
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    Cert.ReferenceIdeal.RefValue.ref_run m' ρ'⟩
  refine (θ_run Cert.KernelIdeal.defs _ _).mono
    (fun _ h c => ⟨?_, (h c 0).trans (Cert.KernelIdeal.Hand.finalA_x m ρ c), (h c 1).trans (Cert.KernelIdeal.Hand.finalA_dy m ρ c)⟩)
    (Cert.KernelIdeal.Hand.run_main (F := Ideal) m ρ)
  exact ((h c 2).trans (Cert.KernelIdeal.Hand.finalA_out m ρ c)).trans (Cert.Proof.Bridge.out_block m ρ m' hagree c)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, Cert.ReferenceIdeal.RefValue.frame_ri, preserves, algebraic⟩

end Cert.Proof

end
